-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S10000 : Shape := ⟨1, ![10000]⟩
abbrev S256x5000 : Shape := ⟨2, ![256, 5000]⟩
abbrev S128x256 : Shape := ⟨2, ![128, 256]⟩
abbrev S256 : Shape := ⟨1, ![256]⟩
abbrev S256x256 : Shape := ⟨2, ![256, 256]⟩
abbrev S5256x256 : Shape := ⟨2, ![5256, 256]⟩
abbrev S256x138 : Shape := ⟨2, ![256, 138]⟩
abbrev S138 : Shape := ⟨1, ![138]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x5000 : S_.BroadcastsInDim S256x5000 (![] : Fin 0 → Fin S256x5000.rank)
  reducesTo_S256x5000_S_d0_1 : S256x5000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S5256x256 : S_.BroadcastsInDim S5256x256 (![] : Fin 0 → Fin S5256x256.rank)
  reducesTo_S5256x256_S_d0_1 : S5256x256.ReducesTo [0, 1] S_
  bcast_S_S256x138 : S_.BroadcastsInDim S256x138 (![] : Fin 0 → Fin S256x138.rank)
  reducesTo_S256x138_S_d0_1 : S256x138.ReducesTo [0, 1] S_
  bcast_S_S138 : S_.BroadcastsInDim S138 (![] : Fin 0 → Fin S138.rank)
  reducesTo_S138_S_d0 : S138.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg1 : IVec S2x320000 32) (main_v48 : IVec S_ 1) (main_v50 : IVec S2x320000 1) : IVec S_ 1 :=
  let main_c_19 : IVec S_ 32 := constantI S_ 32 10000#32
  let main_v51 : IVec S2x320000 32 := broadcastInDim S2x320000 ![] bcast_S_S2x320000 main_c_19
  let main_v52 : IVec S2x320000 1 := cmpi .slt main_arg1 main_v51
  let main_v53 : IVec S2x320000 1 := andi main_v50 main_v52
  let main_c_20 : IVec S_ 1 := constantI S_ 1 1#1
  let main_v54 : IVec S_ 1 := (fun x v => Host.reduce IntOp.andi x v reducesTo_S2x320000_S_d0_1 h_S_) main_v53 main_c_20
  let main_v55 : IVec S_ 1 := andi main_v48 main_v54
  main_v55

def fn_part2 {F : FTy → Type} [FloatOps F] (main_arg1 : IVec S2x320000 32) (main_arg9 : FVec F S256 .f32) (main_arg10 : FVec F S256x138 .f32) (main_arg11 : FVec F S138 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x138 .f32 := Host.absf main_arg10
  let main_cst_14 : FVec F S_ .f32 := constant S_ .f32 0x7F800000#32
  let main_v40 : FVec F S256x138 .f32 := broadcastInDim S256x138 ![] bcast_S_S256x138 main_cst_14
  let main_v41 : IVec S256x138 1 := cmpf .olt main_v39 main_v40
  let main_c_15 : IVec S_ 1 := constantI S_ 1 1#1
  let main_v42 : IVec S_ 1 := (fun x v => Host.reduce IntOp.andi x v reducesTo_S256x138_S_d0_1 h_S_) main_v41 main_c_15
  let main_v43 : IVec S_ 1 := andi main_v38 main_v42
  let main_v44 : FVec F S138 .f32 := Host.absf main_arg11
  let main_cst_16 : FVec F S_ .f32 := constant S_ .f32 0x7F800000#32
  let main_v45 : FVec F S138 .f32 := broadcastInDim S138 ![] bcast_S_S138 main_cst_16
  let main_v46 : IVec S138 1 := cmpf .olt main_v44 main_v45
  let main_c_17 : IVec S_ 1 := constantI S_ 1 1#1
  let main_v47 : IVec S_ 1 := (fun x v => Host.reduce IntOp.andi x v reducesTo_S138_S_d0 h_S_) main_v46 main_c_17
  let main_v48 : IVec S_ 1 := andi main_v43 main_v47
  let main_c_18 : IVec S_ 32 := constantI S_ 32 0#32
  let main_v49 : IVec S2x320000 32 := broadcastInDim S2x320000 ![] bcast_S_S2x320000 main_c_18
  let main_v50 : IVec S2x320000 1 := cmpi .sge main_arg1 main_v49
  fn_part3 (F := F) main_arg1 main_v48 main_v50

def fn_part1 {F : FTy → Type} [FloatOps F] (main_arg1 : IVec S2x320000 32) (main_arg6 : FVec F S256x256 .f32) (main_arg7 : FVec F S256 .f32) (main_arg8 : FVec F S5256x256 .f32) (main_arg9 : FVec F S256 .f32) (main_arg10 : FVec F S256x138 .f32) (main_arg11 : FVec F S138 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S5256x256 .f32 := Host.absf main_arg8
  let main_cst_10 : FVec F S_ .f32 := constant S_ .f32 0x7F800000#32
  let main_v30 : FVec F S5256x256 .f32 := broadcastInDim S5256x256 ![] bcast_S_S5256x256 main_cst_10
  let main_v31 : IVec S5256x256 1 := cmpf .olt main_v29 main_v30
  let main_c_11 : IVec S_ 1 := constantI S_ 1 1#1
  let main_v32 : IVec S_ 1 := (fun x v => Host.reduce IntOp.andi x v reducesTo_S5256x256_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S10000x128 .f32) (main_arg1 : IVec S2x320000 32) (main_arg2 : IVec S10000 32) (main_arg3 : FVec F S256x5000 .f32) (main_arg4 : FVec F S128x256 .f32) (main_arg5 : FVec F S256 .f32) (main_arg6 : FVec F S256x256 .f32) (main_arg7 : FVec F S256 .f32) (main_arg8 : FVec F S5256x256 .f32) (main_arg9 : FVec F S256 .f32) (main_arg10 : FVec F S256x138 .f32) (main_arg11 : FVec F S138 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x5000 .f32 := Host.absf main_arg3
  let main_cst_0 : FVec F S_ .f32 := constant S_ .f32 0x7F800000#32
  let main_v5 : FVec F S256x5000 .f32 := broadcastInDim S256x5000 ![] bcast_S_S256x5000 main_cst_0
  let main_v6 : IVec S256x5000 1 := cmpf .olt main_v4 main_v5
  let main_c_1 : IVec S_ 1 := constantI S_ 1 1#1
  let main_v7 : IVec S_ 1 := (fun x v => Host.reduce IntOp.andi x v reducesTo_S256x5000_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_arg8 main_arg9 main_arg10 main_arg11 main_v13 main_v16
-- ==== Kernel.lean ====
abbrev S10000x128 : Shape := ⟨2, ![10000, 128]⟩
abbrev S2x320000 : Shape := ⟨2, ![2, 320000]⟩
abbrev S10000 : Shape := ⟨1, ![10000]⟩
abbrev S256x5000 : Shape := ⟨2, ![256, 5000]⟩
abbrev S128x256 : Shape := ⟨2, ![128, 256]⟩
abbrev S256 : Shape := ⟨1, ![256]⟩
abbrev S256x256 : Shape := ⟨2, ![256, 256]⟩
abbrev S5256x256 : Shape := ⟨2, ![5256, 256]⟩
abbrev S256x138 : Shape := ⟨2, ![256, 138]⟩
abbrev S138 : Shape := ⟨1, ![138]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10240x128 : Shape := ⟨2, ![10240, 128]⟩
abbrev S10240x256 : Shape := ⟨2, ![10240, 256]⟩
abbrev S1024x128 : Shape := ⟨2, ![1024, 128]⟩
abbrev S1024x256 : Shape := ⟨2, ![1024, 256]⟩
abbrev S1x256 : Shape := ⟨2, ![1, 256]⟩
abbrev S1024x2048 : Shape := ⟨2, ![1024, 2048]⟩
abbrev S2048x256 : Shape := ⟨2, ![2048, 256]⟩
abbrev S10240 : Shape := ⟨1, ![10240]⟩
abbrev S1x10240 : Shape := ⟨2, ![1, 10240]⟩
abbrev S256x1 : Shape := ⟨2, ![256, 1]⟩
abbrev S256x10240 : Shape := ⟨2, ![256, 10240]⟩
abbrev S128x10240 : Shape := ⟨2, ![128, 10240]⟩
abbrev S256x5256 : Shape := ⟨2, ![256, 5256]⟩
abbrev S256x5376 : Shape := ⟨2, ![256, 5376]⟩
abbrev S5376x256 : Shape := ⟨2, ![5376, 256]⟩
abbrev S1x138 : Shape := ⟨2, ![1, 138]⟩

abbrev nBuf : Space → Nat
  | .hbm => 108
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S256x5000, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S5256x256, .f32⟩
  | .hbm, ⟨9, _⟩ => ⟨S256, .f32⟩
  | .hbm, ⟨10, _⟩ => ⟨S256x138, .f32⟩
  | .hbm, ⟨11, _⟩ => ⟨S138, .f32⟩
  | .hbm, ⟨12, _⟩ => ⟨S10000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S1x320000, .i32⟩
  | .hbm, ⟨17, _⟩ => ⟨S320000, .i32⟩
  | .hbm, ⟨18, _⟩ => ⟨S330000, .i32⟩
  | .hbm, ⟨19, _⟩ => ⟨S_, .f32⟩
  | .hbm, ⟨20, _⟩ => ⟨S330000, .f32⟩
  | .hbm, ⟨21, _⟩ => ⟨S_, .f32⟩
  | .hbm, ⟨22, _⟩ => ⟨S10000, .f32⟩
  | .hbm, ⟨23, _⟩ => ⟨S330000x1, .i32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S330000, .i32⟩
  | .hbm, ⟨31, _⟩ => ⟨S330000, .i1⟩
  | .hbm, ⟨32, _⟩ => ⟨S_, .i32⟩
  | .hbm, ⟨33, _⟩ => ⟨S330000, .i32⟩
  | .hbm, ⟨34, _⟩ => ⟨S330000, .i32⟩
  | .hbm, ⟨35, _⟩ => ⟨S330000, .i32⟩
  | .hbm, ⟨36, _⟩ => ⟨S330000x1, .i32⟩
  | .hbm, ⟨37, _⟩ => ⟨S330000, .f32⟩
  | .hbm, ⟨38, _⟩ => ⟨S_, .i32⟩
  | .hbm, ⟨39, _⟩ => ⟨S330000, .i32⟩
  | .hbm, ⟨40, _⟩ => ⟨S330000, .i1⟩
  | .hbm, ⟨41, _⟩ => ⟨S_, .i32⟩
  | .hbm, ⟨42, _⟩ => ⟨S330000, .i32⟩
  | .hbm, ⟨43, _⟩ => ⟨S330000, .i32⟩
  | .hbm, ⟨44, _⟩ => ⟨S330000, .i32⟩
  | .hbm, ⟨45, _⟩ => ⟨S330000x1, .i32⟩
  | .hbm, ⟨46, _⟩ => ⟨S330000, .f32⟩
  | .hbm, ⟨47, _⟩ => ⟨S330000, .f32⟩
  | .hbm, ⟨48, _⟩ => ⟨S_, .f32⟩
  | .hbm, ⟨49, _⟩ => ⟨S10240x10240, .f32⟩
  | .hbm, ⟨50, _⟩ => ⟨S_, .i32⟩
  | .hbm, ⟨51, _⟩ => ⟨S330000, .i32⟩
  | .hbm, ⟨52, _⟩ => ⟨S330000, .i1⟩
  | .hbm, ⟨53, _⟩ => ⟨S_, .i32⟩
  | .hbm, ⟨54, _⟩ => ⟨S330000, .i32⟩
  | .hbm, ⟨55, _⟩ => ⟨S330000, .i32⟩
  | .hbm, ⟨56, _⟩ => ⟨S330000, .i32⟩
  | .hbm, ⟨57, _⟩ => ⟨S_, .i32⟩
  | .hbm, ⟨58, _⟩ => ⟨S330000, .i32⟩
  | .hbm, ⟨59, _⟩ => ⟨S330000, .i1⟩
  | .hbm, ⟨60, _⟩ => ⟨S_, .i32⟩
  | .hbm, ⟨61, _⟩ => ⟨S330000, .i32⟩
  | .hbm, ⟨62, _⟩ => ⟨S330000, .i32⟩
  | .hbm, ⟨63, _⟩ => ⟨S330000, .i32⟩
  | .hbm, ⟨64, _⟩ => ⟨S330000x1, .i32⟩
  | .hbm, ⟨65, _⟩ => ⟨S330000x1, .i32⟩
  | .hbm, ⟨66, _⟩ => ⟨S330000x2, .i32⟩
  | .hbm, ⟨67, _⟩ => ⟨S10240x10240, .f32⟩
  | .hbm, ⟨68, _⟩ => ⟨S10240x10240, .bf16⟩
  | .hbm, ⟨69, _⟩ => ⟨S_, .i32⟩
  | .hbm, ⟨70, _⟩ => ⟨S_, .f32⟩
  | .hbm, ⟨71, _⟩ => ⟨S10240x128, .f32⟩
  | .hbm, ⟨72, _⟩ => ⟨S128x256, .bf16⟩
  | .hbm, ⟨73, _⟩ => ⟨S256x256, .bf16⟩
  | .hbm, ⟨74, _⟩ => ⟨S10240x256, .bf16⟩
  | .hbm, ⟨75, _⟩ => ⟨S1x256, .f32⟩
  | .hbm, ⟨76, _⟩ => ⟨S10240x256, .bf16⟩
  | .hbm, ⟨77, _⟩ => ⟨S1x256, .f32⟩
  | .hbm, ⟨78, _⟩ => ⟨S10240x256, .f32⟩
  | .hbm, ⟨79, _⟩ => ⟨S_, .i32⟩
  | .hbm, ⟨80, _⟩ => ⟨S_, .i32⟩
  | .hbm, ⟨81, _⟩ => ⟨S10240, .i32⟩
  | .hbm, ⟨82, _⟩ => ⟨S256, .i32⟩
  | .hbm, ⟨83, _⟩ => ⟨S1x10240, .i32⟩
  | .hbm, ⟨84, _⟩ => ⟨S256x1, .i32⟩
  | .hbm, ⟨85, _⟩ => ⟨S256x10240, .i32⟩
  | .hbm, ⟨86, _⟩ => ⟨S256x10240, .i32⟩
  | .hbm, ⟨87, _⟩ => ⟨S256x10240, .i1⟩
  | .hbm, ⟨88, _⟩ => ⟨S256x10240, .f32⟩
  | .hbm, ⟨89, _⟩ => ⟨S_, .f32⟩
  | .hbm, ⟨90, _⟩ => ⟨S256, .f32⟩
  | .hbm, ⟨91, _⟩ => ⟨S256x1, .f32⟩
  | .hbm, ⟨92, _⟩ => ⟨S_, .f32⟩
  | .hbm, ⟨93, _⟩ => ⟨S256x1, .f32⟩
  | .hbm, ⟨94, _⟩ => ⟨S256x1, .f32⟩
  | .hbm, ⟨95, _⟩ => ⟨S256x10240, .f32⟩
  | .hbm, ⟨96, _⟩ => ⟨S256x10240, .f32⟩
  | .hbm, ⟨97, _⟩ => ⟨S256x256, .f32⟩
  | .hbm, ⟨98, _⟩ => ⟨S256x5256, .f32⟩
  | .hbm, ⟨99, _⟩ => ⟨S_, .i32⟩
  | .hbm, ⟨100, _⟩ => ⟨S_, .f32⟩
  | .hbm, ⟨101, _⟩ => ⟨S256x5376, .f32⟩
  | .hbm, ⟨102, _⟩ => ⟨S_, .i32⟩
  | .hbm, ⟨103, _⟩ => ⟨S_, .f32⟩
  | .hbm, ⟨104, _⟩ => ⟨S5376x256, .f32⟩
  | .hbm, ⟨105, _⟩ => ⟨S1x256, .f32⟩
  | .hbm, ⟨106, _⟩ => ⟨S1x138, .f32⟩
  | .hbm, ⟨107, _⟩ => ⟨S256x138, .f32⟩
  | .local _ .vmem, ⟨0, _⟩ => ⟨S1024x128, .f32⟩
  | .local _ .vmem, ⟨1, _⟩ => ⟨S1024x128, .f32⟩
  | .local _ .vmem, ⟨2, _⟩ => ⟨S128x256, .bf16⟩
  | .local _ .vmem, ⟨3, _⟩ => ⟨S1024x256, .bf16⟩
  | .local _ .vmem, ⟨4, _⟩ => ⟨S1024x256, .bf16⟩
  | .local _ .vmem, ⟨5, _⟩ => ⟨S1024x2048, .bf16⟩
  | .local _ .vmem, ⟨6, _⟩ => ⟨S1024x2048, .bf16⟩
  | .local _ .vmem, ⟨7, _⟩ => ⟨S10240x256, .bf16⟩
  | .local _ .vmem, ⟨8, _⟩ => ⟨S1x256, .f32⟩
  | .local _ .vmem, ⟨9, _⟩ => ⟨S256x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x2048, .bf16⟩
  | .local _ .vmem, ⟨14, _⟩ => ⟨S1024x2048, .bf16⟩
  | .local _ .vmem, ⟨15, _⟩ => ⟨S10240x256, .bf16⟩
  | .local _ .vmem, ⟨16, _⟩ => ⟨S1x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S128x10240, .f32⟩
  | .local _ .vmem, ⟨21, _⟩ => ⟨S128x10240, .f32⟩
  | .local _ .vmem, ⟨22, _⟩ => ⟨S10240x256, .f32⟩
  | .local _ .vmem, ⟨23, _⟩ => ⟨S128x256, .f32⟩
  | .local _ .vmem, ⟨24, _⟩ => ⟨S128x256, .f32⟩
  | .local _ .vmem, ⟨25, _⟩ => ⟨S256x5376, .f32⟩
  | .local _ .vmem, ⟨26, _⟩ => ⟨S5376x256, .f32⟩
  | .local _ .vmem, ⟨27, _⟩ => ⟨S1x256, .f32⟩
  | .local _ .vmem, ⟨28, _⟩ => ⟨S256x138, .f32⟩
  | .local _ .vmem, ⟨29, _⟩ => ⟨S1x138, .f32⟩
  | .local _ .vmem, ⟨30, _⟩ => ⟨S256x138, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_call0_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_call1_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_call2_v0 : Ref sig .tc := ⟨.hbm, 100, rfl⟩
abbrev main_v69 : Ref sig .tc := ⟨.hbm, 101, rfl⟩
abbrev main_c_15 : Ref sig .tc := ⟨.hbm, 102, rfl⟩
abbrev main_call3_v0 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![10, 5], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![10, 5], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c4_i32 : BitVec 32 := 4#32
  let v16 : BitVec 1 := Scalar.cmpi .eq arg1 c4_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x10240 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S128x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x5376 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S5376x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x138 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x138 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x138 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  shapeCasts_S1024x256_S1024x256 : S1024x256.ShapeCasts S1024x256
  h_S2048x256 : 0 < S2048x256.numel
  shapeCasts_S2048x256_S2048x256 : S2048x256.ShapeCasts S2048x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  iota_S1024x256_d0_w32 : S1024x256.Iotas .tc 32 [0]
  inb_S256x256_S256x256_0_0 : ∀ a, (![0, 0] : Fin 2 → Nat) a + S256x256.size a ≤ S256x256.size a
  h_S256x256 : 0 < S256x256.numel
  shapeCasts_S256x256_S256x256 : S256x256.ShapeCasts S256x256
  pads_S10000_S10240_02400 : S10000.Pads (![0] : Fin 1 → Nat) ![240] ![0] S10240
  bcast_S10240_S1x10240_1 : S10240.BroadcastsInDim S1x10240 (![1] : Fin 1 → Fin S1x10240.rank)
  bcast_S256_S256x1_0 : S256.BroadcastsInDim S256x1 (![0] : Fin 1 → Fin S256x1.rank)
  bcast_S1x10240_S256x10240_0_1 : S1x10240.BroadcastsInDim S256x10240 (![0, 1] : Fin 2 → Fin S256x10240.rank)
  bcast_S256x1_S256x10240_0_1 : S256x1.BroadcastsInDim S256x10240 (![0, 1] : Fin 2 → Fin S256x10240.rank)
  reducesTo_S256x10240_S256_d1 : S256x10240.ReducesTo [1] S256
  bcast_S_S256x1 : S_.BroadcastsInDim S256x1 (![] : Fin 0 → Fin S256x1.rank)
  inb_S128x10240_S128x10240_0_0 : ∀ a, (![0, 0] : Fin 2 → Nat) a + S128x10240.size a ≤ S128x10240.size a
  h_S128x10240 : 0 < S128x10240.numel
  shapeCasts_S128x10240_S128x10240 : S128x10240.ShapeCasts S128x10240
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  concatenates_S256x256_S256x5000_S256x5256_d1 : Shape.Concatenates [S256x256, S256x5000] S256x5256 1
  pads_S256x5256_S256x5376_000_01200 : S256x5256.Pads (![0, 0] : Fin 2 → Nat) ![0, 120] ![0, 0] S256x5376
  pads_S5256x256_S5376x256_01200_000 : S5256x256.Pads (![0, 0] : Fin 2 → Nat) ![120, 0] ![0, 0] S5376x256
  shapeCasts_S138_S1x138 : S138.ShapeCasts S1x138
  inb_S256x5376_S256x5376_0_0 : ∀ a, (![0, 0] : Fin 2 → Nat) a + S256x5376.size a ≤ S256x5376.size a
  h_S256x5376 : 0 < S256x5376.numel
  shapeCasts_S256x5376_S256x5376 : S256x5376.ShapeCasts S256x5376
  inb_S5376x256_S5376x256_0_0 : ∀ a, (![0, 0] : Fin 2 → Nat) a + S5376x256.size a ≤ S5376x256.size a
  h_S5376x256 : 0 < S5376x256.numel
  shapeCasts_S5376x256_S5376x256 : S5376x256.ShapeCasts S5376x256
  broadcasts_S1x256_S256x256 : S1x256.Broadcasts S256x256
  inb_S256x138_S256x138_0_0 : ∀ a, (![0, 0] : Fin 2 → Nat) a + S256x138.size a ≤ S256x138.size a
  h_S256x138 : 0 < S256x138.numel
  inb_S1x138_S1x138_0_0 : ∀ a, (![0, 0] : Fin 2 → Nat) a + S1x138.size a ≤ S1x138.size a
  h_S1x138 : 0 < S1x138.numel
  shapeCasts_S1x138_S1x138 : S1x138.ShapeCasts S1x138
  broadcasts_S1x138_S256x138 : S1x138.Broadcasts S256x138
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  dot_S1024x128_S128x256_S1024x256_1_0_0_1_n_n_wf : DotDims.WF S1024x128 S128x256 S1024x256 [1] [0] [0] [1] [] []
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  dot_S128x10240_S10240x256_S128x256_1_0_0_1_n_n_wf : DotDims.WF S128x10240 S10240x256 S128x256 [1] [0] [0] [1] [] []
  dot_S256x5376_S5376x256_S256x256_1_0_0_1_n_n_wf : DotDims.WF S256x5376 S5376x256 S256x256 [1] [0] [0] [1] [] []
  dot_S256x256_S256x138_S256x138_1_0_0_1_n_n_wf : DotDims.WF S256x256 S256x138 S256x138 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S10240x128.size a
  hwx0_0 : ∀ i : grid0.Coords, EltTy.bits .f32 = 32 ∨ (Rect.block (s := S10240x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S10240x256.size a
  hwx0_2 : ∀ i : grid0.Coords, EltTy.bits .bf16 = 32 ∨ (Rect.block (s := S10240x256) S1024x256.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x256.size a ≤ S10240x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S10240x10240.size a
  hwx1_0 : ∀ i : grid1.Coords, EltTy.bits .bf16 = 32 ∨ (Rect.block (s := S10240x10240) S1024x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S10240x256.size a
  hwx1_4 : ∀ i : grid1.Coords, EltTy.bits .bf16 = 32 ∨ (Rect.block (s := S10240x256) S1024x256.size (cc1_transform_4 i) (hinb1_4 i)).WholeWords (EltTy.packing .bf16)
  hrank2 : 0 < grid2.rank
  k2_mult1_dvd : ∀ i : grid2.Coords, 2048 ∣ (k2_mult1 i).toNat
  k2_off1_inb : ∀ i : grid2.Coords, ∀ a, (k2_off1 i) a + S2048x256.size a ≤ S10240x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S10240x10240.size a
  hwx2_0 : ∀ i : grid2.Coords, EltTy.bits .bf16 = 32 ∨ (Rect.block (s := S10240x10240) S1024x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x256.size a ≤ S10240x256.size a
  hwx2_1 : ∀ i : grid2.Coords, EltTy.bits .bf16 = 32 ∨ (Rect.block (s := S10240x256) S10240x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S10240x256.size a
  hwx2_3 : ∀ i : grid2.Coords, EltTy.bits .f32 = 32 ∨ (Rect.block (s := S10240x256) S1024x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x10240.size a ≤ S256x10240.size a
  hwx3_0 : ∀ i : grid3.Coords, EltTy.bits .f32 = 32 ∨ (Rect.block (s := S256x10240) S128x10240.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x256.size a ≤ S10240x256.size a
  hwx3_1 : ∀ i : grid3.Coords, EltTy.bits .f32 = 32 ∨ (Rect.block (s := S10240x256) S10240x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x256.size a ≤ S256x256.size a
  hwx3_2 : ∀ i : grid3.Coords, EltTy.bits .f32 = 32 ∨ (Rect.block (s := S256x256) S128x256.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x5376.size a ≤ S256x5376.size a
  hwx4_0 : ∀ i : grid4.Coords, EltTy.bits .f32 = 32 ∨ (Rect.block (s := S256x5376) S256x5376.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S5376x256.size a ≤ S5376x256.size a
  hwx4_1 : ∀ i : grid4.Coords, EltTy.bits .f32 = 32 ∨ (Rect.block (s := S5376x256) S5376x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x138.size a ≤ S256x138.size a
  hwx4_3 : ∀ i : grid4.Coords, EltTy.bits .f32 = 32 ∨ (Rect.block (s := S256x138) S256x138.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x138.size a ≤ S1x138.size a
  hwx4_4 : ∀ i : grid4.Coords, EltTy.bits .f32 = 32 ∨ (Rect.block (s := S1x138) S1x138.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x138.size a ≤ S256x138.size a
  hwx4_5 : ∀ i : grid4.Coords, EltTy.bits .f32 = 32 ∨ (Rect.block (s := S256x138) S256x138.size (cc4_transform_5 i) (hinb4_5 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S128x10240_S10240x256_S128x256_1_0_0_1_n_n : DotDims S128x10240 S10240x256 S128x256 where
  lhsContracting := [1]
  rhsContracting := [0]
  lhsNonContracting := [0]
  rhsNonContracting := [1]
  lhsBatch := []
  rhsBatch := []
  wf := dot_S128x10240_S10240x256_S128x256_1_0_0_1_n_n_wf
def dot_S256x5376_S5376x256_S256x256_1_0_0_1_n_n : DotDims S256x5376 S5376x256 S256x256 where
  lhsContracting := [1]
  rhsContracting := [0]
  lhsNonContracting := [0]
  rhsNonContracting := [1]
  lhsBatch := []
  rhsBatch := []
  wf := dot_S256x5376_S5376x256_S256x256_1_0_0_1_n_n_wf
def dot_S256x256_S256x138_S256x138_1_0_0_1_n_n : DotDims S256x256 S256x138 S256x138 where
  lhsContracting := [1]
  rhsContracting := [0]
  lhsNonContracting := [0]
  rhsNonContracting := [1]
  lhsBatch := []
  rhsBatch := []
  wf := dot_S256x256_S256x138_S256x138_1_0_0_1_n_n_wf

abbrev win0_0 : Pipeline.Window sig grid0 :=
  Pipeline.Window.ofSpec (Memref.whole main_v45) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v44) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S10240x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v66) S128x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S10240x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S128x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S256x5376.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5376x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S256x138.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x138.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S256x138.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000 : Shape := ⟨1, ![10000]⟩
abbrev S256x5000 : Shape := ⟨2, ![256, 5000]⟩
abbrev S128x256 : Shape := ⟨2, ![128, 256]⟩
abbrev S256 : Shape := ⟨1, ![256]⟩
abbrev S256x256 : Shape := ⟨2, ![256, 256]⟩
abbrev S5256x256 : Shape := ⟨2, ![5256, 256]⟩
abbrev S256x138 : Shape := ⟨2, ![256, 138]⟩
abbrev S138 : Shape := ⟨1, ![138]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x256 : Shape := ⟨2, ![10000, 256]⟩
abbrev S330000x256 : Shape := ⟨2, ![330000, 256]⟩
abbrev S1x256 : Shape := ⟨2, ![1, 256]⟩
abbrev S10000x1 : Shape := ⟨2, ![10000, 1]⟩
abbrev S256x1 : Shape := ⟨2, ![256, 1]⟩
abbrev S256x5256 : Shape := ⟨2, ![256, 5256]⟩
abbrev S1x138 : Shape := ⟨2, ![1, 138]⟩

abbrev nBuf : Space → Nat
  | .hbm => 122
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S256x5000, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S5256x256, .f32⟩
  | .hbm, ⟨9, _⟩ => ⟨S256, .f32⟩
  | .hbm, ⟨10, _⟩ => ⟨S256x138, .f32⟩
  | .hbm, ⟨11, _⟩ => ⟨S138, .f32⟩
  | .hbm, ⟨12, _⟩ => ⟨S10000, .i32⟩
  | .hbm, ⟨13, _⟩ => ⟨S1x320000, .i32⟩
  | .hbm, ⟨14, _⟩ => ⟨S320000, .i32⟩
  | .hbm, ⟨15, _⟩ => ⟨S330000, .i32⟩
  | .hbm, ⟨16, _⟩ => ⟨S1x320000, .i32⟩
  | .hbm, ⟨17, _⟩ => ⟨S320000, .i32⟩
  | .hbm, ⟨18, _⟩ => ⟨S330000, .i32⟩
  | .hbm, ⟨19, _⟩ => ⟨S_, .f32⟩
  | .hbm, ⟨20, _⟩ => ⟨S330000, .f32⟩
  | .hbm, ⟨21, _⟩ => ⟨S_, .f32⟩
  | .hbm, ⟨22, _⟩ => ⟨S10000, .f32⟩
  | .hbm, ⟨23, _⟩ => ⟨S330000x1, .i32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000, .f32⟩
  | .hbm, ⟨29, _⟩ => ⟨S_, .i32⟩
  | .hbm, ⟨30, _⟩ => ⟨S330000, .i32⟩
  | .hbm, ⟨31, _⟩ => ⟨S330000, .i1⟩
  | .hbm, ⟨32, _⟩ => ⟨S_, .i32⟩
  | .hbm, ⟨33, _⟩ => ⟨S330000, .i32⟩
  | .hbm, ⟨34, _⟩ => ⟨S330000, .i32⟩
  | .hbm, ⟨35, _⟩ => ⟨S330000, .i32⟩
  | .hbm, ⟨36, _⟩ => ⟨S330000x1, .i32⟩
  | .hbm, ⟨37, _⟩ => ⟨S330000, .f32⟩
  | .hbm, ⟨38, _⟩ => ⟨S_, .i32⟩
  | .hbm, ⟨39, _⟩ => ⟨S330000, .i32⟩
  | .hbm, ⟨40, _⟩ => ⟨S330000, .i1⟩
  | .hbm, ⟨41, _⟩ => ⟨S_, .i32⟩
  | .hbm, ⟨42, _⟩ => ⟨S330000, .i32⟩
  | .hbm, ⟨43, _⟩ => ⟨S330000, .i32⟩
  | .hbm, ⟨44, _⟩ => ⟨S330000, .i32⟩
  | .hbm, ⟨45, _⟩ => ⟨S330000x1, .i32⟩
  | .hbm, ⟨46, _⟩ => ⟨S330000, .f32⟩
  | .hbm, ⟨47, _⟩ => ⟨S330000, .f32⟩
  | .hbm, ⟨48, _⟩ => ⟨S10000x256, .f32⟩
  | .hbm, ⟨49, _⟩ => ⟨S_, .i32⟩
  | .hbm, ⟨50, _⟩ => ⟨S330000, .i32⟩
  | .hbm, ⟨51, _⟩ => ⟨S330000, .i1⟩
  | .hbm, ⟨52, _⟩ => ⟨S_, .i32⟩
  | .hbm, ⟨53, _⟩ => ⟨S330000, .i32⟩
  | .hbm, ⟨54, _⟩ => ⟨S330000, .i32⟩
  | .hbm, ⟨55, _⟩ => ⟨S330000, .i32⟩
  | .hbm, ⟨56, _⟩ => ⟨S330000x1, .i32⟩
  | .hbm, ⟨57, _⟩ => ⟨S330000x256, .f32⟩
  | .hbm, ⟨58, _⟩ => ⟨S330000x1, .f32⟩
  | .hbm, ⟨59, _⟩ => ⟨S330000x256, .f32⟩
  | .hbm, ⟨60, _⟩ => ⟨S330000x256, .f32⟩
  | .hbm, ⟨61, _⟩ => ⟨S_, .f32⟩
  | .hbm, ⟨62, _⟩ => ⟨S10000x256, .f32⟩
  | .hbm, ⟨63, _⟩ => ⟨S330000x1, .i32⟩
  | .hbm, ⟨64, _⟩ => ⟨S10000x256, .f32⟩
  | .hbm, ⟨65, _⟩ => ⟨S1x256, .f32⟩
  | .hbm, ⟨66, _⟩ => ⟨S10000x256, .f32⟩
  | .hbm, ⟨67, _⟩ => ⟨S10000x256, .f32⟩
  | .hbm, ⟨68, _⟩ => ⟨S_, .f32⟩
  | .hbm, ⟨69, _⟩ => ⟨S10000x256, .f32⟩
  | .hbm, ⟨70, _⟩ => ⟨S10000x256, .f32⟩
  | .hbm, ⟨71, _⟩ => ⟨S10000x256, .f32⟩
  | .hbm, ⟨72, _⟩ => ⟨S_, .i32⟩
  | .hbm, ⟨73, _⟩ => ⟨S330000, .i32⟩
  | .hbm, ⟨74, _⟩ => ⟨S330000, .i1⟩
  | .hbm, ⟨75, _⟩ => ⟨S_, .i32⟩
  | .hbm, ⟨76, _⟩ => ⟨S330000, .i32⟩
  | .hbm, ⟨77, _⟩ => ⟨S330000, .i32⟩
  | .hbm, ⟨78, _⟩ => ⟨S330000, .i32⟩
  | .hbm, ⟨79, _⟩ => ⟨S330000x1, .i32⟩
  | .hbm, ⟨80, _⟩ => ⟨S330000x256, .f32⟩
  | .hbm, ⟨81, _⟩ => ⟨S330000x1, .f32⟩
  | .hbm, ⟨82, _⟩ => ⟨S330000x256, .f32⟩
  | .hbm, ⟨83, _⟩ => ⟨S330000x256, .f32⟩
  | .hbm, ⟨84, _⟩ => ⟨S_, .f32⟩
  | .hbm, ⟨85, _⟩ => ⟨S10000x256, .f32⟩
  | .hbm, ⟨86, _⟩ => ⟨S330000x1, .i32⟩
  | .hbm, ⟨87, _⟩ => ⟨S10000x256, .f32⟩
  | .hbm, ⟨88, _⟩ => ⟨S1x256, .f32⟩
  | .hbm, ⟨89, _⟩ => ⟨S10000x256, .f32⟩
  | .hbm, ⟨90, _⟩ => ⟨S10000x256, .f32⟩
  | .hbm, ⟨91, _⟩ => ⟨S_, .f32⟩
  | .hbm, ⟨92, _⟩ => ⟨S10000x256, .f32⟩
  | .hbm, ⟨93, _⟩ => ⟨S10000x256, .f32⟩
  | .hbm, ⟨94, _⟩ => ⟨S_, .f32⟩
  | .hbm, ⟨95, _⟩ => ⟨S256x256, .f32⟩
  | .hbm, ⟨96, _⟩ => ⟨S10000x1, .i32⟩
  | .hbm, ⟨97, _⟩ => ⟨S256x256, .f32⟩
  | .hbm, ⟨98, _⟩ => ⟨S_, .f32⟩
  | .hbm, ⟨99, _⟩ => ⟨S10000, .f32⟩
  | .hbm, ⟨100, _⟩ => ⟨S_, .f32⟩
  | .hbm, ⟨101, _⟩ => ⟨S256, .f32⟩
  | .hbm, ⟨102, _⟩ => ⟨S10000x1, .i32⟩
  | .hbm, ⟨103, _⟩ => ⟨S256, .f32⟩
  | .hbm, ⟨104, _⟩ => ⟨S_, .f32⟩
  | .hbm, ⟨105, _⟩ => ⟨S256, .f32⟩
  | .hbm, ⟨106, _⟩ => ⟨S256, .f32⟩
  | .hbm, ⟨107, _⟩ => ⟨S256x1, .f32⟩
  | .hbm, ⟨108, _⟩ => ⟨S256x256, .f32⟩
  | .hbm, ⟨109, _⟩ => ⟨S256x256, .f32⟩
  | .hbm, ⟨110, _⟩ => ⟨S256x5256, .f32⟩
  | .hbm, ⟨111, _⟩ => ⟨S256x256, .f32⟩
  | .hbm, ⟨112, _⟩ => ⟨S1x256, .f32⟩
  | .hbm, ⟨113, _⟩ => ⟨S256x256, .f32⟩
  | .hbm, ⟨114, _⟩ => ⟨S256x256, .f32⟩
  | .hbm, ⟨115, _⟩ => ⟨S_, .f32⟩
  | .hbm, ⟨116, _⟩ => ⟨S256x256, .f32⟩
  | .hbm, ⟨117, _⟩ => ⟨S256x256, .f32⟩
  | .hbm, ⟨118, _⟩ => ⟨S256x138, .f32⟩
  | .hbm, ⟨119, _⟩ => ⟨S1x138, .f32⟩
  | .hbm, ⟨120, _⟩ => ⟨S256x138, .f32⟩
  | .hbm, ⟨121, _⟩ => ⟨S256x138, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_cst : Ref sig .tc := ⟨.hbm, 91, rfl⟩
abbrev main_call1_v0 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call2_cst : Ref sig .tc := ⟨.hbm, 115, rfl⟩
abbrev main_call2_v0 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S256x256 : S_.BroadcastsInDim S256x256 (![] : Fin 0 → Fin S256x256.rank)
  bcast_S10000_S10000x1_0 : S10000.BroadcastsInDim S10000x1 (![0] : Fin 1 → Fin S10000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  concatenates_S256x256_S256x5000_S256x5256_d1 : Shape.Concatenates [S256x256, S256x5000] S256x5256 1
  bcast_S1x256_S256x256_0_1 : S1x256.BroadcastsInDim S256x256 (![0, 1] : Fin 2 → Fin S256x256.rank)
  bcast_S138_S1x138_1 : S138.BroadcastsInDim S1x138 (![1] : Fin 1 → Fin S1x138.rank)
  bcast_S1x138_S256x138_0_1 : S1x138.BroadcastsInDim S256x138 (![0, 1] : Fin 2 → Fin S256x138.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x256_S10000x256_1_0_0_1_n_n_wf : DotDims.WF S10000x128 S128x256 S10000x256 [1] [0] [0] [1] [] []
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  dot_S10000x256_S256x256_S10000x256_1_0_0_1_n_n_wf : DotDims.WF S10000x256 S256x256 S10000x256 [1] [0] [0] [1] [] []
  scatter_S256x256_S10000x1_S10000x256_1_0_0_1_wf : ScatterDims.WF S256x256 S10000x1 S10000x256 [1] [0] [0] 1
  scatter_S256_S10000x1_S10000_n_0_0_1_wf : ScatterDims.WF S256 S10000x1 S10000 [] [0] [0] 1
  dot_S256x5256_S5256x256_S256x256_1_0_0_1_n_n_wf : DotDims.WF S256x5256 S5256x256 S256x256 [1] [0] [0] [1] [] []
  dot_S256x256_S256x138_S256x138_1_0_0_1_n_n_wf : DotDims.WF S256x256 S256x138 S256x138 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S256x256_S10000x1_S10000x256_1_0_0_1 : ScatterDims S256x256 S10000x1 S10000x256 where
  updateWindowDims := [1]
  insertedWindowDims := [0]
  scatterDimsToOperandDims := [0]
  indexVectorDim := 1
  wf := scatter_S256x256_S10000x1_S10000x256_1_0_0_1_wf
def scatter_S256_S10000x1_S10000_n_0_0_1 : ScatterDims S256 S10000x1 S10000 where
  updateWindowDims := []
  insertedWindowDims := [0]
  scatterDimsToOperandDims := [0]
  indexVectorDim := 1
  wf := scatter_S256_S10000x1_S10000_n_0_0_1_wf
def dot_S256x5256_S5256x256_S256x256_1_0_0_1_n_n : DotDims S256x5256 S5256x256 S256x256 where
  lhsContracting := [1]
  rhsContracting := [0]
  lhsNonContracting := [0]
  rhsNonContracting := [1]
  lhsBatch := []
  rhsBatch := []
  wf := dot_S256x5256_S5256x256_S256x256_1_0_0_1_n_n_wf
def dot_S256x256_S256x138_S256x138_1_0_0_1_n_n : DotDims S256x256 S256x138 S256x138 where
  lhsContracting := [1]
  rhsContracting := [0]
  lhsNonContracting := [0]
  rhsNonContracting := [1]
  lhsBatch := []
  rhsBatch := []
  wf := dot_S256x256_S256x138_S256x138_1_0_0_1_n_n_wf

class Facts : Prop extends Facts₀ where

variable [Facts]
-- ==== Proof.KI.R0.lean ====
/-
  The first pallas_call: one row block of the padded input times the whole first weight matrix.
  At grid point t the body loads the [1024,128] block of rows 1024·t … 1024·t+1023 of the padded input and the
  whole [128,256] weight matrix, and stores their matrix product into the output block: what the output block
  holds after the body is a function of the two loaded blocks alone, nothing is kept between points.
-/
import proofs.«410187_j66958540144771_3_alg».proof.Proof.Gen.KernelIdeal.Launch
import proofs.«410187_j66958540144771_3_alg».proof.Proof.Gen.KernelIdeal.Skeleton
import proofs.«410187_j66958540144771_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S1024x128 := Rect.unit (s := S1024x128) ![0, 0] S1024x128.size inb_S1024x128_S1024x128_0_0
abbrev r0_w : Rect S128x256 := Rect.unit (s := S128x256) ![0, 0] S128x256.size inb_S128x256_S128x256_0_0
abbrev r0_o : Rect S1024x256 := Rect.unit (s := S1024x256) ![0, 0] S1024x256.size inb_S1024x256_S1024x256_0_0

/-- What the body leaves in the output block: the product of the two loaded blocks, stored whole. -/
def out0_2 (x0 : Vec F S1024x128 .f32) (x1 : Vec F S128x256 .bf16) : Vec F S1024x256 .bf16 :=
  View.canon [⟨r0_o, k0_pay1 (View.ld x0 r0_x) (View.ld x1 r0_w)⟩]

theorem cover0_2 (p0 : Vec F S1024x256 .bf16) (y : S1024x256.Idx) :
    ∃ pc ∈ ([⟨r0_o, p0⟩] : List (View.Piece (Elt F) S1024x256 .bf16)), y ∈ pc.1.set :=
  View.cover_of_tiled [⟨r0_o, p0⟩] S1024x256.size (by rfl) y

set_option maxHeartbeats 1000000 in
/-- The body on whole staging memrefs: the inputs at read contents x0, x1, the output at anything; it ends with the
    inputs as they were and the output at out0_2 x0 x1. -/
theorem sound_kernel0 (c : Dev nD) (E : Set ℕ) (i : grid0.Coords) (arg1 : Memref sig .tc .vmem S1024x128 .f32) (harg1 : arg1.IsWhole)
    (arg2 : Memref sig .tc .vmem S128x256 .bf16) (harg2 : arg2.IsWhole) (arg3 : Memref sig .tc .vmem S1024x256 .bf16) (harg3 : arg3.IsWhole)
    (x0 : Vec F S1024x128 .f32) (x1 : Vec F S128x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this call on core c: the arrays as the region finds them; after the body each input's buffer
    at its block, the output's at the product of the two blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := Idealize.SL.BI.Entails.refl _
theorem hout0 (c : Dev nD) : (dat0 V c).Φ (Fin.last cfg0.N) ⊢ (Pipeline.ΦA spec0 c : sProp 𝕄) := Idealize.SL.BI.Entails.refl _

end Region0

end Cert.KernelIdeal.Gen

end
-- ==== Proof.KI.R1a.lean ====
/-
  The second pallas_call, the kernel body alone: at grid point (i, k) the body keeps a [1024,256] accumulator in a
  scratch buffer across the five points k = 0 … 4 of row block i. At k = 0 it first stores zeros over the accumulator;
  at every point it adds to the accumulator the product of the [1024,2048] adjacency block with rows 2048·k … 2048·k+2047
  of the resident [10240,256] feature matrix; at k = 4 it then stores the output block, computed from the finished
  accumulator, the bias row and the weight matrix. Three cases of the two conditions, each a triple over whole memrefs
  with the contents every buffer ends at written out.
-/
import proofs.«410187_j66958540144771_3_alg».proof.Proof.Gen.KernelIdeal.Launch
import proofs.«410187_j66958540144771_3_alg».proof.Proof.Gen.KernelIdeal.Skeleton
import proofs.«410187_j66958540144771_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangles the body loads and stores through: each buffer whole, but the resident feature matrix, of which
    the body reads the 2048 rows starting at row 2048·k. -/
abbrev r1_a : Rect S1024x2048 := Rect.unit (s := S1024x2048) ![0, 0] S1024x2048.size inb_S1024x2048_S1024x2048_0_0
abbrev r1_h (i : grid1.Coords) : Rect S10240x256 := Rect.unit (s := S10240x256) (k1_off1 i) S2048x256.size (k1_off1_inb i)
abbrev r1_b : Rect S1x256 := Rect.unit (s := S1x256) ![0, 0] S1x256.size inb_S1x256_S1x256_0_0
abbrev r1_w : Rect S256x256 := Rect.unit (s := S256x256) ![0, 0] S256x256.size inb_S256x256_S256x256_0_0
abbrev r1_o : Rect S1024x256 := Rect.unit (s := S1024x256) ![0, 0] S1024x256.size inb_S1024x256_S1024x256_0_0

/-- The accumulator after the reset: zeros, stored whole. -/
def zero1 : Vec F S1024x256 .f32 := View.canon [⟨r1_o, k1_pay1 (F := F)⟩]

/-- The accumulator after one accumulation step over contents xs: xs plus the product of the adjacency block with
    the 2048 rows of the feature matrix the point reads, stored whole. -/
def acc1 (i : grid1.Coords) (x0 : Vec F S1024x2048 .bf16) (x1 : Vec F S10240x256 .bf16) (xs : Vec F S1024x256 .f32) : Vec F S1024x256 .f32 :=
  View.canon [⟨r1_o, k1_pay2 (View.ld x1 (r1_h i)) (View.ld xs r1_o) (View.ld x0 r1_a)⟩]

/-- The output block the epilogue stores: from the finished accumulator xs, the bias row and the weight matrix. -/
def out1 (i : grid1.Coords) (xs : Vec F S1024x256 .f32) (x2 : Vec F S1x256 .f32) (x3 : Vec F S256x256 .bf16) : Vec F S1024x256 .bf16 :=
  View.canon [⟨r1_o, k1_pay3 i (View.ld xs r1_o) (View.ld x2 r1_b) (View.ld x3 r1_w)⟩]

theorem cover1_s (p0 : Vec F S1024x256 .f32) (y : S1024x256.Idx) :
    ∃ pc ∈ ([⟨r1_o, p0⟩] : List (View.Piece (Elt F) S1024x256 .f32)), y ∈ pc.1.set :=
  View.cover_of_tiled [⟨r1_o, p0⟩] S1024x256.size (by rfl) y
theorem cover1_o (p0 : Vec F S1024x256 .bf16) (y : S1024x256.Idx) :
    ∃ pc ∈ ([⟨r1_o, p0⟩] : List (View.Piece (Elt F) S1024x256 .bf16)), y ∈ pc.1.set :=
  View.cover_of_tiled [⟨r1_o, p0⟩] S1024x256.size (by rfl) y

/-- The two conditions of the body, from the grid coordinates. -/
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

set_option maxHeartbeats 1000000 in
/-- The body at a point with k = 0: the accumulator is reset to zeros, then one accumulation step; the output buffer
    is not touched. -/
theorem sound_kernel1_A (c : Dev nD) (E : Set ℕ) (i : grid1.Coords) (hc0 : cond1_0 i) (hc1 : ¬cond1_1 i)
    (arg2 : Memref sig .tc .vmem S1024x2048 .bf16) (harg2 : arg2.IsWhole) (arg3 : Memref sig .tc .vmem S10240x256 .bf16) (harg3 : arg3.IsWhole)
    (arg4 : Memref sig .tc .vmem S1x256 .f32) (harg4 : arg4.IsWhole) (arg5 : Memref sig .tc .vmem S256x256 .bf16) (harg5 : arg5.IsWhole)
    (arg6 : Memref sig .tc .vmem S1024x256 .bf16) (harg6 : arg6.IsWhole) (arg7 : Memref sig .tc .vmem S1024x256 .f32) (harg7 : arg7.IsWhole)
    (x0 : Vec F S1024x2048 .bf16) (x1 : Vec F S10240x256 .bf16) (x2 : Vec F S1x256 .f32) (x3 : Vec F S256x256 .bf16)
    (xi : Vec F S1024x256 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (acc1 i x0 x1 zero1)) -∗ K ⟨⟩))
      ⊢ wp frame (wpE (defs₀ (F := F)) Variants.none c none) E (cc1__agg1_kernel i arg2 harg2 arg3 harg3 arg4 harg4 arg5 harg5 arg6 harg6 arg7 harg7) K := by
  simp only [cc1__agg1_kernel_eq_skeleton]; unfold cc1__agg1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.readCov_eq_canon_ld _ _ _ (cover1_s _)]
  refine (View.read_writes_of_cover_last _ _ arg7.view f5 _ _ [] (fun y => ?_)).trans (View.read_writes_eq_canon _ _ _ (cover1_s _))
  obtain ⟨pc, hm, hy⟩ := cover1_s (F := F) (k1_pay1 (F := F)) y
  rw [List.mem_singleton] at hm; subst hm; exact hy

set_option maxHeartbeats 1000000 in
/-- The body at a point with k = 1, 2, 3: one accumulation step; the output buffer is not touched. -/
theorem sound_kernel1_B (c : Dev nD) (E : Set ℕ) (i : grid1.Coords) (hc0 : ¬cond1_0 i) (hc1 : ¬cond1_1 i)
    (arg2 : Memref sig .tc .vmem S1024x2048 .bf16) (harg2 : arg2.IsWhole) (arg3 : Memref sig .tc .vmem S10240x256 .bf16) (harg3 : arg3.IsWhole)
    (arg4 : Memref sig .tc .vmem S1x256 .f32) (harg4 : arg4.IsWhole) (arg5 : Memref sig .tc .vmem S256x256 .bf16) (harg5 : arg5.IsWhole)
    (arg6 : Memref sig .tc .vmem S1024x256 .bf16) (harg6 : arg6.IsWhole) (arg7 : Memref sig .tc .vmem S1024x256 .f32) (harg7 : arg7.IsWhole)
    (x0 : Vec F S1024x2048 .bf16) (x1 : Vec F S10240x256 .bf16) (x2 : Vec F S1x256 .f32) (x3 : Vec F S256x256 .bf16)
    (xi : Vec F S1024x256 .bf16) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi
            ∗ owns (c : Thread nD τ) arg7 fullShare (acc1 i x0 x1 xs)) -∗ K ⟨⟩))
      ⊢ wp frame (wpE (defs₀ (F := F)) Variants.none c none) E (cc1__agg1_kernel i arg2 harg2 arg3 harg3 arg4 harg4 arg5 harg5 arg6 harg6 arg7 harg7) K := by
  simp only [cc1__agg1_kernel_eq_skeleton]; unfold cc1__agg1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_s _)

set_option maxHeartbeats 1000000 in
/-- The body at a point with k = 4: one accumulation step, then the epilogue stores the output block. -/
theorem sound_kernel1_C (c : Dev nD) (E : Set ℕ) (i : grid1.Coords) (hc0 : ¬cond1_0 i) (hc1 : cond1_1 i)
    (arg2 : Memref sig .tc .vmem S1024x2048 .bf16) (harg2 : arg2.IsWhole) (arg3 : Memref sig .tc .vmem S10240x256 .bf16) (harg3 : arg3.IsWhole)
    (arg4 : Memref sig .tc .vmem S1x256 .f32) (harg4 : arg4.IsWhole) (arg5 : Memref sig .tc .vmem S256x256 .bf16) (harg5 : arg5.IsWhole)
    (arg6 : Memref sig .tc .vmem S1024x256 .bf16) (harg6 : arg6.IsWhole) (arg7 : Memref sig .tc .vmem S1024x256 .f32) (harg7 : arg7.IsWhole)
    (x0 : Vec F S1024x2048 .bf16) (x1 : Vec F S10240x256 .bf16) (x2 : Vec F S1x256 .f32) (x3 : Vec F S256x256 .bf16)
    (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (out1 i (acc1 i x0 x1 xs) x2 x3)
            ∗ owns (c : Thread nD τ) arg7 fullShare (acc1 i x0 x1 xs)) -∗ K ⟨⟩))
      ⊢ wp frame (wpE (defs₀ (F := F)) Variants.none c none) E (cc1__agg1_kernel i arg2 harg2 arg3 harg3 arg4 harg4 arg5 harg5 arg6 harg6 arg7 harg7) K := by
  simp only [cc1__agg1_kernel_eq_skeleton]; unfold cc1__agg1_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ _ (cover1_s _)]
    exact View.read_writes_eq_canon _ _ _ (cover1_o _)
  iexists _; isplitr
  swap; · iexact H5
  ipureintro
  exact View.read_writes_eq_canon _ _ _ (cover1_s _)

end Cert.KernelIdeal.Gen

end
-- ==== Proof.KI.R1.lean ====
/-
  The second pallas_call as a pipeline region: the proof data and the body obligation at the buffer contents the region
  is entered with. The kernel carries its accumulator in a scratch buffer from point to point, so the region invariant
  names what the scratch holds after each point (accAt1, by recursion on the point); the output window is stored, and
  written back, only at the last of each row block's five points and is handed back untouched at the others.
-/
import proofs.«410187_j66958540144771_3_alg».proof.Proof.Gen.KernelIdeal.Launch
import proofs.«410187_j66958540144771_3_alg».proof.Proof.Gen.KernelIdeal.Skeleton
import proofs.«410187_j66958540144771_3_alg».proof.Proof.Gen.KernelIdeal.Points
import proofs.«410187_j66958540144771_3_alg».proof.Proof.KI.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the output window is idle -/

/-- The reset condition holds at the points with k = 0, the epilogue condition at those with k = 4. -/
theorem hcond1_0 : ∀ t : Fin cfg1.N, cond1_0 (grid1.coords t) ↔ t.val % 5 = 0 :=
  (by decide +kernel : ∀ t : Fin grid1.N, cond1_0 (grid1.coords t) ↔ t.val % 5 = 0)
theorem hcond1_1 : ∀ t : Fin cfg1.N, cond1_1 (grid1.coords t) ↔ t.val % 5 = 4 :=
  (by decide +kernel : ∀ t : Fin grid1.N, cond1_1 (grid1.coords t) ↔ t.val % 5 = 4)

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Off the epilogue's points the output window is idle and its block is not written back; at them it is live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The scratch accumulator and the region invariant -/

/-- The scratch operand: a whole scoped buffer of the kernel's own. -/
abbrev scM1 : Memref sig .tc .vmem S1024x256 .f32 := Memref.whole cc1_scratch0

/-- Every other scoped buffer of the core that is no staging buffer of this call, at some contents each. -/
abbrev rest1 (c : Dev nD) : sProp 𝕄 :=
  Pipeline.scopedRestBut (Ix := Unit) (Name := ℕ) (U := UR sig nD τ) (Lvl := ℕ) (Val := Elt F) spec1 c [cc1_scratch0]

/-- The class invariant with the scratch split off as a memref owned at some contents. -/
theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole, bigSepL_singleton]; try rfl

/-- One accumulation step at point t over accumulator contents xs. -/
abbrev step1 (c : Dev nD) (t : Fin cfg1.N) (xs : Vec F S1024x256 .f32) : Vec F S1024x256 .f32 :=
  acc1 (grid1.coords t) (iblk1 V c 0 t) (iblk1 V c 1 t) xs

/-- THE ACCUMULATION. What the scratch holds after the body at position n: at a point with k = 0 one step over zeros,
    at any other point one step over what the point before left. -/
def accAt1 (c : Dev nD) : (n : ℕ) → n < cfg1.N → Vec F S1024x256 .f32
  | 0, hn => step1 V c ⟨0, hn⟩ zero1
  | n + 1, hn =>
    if (n + 1) % 5 = 0 then step1 V c ⟨n + 1, hn⟩ zero1
    else step1 V c ⟨n + 1, hn⟩ (accAt1 c n (Nat.lt_of_succ_lt hn))

/-- The accumulator after a point with k = 0. -/
theorem accAt1_A (c : Dev nD) (t : Fin cfg1.N) (h0 : t.val % 5 = 0) :
    accAt1 V c t.val t.isLt = step1 V c t zero1 := by
  obtain ⟨n, hn⟩ := t
  cases n with
  | zero => rfl
  | succ n => exact (if_pos h0).trans rfl

/-- The accumulator after a point with k ≠ 0: one step over what the point before left. -/
theorem accAt1_BC (c : Dev nD) (t : Fin cfg1.N) (h0 : ¬t.val % 5 = 0) :
    accAt1 V c t.val t.isLt = step1 V c t (accAt1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region invariant before position n: before the first point the class's; afterwards the scratch at what the
    point before left in it, the other scoped buffers at anything and the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (accAt1 V c n hn) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare (accAt1 V c (n - 1) (by omega)) ∗ rest1 c) ∗ (∃ r, prngReg c r)) := by
  cases n with
  | zero => exact absurd rfl hz
  | succ n => rfl

/-! ## The proof data -/

/-- The proof data of this call on core c: the arrays as the region finds them; after the body each input's buffer
    at its block, the output's at the epilogue's block over the accumulator the point leaves; the invariant PhiS1;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (grid1.coords t) (accAt1 V c t.val t.isLt) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
/-- What the output window's buffer holds after the body at a point: the epilogue's block over the accumulator the
    point leaves (stored at the points with k = 4, where the block is written back; consulted nowhere else). -/
theorem after1_4 (c : Dev nD) (t : Fin cfg1.N) :
    (dat1 V c).after 4 t = out1 (grid1.coords t) (accAt1 V c t.val t.isLt) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; the
    invariant hands the body the scratch at what the point before left (at anything at the first point) and takes it
    back at this point's contents; off the epilogue's points the output buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 50 := lt_of_lt_of_eq t.isLt (show cfg1.N = 50 from N_1)
  by_cases h0 : t.val % 5 = 0
  · have h1 : ¬t.val % 5 = 4 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [accAt1_A V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (sound_kernel1_A c Set.univ (grid1.coords t) hc0 hc1 _ _ _ _ _ _ _ _ _ _ _ _ (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel1_A c Set.univ (grid1.coords t) hc0 hc1 _ _ _ _ _ _ _ _ _ _ _ _ (iblk1 V c 0 t) (iblk1 V c 1 t) (iblk1 V c 2 t) (iblk1 V c 3 t) ((dat1 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun h => h0 (by rw [h])
    rw [accAt1_BC V c t h0]
    rw [PhiS1_castSucc V c t, PhiS1_pos V c _ _ hz]
    by_cases h1 : t.val % 5 = 4
    · have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4, accAt1_BC V c t h0]
      iintro ⟨⟨⟨HS, HR⟩, Hg⟩, Ho, ⟨%d0, H0⟩, ⟨%d1, H1⟩, ⟨%d2, H2⟩, ⟨%d3, H3⟩, ⟨%d4, H4⟩⟩
      iapply (sound_kernel1_C c Set.univ (grid1.coords t) hc0 hc1 _ _ _ _ _ _ _ _ _ _ _ _ (iblk1 V c 0 t) (iblk1 V c 1 t) (iblk1 V c 2 t) (iblk1 V c 3 t) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨⟨HS, HR⟩, Hg⟩, Ho, ⟨%d0, H0⟩, ⟨%d1, H1⟩, ⟨%d2, H2⟩, ⟨%d3, H3⟩, ⟨%d4, H4⟩⟩
      iapply (sound_kernel1_B c Set.univ (grid1.coords t) hc0 hc1 _ _ _ _ _ _ _ _ _ _ _ _ (iblk1 V c 0 t) (iblk1 V c 1 t) (iblk1 V c 2 t) (iblk1 V c 3 t) ((dat1 V c).before 4 t d4) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

theorem hout1 (c : Dev nD) : (dat1 V c).Φ (Fin.last cfg1.N) ⊢ (Pipeline.ΦA spec1 c : sProp 𝕄) :=
  Phi_out1 V c _ (by rw [Fin.val_last]; have : cfg1.N = 50 := N_1; omega)

end Region1

end Cert.KernelIdeal.Gen

end
-- ==== Proof.KI.R2a.lean ====
/-
  The third pallas_call, body only: a row block of the adjacency matrix times 2048 rows of a resident matrix, summed
  over the grid's second axis in an accumulator buffer of the kernel's own that lives from point to point.
  At grid point (i, k) the body, if k = 0, first stores zeros over the whole accumulator; then it loads the 2048 rows
  2048·k … 2048·k+2047 of the resident [10240,256] matrix, the accumulator, and the [1024,2048] adjacency block, and
  stores accumulator + block · rows over the whole accumulator; if k = 4 it then loads the accumulator and the bias row
  and stores max(accumulator + bias, 0), with the rows of global index ≥ 10000 zeroed, over the whole output block.
  So there are three cases of the two conditions, and in each the body's effect on whole buffers is stated here with
  explicit contents: the accumulator after the point is acc2 of the two loaded blocks and of the accumulator before
  (zero2 at k = 0, whatever it held), the output block at k = 4 is out2 of that and the bias.
-/
import proofs.«410187_j66958540144771_3_alg».proof.Proof.Gen.KernelIdeal.Launch
import proofs.«410187_j66958540144771_3_alg».proof.Proof.Gen.KernelIdeal.Skeleton
import proofs.«410187_j66958540144771_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (the grid's second coordinate is 0), as the body computes it. -/
abbrev cond2_0 (i : grid2.Coords) : Prop := (Scalar.cmpi .ne (Scalar.extui (Scalar.cmpi .eq (BitVec.ofNat 32 (i 1).val) 0#32)) 0#32) = 1#1
/-- The second branch's condition (the grid's second coordinate is 4). -/
abbrev cond2_1 (i : grid2.Coords) : Prop := k2_cond2 i = 1#1

/-- The rectangles the body loads and stores through. -/
abbrev r2_a : Rect S1024x2048 := Rect.unit (s := S1024x2048) ![0, 0] S1024x2048.size inb_S1024x2048_S1024x2048_0_0
abbrev r2_w (i : grid2.Coords) : Rect S10240x256 := Rect.unit (s := S10240x256) (k2_off1 i) S2048x256.size (k2_off1_inb i)
abbrev r2_b : Rect S1x256 := Rect.unit (s := S1x256) ![0, 0] S1x256.size inb_S1x256_S1x256_0_0
abbrev r2_o : Rect S1024x256 := Rect.unit (s := S1024x256) ![0, 0] S1024x256.size inb_S1024x256_S1024x256_0_0

/-- The accumulator after the reset: zeros, stored whole. -/
def zero2 : Vec F S1024x256 .f32 := View.canon [⟨r2_o, k2_pay1 (F := F)⟩]

/-- One accumulation step: the accumulator xs plus the product of the adjacency block x0 with the 2048 rows
    of the resident matrix x1 that the point's second coordinate selects, stored whole. -/
def acc2 (i : grid2.Coords) (x0 : Vec F S1024x2048 .bf16) (x1 : Vec F S10240x256 .bf16) (xs : Vec F S1024x256 .f32) : Vec F S1024x256 .f32 :=
  View.canon [⟨r2_o, k2_pay2 (View.ld x1 (r2_w i)) (View.ld xs r2_o) (View.ld x0 r2_a)⟩]

/-- The epilogue: accumulator plus bias, clamped below at zero, rows past the 10000th zeroed; stored whole. -/
def out2 (i : grid2.Coords) (xs : Vec F S1024x256 .f32) (x2 : Vec F S1x256 .f32) : Vec F S1024x256 .f32 :=
  View.canon [⟨r2_o, k2_pay3 i (View.ld xs r2_o) (View.ld x2 r2_b)⟩]

theorem cover2_o (p0 : Vec F S1024x256 .f32) (y : S1024x256.Idx) :
    ∃ pc ∈ ([⟨r2_o, p0⟩] : List (View.Piece (Elt F) S1024x256 .f32)), y ∈ pc.1.set :=
  View.cover_of_tiled [⟨r2_o, p0⟩] S1024x256.size (by rfl) y

theorem mem_r2_o (p0 : Vec F S1024x256 .f32) (y : S1024x256.Idx) : y ∈ (r2_o).set := by
  obtain ⟨pc, hm, hy⟩ := cover2_o p0 y
  rw [List.mem_singleton] at hm; subst hm; exact hy

/-- A whole load of what one whole store left reads the stored value. -/
theorem ld_canon2 (w : Vec F S1024x256 .f32) : View.ld (View.canon [⟨r2_o, w⟩]) r2_o = w :=
  (View.readCov_eq_canon_ld (Memref.whole cc2_scratch0 : Memref sig .tc .vmem S1024x256 .f32).view _ r2_o (cover2_o _)).symm.trans
    (View.readCov_cons_toLoadRect _ r2_o _ [])

/-- A whole load of the reset accumulator reads the zeros stored. -/
theorem ld_zero2 : View.ld (zero2 (F := F)) r2_o = k2_pay1 (F := F) := ld_canon2 _

/-- A whole load of the accumulator after a step reads the step's stored value. -/
theorem ld_acc2 (i : grid2.Coords) (x0 : Vec F S1024x2048 .bf16) (x1 : Vec F S10240x256 .bf16) (xs : Vec F S1024x256 .f32) :
    View.ld (acc2 i x0 x1 xs) r2_o = k2_pay2 (View.ld x1 (r2_w i)) (View.ld xs r2_o) (View.ld x0 r2_a) := ld_canon2 _
set_option maxHeartbeats 1000000 in
/-- k = 0 (not 4): reset, then accumulate. The accumulator may hold anything; the output buffer is handed back untouched. -/
theorem sound_kernel2_A (c : Dev nD) (E : Set ℕ) (i : grid2.Coords) (hc0 : cond2_0 i) (hc1 : ¬cond2_1 i)
    (arg2 : Memref sig .tc .vmem S1024x2048 .bf16) (harg2 : arg2.IsWhole) (arg3 : Memref sig .tc .vmem S10240x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .bf16) (x1 : Vec F S10240x256 .bf16) (x2 : Vec F S1x256 .f32) (xi3 : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (acc2 i x0 x1 zero2)) -∗ K ⟨⟩))
      ⊢ wp frame (wpE (defs₀ (F := F)) Variants.none c none) E (cc2__agg2_kernel i arg2 harg2 arg3 harg3 arg4 harg4 arg5 harg5 arg6 harg6) K := by
  simp only [cc2__agg2_kernel_eq_skeleton]; unfold cc2__agg2_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.readCov_eq_canon_ld _ _ _ (cover2_o _)]
  refine (View.read_writes_of_cover_last _ _ arg6.view fs _ _ [] (fun y => ?_)).trans (View.read_writes_eq_canon _ _ _ (cover2_o _))
  obtain ⟨pc, hm, hy⟩ := cover2_o (F := F) (k2_pay1 (F := F)) y
  rw [List.mem_singleton] at hm; subst hm; exact hy

set_option maxHeartbeats 1000000 in
/-- k = 1, 2, 3: accumulate over what the accumulator holds. The output buffer is handed back untouched. -/
theorem sound_kernel2_B (c : Dev nD) (E : Set ℕ) (i : grid2.Coords) (hc0 : ¬cond2_0 i) (hc1 : ¬cond2_1 i)
    (arg2 : Memref sig .tc .vmem S1024x2048 .bf16) (harg2 : arg2.IsWhole) (arg3 : Memref sig .tc .vmem S10240x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .bf16) (x1 : Vec F S10240x256 .bf16) (x2 : Vec F S1x256 .f32) (xi3 : Vec F S1024x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (acc2 i x0 x1 xs)) -∗ K ⟨⟩))
      ⊢ wp frame (wpE (defs₀ (F := F)) Variants.none c none) E (cc2__agg2_kernel i arg2 harg2 arg3 harg3 arg4 harg4 arg5 harg5 arg6 harg6) K := by
  simp only [cc2__agg2_kernel_eq_skeleton]; unfold cc2__agg2_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  exact View.read_writes_eq_canon _ _ _ (cover2_o _)

set_option maxHeartbeats 1000000 in
/-- k = 4 (not 0): accumulate over what the accumulator holds, then the epilogue into the output buffer, which may hold anything. -/
theorem sound_kernel2_C (c : Dev nD) (E : Set ℕ) (i : grid2.Coords) (hc0 : ¬cond2_0 i) (hc1 : cond2_1 i)
    (arg2 : Memref sig .tc .vmem S1024x2048 .bf16) (harg2 : arg2.IsWhole) (arg3 : Memref sig .tc .vmem S10240x256 .bf16) (harg3 : arg3.IsWhole)
    (arg4 : Memref sig .tc .vmem S1x256 .f32) (harg4 : arg4.IsWhole) (arg5 : Memref sig .tc .vmem S1024x256 .f32) (harg5 : arg5.IsWhole)
    (arg6 : Memref sig .tc .vmem S1024x256 .f32) (harg6 : arg6.IsWhole)
    (x0 : Vec F S1024x2048 .bf16) (x1 : Vec F S10240x256 .bf16) (x2 : Vec F S1x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out2 i (acc2 i x0 x1 xs) x2) ∗ owns (c : Thread nD τ) arg6 fullShare (acc2 i x0 x1 xs)) -∗ K ⟨⟩))
      ⊢ wp frame (wpE (defs₀ (F := F)) Variants.none c none) E (cc2__agg2_kernel i arg2 harg2 arg3 harg3 arg4 harg4 arg5 harg5 arg6 harg6) K := by
  simp only [cc2__agg2_kernel_eq_skeleton]; unfold cc2__agg2_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.readCov_eq_canon_ld _ _ _ (cover2_o _)]
    exact View.read_writes_eq_canon _ _ _ (cover2_o _)
  iexists _; isplitr
  swap; · iexact HS
  ipureintro
  exact View.read_writes_eq_canon _ _ _ (cover2_o _)

end Cert.KernelIdeal.Gen

end
-- ==== Proof.KI.R2.lean ====
/-
  The third pallas_call as a pipeline: the proof data and the body obligation at a parameter V, the core's buffer
  contents when the region is entered.
  Grid (10, 5): point t = 5·i + k. The accumulator is reset at k = 0, so what it holds after point t is
  accAt2 V c t: acc2 of the adjacency block and the resident matrix at t over zero2 when k = 0, over accAt2 at t - 1
  otherwise. The output block is stored only at k = 4 (there it is out2 of the accumulator after the point and the bias
  row) and is written back only there; at the other points the window is idle and its buffer is handed back untouched.
  The invariant before point 0 is the region's own (every buffer of the kernel's own at anything); before a later point it says
  the accumulator holds accAt2 of the point before.
-/
import proofs.«410187_j66958540144771_3_alg».proof.Proof.KI.R2a
import proofs.«410187_j66958540144771_3_alg».proof.Proof.Gen.KernelIdeal.Launch
import proofs.«410187_j66958540144771_3_alg».proof.Proof.Gen.KernelIdeal.Skeleton
import proofs.«410187_j66958540144771_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! The branch conditions in closed form, and where the output window is idle. -/

theorem hcond2_0 : ∀ t : Fin cfg2.N, cond2_0 (grid2.coords t) ↔ t.val % 5 = 0 :=
  (by decide +kernel : ∀ t : Fin grid2.N, cond2_0 (grid2.coords t) ↔ t.val % 5 = 0)
theorem hcond2_1 : ∀ t : Fin cfg2.N, cond2_1 (grid2.coords t) ↔ t.val % 5 = 4 :=
  (by decide +kernel : ∀ t : Fin grid2.N, cond2_1 (grid2.coords t) ↔ t.val % 5 = 4)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where the second condition fails the output window is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where it holds the window is live. -/
theorem liveAt2_3 : ∀ t : Fin cfg2.N, cond2_1 (grid2.coords t) → cfg2.idle 3 (grid2.coords t) = false := by decide +kernel

/-- The accumulator buffer as a memref. -/
abbrev scM2 : Memref sig .tc .vmem S1024x256 .f32 := Memref.whole cc2_scratch0

/-- The region's invariant with the accumulator split off as a memref owned at some contents. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! What the accumulator holds after each point. -/

/-- One accumulation step at point t over accumulator contents xs: at the point's adjacency block and resident matrix. -/
abbrev step2 (c : Dev nD) (t : Fin cfg2.N) (xs : Vec F S1024x256 .f32) : Vec F S1024x256 .f32 :=
  acc2 (grid2.coords t) (iblk2 V c 0 t) (iblk2 V c 1 t) xs

/-- The accumulator after the body at position n: one accumulation step at the point's blocks, over zeros at the
    points with k = 0, over what the point before left at the others. -/
def accAt2 (c : Dev nD) : (n : ℕ) → n < cfg2.N → Vec F S1024x256 .f32
  | 0, hn => step2 V c ⟨0, hn⟩ zero2
  | n + 1, hn => step2 V c ⟨n + 1, hn⟩ (if (n + 1) % 5 = 0 then zero2 else accAt2 c n (Nat.lt_of_succ_lt hn))

/-- At a point with k = 0: a step over zeros. -/
theorem accAt2_A (c : Dev nD) (t : Fin cfg2.N) (h : t.val % 5 = 0) :
    accAt2 V c t.val t.isLt = step2 V c t zero2 := by
  obtain ⟨n, hn⟩ := t
  cases n with
  | zero => rfl
  | succ n => rw [accAt2, if_pos h]

/-- At a point with k ≠ 0: a step over what the point before left. -/
theorem accAt2_BC (c : Dev nD) (t : Fin cfg2.N) (h : ¬t.val % 5 = 0) :
    accAt2 V c t.val t.isLt = step2 V c t (accAt2 V c (t.val - 1) (Nat.lt_of_le_of_lt (Nat.sub_le _ _) t.isLt)) := by
  obtain ⟨n, hn⟩ := t
  cases n with
  | zero => exact absurd (Nat.zero_mod _) h
  | succ n => rw [accAt2, if_neg h]; rfl

/-- The invariant before position n: the region's own before the first point; afterwards the accumulator at what
    the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (accAt2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (accAt2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this call on core c: the arrays as the region finds them; after the body each input's buffer
    at its block, the output's at the epilogue of the accumulator after the point (consulted only where the window is
    live, k = 4); the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (grid2.coords t) (accAt2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
/-- The output block after the body (what is written back at the points with k = 4). -/
theorem after2_3 (c : Dev nD) (t : Fin cfg2.N) :
    (dat2 V c).after 3 t = out2 (grid2.coords t) (accAt2 V c t.val t.isLt) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem PhiS2_castSucc (c : Dev nD) (t : Fin cfg2.N) :
    (dat2 V c).Φ t.castSucc = PhiS2 V c t.val (Nat.le_of_lt t.isLt) := by
  dsimp only [dat2]; simp only [Fin.coe_castSucc]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point, by the case its coordinates select. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  by_cases h0 : t.val % 5 = 0
  · have hc0 : cond2_0 (grid2.coords t) := (hcond2_0 t).mpr h0
    have hc1 : ¬cond2_1 (grid2.coords t) := fun h => by have := (hcond2_1 t).mp h; omega
    rw [Dat.leavesExact_idle (dat2 V c) 3 t (idleAt2_3 t hc1) (noFlush2_3 t hc1)]
    rw [accAt2_A V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_A c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc0 : ¬cond2_0 (grid2.coords t) := fun h => h0 ((hcond2_0 t).mp h)
    have hz : t.val ≠ 0 := fun h => h0 (by rw [h])
    rw [accAt2_BC V c t h0]
    rw [PhiS2_castSucc V c t, PhiS2_pos V c _ _ hz]
    by_cases h1 : t.val % 5 = 4
    · have hc1 : cond2_1 (grid2.coords t) := (hcond2_1 t).mpr h1
      rw [show (dat2 V c).leavesExact 3 t = owns (c : Thread nD τ) (st2_3 t) fullShare ((dat2 V c).after 3 t) from by
        unfold Dat.leavesExact; rw [liveAt2_3 t hc1], after2_3, accAt2_BC V c t h0]
      iintro ⟨⟨⟨HS, HR⟩, Hg⟩, Ho, ⟨%d0, H0⟩, ⟨%d1, H1⟩, ⟨%d2, H2⟩, ⟨%d3, H3⟩⟩
      iapply (sound_kernel2_C c Set.univ (grid2.coords t) hc0 hc1 _ _ _ _ _ _ _ _ _ _ (iblk2 V c 0 t) (iblk2 V c 1 t) (iblk2 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond2_1 (grid2.coords t) := fun h => h1 ((hcond2_1 t).mp h)
      rw [Dat.leavesExact_idle (dat2 V c) 3 t (idleAt2_3 t hc1) (noFlush2_3 t hc1)]
      iintro ⟨⟨⟨HS, HR⟩, Hg⟩, Ho, ⟨%d0, H0⟩, ⟨%d1, H1⟩, ⟨%d2, H2⟩, ⟨%d3, H3⟩⟩
      iapply (sound_kernel2_B c Set.univ (grid2.coords t) hc0 hc1 _ _ _ _ _ _ _ _ _ _ (iblk2 V c 0 t) (iblk2 V c 1 t) (iblk2 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the region's own back: the accumulator's contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]
    · iexists _; iexact HS
    iexact HR
  iexact Hg

theorem hout2 (c : Dev nD) : (dat2 V c).Φ (Fin.last cfg2.N) ⊢ (Pipeline.ΦA spec2 c : sProp 𝕄) :=
  Phi_out2 V c _ (by rw [Fin.val_last]; have : cfg2.N = 50 := N_2; omega)

end Region2

end Cert.KernelIdeal.Gen

end
-- ==== Proof.KI.R3.lean ====
/-
  The fourth pallas_call: a [128,10240] block of the pooling matrix times the whole [10240,256] matrix of node
  features. At grid point t the body loads the block of rows 128·t … 128·t+127 of the pooling matrix and the whole
  feature matrix, and stores their matrix product into the [128,256] output block: what the output block holds after
  the body is a function of the two loaded blocks alone, nothing is kept between points.
-/
import proofs.«410187_j66958540144771_3_alg».proof.Proof.Gen.KernelIdeal.Launch
import proofs.«410187_j66958540144771_3_alg».proof.Proof.Gen.KernelIdeal.Skeleton
import proofs.«410187_j66958540144771_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_p : Rect S128x10240 := Rect.unit (s := S128x10240) ![0, 0] S128x10240.size inb_S128x10240_S128x10240_0_0
abbrev r3_h : Rect S10240x256 := Rect.unit (s := S10240x256) ![0, 0] S10240x256.size inb_S10240x256_S10240x256_0_0
abbrev r3_o : Rect S128x256 := Rect.unit (s := S128x256) ![0, 0] S128x256.size inb_S128x256_S128x256_0_0

/-- What the body leaves in the output block: the product of the two loaded blocks, stored whole. -/
def out3_2 (x0 : Vec F S128x10240 .f32) (x1 : Vec F S10240x256 .f32) : Vec F S128x256 .f32 :=
  View.canon [⟨r3_o, k3_pay1 (View.ld x0 r3_p) (View.ld x1 r3_h)⟩]

theorem cover3_2 (p0 : Vec F S128x256 .f32) (y : S128x256.Idx) :
    ∃ pc ∈ ([⟨r3_o, p0⟩] : List (View.Piece (Elt F) S128x256 .f32)), y ∈ pc.1.set :=
  View.cover_of_tiled [⟨r3_o, p0⟩] S128x256.size (by rfl) y

set_option maxHeartbeats 1000000 in
/-- The body on whole staging memrefs: the inputs at read contents x0, x1, the output at anything; it ends with the
    inputs as they were and the output at out3_2 x0 x1. -/
theorem sound_kernel3 (c : Dev nD) (E : Set ℕ) (i : grid3.Coords) (arg1 : Memref sig .tc .vmem S128x10240 .f32) (harg1 : arg1.IsWhole)
    (arg2 : Memref sig .tc .vmem S10240x256 .f32) (harg2 : arg2.IsWhole)
    (arg3 : Memref sig .tc .vmem S128x256 .f32) (harg3 : arg3.IsWhole)
    (x0 : Vec F S128x10240 .f32) (x1 : Vec F S10240x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__pool_kernel i arg1 harg1 arg2 harg2 arg3 harg3) K := by
  simp only [cc3__pool_kernel_eq_skeleton]; unfold cc3__pool_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this call on core c: the arrays as the region finds them; after the body each input's buffer
    at its block, the output's at the product of the two blocks; the class invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := Idealize.SL.BI.Entails.refl _
theorem hout3 (c : Dev nD) : (dat3 V c).Φ (Fin.last cfg3.N) ⊢ (Pipeline.ΦA spec3 c : sProp 𝕄) := Idealize.SL.BI.Entails.refl _

end Region3

end Cert.KernelIdeal.Gen

end
-- ==== Proof.KI.R4.lean ====
/-
  The fifth pallas_call: the two-layer dense head, at a grid of one point. The body loads the whole [256,5376]
  input, the [5376,256] first weights with their [1,256] bias row, the [256,138] second weights with their [1,138]
  bias row, and stores max(x·W1 + b1, 0)·W2 + b2 into the [256,138] output block: what the output block holds after
  the body is a function of the five loaded blocks alone, nothing is kept between points.
-/
import proofs.«410187_j66958540144771_3_alg».proof.Proof.Gen.KernelIdeal.Launch
import proofs.«410187_j66958540144771_3_alg».proof.Proof.Gen.KernelIdeal.Skeleton
import proofs.«410187_j66958540144771_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev r4_x : Rect S256x5376 := Rect.unit (s := S256x5376) ![0, 0] S256x5376.size inb_S256x5376_S256x5376_0_0
abbrev r4_w1 : Rect S5376x256 := Rect.unit (s := S5376x256) ![0, 0] S5376x256.size inb_S5376x256_S5376x256_0_0
abbrev r4_b1 : Rect S1x256 := Rect.unit (s := S1x256) ![0, 0] S1x256.size inb_S1x256_S1x256_0_0
abbrev r4_w2 : Rect S256x138 := Rect.unit (s := S256x138) ![0, 0] S256x138.size inb_S256x138_S256x138_0_0
abbrev r4_b2 : Rect S1x138 := Rect.unit (s := S1x138) ![0, 0] S1x138.size inb_S1x138_S1x138_0_0
abbrev r4_o : Rect S256x138 := Rect.unit (s := S256x138) ![0, 0] S256x138.size inb_S256x138_S256x138_0_0

/-- What the body leaves in the output block: the two-layer head of the five loaded blocks (product with the first weights plus its bias row, clamped below at zero, product with the second weights plus its bias row), stored whole. -/
def out4_5 (x0 : Vec F S256x5376 .f32) (x1 : Vec F S5376x256 .f32) (x2 : Vec F S1x256 .f32) (x3 : Vec F S256x138 .f32) (x4 : Vec F S1x138 .f32) : Vec F S256x138 .f32 :=
  View.canon [⟨r4_o, k4_pay1 (View.ld x0 r4_x) (View.ld x1 r4_w1) (View.ld x2 r4_b1) (View.ld x3 r4_w2) (View.ld x4 r4_b2)⟩]

theorem cover4_5 (p0 : Vec F S256x138 .f32) (y : S256x138.Idx) :
    ∃ pc ∈ ([⟨r4_o, p0⟩] : List (View.Piece (Elt F) S256x138 .f32)), y ∈ pc.1.set :=
  View.cover_of_tiled [⟨r4_o, p0⟩] S256x138.size (by rfl) y

set_option maxHeartbeats 1000000 in
/-- The body on whole staging memrefs: the inputs at read contents x0, x1, x2, x3, x4, the output at anything; it ends with the
    inputs as they were and the output at out4_5 x0 x1 x2 x3 x4. -/
theorem sound_kernel4 (c : Dev nD) (E : Set ℕ) (i : grid4.Coords) (arg1 : Memref sig .tc .vmem S256x5376 .f32) (harg1 : arg1.IsWhole)
    (arg2 : Memref sig .tc .vmem S5376x256 .f32) (harg2 : arg2.IsWhole)
    (arg3 : Memref sig .tc .vmem S1x256 .f32) (harg3 : arg3.IsWhole)
    (arg4 : Memref sig .tc .vmem S256x138 .f32) (harg4 : arg4.IsWhole)
    (arg5 : Memref sig .tc .vmem S1x138 .f32) (harg5 : arg5.IsWhole)
    (arg6 : Memref sig .tc .vmem S256x138 .f32) (harg6 : arg6.IsWhole)
    (x0 : Vec F S256x5376 .f32) (x1 : Vec F S5376x256 .f32) (x2 : Vec F S1x256 .f32) (x3 : Vec F S256x138 .f32) (x4 : Vec F S1x138 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of this call on core c: the arrays as the region finds them; after the body each input's buffer
    at its block, the output's at the two-layer head of the five blocks; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := Idealize.SL.BI.Entails.refl _
theorem hout4 (c : Dev nD) : (dat4 V c).Φ (Fin.last cfg4.N) ⊢ (Pipeline.ΦA spec4 c : sProp 𝕄) := Idealize.SL.BI.Entails.refl _

end Region4

end Cert.KernelIdeal.Gen

end
-- ==== Proof.KI.Chain.lean ====
/-
  What every unscoped buffer of a core holds between two items of the program: the launch contents, then each
  stretch of host operations applied in order, and after each pallas_call its arrays at what the call's write-backs
  leave (every other buffer as the call found it).
-/
import proofs.«410187_j66958540144771_3_alg».proof.Proof.KI.R0
import proofs.«410187_j66958540144771_3_alg».proof.Proof.KI.R1
import proofs.«410187_j66958540144771_3_alg».proof.Proof.KI.R2
import proofs.«410187_j66958540144771_3_alg».proof.Proof.KI.R3
import proofs.«410187_j66958540144771_3_alg».proof.Proof.KI.R4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- At launch. -/
abbrev W0 : Dev nD → Valuation τ sig (Elt F) := fun c b => (s₀ m ρ).mem ((c : Dev nD), b)
/-- After the host operations before the first call (three stretches). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After the first call. -/
def W4 (c : Dev nD) : Valuation τ sig (Elt F) :=
  Pipeline.withArrays spec0 c (W3 m ρ c) fun w => (dat0 (V3 m ρ) c).arrAt w cfg0.N
abbrev V4 : (c : Dev nD) → (b : Ref sig .tc) → Buf (Elt F) ((c : Thread nD τ).loc b) := fun c b => W4 m ρ c b
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After the second call. -/
def W6 (c : Dev nD) : Valuation τ sig (Elt F) :=
  Pipeline.withArrays spec1 c (W5 m ρ c) fun w => (dat1 (V5 m ρ) c).arrAt w cfg1.N
abbrev V6 : (c : Dev nD) → (b : Ref sig .tc) → Buf (Elt F) ((c : Thread nD τ).loc b) := fun c b => W6 m ρ c b
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
/-- After the third call. -/
def W8 (c : Dev nD) : Valuation τ sig (Elt F) :=
  Pipeline.withArrays spec2 c (W7 m ρ c) fun w => (dat2 (V7 m ρ) c).arrAt w cfg2.N
abbrev V8 : (c : Dev nD) → (b : Ref sig .tc) → Buf (Elt F) ((c : Thread nD τ).loc b) := fun c b => W8 m ρ c b
abbrev W9 : Dev nD → Valuation τ sig (Elt F) := fun c => StableHlo.after hostOps3 (W8 m ρ c)
abbrev W10 : Dev nD → Valuation τ sig (Elt F) := fun c => StableHlo.after hostOps3_1 (W9 m ρ c)
abbrev W11 : Dev nD → Valuation τ sig (Elt F) := fun c => StableHlo.after hostOps3_2 (W10 m ρ c)
abbrev V11 : (c : Dev nD) → (b : Ref sig .tc) → Buf (Elt F) ((c : Thread nD τ).loc b) := fun c b => W11 m ρ c b
/-- After the fourth call. -/
def W12 (c : Dev nD) : Valuation τ sig (Elt F) :=
  Pipeline.withArrays spec3 c (W11 m ρ c) fun w => (dat3 (V11 m ρ) c).arrAt w cfg3.N
abbrev V12 : (c : Dev nD) → (b : Ref sig .tc) → Buf (Elt F) ((c : Thread nD τ).loc b) := fun c b => W12 m ρ c b
abbrev W13 : Dev nD → Valuation τ sig (Elt F) := fun c => StableHlo.after hostOps4 (W12 m ρ c)
abbrev W14 : Dev nD → Valuation τ sig (Elt F) := fun c => StableHlo.after hostOps4_1 (W13 m ρ c)
abbrev W15 : Dev nD → Valuation τ sig (Elt F) := fun c => StableHlo.after hostOps4_2 (W14 m ρ c)
abbrev W16 : Dev nD → Valuation τ sig (Elt F) := fun c => StableHlo.after hostOps4_3 (W15 m ρ c)
abbrev W17 : Dev nD → Valuation τ sig (Elt F) := fun c => StableHlo.after hostOps4_4 (W16 m ρ c)
abbrev V17 : (c : Dev nD) → (b : Ref sig .tc) → Buf (Elt F) ((c : Thread nD τ).loc b) := fun c b => W17 m ρ c b
/-- After the fifth call: the end. -/
def W18 (c : Dev nD) : Valuation τ sig (Elt F) :=
  Pipeline.withArrays spec4 c (W17 m ρ c) fun w => (dat4 (V17 m ρ) c).arrAt w cfg4.N
abbrev V18 : (c : Dev nD) → (b : Ref sig .tc) → Buf (Elt F) ((c : Thread nD τ).loc b) := fun c b => W18 m ρ c b

end Cert.KernelIdeal.Gen

end
-- ==== Proof.KI.RunA.lean ====
/-
  The run of the program, first half: what each stretch of host operations writes, the buffers a pallas_call leaves
  alone, every argument read back through the whole chain of valuations to the launch memory, and the data the
  launch theorems take (the proof data of the five calls, the state riding beside the buffers, a host stretch as a segment).
-/
import proofs.«410187_j66958540144771_3_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the stretches of host operations write -/

/-- Every operation of a literal line writes a reference of the literal list: each operation's written set is the
    singleton of its result, a member of the list by evaluation. -/
local macro "writes_in_list" : tactic => `(tactic| (
  simp only [List.Forall]
  repeat' apply And.intro
  all_goals
    simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
    exact List.mem_map_of_mem (by decide)))

/-- No operation of `hostOps0` allocates a buffer. -/
theorem hostOps0_fresh : (hostOps0 : List (HloOp τ sig (Elt F))).Forall fun op => op.fresh = ∅ := by
  simp only [List.Forall]; repeat' constructor
/-- The references the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_c, main_v14, main_v15, main_c_2, main_v16, main_v17, main_v18, main_v19, main_v20, main_c_3, main_v21, main_v22, main_c_4, main_v23, main_v24, main_v25, main_v26, main_v27, main_v28, main_cst_5, main_v29, main_c_6, main_v30, main_v31, main_c_7, main_v32, main_v33, main_v34, main_c_8, main_v35, main_v36, main_c_9, main_v37, main_v38, main_v39, main_v40, main_v41, main_v42, main_v43, main_v44, main_c_10]
theorem hostOps0_writes : (hostOps0 : List (HloOp τ sig (Elt F))).Forall fun op => op.writes ⊆ (hostOps0_W.map (Proc.devRef (τ := τ) .tc)).toFinset := by
  writes_in_list
/-- A reference `hostOps0` does not write keeps its contents through it. -/
theorem hostOps0_keep (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- No operation of `hostOps0_1` allocates a buffer. -/
theorem hostOps0_1_fresh : (hostOps0_1 : List (HloOp τ sig (Elt F))).Forall fun op => op.fresh = ∅ := by
  simp only [List.Forall]; repeat' constructor
/-- The references the operations of `hostOps0_1` write. -/
abbrev hostOps0_1_W : List (Ref sig .tc) := [main_call0_v0, main_v45]
theorem hostOps0_1_writes : (hostOps0_1 : List (HloOp τ sig (Elt F))).Forall fun op => op.writes ⊆ (hostOps0_1_W.map (Proc.devRef (τ := τ) .tc)).toFinset := by
  writes_in_list
/-- A reference `hostOps0_1` does not write keeps its contents through it. -/
theorem hostOps0_1_keep (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- No operation of `hostOps0_2` allocates a buffer. -/
theorem hostOps0_2_fresh : (hostOps0_2 : List (HloOp τ sig (Elt F))).Forall fun op => op.fresh = ∅ := by
  simp only [List.Forall]; repeat' constructor
/-- The references the operations of `hostOps0_2` write. -/
abbrev hostOps0_2_W : List (Ref sig .tc) := [main_v46, main_v47]
theorem hostOps0_2_writes : (hostOps0_2 : List (HloOp τ sig (Elt F))).Forall fun op => op.writes ⊆ (hostOps0_2_W.map (Proc.devRef (τ := τ) .tc)).toFinset := by
  writes_in_list
/-- A reference `hostOps0_2` does not write keeps its contents through it. -/
theorem hostOps0_2_keep (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- No operation of `hostOps1` allocates a buffer. -/
theorem hostOps1_fresh : (hostOps1 : List (HloOp τ sig (Elt F))).Forall fun op => op.fresh = ∅ := by
  simp only [List.Forall]; repeat' constructor
/-- The references the operations of `hostOps1` write. -/
abbrev hostOps1_W : List (Ref sig .tc) := [main_v49]
theorem hostOps1_writes : (hostOps1 : List (HloOp τ sig (Elt F))).Forall fun op => op.writes ⊆ (hostOps1_W.map (Proc.devRef (τ := τ) .tc)).toFinset := by
  writes_in_list
/-- A reference `hostOps1` does not write keeps its contents through it. -/
theorem hostOps1_keep (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- No operation of `hostOps2` allocates a buffer. -/
theorem hostOps2_fresh : (hostOps2 : List (HloOp τ sig (Elt F))).Forall fun op => op.fresh = ∅ := by
  simp only [List.Forall]; repeat' constructor
/-- The references the operations of `hostOps2` write. -/
abbrev hostOps2_W : List (Ref sig .tc) := [main_v51]
theorem hostOps2_writes : (hostOps2 : List (HloOp τ sig (Elt F))).Forall fun op => op.writes ⊆ (hostOps2_W.map (Proc.devRef (τ := τ) .tc)).toFinset := by
  writes_in_list
/-- A reference `hostOps2` does not write keeps its contents through it. -/
theorem hostOps2_keep (V : Valuation τ sig (Elt F)) (r : Ref sig .tc) (h : r ∉ hostOps2_W) :
    StableHlo.after hostOps2 V (Proc.devRef .tc r) = V (Proc.devRef .tc r) :=
  StableHlo.after_of_writes_sub hostOps2 V hostOps2_writes h

/-- No operation of `hostOps3` allocates a buffer. -/
theorem hostOps3_fresh : (hostOps3 : List (HloOp τ sig (Elt F))).Forall fun op => op.fresh = ∅ := by
  simp only [List.Forall]; repeat' constructor
/-- The references the operations of `hostOps3` write. -/
abbrev hostOps3_W : List (Ref sig .tc) := [main_c_11]
theorem hostOps3_writes : (hostOps3 : List (HloOp τ sig (Elt F))).Forall fun op => op.writes ⊆ (hostOps3_W.map (Proc.devRef (τ := τ) .tc)).toFinset := by
  writes_in_list
/-- A reference `hostOps3` does not write keeps its contents through it. -/
theorem hostOps3_keep (V : Valuation τ sig (Elt F)) (r : Ref sig .tc) (h : r ∉ hostOps3_W) :
    StableHlo.after hostOps3 V (Proc.devRef .tc r) = V (Proc.devRef .tc r) :=
  StableHlo.after_of_writes_sub hostOps3 V hostOps3_writes h

/-- No operation of `hostOps3_1` allocates a buffer. -/
theorem hostOps3_1_fresh : (hostOps3_1 : List (HloOp τ sig (Elt F))).Forall fun op => op.fresh = ∅ := by
  simp only [List.Forall]; repeat' constructor
/-- The references the operations of `hostOps3_1` write. -/
abbrev hostOps3_1_W : List (Ref sig .tc) := [main_call1_v0, main_v53]
theorem hostOps3_1_writes : (hostOps3_1 : List (HloOp τ sig (Elt F))).Forall fun op => op.writes ⊆ (hostOps3_1_W.map (Proc.devRef (τ := τ) .tc)).toFinset := by
  writes_in_list
/-- A reference `hostOps3_1` does not write keeps its contents through it. -/
theorem hostOps3_1_keep (V : Valuation τ sig (Elt F)) (r : Ref sig .tc) (h : r ∉ hostOps3_1_W) :
    StableHlo.after hostOps3_1 V (Proc.devRef .tc r) = V (Proc.devRef .tc r) :=
  StableHlo.after_of_writes_sub hostOps3_1 V hostOps3_1_writes h

/-- No operation of `hostOps3_2` allocates a buffer. -/
theorem hostOps3_2_fresh : (hostOps3_2 : List (HloOp τ sig (Elt F))).Forall fun op => op.fresh = ∅ := by
  simp only [List.Forall]; repeat' constructor
/-- The references the operations of `hostOps3_2` write. -/
abbrev hostOps3_2_W : List (Ref sig .tc) := [main_v54, main_v55, main_v56, main_v57, main_v58, main_v59, main_v60, main_cst_12, main_v61, main_v62, main_cst_13, main_v63, main_v64, main_v65, main_v66]
theorem hostOps3_2_writes : (hostOps3_2 : List (HloOp τ sig (Elt F))).Forall fun op => op.writes ⊆ (hostOps3_2_W.map (Proc.devRef (τ := τ) .tc)).toFinset := by
  writes_in_list
/-- A reference `hostOps3_2` does not write keeps its contents through it. -/
theorem hostOps3_2_keep (V : Valuation τ sig (Elt F)) (r : Ref sig .tc) (h : r ∉ hostOps3_2_W) :
    StableHlo.after hostOps3_2 V (Proc.devRef .tc r) = V (Proc.devRef .tc r) :=
  StableHlo.after_of_writes_sub hostOps3_2 V hostOps3_2_writes h

/-- No operation of `hostOps4` allocates a buffer. -/
theorem hostOps4_fresh : (hostOps4 : List (HloOp τ sig (Elt F))).Forall fun op => op.fresh = ∅ := by
  simp only [List.Forall]; repeat' constructor
/-- The references the operations of `hostOps4` write. -/
abbrev hostOps4_W : List (Ref sig .tc) := [main_v68, main_c_14]
theorem hostOps4_writes : (hostOps4 : List (HloOp τ sig (Elt F))).Forall fun op => op.writes ⊆ (hostOps4_W.map (Proc.devRef (τ := τ) .tc)).toFinset := by
  writes_in_list
/-- A reference `hostOps4` does not write keeps its contents through it. -/
theorem hostOps4_keep (V : Valuation τ sig (Elt F)) (r : Ref sig .tc) (h : r ∉ hostOps4_W) :
    StableHlo.after hostOps4 V (Proc.devRef .tc r) = V (Proc.devRef .tc r) :=
  StableHlo.after_of_writes_sub hostOps4 V hostOps4_writes h

/-- No operation of `hostOps4_1` allocates a buffer. -/
theorem hostOps4_1_fresh : (hostOps4_1 : List (HloOp τ sig (Elt F))).Forall fun op => op.fresh = ∅ := by
  simp only [List.Forall]; repeat' constructor
/-- The references the operations of `hostOps4_1` write. -/
abbrev hostOps4_1_W : List (Ref sig .tc) := [main_call2_v0, main_v69]
theorem hostOps4_1_writes : (hostOps4_1 : List (HloOp τ sig (Elt F))).Forall fun op => op.writes ⊆ (hostOps4_1_W.map (Proc.devRef (τ := τ) .tc)).toFinset := by
  writes_in_list
/-- A reference `hostOps4_1` does not write keeps its contents through it. -/
theorem hostOps4_1_keep (V : Valuation τ sig (Elt F)) (r : Ref sig .tc) (h : r ∉ hostOps4_1_W) :
    StableHlo.after hostOps4_1 V (Proc.devRef .tc r) = V (Proc.devRef .tc r) :=
  StableHlo.after_of_writes_sub hostOps4_1 V hostOps4_1_writes h

/-- No operation of `hostOps4_2` allocates a buffer. -/
theorem hostOps4_2_fresh : (hostOps4_2 : List (HloOp τ sig (Elt F))).Forall fun op => op.fresh = ∅ := by
  simp only [List.Forall]; repeat' constructor
/-- The references the operations of `hostOps4_2` write. -/
abbrev hostOps4_2_W : List (Ref sig .tc) := [main_c_15]
theorem hostOps4_2_writes : (hostOps4_2 : List (HloOp τ sig (Elt F))).Forall fun op => op.writes ⊆ (hostOps4_2_W.map (Proc.devRef (τ := τ) .tc)).toFinset := by
  writes_in_list
/-- A reference `hostOps4_2` does not write keeps its contents through it. -/
theorem hostOps4_2_keep (V : Valuation τ sig (Elt F)) (r : Ref sig .tc) (h : r ∉ hostOps4_2_W) :
    StableHlo.after hostOps4_2 V (Proc.devRef .tc r) = V (Proc.devRef .tc r) :=
  StableHlo.after_of_writes_sub hostOps4_2 V hostOps4_2_writes h

/-- No operation of `hostOps4_3` allocates a buffer. -/
theorem hostOps4_3_fresh : (hostOps4_3 : List (HloOp τ sig (Elt F))).Forall fun op => op.fresh = ∅ := by
  simp only [List.Forall]; repeat' constructor
/-- The references the operations of `hostOps4_3` write. -/
abbrev hostOps4_3_W : List (Ref sig .tc) := [main_call3_v0, main_v70]
theorem hostOps4_3_writes : (hostOps4_3 : List (HloOp τ sig (Elt F))).Forall fun op => op.writes ⊆ (hostOps4_3_W.map (Proc.devRef (τ := τ) .tc)).toFinset := by
  writes_in_list
/-- A reference `hostOps4_3` does not write keeps its contents through it. -/
theorem hostOps4_3_keep (V : Valuation τ sig (Elt F)) (r : Ref sig .tc) (h : r ∉ hostOps4_3_W) :
    StableHlo.after hostOps4_3 V (Proc.devRef .tc r) = V (Proc.devRef .tc r) :=
  StableHlo.after_of_writes_sub hostOps4_3 V hostOps4_3_writes h

/-- No operation of `hostOps4_4` allocates a buffer. -/
theorem hostOps4_4_fresh : (hostOps4_4 : List (HloOp τ sig (Elt F))).Forall fun op => op.fresh = ∅ := by
  simp only [List.Forall]; repeat' constructor
/-- The references the operations of `hostOps4_4` write. -/
abbrev hostOps4_4_W : List (Ref sig .tc) := [main_v71, main_v72]
theorem hostOps4_4_writes : (hostOps4_4 : List (HloOp τ sig (Elt F))).Forall fun op => op.writes ⊆ (hostOps4_4_W.map (Proc.devRef (τ := τ) .tc)).toFinset := by
  writes_in_list
/-- A reference `hostOps4_4` does not write keeps its contents through it. -/
theorem hostOps4_4_keep (V : Valuation τ sig (Elt F)) (r : Ref sig .tc) (h : r ∉ hostOps4_4_W) :
    StableHlo.after hostOps4_4 V (Proc.devRef .tc r) = V (Proc.devRef .tc r) :=
  StableHlo.after_of_writes_sub hostOps4_4 V hostOps4_4_writes h

variable (m : (ℓ : Loc nD τ sig) → Buf (Elt F) ℓ) (ρ : Dev nD → PrngReg)

/-! ## What a pallas_call leaves: its arrays at what its write-backs make them, every other buffer as it found it -/

theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- At the call's exit each of its arrays holds what the call leaves, and every other buffer what it held at entry. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- At the call's exit each of its arrays holds what the call leaves, and every other buffer what it held at entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- At the call's exit each of its arrays holds what the call leaves, and every other buffer what it held at entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

theorem W12_arr (c : Dev nD) (w : Fin cfg3.W) :
    W12 m ρ c (Proc.devRef .tc (Pipeline.arrRef spec3 w)) = (dat3 (V11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- At the call's exit each of its arrays holds what the call leaves, and every other buffer what it held at entry. -/
theorem hF3 (c : Dev nD) (w : Fin cfg3.W) : (dat3 (V11 m ρ) c).arrAt w cfg3.N = V12 m ρ c (Pipeline.arrRef spec3 w) :=
  (W12_arr m ρ c w).symm
theorem hrest3 (c : Dev nD) : ∀ b, b ∉ Finset.univ.image (Pipeline.arrRef spec3) → V12 m ρ c b = V11 m ρ c b :=
  fun b hb => W12_of_ne m ρ c b fun w e => hb (Finset.mem_image.mpr ⟨w, Finset.mem_univ _, e⟩)

theorem W18_arr (c : Dev nD) (w : Fin cfg4.W) :
    W18 m ρ c (Proc.devRef .tc (Pipeline.arrRef spec4 w)) = (dat4 (V17 m ρ) c).arrAt w cfg4.N := by
  unfold W18; exact Pipeline.withArrays_arr spec4 launch4.win.arr_inj c _ _ w
theorem W18_of_ne (c : Dev nD) (b : Ref sig .tc) (hb : ∀ w, Pipeline.arrRef spec4 w ≠ b) :
    W18 m ρ c (Proc.devRef .tc b) = W17 m ρ c (Proc.devRef .tc b) := by
  unfold W18; exact Pipeline.withArrays_of_ne spec4 c _ _ b hb
/-- At the call's exit each of its arrays holds what the call leaves, and every other buffer what it held at entry. -/
theorem hF4 (c : Dev nD) (w : Fin cfg4.W) : (dat4 (V17 m ρ) c).arrAt w cfg4.N = V18 m ρ c (Pipeline.arrRef spec4 w) :=
  (W18_arr m ρ c w).symm
theorem hrest4 (c : Dev nD) : ∀ b, b ∉ Finset.univ.image (Pipeline.arrRef spec4) → V18 m ρ c b = V17 m ρ c b :=
  fun b hb => W18_of_ne m ρ c b fun w e => hb (Finset.mem_image.mpr ⟨w, Finset.mem_univ _, e⟩)

/-! ## The buffers nothing writes

A reference no host operation writes and that is no array of a pallas_call holds at the end what the launch put there:
the walk back through the eighteen items, one step each. -/

/-- No stretch writes `r` and none of the first four calls has it among its arrays. -/
def Untouched17 (r : Ref sig .tc) : Prop :=
  r ∉ hostOps0_W ∧ r ∉ hostOps0_1_W ∧ r ∉ hostOps0_2_W ∧ (∀ w, Pipeline.arrRef spec0 w ≠ r) ∧ r ∉ hostOps1_W ∧ (∀ w, Pipeline.arrRef spec1 w ≠ r) ∧ r ∉ hostOps2_W ∧ (∀ w, Pipeline.arrRef spec2 w ≠ r) ∧ r ∉ hostOps3_W ∧ r ∉ hostOps3_1_W ∧ r ∉ hostOps3_2_W ∧ (∀ w, Pipeline.arrRef spec3 w ≠ r) ∧ r ∉ hostOps4_W ∧ r ∉ hostOps4_1_W ∧ r ∉ hostOps4_2_W ∧ r ∉ hostOps4_3_W ∧ r ∉ hostOps4_4_W
instance (r : Ref sig .tc) : Decidable (Untouched17 r) := by unfold Untouched17; infer_instance

theorem W17_of_untouched (c : Dev nD) (r : Ref sig .tc) (h : Untouched17 r) :
    W17 m ρ c (Proc.devRef .tc r) = m ((c : Thread nD τ).loc r) := by
  obtain ⟨h0, h1, h2, h3, h4, h5, h6, h7, h8, h9, h10, h11, h12, h13, h14, h15, h16⟩ := h
  calc W17 m ρ c (Proc.devRef .tc r)
    _ = W16 m ρ c (Proc.devRef .tc r) := hostOps4_4_keep _ r h16
    _ = W15 m ρ c (Proc.devRef .tc r) := hostOps4_3_keep _ r h15
    _ = W14 m ρ c (Proc.devRef .tc r) := hostOps4_2_keep _ r h14
    _ = W13 m ρ c (Proc.devRef .tc r) := hostOps4_1_keep _ r h13
    _ = W12 m ρ c (Proc.devRef .tc r) := hostOps4_keep _ r h12
    _ = W11 m ρ c (Proc.devRef .tc r) := W12_of_ne m ρ c r h11
    _ = W10 m ρ c (Proc.devRef .tc r) := hostOps3_2_keep _ r h10
    _ = W9 m ρ c (Proc.devRef .tc r) := hostOps3_1_keep _ r h9
    _ = W8 m ρ c (Proc.devRef .tc r) := hostOps3_keep _ r h8
    _ = W7 m ρ c (Proc.devRef .tc r) := W8_of_ne m ρ c r h7
    _ = W6 m ρ c (Proc.devRef .tc r) := hostOps2_keep _ r h6
    _ = W5 m ρ c (Proc.devRef .tc r) := W6_of_ne m ρ c r h5
    _ = W4 m ρ c (Proc.devRef .tc r) := hostOps1_keep _ r h4
    _ = W3 m ρ c (Proc.devRef .tc r) := W4_of_ne m ρ c r h3
    _ = W2 m ρ c (Proc.devRef .tc r) := hostOps0_2_keep _ r h2
    _ = W1 m ρ c (Proc.devRef .tc r) := hostOps0_1_keep _ r h1
    _ = W0 m ρ c (Proc.devRef .tc r) := hostOps0_keep _ r h0
    _ = m ((c : Thread nD τ).loc r) := rfl

theorem W18_of_untouched (c : Dev nD) (r : Ref sig .tc) (h : Untouched17 r) (h4 : ∀ w, Pipeline.arrRef spec4 w ≠ r) :
    W18 m ρ c (Proc.devRef .tc r) = m ((c : Thread nD τ).loc r) :=
  (W18_of_ne m ρ c r h4).trans (W17_of_untouched m ρ c r h)

/-! ### The arguments end as launched -/
theorem W18_main_arg0 (c : Dev nD) : W18 m ρ c (Proc.devRef .tc main_arg0) = m ((c : Thread nD τ).loc main_arg0) :=
  W18_of_untouched m ρ c main_arg0 (by decide) (by decide)
theorem W18_main_arg1 (c : Dev nD) : W18 m ρ c (Proc.devRef .tc main_arg1) = m ((c : Thread nD τ).loc main_arg1) :=
  W18_of_untouched m ρ c main_arg1 (by decide) (by decide)
theorem W18_main_arg2 (c : Dev nD) : W18 m ρ c (Proc.devRef .tc main_arg2) = m ((c : Thread nD τ).loc main_arg2) :=
  W18_of_untouched m ρ c main_arg2 (by decide) (by decide)
theorem W18_main_arg3 (c : Dev nD) : W18 m ρ c (Proc.devRef .tc main_arg3) = m ((c : Thread nD τ).loc main_arg3) :=
  W18_of_untouched m ρ c main_arg3 (by decide) (by decide)
theorem W18_main_arg4 (c : Dev nD) : W18 m ρ c (Proc.devRef .tc main_arg4) = m ((c : Thread nD τ).loc main_arg4) :=
  W18_of_untouched m ρ c main_arg4 (by decide) (by decide)
theorem W18_main_arg5 (c : Dev nD) : W18 m ρ c (Proc.devRef .tc main_arg5) = m ((c : Thread nD τ).loc main_arg5) :=
  W18_of_untouched m ρ c main_arg5 (by decide) (by decide)
theorem W18_main_arg6 (c : Dev nD) : W18 m ρ c (Proc.devRef .tc main_arg6) = m ((c : Thread nD τ).loc main_arg6) :=
  W18_of_untouched m ρ c main_arg6 (by decide) (by decide)
theorem W18_main_arg7 (c : Dev nD) : W18 m ρ c (Proc.devRef .tc main_arg7) = m ((c : Thread nD τ).loc main_arg7) :=
  W18_of_untouched m ρ c main_arg7 (by decide) (by decide)
theorem W18_main_arg8 (c : Dev nD) : W18 m ρ c (Proc.devRef .tc main_arg8) = m ((c : Thread nD τ).loc main_arg8) :=
  W18_of_untouched m ρ c main_arg8 (by decide) (by decide)
theorem W18_main_arg9 (c : Dev nD) : W18 m ρ c (Proc.devRef .tc main_arg9) = m ((c : Thread nD τ).loc main_arg9) :=
  W18_of_untouched m ρ c main_arg9 (by decide) (by decide)

/-- `main_arg10` is an input array of the last call (its window 3), which never writes an input back. -/
theorem W18_main_arg10 (c : Dev nD) : W18 m ρ c (Proc.devRef .tc main_arg10) = m ((c : Thread nD τ).loc main_arg10) :=
  calc W18 m ρ c (Proc.devRef .tc main_arg10)
    _ = W17 m ρ c (Proc.devRef .tc main_arg10) := (W18_arr m ρ c 3).trans (((dat4 (V17 m ρ) c).arrAt_in 3 rfl _).trans (A_eq4 (V17 m ρ) c 3))
    _ = m ((c : Thread nD τ).loc main_arg10) := W17_of_untouched m ρ c main_arg10 (by decide)
theorem W18_main_arg11 (c : Dev nD) : W18 m ρ c (Proc.devRef .tc main_arg11) = m ((c : Thread nD τ).loc main_arg11) :=
  W18_of_untouched m ρ c main_arg11 (by decide) (by decide)

/-! ## The proof data family and the thread state -/

/-- The prefetched tables' admissible contents: no call has a table. -/
abbrev adm : (p : Fin 5) → (pcfgs (F := F) p).Adm := fun p => (cfgs p).toPCfg_adm
/-- Every call's proof data, each at the contents its call is entered with. -/
def pdats : (p : Fin 5) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V11 m ρ) c
  | ⟨4, _⟩ => fun c => dat4 (V17 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W18 m ρ c) ∗ ∃ r, prngReg c r)

end Cert.KernelIdeal.Gen

end
-- ==== Proof.KI.Run.lean ====
/-
  The run of the program over its five pallas_calls: each call as a segment between the valuations of the chain, the
  host stretches between them, and the launch — every weakly fair execution terminates without a fault and leaves every
  unscoped buffer of every core at the last valuation of the chain; in particular every argument as launched.
-/
import proofs.«410187_j66958540144771_3_alg».proof.Proof.KI.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The class invariant, taken apart and put together

The invariant of a call whose body keeps no state of its own is the core's scoped buffers no window stages beside the
generator register at some state. A call's segment hands it the register first and takes it back first. -/

theorem ΦA_of_parts {gr W : Nat} (win : Fin W → Pipeline.WinSpec sig gr) (c : Dev nD) (P : sProp 𝕄) :
    (iprop((∃ r, prngReg c r) ∗ P ∗ Pipeline.scopedRest win c) : sProp 𝕄) ⊢ Pipeline.ΦA win c := by
  unfold Pipeline.ΦA
  iintro ⟨Hp, -, Hr⟩
  isplitl [Hr]; · iexact Hr
  iexact Hp

theorem parts_of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

variable (m : (ℓ : Loc nD τ sig) → Buf (Elt F) ℓ) (ρ : Dev nD → PrngReg)

/-! ## The pallas_calls as segments -/

set_option backward.isDefEq.respectTransparency.types false in
/-- Call 0 over the thread state: entered from every unscoped buffer at `W3`, left at `W4`. Its arrays are split
    out of the unscoped buffers and put back at the exit contents; the generator register goes into the call's
    invariant with the scoped buffers no window stages, and comes back; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V3 m ρ) c).Φ 0 from rfl]
    exact (ΦA_of_parts spec0 c _).trans (hin0 (V3 m ρ) c)
  hout c := by
    rw [Pipeline.ownSems0_none, show (pdats m ρ 0 c).Φ (Fin.last _) = (dat0 (V3 m ρ) c).Φ (Fin.last cfg0.N) from rfl]
    exact (hout0 (V3 m ρ) c).trans (parts_of_ΦA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered from every unscoped buffer at `W5`, left at `W6`. Its arrays are split
    out of the unscoped buffers and put back at the exit contents; the generator register goes into the call's
    invariant with the scoped buffers no window stages, and comes back; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V5 m ρ) c).Φ 0 from rfl]
    exact (ΦA_of_parts spec1 c _).trans (hin1 (V5 m ρ) c)
  hout c := by
    rw [Pipeline.ownSems0_none, show (pdats m ρ 1 c).Φ (Fin.last _) = (dat1 (V5 m ρ) c).Φ (Fin.last cfg1.N) from rfl]
    exact (hout1 (V5 m ρ) c).trans (parts_of_ΦA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `W7`, left at `W8`. Its arrays are split
    out of the unscoped buffers and put back at the exit contents; the generator register goes into the call's
    invariant with the scoped buffers no window stages, and comes back; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V7 m ρ) c).Φ 0 from rfl]
    exact (ΦA_of_parts spec2 c _).trans (hin2 (V7 m ρ) c)
  hout c := by
    rw [Pipeline.ownSems0_none, show (pdats m ρ 2 c).Φ (Fin.last _) = (dat2 (V7 m ρ) c).Φ (Fin.last cfg2.N) from rfl]
    exact (hout2 (V7 m ρ) c).trans (parts_of_ΦA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 over the thread state: entered from every unscoped buffer at `W11`, left at `W12`. Its arrays are split
    out of the unscoped buffers and put back at the exit contents; the generator register goes into the call's
    invariant with the scoped buffers no window stages, and comes back; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V11 m ρ) c).loose
  hwaits := Pipeline.hwaits_of_owed_zero _ _ _ _ L lv 3 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec3 c (V11 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V11 m ρ) c).Φ 0 from rfl]
    exact (ΦA_of_parts spec3 c _).trans (hin3 (V11 m ρ) c)
  hout c := by
    rw [Pipeline.ownSems0_none, show (pdats m ρ 3 c).Φ (Fin.last _) = (dat3 (V11 m ρ) c).Φ (Fin.last cfg3.N) from rfl]
    exact (hout3 (V11 m ρ) c).trans (parts_of_ΦA spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V11 m ρ c) (V12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 over the thread state: entered from every unscoped buffer at `W17`, left at `W18`. Its arrays are split
    out of the unscoped buffers and put back at the exit contents; the generator register goes into the call's
    invariant with the scoped buffers no window stages, and comes back; nothing is owed; the kernel has no semaphore
    of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V17 m ρ) c).loose
  hwaits := Pipeline.hwaits_of_owed_zero _ _ _ _ L lv 4 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V17 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V17 m ρ) c).Φ 0 from rfl]
    exact (ΦA_of_parts spec4 c _).trans (hin4 (V17 m ρ) c)
  hout c := by
    rw [Pipeline.ownSems0_none, show (pdats m ρ 4 c).Φ (Fin.last _) = (dat4 (V17 m ρ) c).Φ (Fin.last cfg4.N) from rfl]
    exact (hout4 (V17 m ρ) c).trans (parts_of_ΦA spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V17 m ρ c) (V18 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eighteen items in order: a host segment per stretch from the contents before it, a segment per call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .host (hseg hostOps3_1 hostOps3_1_sub hostOps3_1_fresh (W9 m ρ)),
    .host (hseg hostOps3_2 hostOps3_2_sub hostOps3_2_fresh (W10 m ρ)),
    .region (reg3 m ρ),
    .host (hseg hostOps4 hostOps4_sub hostOps4_fresh (W12 m ρ)),
    .host (hseg hostOps4_1 hostOps4_1_sub hostOps4_1_fresh (W13 m ρ)),
    .host (hseg hostOps4_2 hostOps4_2_sub hostOps4_2_fresh (W14 m ρ)),
    .host (hseg hostOps4_3 hostOps4_3_sub hostOps4_3_fresh (W15 m ρ)),
    .host (hseg hostOps4_4 hostOps4_4_sub hostOps4_4_fresh (W16 m ρ)),
    .region (reg4 m ρ) ]

/-- The program is the run of its segments: it is the chain of its items, and so is the segments' run. -/
theorem main_run (c : Dev nD) : main (F := F) c = Pipeline.Seg.run (segs m ρ) := by
  rewrite [main_chain c, Pipeline.Seg.run_eq_chain,
    show (segs m ρ).map Pipeline.Seg.prog = [
      StableHlo.seq hostOps0,
      StableHlo.seq hostOps0_1,
      StableHlo.seq hostOps0_2,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      StableHlo.seq hostOps3_1,
      StableHlo.seq hostOps3_2,
      Prog.lift (.customCall (Pipeline.entry 3) ()),
      StableHlo.seq hostOps4,
      StableHlo.seq hostOps4_1,
      StableHlo.seq hostOps4_2,
      StableHlo.seq hostOps4_3,
      StableHlo.seq hostOps4_4,
      Prog.lift (.customCall (Pipeline.entry 4) ()) ] from rfl]
  rfl

set_option backward.isDefEq.respectTransparency.types false in
/-- THE RUN, at any claim that follows from the final buffers: at the compiled mesh, from any memory with zero counters,
    every weakly fair execution of the program on the TensorCores terminates, nothing faulting, and every final memory
    holds, at every unscoped buffer of every core, the last valuation of the chain. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W18 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := hQ)

/-- Every weakly fair execution terminates, nothing faults, and at the end every unscoped buffer of every core holds
    the last valuation of the chain. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W18 m ρ c b) :=
  run_post m ρ fun _ h => h

/-- The frame: the program runs, and every argument ends as launched (no host operation and no call writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_post m ρ fun s h c =>
    ⟨(h c _ (mem_uc main_arg0 (by decide))).trans (W18_main_arg0 m ρ c),
     (h c _ (mem_uc main_arg1 (by decide))).trans (W18_main_arg1 m ρ c),
     (h c _ (mem_uc main_arg2 (by decide))).trans (W18_main_arg2 m ρ c),
     (h c _ (mem_uc main_arg3 (by decide))).trans (W18_main_arg3 m ρ c),
     (h c _ (mem_uc main_arg4 (by decide))).trans (W18_main_arg4 m ρ c),
     (h c _ (mem_uc main_arg5 (by decide))).trans (W18_main_arg5 m ρ c),
     (h c _ (mem_uc main_arg6 (by decide))).trans (W18_main_arg6 m ρ c),
     (h c _ (mem_uc main_arg7 (by decide))).trans (W18_main_arg7 m ρ c),
     (h c _ (mem_uc main_arg8 (by decide))).trans (W18_main_arg8 m ρ c),
     (h c _ (mem_uc main_arg9 (by decide))).trans (W18_main_arg9 m ρ c),
     (h c _ (mem_uc main_arg10 (by decide))).trans (W18_main_arg10 m ρ c),
     (h c _ (mem_uc main_arg11 (by decide))).trans (W18_main_arg11 m ρ c)⟩

end Cert.KernelIdeal.Gen

end
-- ==== Proof.Frames.lean ====
/-
  The two frame claims: each of the two printed programs, from any memory with zero counters, runs to the end on
  every weakly fair schedule without a fault, and leaves every argument array holding what the launch put there.
  Both follow from the run of the program over its five calls, which is proved once for any float instance.
-/
import proofs.«410187_j66958540144771_3_alg».proof.Defs
import proofs.«410187_j66958540144771_3_alg».proof.Proof.Gen.Kernel
import proofs.«410187_j66958540144771_3_alg».proof.Proof.Gen.KernelIdeal
import proofs.«410187_j66958540144771_3_alg».proof.Proof.Gen.Pre_finite_inputs
import proofs.«410187_j66958540144771_3_alg».proof.Proof.K.Run
import proofs.«410187_j66958540144771_3_alg».proof.Proof.KI.Run

set_option maxRecDepth 16384

noncomputable section

namespace Cert.Proof.Parts

open Idealize.ShloMosaic

/-- The word-level program runs and keeps its arguments (the precondition on the inputs is not needed for this). -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

end Cert.Proof.Parts

end
-- ==== Proof.Spec.lean ====
/-
  The two computations as functions of the inputs, index by index, over the extended reals.

  n = 10000 nodes, padded to np = 10240 = 5 · 2048 rows; e = 330000 edges (the 320000 given ones and one
  self-loop per node); g = 256 graphs; feature widths 128 → 256 → 256; 5000 fingerprint columns; 5256 padded to
  5376 columns in the last stage; 138 outputs.

  The reference adds, for every edge p whose destination dstZ p is the row d, the source row sel p of the
  projected features times the edge weight nrm p (a gather, a product and a row scatter-add), adds the bias and
  clips at zero; twice. Then it sums the rows of each graph, divides by the graph's size (at least 1), appends the
  fingerprint columns and applies two dense layers.

  The kernel scatters the edge weights into a dense np × np matrix adj (entry (d, s) the sum of the weights of the
  edges from s to d), multiplies it with the zero-padded projected features in five column blocks of 2048
  accumulated in order, adds the bias, clips at zero and zeroes the rows from n on; twice. It pools with a matrix
  whose entry (graph, node) is 1 / size where the node belongs to the graph, pads the concatenated features and
  the weight matrix with 120 zero columns / rows, and applies the same two dense layers.
-/
import Idealize.ShloMosaic.PureOps.Ideal

noncomputable section

open scoped BigOperators

namespace Cert.Spec

open Idealize.ShloMosaic

/-- The product of two matrices over the extended reals. -/
def mm {a k b : Nat} (x : Fin a → Fin k → EReal) (y : Fin k → Fin b → EReal) : Fin a → Fin b → EReal :=
  fun r c => ∑ j : Fin k, x r j * y j c

/-- A bias added to every row, then clipped at zero. -/
def biasRelu {a b : Nat} (x : Fin a → Fin b → EReal) (bias : Fin b → EReal) : Fin a → Fin b → EReal :=
  fun r c => max (x r c + bias c) 0

/-! ## The reference -/

/-- Rows added at their destinations: entry (d, q) is 0 plus the sum over the edges p with destination d of the
    source row sel p of hw times the edge weight. -/
def refAgg {e n c : Nat} (sel : Fin e → Fin n) (dstZ : Fin e → Int) (nrm : Fin e → EReal)
    (hw : Fin n → Fin c → EReal) : Fin n → Fin c → EReal :=
  fun d q => 0 + ∑ p : Fin e, if dstZ p = (d.val : Int) then hw (sel p) q * nrm p else 0

/-- One graph-convolution layer of the reference. -/
def refLayer {e n k c : Nat} (sel : Fin e → Fin n) (dstZ : Fin e → Int) (nrm : Fin e → EReal)
    (h : Fin n → Fin k → EReal) (W : Fin k → Fin c → EReal) (b : Fin c → EReal) : Fin n → Fin c → EReal :=
  biasRelu (refAgg sel dstZ nrm (mm h W)) b

/-- The sum of the rows of each graph, and the graph's size. -/
def refSums {n g c : Nat} (bt : Fin n → Int) (h : Fin n → Fin c → EReal) : Fin g → Fin c → EReal :=
  fun γ q => 0 + ∑ j : Fin n, if bt j = (γ.val : Int) then h j q else 0
def refCnt {n g : Nat} (bt : Fin n → Int) : Fin g → EReal :=
  fun γ => 0 + ∑ j : Fin n, if bt j = (γ.val : Int) then (1 : EReal) else 0
/-- The mean row of each graph (the size taken as at least 1; the quotient is the extended reals' product with the inverse, the divisor being nonzero). -/
def refPool {n g c : Nat} (bt : Fin n → Int) (h : Fin n → Fin c → EReal) : Fin g → Fin c → EReal :=
  fun γ q => Ideal.div (refSums (g := g) bt h γ q) (max (refCnt (g := g) bt γ) 1)

/-- Two matrices side by side. -/
def hcat {g a b : Nat} (x : Fin g → Fin a → EReal) (y : Fin g → Fin b → EReal) : Fin g → Fin (a + b) → EReal :=
  fun γ k => if h : k.val < a then x γ ⟨k.val, h⟩ else y γ ⟨k.val - a, by have := k.isLt; omega⟩

/-- The two dense layers at the end. -/
def head {g k c o : Nat} (z : Fin g → Fin k → EReal) (Wm1 : Fin k → Fin c → EReal) (bm1 : Fin c → EReal)
    (Wm2 : Fin c → Fin o → EReal) (bm2 : Fin o → EReal) : Fin g → Fin o → EReal :=
  fun γ ω => mm (biasRelu (mm z Wm1) bm1) Wm2 γ ω + bm2 ω

/-- THE REFERENCE's result. -/
def refOut (sel : Fin 330000 → Fin 10000) (dstZ : Fin 330000 → Int) (nrm : Fin 330000 → EReal) (bt : Fin 10000 → Int)
    (x : Fin 10000 → Fin 128 → EReal) (fp : Fin 256 → Fin 5000 → EReal)
    (W1 : Fin 128 → Fin 256 → EReal) (b1 : Fin 256 → EReal) (W2 : Fin 256 → Fin 256 → EReal) (b2 : Fin 256 → EReal)
    (Wm1 : Fin 5256 → Fin 256 → EReal) (bm1 : Fin 256 → EReal) (Wm2 : Fin 256 → Fin 138 → EReal) (bm2 : Fin 138 → EReal) :
    Fin 256 → Fin 138 → EReal :=
  let h1 := refLayer sel dstZ nrm x W1 b1
  let h2 := refLayer sel dstZ nrm h1 W2 b2
  head (hcat (refPool (g := 256) bt h2) fp) Wm1 bm1 Wm2 bm2

/-! ## The kernel -/

/-- Rows appended below a matrix: row r of the result is row r of x while r < n, the constant row pad after. -/
def padRows {n c : Nat} (np : Nat) (x : Fin n → Fin c → EReal) (pad : EReal) : Fin np → Fin c → EReal :=
  fun r q => if h : r.val < n then x ⟨r.val, h⟩ q else pad

/-- The dense adjacency: entry (d, s) is 0 plus the sum of the weights of the edges with destination d and
    source s. -/
def adj {e : Nat} (np : Nat) (kd ks : Fin e → Int) (nrm : Fin e → EReal) : Fin np → Fin np → EReal :=
  fun d s => 0 + ∑ p : Fin e, if kd p = (d.val : Int) ∧ ks p = (s.val : Int) then nrm p else 0

/-- Column block k (of width 2048) of a row of A against the matching row block of H. -/
def blk {c : Nat} (A : Fin 10240 → Fin 10240 → EReal) (H : Fin 10240 → Fin c → EReal) (k : Fin 5) (d : Fin 10240) (q : Fin c) : EReal :=
  ∑ j : Fin 2048, A d ⟨2048 * k.val + j.val, by have := k.isLt; have := j.isLt; omega⟩ * H ⟨2048 * k.val + j.val, by have := k.isLt; have := j.isLt; omega⟩ q

/-- The five blocks accumulated in order from zero. -/
def blockSum {c : Nat} (A : Fin 10240 → Fin 10240 → EReal) (H : Fin 10240 → Fin c → EReal) (d : Fin 10240) (q : Fin c) : EReal :=
  ((((0 + blk A H 0 d q) + blk A H 1 d q) + blk A H 2 d q) + blk A H 3 d q) + blk A H 4 d q

/-- One aggregation of the kernel: the accumulated product, the bias, the clip at zero, the rows from n on zeroed. -/
def kerAgg {c : Nat} (n : Nat) (A : Fin 10240 → Fin 10240 → EReal) (H : Fin 10240 → Fin c → EReal) (b : Fin c → EReal) :
    Fin 10240 → Fin c → EReal :=
  fun d q => if d.val < n then max (blockSum A H d q + b q) 0 else 0

/-- The pooling matrix: entry (γ, j) is the indicator of "node j belongs to graph γ" (a padded node to none) divided
    by the indicator's row sum taken as at least 1. -/
def onehot {n : Nat} (np g : Nat) (bt : Fin n → Int) : Fin g → Fin np → EReal :=
  fun γ j => if (if h : j.val < n then bt ⟨j.val, h⟩ else -1) = (γ.val : Int) then 1 else 0
def poolMat {n : Nat} (np g : Nat) (bt : Fin n → Int) : Fin g → Fin np → EReal :=
  fun γ j => Ideal.div (onehot np g bt γ j) (max (0 + ∑ i : Fin np, onehot np g bt γ i) 1)

/-- Columns of zeros appended to the right of a matrix / rows of zeros below it. -/
def padCols {g k : Nat} (kp : Nat) (z : Fin g → Fin k → EReal) : Fin g → Fin kp → EReal :=
  fun γ j => if h : j.val < k then z γ ⟨j.val, h⟩ else 0

/-- THE KERNEL's result. -/
def kerOut (kd ks : Fin 330000 → Int) (nrm : Fin 330000 → EReal) (bt : Fin 10000 → Int)
    (x : Fin 10000 → Fin 128 → EReal) (fp : Fin 256 → Fin 5000 → EReal)
    (W1 : Fin 128 → Fin 256 → EReal) (b1 : Fin 256 → EReal) (W2 : Fin 256 → Fin 256 → EReal) (b2 : Fin 256 → EReal)
    (Wm1 : Fin 5256 → Fin 256 → EReal) (bm1 : Fin 256 → EReal) (Wm2 : Fin 256 → Fin 138 → EReal) (bm2 : Fin 138 → EReal) :
    Fin 256 → Fin 138 → EReal :=
  let A := adj 10240 kd ks nrm
  let hw1 := mm (padRows 10240 x 0) W1
  let h1 := kerAgg 10000 A hw1 b1
  let hw2 := mm h1 W2
  let h2 := kerAgg 10000 A hw2 b2
  let pooled := mm (poolMat 10240 256 bt) h2
  head (padCols 5376 (hcat pooled fp)) (padRows 5376 Wm1 0) bm1 Wm2 bm2

/-- An extended real that is a real number. -/
def IsReal (v : EReal) : Prop := ∃ r : ℝ, v = (r : EReal)

/-- THE BRIDGE: where every float input is a real number, every edge weight is
    a real number, every edge's two end points are rows below n — so that the reference's gathered row, the
    reference's destination and the kernel's two scatter coordinates name the same rows —, the two results agree. -/
def BridgeStatement : Prop :=
  ∀ (sel : Fin 330000 → Fin 10000) (dstZ kd ks : Fin 330000 → Int) (nrm : Fin 330000 → EReal) (bt : Fin 10000 → Int)
    (x : Fin 10000 → Fin 128 → EReal) (fp : Fin 256 → Fin 5000 → EReal)
    (W1 : Fin 128 → Fin 256 → EReal) (b1 : Fin 256 → EReal) (W2 : Fin 256 → Fin 256 → EReal) (b2 : Fin 256 → EReal)
    (Wm1 : Fin 5256 → Fin 256 → EReal) (bm1 : Fin 256 → EReal) (Wm2 : Fin 256 → Fin 138 → EReal) (bm2 : Fin 138 → EReal),
    (∀ p, ks p = ((sel p).val : Int)) → (∀ p, kd p = dstZ p) → (∀ p, 0 ≤ dstZ p ∧ dstZ p < 10000) →
    (∀ p, IsReal (nrm p)) → (∀ r k, IsReal (x r k)) → (∀ k q, IsReal (W1 k q)) → (∀ q, IsReal (b1 q)) →
    (∀ k q, IsReal (W2 k q)) → (∀ q, IsReal (b2 q)) →
    kerOut kd ks nrm bt x fp W1 b1 W2 b2 Wm1 bm1 Wm2 bm2 = refOut sel dstZ nrm bt x fp W1 b1 W2 b2 Wm1 bm1 Wm2 bm2

end Cert.Spec

end
-- ==== Proof.Inputs.lean ====
/-
  The inputs as plain functions, and what the two programs compute from the edge list before any float input is
  touched (both programs spell these first host operations identically).

  The edge list is the 320000 given edges followed by one self-loop per node: end point r (0 = source, 1 =
  destination) of edge p is the given word for p < 320000 and the node number p − 320000 after.
  An index word read for a GATHER is first wrapped (w + n where w is negative as a signed word) and then clamped
  into [0, n − 1]; read for a SCATTER it is taken signed as it is (the reference's segment sums) or wrapped by the
  padded extent 10240 (the kernel's dense scatter), and an index outside the array drops its update.
  The degree of node r is the number of edges with destination r; its inverse square root (of the degree taken as at
  least 1) is dinv r; the weight of edge p is dinv (source) · dinv (destination).
-/
import Idealize.ShloMosaic.PureOps.Ideal
import Idealize.ShloMosaic.Lib.ValueIdx

noncomputable section

open scoped BigOperators

namespace Cert.Inputs

open Idealize.ShloMosaic Idealize.ShloMosaic.ValueIdx

/-- A rank-2 array as a function of row and column; a rank-1 array as a function of its index. -/
abbrev mat {α : Type} {a b : Nat} (v : (⟨2, ![a, b]⟩ : Shape).Idx → α) : Fin a → Fin b → α := fun r c => v (ix2 r c)
abbrev vec {α : Type} {a : Nat} (v : (⟨1, ![a]⟩ : Shape).Idx → α) : Fin a → α := fun r => v (ix1 r)

variable (ei : (⟨2, ![2, 320000]⟩ : Shape).Idx → BitVec 32)

/-- End point r of edge p, as a word. -/
def endpoint (r : Fin 2) (p : Fin 330000) : BitVec 32 :=
  if h : p.val < 320000 then ei (ix2 r ⟨p.val, h⟩) else BitVec.ofNat 32 (p.val - 320000)
abbrev srcW (p : Fin 330000) : BitVec 32 := endpoint ei 0 p
abbrev dstW (p : Fin 330000) : BitVec 32 := endpoint ei 1 p

/-- A word wrapped by the extent n where it is negative. -/
def wrapW (n w : BitVec 32) : BitVec 32 := if w.toInt < 0 then w + n else w

/-- The row a gather of an array of 10000 rows reads for the word w: wrapped, then clamped. -/
def gatherRow (w : BitVec 32) : Fin 10000 := ⟨min (wrapW 10000#32 w).toInt.toNat 9999, by omega⟩

/-- The source row the reference gathers for edge p, and the row of dinv it reads for the destination. -/
def sel (p : Fin 330000) : Fin 10000 := gatherRow (srcW ei p)
def selD (p : Fin 330000) : Fin 10000 := gatherRow (dstW ei p)
/-- The destination as the reference's segment sums read it. -/
def dstZ (p : Fin 330000) : Int := (dstW ei p).toInt
/-- The two coordinates of the kernel's dense scatter. -/
def kd (p : Fin 330000) : Int := (wrapW 10240#32 (dstW ei p)).toInt
def ks (p : Fin 330000) : Int := (wrapW 10240#32 (srcW ei p)).toInt

/-- The degree, its inverse square root, the edge weight. -/
def deg (r : Fin 10000) : EReal := 0 + ∑ p : Fin 330000, if dstZ ei p = (r.val : Int) then (1 : EReal) else 0
def dinv (r : Fin 10000) : EReal := Ideal.rsqrt (max (deg ei r) 1)
def nrm (p : Fin 330000) : EReal := dinv ei (sel ei p) * dinv ei (selD ei p)

/-- The graph number of node j as the programs read it: the word, signed. -/
def bt (b : (⟨1, ![10000]⟩ : Shape).Idx → BitVec 32) (j : Fin 10000) : Int := (b (ix1 j)).toInt

end Cert.Inputs

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.LibEdges.lean ====
/-
  The first host operations of the two programs, read at an index: the two rows of given end points, the edge list
  (a row followed by the node numbers), a vector kept as a column, a scalar laid over a shape, the wrap of a negative
  index word, an entry of a vector taken at a column of start indices, and the degree (ones added into zeros at a
  column of destinations).

  Every lemma is about the pure operations applied to arbitrary operands; the shape facts and the dimension numbers
  of a program are arguments, so that either program's operations are instances.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate
import proofs.«410187_j66958540144771_3_alg».proof.Proof.Inputs
import proofs.«410187_j66958540144771_3_alg».proof.Proof.LibRows

noncomputable section

open scoped BigOperators

namespace Cert.LibEdges

open Idealize.ShloMosaic Idealize.ShloMosaic.ValueIdx

/-- Row o of the [2, 320000] array of given end points, as a vector, read at k. -/
theorem sliceRow_apply {α : Type} (o : Nat) (ho : o < 2)
    (hs : (⟨2, ![2, 320000]⟩ : Shape).Slices ![o, 0] ⟨2, ![1, 320000]⟩)
    (hc : (⟨2, ![1, 320000]⟩ : Shape).ShapeCasts ⟨1, ![320000]⟩)
    (x : (⟨2, ![2, 320000]⟩ : Shape).Idx → α) (k : Fin 320000) :
    shapeCast ⟨1, ![320000]⟩ (extractStridedSlice ⟨2, ![1, 320000]⟩ ![o, 0] x hs) hc (ix1 k) = x (ix2 ⟨o, ho⟩ k) := by
  rw [shapeCast_apply _ hc (ix1 k) (ix2 (0 : Fin 1) k)
    (by rewrite [Shape.rowMajor_val_two, Shape.rowMajor_val_one]; show 0 * 320000 + k.val = k.val; omega)]
  exact extractStridedSlice_apply ![o, 0] x hs (ix2 (0 : Fin 1) k) (ix2 ⟨o, ho⟩ k) (fun a => match a with
    | ⟨0, _⟩ => by show o = o + 0; omega
    | ⟨1, _⟩ => by show k.val = 0 + k.val; omega)

/-- A vector of 320000 words followed by the numbers 0 … 9999, read at p. -/
theorem concatIota_apply (hcat : Shape.Concatenates [(⟨1, ![320000]⟩ : Shape), ⟨1, ![10000]⟩] ⟨1, ![330000]⟩ 0)
    (x : IVec ⟨1, ![320000]⟩ 32) (p : Fin 330000) :
    concatenate ⟨1, ![330000]⟩ 0 [⟨⟨1, ![320000]⟩, x⟩, ⟨⟨1, ![10000]⟩, iotaInDim ⟨1, ![10000]⟩ 32 0⟩] hcat (ix1 p)
      = if h : p.val < 320000 then x (ix1 ⟨p.val, h⟩) else BitVec.ofNat 32 (p.val - 320000) := by
  by_cases h : p.val < 320000
  · rw [dif_pos h]
    exact concatenate_pair_apply_left (0 : Fin 1) x _ hcat (ix1 p) rfl (ix1 ⟨p.val, h⟩)
      (fun b => match b with | ⟨0, _⟩ => rfl)
  · rw [dif_neg h]
    have hp := p.isLt
    rw [concatenate_pair_apply_right (s₂ := ⟨1, ![10000]⟩) (0 : Fin 1) x _ hcat (ix1 p) rfl rfl (ix1 (⟨p.val - 320000, by omega⟩ : Fin 10000))
      (fun b hb => match b with | ⟨0, _⟩ => absurd rfl hb)
      (by show p.val - 320000 + 320000 = p.val; omega)]
    rfl

/-- A vector kept as a column, read at (p, 0). -/
theorem bcastCol_apply {α : Type} {n : Nat} (hn : n ≠ 1)
    (hb : (⟨1, ![n]⟩ : Shape).BroadcastsInDim ⟨2, ![n, 1]⟩ ![0]) (v : (⟨1, ![n]⟩ : Shape).Idx → α) (p : Fin n) :
    broadcastInDim ⟨2, ![n, 1]⟩ ![0] hb v (ix2 p (0 : Fin 1)) = v (ix1 p) :=
  broadcastInDim_apply _ hb v _ (ix1 p) (fun a => match a with
    | ⟨0, _⟩ => by show p.val = if n = 1 then 0 else p.val; rw [if_neg hn])

/-- A scalar laid over a whole shape, read anywhere. -/
theorem bcastScalar_apply {α : Type} {t : Shape}
    (hb : (⟨0, ![]⟩ : Shape).BroadcastsInDim t (![] : Fin 0 → Fin t.rank)) (c : (⟨0, ![]⟩ : Shape).Idx → α) (i : t.Idx) :
    broadcastInDim t ![] hb c i = c ix0 :=
  broadcastInDim_apply _ hb c i ix0 (fun a => a.elim0)

/-- The signed test against zero, the sum and the choice: the word wrapped by n where it is negative. -/
theorem wrapWord (n w : BitVec 32) :
    Scalar.select (IntOp.cmpi .slt w 0#32) (IntOp.addi w n) w = Cert.Inputs.wrapW n w := by
  unfold Scalar.select IntOp.cmpi IntOp.addi Cert.Inputs.wrapW
  have hc : (BitVec.ofBool (w.slt 0#32) = 1) ↔ w.toInt < 0 := by
    show BitVec.ofBool (w.slt 0#32) = 1#1 ↔ _
    rw [StableHlo.Predicate.ofBool_eq_one_iff]; simp [BitVec.slt]
  by_cases h : w.toInt < 0
  · rw [if_pos (hc.mpr h), if_pos h]
  · rw [if_neg (fun hh => h (hc.mp hh)), if_neg h]

/-- The same on whole vectors of words, read at an index. -/
theorem wrapVec_apply {t : Shape} (hb : (⟨0, ![]⟩ : Shape).BroadcastsInDim t (![] : Fin 0 → Fin t.rank))
    (n : BitVec 32) (w : IVec t 32) (i : t.Idx) :
    select (cmpi .slt w (broadcastInDim t ![] hb (constantI ⟨0, ![]⟩ 32 0#32)))
        (addi w (broadcastInDim t ![] hb (constantI ⟨0, ![]⟩ 32 n))) w i
      = Cert.Inputs.wrapW n (w i) := by
  show Scalar.select (IntOp.cmpi .slt (w i) (broadcastInDim t ![] hb (constantI ⟨0, ![]⟩ 32 0#32) i))
      (IntOp.addi (w i) (broadcastInDim t ![] hb (constantI ⟨0, ![]⟩ 32 n) i)) (w i) = _
  rw [bcastScalar_apply hb, bcastScalar_apply hb]
  exact wrapWord n (w i)

/-- The word 0x3F800000 reads one. -/
theorem ofBits_one_f32 : Ideal.ofBits .f32 0x3F800000#32 = 1 := by
  simp [Ideal.ofBits, Ideal.ieee, -EReal.coe_mul]; norm_num

/-- Ones added into zeros at a column of destinations: the number of entries of the column that name r. -/
theorem degree_apply (wf : ScatterDims.WF ⟨1, ![10000]⟩ ⟨2, ![330000, 1]⟩ ⟨1, ![330000]⟩ [] [0] [0] 1)
    (hb1 : (⟨0, ![]⟩ : Shape).BroadcastsInDim ⟨1, ![330000]⟩ (![] : Fin 0 → Fin 1))
    (hb0 : (⟨0, ![]⟩ : Shape).BroadcastsInDim ⟨1, ![10000]⟩ (![] : Fin 0 → Fin 1))
    (hcol : (⟨1, ![330000]⟩ : Shape).BroadcastsInDim ⟨2, ![330000, 1]⟩ ![0])
    (dst : IVec ⟨1, ![330000]⟩ 32) (r : Fin 10000) :
    Host.scatterAdd (F := Ideal) (φ := .f32) (Cert.LibRows.rowScatterDims1 10000 330000 wf)
        (broadcastInDim ⟨1, ![10000]⟩ ![] hb0 (constant (F := Ideal) ⟨0, ![]⟩ .f32 0x00000000#32))
        (broadcastInDim ⟨2, ![330000, 1]⟩ ![0] hcol dst)
        (broadcastInDim ⟨1, ![330000]⟩ ![] hb1 (constant (F := Ideal) ⟨0, ![]⟩ .f32 0x3F800000#32)) (ix1 r)
      = 0 + ∑ p : Fin 330000, if (dst (ix1 p)).toInt = (r.val : Int) then (1 : EReal) else 0 := by
  rw [Cert.LibRows.rowScatterAdd1_apply]
  refine congrArg₂ (· + ·) ?_ ?_
  · rw [bcastScalar_apply hb0]; exact Ideal.ofBits_zero_f32
  · refine Finset.sum_congr rfl fun p _ => ?_
    rw [bcastCol_apply (by omega) hcol, bcastScalar_apply hb1]
    show (if (dst (ix1 p)).toInt = (r.val : Int) then Ideal.ofBits .f32 0x3F800000#32 else 0) = _
    rw [ofBits_one_f32]

/-- An entry of a vector taken at a column of start indices: the word read signed and clamped into the vector. -/
theorem take_apply {α : Type} {N n w : Nat} (hN : 0 < N) (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) :
    Host.gather d x idx (ix1 p) = x (ix1 ⟨min (idx (ix2 p (0 : Fin 1))).toInt.toNat (N - 1), by omega⟩) := by
  have h1 : (ix1 p : (⟨1, ![n]⟩ : Shape).Idx) = Shape.Idx.ofFin p := by
    funext a; match a with | ⟨0, _⟩ => rfl
  have h2 : (ix2 p (0 : Fin 1) : (⟨2, ![n, 1]⟩ : Shape).Idx) = StableHlo.Predicate.ixP p := by
    funext a; match a with | ⟨0, _⟩ => rfl | ⟨1, _⟩ => rfl
  rw [h1]
  refine (StableHlo.Predicate.gather_take d hcoll hob hsim hivd x idx p hN).trans ?_
  congr 1
  funext a
  match a with
  | ⟨0, _⟩ =>
    refine Fin.ext ?_
    show min (idx (StableHlo.Predicate.ixP p)).toInt.toNat (N - 1) = min (idx (ix2 p (0 : Fin 1))).toInt.toNat (N - 1)
    rw [h2]

end Cert.LibEdges

end
-- ==== Proof.RefEdges.lean ====
/-
  The reference's first host operations compute the definitions of the inputs module: the source and destination
  words of the edge list, the degree, its inverse square root, the wrapped index words, the entries of the inverse
  square root taken at the two end points, and the edge weight; and the index columns the later row gathers and row
  scatter-adds read.
-/
import proofs.«410187_j66958540144771_3_alg».proof.Proof.Gen.ReferenceIdeal.Read
import proofs.«410187_j66958540144771_3_alg».proof.Proof.Inputs
import proofs.«410187_j66958540144771_3_alg».proof.Proof.LibRows
import proofs.«410187_j66958540144771_3_alg».proof.Proof.LibEdges

noncomputable section

open scoped BigOperators

namespace Cert.ReferenceIdeal.RefValue

open Cert.LibEdges

open Cert.ReferenceIdeal Cert.ReferenceIdeal.Gen Cert.ReferenceIdeal.Read Idealize.ShloMosaic Idealize.ShloMosaic.ValueIdx

variable (ei : (⟨2, ![2, 320000]⟩ : Shape).Idx → BitVec 32)

/-- The two rows of given end points. -/
theorem v2_apply (k : Fin 320000) : val_main_v2 (F := Ideal) ei (ix1 k) = ei (ix2 (0 : Fin 2) k) :=
  sliceRow_apply 0 (by decide) slices_S2x320000_S1x320000_0_0 shapeCasts_S1x320000_S320000 ei k
theorem v5_apply (k : Fin 320000) : val_main_v5 (F := Ideal) ei (ix1 k) = ei (ix2 (1 : Fin 2) k) :=
  sliceRow_apply 1 (by decide) slices_S2x320000_S1x320000_1_0 shapeCasts_S1x320000_S320000 ei k

/-- The source and destination words of edge p. -/
theorem v3_apply (p : Fin 330000) : val_main_v3 (F := Ideal) ei (ix1 p) = Cert.Inputs.srcW ei p := by
  refine (concatIota_apply concatenates_S320000_S10000_S330000_d0 (val_main_v2 (F := Ideal) ei) p).trans ?_
  show _ = Cert.Inputs.endpoint ei _ p
  unfold Cert.Inputs.endpoint
  by_cases h : p.val < 320000
  · rw [dif_pos h, dif_pos h]; exact v2_apply ei _
  · rw [dif_neg h, dif_neg h]
theorem v6_apply (p : Fin 330000) : val_main_v6 (F := Ideal) ei (ix1 p) = Cert.Inputs.dstW ei p := by
  refine (concatIota_apply concatenates_S320000_S10000_S330000_d0 (val_main_v5 (F := Ideal) ei) p).trans ?_
  show _ = Cert.Inputs.endpoint ei _ p
  unfold Cert.Inputs.endpoint
  by_cases h : p.val < 320000
  · rw [dif_pos h, dif_pos h]; exact v5_apply ei _
  · rw [dif_neg h, dif_neg h]

/-- The degree. -/
theorem v10_apply (r : Fin 10000) : val_main_v10 (F := Ideal) ei (ix1 r) = Cert.Inputs.deg ei r := by
  refine (degree_apply scatter_S10000_S330000x1_S330000_n_0_0_1_wf bcast_S_S330000 bcast_S_S10000
    bcast_S330000_S330000x1_0 (val_main_v6 (F := Ideal) ei) r).trans ?_
  unfold Cert.Inputs.deg Cert.Inputs.dstZ
  simp only [v6_apply]

/-- Its inverse square root. -/
theorem v13_apply (r : Fin 10000) : val_main_v13 (F := Ideal) ei (ix1 r) = Cert.Inputs.dinv ei r := by
  rw [val_main_v13_apply, val_main_v12_apply, v10_apply, val_main_v11_apply, val_main_cst_1_apply]
  rw [Ideal.hostUnary_rsqrt_def, Ideal.maximumf_def, Ideal.ofBits_def, ofBits_one_f32]
  rfl

/-- The wrapped words. -/
theorem v18_apply (p : Fin 330000) :
    val_main_v18 (F := Ideal) ei (ix1 p) = Cert.Inputs.wrapW 10000#32 (Cert.Inputs.srcW ei p) := by
  refine (wrapVec_apply bcast_S_S330000 10000#32 (val_main_v3 (F := Ideal) ei) (ix1 p)).trans ?_
  rw [v3_apply]
theorem v25_apply (p : Fin 330000) :
    val_main_v25 (F := Ideal) ei (ix1 p) = Cert.Inputs.wrapW 10000#32 (Cert.Inputs.dstW ei p) := by
  refine (wrapVec_apply bcast_S_S330000 10000#32 (val_main_v6 (F := Ideal) ei) (ix1 p)).trans ?_
  rw [v6_apply]

/-- The entries of the inverse square root taken at the two end points. -/
theorem v20_apply (p : Fin 330000) :
    val_main_v20 (F := Ideal) ei (ix1 p) = Cert.Inputs.dinv ei (Cert.Inputs.sel ei p) := by
  refine (take_apply (N := 10000) (by omega) gather_S10000_S330000x1_S330000_n_0_n_n_0_1_1 rfl rfl rfl rfl
    (val_main_v13 (F := Ideal) ei) (val_main_v19 (F := Ideal) ei) p).trans ?_
  rw [v13_apply]
  refine congrArg (Cert.Inputs.dinv ei) (Fin.ext ?_)
  show min (broadcastInDim S330000x1 ![0] bcast_S330000_S330000x1_0 (val_main_v18 (F := Ideal) ei) (ix2 p (0 : Fin 1))).toInt.toNat (10000 - 1)
    = min (Cert.Inputs.wrapW 10000#32 (Cert.Inputs.srcW ei p)).toInt.toNat 9999
  rw [bcastCol_apply (by omega) bcast_S330000_S330000x1_0, v18_apply]
theorem v27_apply (p : Fin 330000) :
    val_main_v27 (F := Ideal) ei (ix1 p) = Cert.Inputs.dinv ei (Cert.Inputs.selD ei p) := by
  refine (take_apply (N := 10000) (by omega) gather_S10000_S330000x1_S330000_n_0_n_n_0_1_1 rfl rfl rfl rfl
    (val_main_v13 (F := Ideal) ei) (val_main_v26 (F := Ideal) ei) p).trans ?_
  rw [v13_apply]
  refine congrArg (Cert.Inputs.dinv ei) (Fin.ext ?_)
  show min (broadcastInDim S330000x1 ![0] bcast_S330000_S330000x1_0 (val_main_v25 (F := Ideal) ei) (ix2 p (0 : Fin 1))).toInt.toNat (10000 - 1)
    = min (Cert.Inputs.wrapW 10000#32 (Cert.Inputs.dstW ei p)).toInt.toNat 9999
  rw [bcastCol_apply (by omega) bcast_S330000_S330000x1_0, v25_apply]

/-- The edge weight. -/
theorem v28_apply (p : Fin 330000) : val_main_v28 (F := Ideal) ei (ix1 p) = Cert.Inputs.nrm ei p := by
  show val_main_v20 (F := Ideal) ei (ix1 p) * val_main_v27 (F := Ideal) ei (ix1 p) = _
  rw [v20_apply, v27_apply]
  rfl

/-- The wrapped source words the two row gathers read (the same wrap, spelt again). -/
theorem v34_apply (p : Fin 330000) :
    val_main_v34 (F := Ideal) ei (ix1 p) = Cert.Inputs.wrapW 10000#32 (Cert.Inputs.srcW ei p) := by
  refine (wrapVec_apply bcast_S_S330000 10000#32 (val_main_v3 (F := Ideal) ei) (ix1 p)).trans ?_
  rw [v3_apply]
theorem v52_apply (p : Fin 330000) :
    val_main_v52 (F := Ideal) ei (ix1 p) = Cert.Inputs.wrapW 10000#32 (Cert.Inputs.srcW ei p) := by
  refine (wrapVec_apply bcast_S_S330000 10000#32 (val_main_v3 (F := Ideal) ei) (ix1 p)).trans ?_
  rw [v3_apply]

/-- The index columns of the row gathers and of the row scatter-adds, at (p, 0). -/
theorem v35_apply (p : Fin 330000) :
    val_main_v35 (F := Ideal) ei (ix2 p (0 : Fin 1)) = Cert.Inputs.wrapW 10000#32 (Cert.Inputs.srcW ei p) :=
  (bcastCol_apply (by omega) bcast_S330000_S330000x1_0 (val_main_v34 (F := Ideal) ei) p).trans (v34_apply ei p)
theorem v53_apply (p : Fin 330000) :
    val_main_v53 (F := Ideal) ei (ix2 p (0 : Fin 1)) = Cert.Inputs.wrapW 10000#32 (Cert.Inputs.srcW ei p) :=
  (bcastCol_apply (by omega) bcast_S330000_S330000x1_0 (val_main_v52 (F := Ideal) ei) p).trans (v52_apply ei p)
theorem v41_apply (p : Fin 330000) :
    val_main_v41 (F := Ideal) ei (ix2 p (0 : Fin 1)) = Cert.Inputs.dstW ei p :=
  (bcastCol_apply (by omega) bcast_S330000_S330000x1_0 (val_main_v6 (F := Ideal) ei) p).trans (v6_apply ei p)
theorem v59_apply (p : Fin 330000) :
    val_main_v59 (F := Ideal) ei (ix2 p (0 : Fin 1)) = Cert.Inputs.dstW ei p :=
  (bcastCol_apply (by omega) bcast_S330000_S330000x1_0 (val_main_v6 (F := Ideal) ei) p).trans (v6_apply ei p)

end Cert.ReferenceIdeal.RefValue

end
-- ==== Proof.RefLayer.lean ====
/-
  One graph-convolution layer of the reference, read at an index.

  A layer projects the node features (a matrix product), takes for every edge the projected row of the edge's
  source, multiplies it by the edge's weight, adds the products at the rows of the edges' destinations, adds the
  bias and clips at zero. Read at row r and column q this is Spec.refLayer of the inputs: the product is the sum
  over the contracted coordinate, the gathered row is the clamped wrapped source word (Inputs.sel), an update lands
  on row r exactly when the destination word read signed is r (Inputs.dstZ), and the weight is Inputs.nrm (these words and weights are read off the edge list).
-/
import proofs.«410187_j66958540144771_3_alg».proof.Proof.Gen.ReferenceIdeal.Read
import proofs.«410187_j66958540144771_3_alg».proof.Proof.Spec
import proofs.«410187_j66958540144771_3_alg».proof.Proof.Inputs
import proofs.«410187_j66958540144771_3_alg».proof.Proof.LibRows
import proofs.«410187_j66958540144771_3_alg».proof.Proof.RefEdges

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-! ## The aggregation -/

/-- Rows of hw gathered at a column of words gi, multiplied entry by entry with wt, and added into z at the rows
    a column of words si names: where z is zero, gi holds the wrapped source words, si the destination words and
    wt the edge weights along every row, element (r, q) is the reference's aggregation of hw. -/
theorem agg_apply (ei : (⟨S2x320000, .i32⟩ : BufTy).Contents (Elt Ideal))
    (z hw : (⟨2, ![10000, 256]⟩ : Shape).Idx → EReal) (gi si : IVec ⟨2, ![330000, 1]⟩ 32)
    (wt : (⟨2, ![330000, 256]⟩ : Shape).Idx → EReal)
    (hz : ∀ (r : Fin 10000) (q : Fin 256), z (ix2 r q) = 0)
    (hgi : ∀ p : Fin 330000, gi (ix2 p (0 : Fin 1)) = Inputs.wrapW 10000#32 (Inputs.srcW ei p))
    (hsi : ∀ p : Fin 330000, si (ix2 p (0 : Fin 1)) = Inputs.dstW ei p)
    (hwt : ∀ (p : Fin 330000) (q : Fin 256), wt (ix2 p q) = Inputs.nrm ei p)
    (r : Fin 10000) (q : Fin 256) :
    Host.scatterAdd (F := Ideal) (φ := .f32) scatter_S10000x256_S330000x1_S330000x256_1_0_0_1 z si
        (mulf (F := Ideal) (Host.gather gather_S10000x256_S330000x1_S330000x256_1_0_n_n_0_1_1256 hw gi) wt) (ix2 r q)
      = Spec.refAgg (Inputs.sel ei) (Inputs.dstZ ei) (Inputs.nrm ei) (Inputs.mat hw) r q := by
  have hs : scatter_S10000x256_S330000x1_S330000x256_1_0_0_1
      = LibRows.rowScatterDims 10000 330000 256 Gen.scatter_S10000x256_S330000x1_S330000x256_1_0_0_1_wf := rfl
  have hg : gather_S10000x256_S330000x1_S330000x256_1_0_n_n_0_1_1256
      = LibRows.rowGatherDims 10000 330000 256 Gen.gather_S10000x256_S330000x1_S330000x256_1_0_n_n_0_1_1256_wf := rfl
  rw [hs, hg, LibRows.rowScatterAdd_apply, hz]
  unfold Spec.refAgg
  refine congrArg (fun s : EReal => 0 + s) (Finset.sum_congr rfl fun p _ => ?_)
  rw [hsi]
  refine if_congr Iff.rfl ?_ rfl
  show Host.gather (LibRows.rowGatherDims 10000 330000 256 Gen.gather_S10000x256_S330000x1_S330000x256_1_0_n_n_0_1_1256_wf) hw gi (ix2 p q)
    * wt (ix2 p q) = _
  rw [hwt, LibRows.rowGather_apply (by omega)]
  refine congrArg (fun s : EReal => s * Inputs.nrm ei p) ?_
  have hrow : (⟨min (gi (ix2 p (0 : Fin 1))).toInt.toNat (10000 - 1), by omega⟩ : Fin 10000) = Inputs.sel ei p :=
    Fin.ext (by show min _ _ = min _ _; rw [hgi])
  rw [hrow]

/-! ## The first layer -/

section Layer1
variable (x0 : (⟨S10000x128, .f32⟩ : BufTy).Contents (Elt Ideal)) (ei : (⟨S2x320000, .i32⟩ : BufTy).Contents (Elt Ideal))
  (x4 : (⟨S128x256, .f32⟩ : BufTy).Contents (Elt Ideal)) (x5 : (⟨S256, .f32⟩ : BufTy).Contents (Elt Ideal))

/-- The projected features are the product of the features and the weights. -/
theorem v29_mat : Inputs.mat (val_main_v29 (F := Ideal) x0 x4) = Spec.mm (Inputs.mat x0) (Inputs.mat x4) := by
  funext s q
  show val_main_v29 (F := Ideal) x0 x4 (ix2 s q) = ∑ k : Fin 128, x0 (ix2 s k) * x4 (ix2 k q)
  rw [val_main_v29_apply]
  refine Finset.sum_congr rfl fun k _ => ?_
  have el : lidx_main_v29 (ix2 s q) k = ix2 s k :=
    funext fun a => Fin.ext (by match a with | ⟨0, _⟩ => rfl | ⟨1, _⟩ => rfl)
  have er : ridx_main_v29 (ix2 s q) k = ix2 k q :=
    funext fun a => Fin.ext (by match a with | ⟨0, _⟩ => rfl | ⟨1, _⟩ => rfl)
  rw [el, er]

/-- The aggregation of the first layer. -/
theorem v42_apply (r : Fin 10000) (q : Fin 256) :
    val_main_v42 (F := Ideal) x0 ei x4 (ix2 r q)
      = Spec.refAgg (Inputs.sel ei) (Inputs.dstZ ei) (Inputs.nrm ei) (Spec.mm (Inputs.mat x0) (Inputs.mat x4)) r q := by
  rw [← v29_mat]
  unfold val_main_v42 val_main_v39 val_main_v36
  refine agg_apply ei _ _ _ _ _ (fun r q => ?_) (fun p => ?_) (fun p => ?_) (fun p q => ?_) r q
  · rw [val_main_v40_apply, val_main_cst_7_apply]
    exact Ideal.ofBits_zero_f32
  · have e : idx_main_v35 (ix2 p (0 : Fin 1)) = ix1 p := funext fun a => match a with | ⟨0, _⟩ => rfl
    rw [val_main_v35_apply, e, v34_apply]
  · have e : idx_main_v41 (ix2 p (0 : Fin 1)) = ix1 p := funext fun a => match a with | ⟨0, _⟩ => rfl
    rw [val_main_v41_apply, e, v6_apply]
  · have e : idx_main_v37 (idx_main_v38 (ix2 p q)) = ix1 p := funext fun a => match a with | ⟨0, _⟩ => rfl
    rw [val_main_v38_apply, val_main_v37_apply, e, v28_apply]

/-- THE FIRST LAYER at row r and column q. -/
theorem layer1_apply (r : Fin 10000) (q : Fin 256) :
    val_main_v46 (F := Ideal) x0 ei x4 x5 (ix2 r q)
      = Spec.refLayer (Inputs.sel ei) (Inputs.dstZ ei) (Inputs.nrm ei) (Inputs.mat x0) (Inputs.mat x4) (Inputs.vec x5) r q := by
  have e : idx_main_v43 (idx_main_v44 (ix2 r q)) = ix1 q := funext fun a => match a with | ⟨0, _⟩ => rfl
  rw [val_main_v46_apply, val_main_v45_apply, val_main_v44_apply, val_main_v43_apply, val_main_call0_v0_apply,
    val_main_call0_cst_apply, v42_apply, e]
  simp only [Ideal.maximumf_def, Ideal.addf_def, Ideal.ofBits_def, Ideal.ofBits_zero_f32]
  rfl

end Layer1

/-! ## The second layer -/

section Layer2
variable (x0 : (⟨S10000x128, .f32⟩ : BufTy).Contents (Elt Ideal)) (ei : (⟨S2x320000, .i32⟩ : BufTy).Contents (Elt Ideal))
  (x4 : (⟨S128x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- The first layer's result, as a matrix. -/
abbrev h1 : Fin 10000 → Fin 256 → EReal :=
  Spec.refLayer (Inputs.sel ei) (Inputs.dstZ ei) (Inputs.nrm ei) (Inputs.mat x0) (Inputs.mat x4) (Inputs.vec x5)

/-- The second projection is the product of the first layer's result and the weights. -/
theorem v47_mat : Inputs.mat (val_main_v47 (F := Ideal) x0 ei x4 x5 x6) = Spec.mm (h1 x0 ei x4 x5) (Inputs.mat x6) := by
  funext s q
  show val_main_v47 (F := Ideal) x0 ei x4 x5 x6 (ix2 s q) = ∑ k : Fin 256, h1 x0 ei x4 x5 s k * x6 (ix2 k q)
  rw [val_main_v47_apply]
  refine Finset.sum_congr rfl fun k _ => ?_
  have el : lidx_main_v47 (ix2 s q) k = ix2 s k :=
    funext fun a => Fin.ext (by match a with | ⟨0, _⟩ => rfl | ⟨1, _⟩ => rfl)
  have er : ridx_main_v47 (ix2 s q) k = ix2 k q :=
    funext fun a => Fin.ext (by match a with | ⟨0, _⟩ => rfl | ⟨1, _⟩ => rfl)
  rw [el, er, layer1_apply]

/-- The aggregation of the second layer. -/
theorem v60_apply (r : Fin 10000) (q : Fin 256) :
    val_main_v60 (F := Ideal) x0 ei x4 x5 x6 (ix2 r q)
      = Spec.refAgg (Inputs.sel ei) (Inputs.dstZ ei) (Inputs.nrm ei) (Spec.mm (h1 x0 ei x4 x5) (Inputs.mat x6)) r q := by
  rw [← v47_mat]
  unfold val_main_v60 val_main_v57 val_main_v54
  refine agg_apply ei _ _ _ _ _ (fun r q => ?_) (fun p => ?_) (fun p => ?_) (fun p q => ?_) r q
  · rw [val_main_v58_apply, val_main_cst_10_apply]
    exact Ideal.ofBits_zero_f32
  · have e : idx_main_v53 (ix2 p (0 : Fin 1)) = ix1 p := funext fun a => match a with | ⟨0, _⟩ => rfl
    rw [val_main_v53_apply, e, v52_apply]
  · have e : idx_main_v59 (ix2 p (0 : Fin 1)) = ix1 p := funext fun a => match a with | ⟨0, _⟩ => rfl
    rw [val_main_v59_apply, e, v6_apply]
  · have e : idx_main_v55 (idx_main_v56 (ix2 p q)) = ix1 p := funext fun a => match a with | ⟨0, _⟩ => rfl
    rw [val_main_v56_apply, val_main_v55_apply, e, v28_apply]

/-- THE SECOND LAYER at row r and column q. -/
theorem layer2_apply (r : Fin 10000) (q : Fin 256) :
    val_main_v64 (F := Ideal) x0 ei x4 x5 x6 x7 (ix2 r q)
      = Spec.refLayer (Inputs.sel ei) (Inputs.dstZ ei) (Inputs.nrm ei) (h1 x0 ei x4 x5) (Inputs.mat x6) (Inputs.vec x7) r q := by
  have e : idx_main_v61 (idx_main_v62 (ix2 r q)) = ix1 q := funext fun a => match a with | ⟨0, _⟩ => rfl
  rw [val_main_v64_apply, val_main_v63_apply, val_main_v62_apply, val_main_v61_apply, val_main_call1_v0_apply,
    val_main_call1_cst_apply, v60_apply, e]
  simp only [Ideal.maximumf_def, Ideal.addf_def, Ideal.ofBits_def, Ideal.ofBits_zero_f32]
  rfl

end Layer2

end Cert.ReferenceIdeal.RefValue

end
-- ==== Proof.RefValue.lean ====
/-
  THE REFERENCE's result, index by index: Spec.refOut of the inputs.

  After the two graph-convolution layers the reference adds up the rows of each graph (a row scatter-add at the
  graph numbers), counts the rows of each graph (the same scatter-add of ones), divides the sums by the counts
  taken as at least 1, puts the fingerprint columns to the right of the 256 pooled ones, and applies two dense
  layers (a product, a bias, a clip at zero; a product, a bias). Each stage is read at an index and is the
  matching function of Spec; the result's term is the last stage.
-/
import proofs.«410187_j66958540144771_3_alg».proof.Proof.RefLayer

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-! ## The constant one -/

/-- The word 0x3F800000 reads 1. -/
theorem ofBits_one_f32 : Ideal.ofBits .f32 0x3F800000#32 = 1 := by
  simp [Ideal.ofBits, Ideal.ieee]
  rw [← EReal.coe_mul, ← EReal.coe_one]
  congr 1
  norm_num

/-! ## The pooling -/

section Pool
variable (x0 : (⟨S10000x128, .f32⟩ : BufTy).Contents (Elt Ideal)) (ei : (⟨S2x320000, .i32⟩ : BufTy).Contents (Elt Ideal))
  (x2 : (⟨S10000, .i32⟩ : BufTy).Contents (Elt Ideal))
  (x4 : (⟨S128x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))

/-- The second layer's result, as a matrix. -/
abbrev h2 : Fin 10000 → Fin 256 → EReal :=
  Spec.refLayer (Inputs.sel ei) (Inputs.dstZ ei) (Inputs.nrm ei) (h1 x0 ei x4 x5) (Inputs.mat x6) (Inputs.vec x7)

/-- The graph number of node j, as the pool sums read it. -/
theorem bt_word (j : Fin 10000) : (val_main_v66 (F := Ideal) x2 (ix2 j (0 : Fin 1))).toInt = Inputs.bt x2 j := by
  have e : idx_main_v66 (ix2 j (0 : Fin 1)) = ix1 j := funext fun a => match a with | ⟨0, _⟩ => rfl
  rw [val_main_v66_apply, e]
  rfl

/-- The sums of the rows of each graph. -/
theorem v67_apply (γ : Fin 256) (q : Fin 256) :
    val_main_v67 (F := Ideal) x0 ei x2 x4 x5 x6 x7 (ix2 γ q)
      = Spec.refSums (g := 256) (Inputs.bt x2) (h2 x0 ei x4 x5 x6 x7) γ q := by
  have hs : scatter_S256x256_S10000x1_S10000x256_1_0_0_1
      = LibRows.rowScatterDims 256 10000 256 Gen.scatter_S256x256_S10000x1_S10000x256_1_0_0_1_wf := rfl
  unfold val_main_v67
  rw [hs, LibRows.rowScatterAdd_apply, val_main_v65_apply, val_main_cst_11_apply]
  unfold Spec.refSums
  refine congrArg₂ (· + ·) Ideal.ofBits_zero_f32 (Finset.sum_congr rfl fun j _ => ?_)
  rw [bt_word, layer2_apply]

/-- The sizes of the graphs. -/
theorem v71_apply (γ : Fin 256) :
    val_main_v71 (F := Ideal) x2 (ix1 γ) = Spec.refCnt (g := 256) (Inputs.bt x2) γ := by
  have hs : scatter_S256_S10000x1_S10000_n_0_0_1
      = LibRows.rowScatterDims1 256 10000 Gen.scatter_S256_S10000x1_S10000_n_0_0_1_wf := rfl
  have e66 : val_main_v70 (F := Ideal) x2 = val_main_v66 (F := Ideal) x2 := rfl
  unfold val_main_v71
  rw [hs, LibRows.rowScatterAdd1_apply, val_main_v69_apply, val_main_cst_13_apply, e66]
  unfold Spec.refCnt
  refine congrArg₂ (· + ·) Ideal.ofBits_zero_f32 (Finset.sum_congr rfl fun j _ => ?_)
  rw [bt_word, val_main_v68_apply, val_main_cst_12_apply]
  refine if_congr Iff.rfl ofBits_one_f32 rfl

/-- THE POOLED FEATURES at graph γ and column q. -/
theorem pool_apply (γ : Fin 256) (q : Fin 256) :
    val_main_v76 (F := Ideal) x0 ei x2 x4 x5 x6 x7 (ix2 γ q)
      = Spec.refPool (g := 256) (Inputs.bt x2) (h2 x0 ei x4 x5 x6 x7) γ q := by
  have e : idx_main_v74 (idx_main_v75 (ix2 γ q)) = ix1 γ := funext fun a => match a with | ⟨0, _⟩ => rfl
  rw [val_main_v76_apply, v67_apply, val_main_v75_apply, val_main_v74_apply, e, val_main_v73_apply, v71_apply,
    val_main_v72_apply, val_main_cst_14_apply]
  simp only [Ideal.hostDivf_def, Ideal.maximumf_def, Ideal.ofBits_def, ofBits_one_f32]
  rfl

end Pool

/-! ## The fingerprint columns appended, and the two dense layers -/

section Head
variable (x0 : (⟨S10000x128, .f32⟩ : BufTy).Contents (Elt Ideal)) (ei : (⟨S2x320000, .i32⟩ : BufTy).Contents (Elt Ideal))
  (x2 : (⟨S10000, .i32⟩ : BufTy).Contents (Elt Ideal)) (x3 : (⟨S256x5000, .f32⟩ : BufTy).Contents (Elt Ideal))
  (x4 : (⟨S128x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S5256x256, .f32⟩ : BufTy).Contents (Elt Ideal)) (x9 : (⟨S256, .f32⟩ : BufTy).Contents (Elt Ideal))
  (x10 : (⟨S256x138, .f32⟩ : BufTy).Contents (Elt Ideal)) (x11 : (⟨S138, .f32⟩ : BufTy).Contents (Elt Ideal))

/-- The pooled features with the fingerprint columns to their right. -/
abbrev zcat : Fin 256 → Fin (256 + 5000) → EReal :=
  Spec.hcat (Spec.refPool (g := 256) (Inputs.bt x2) (h2 x0 ei x4 x5 x6 x7)) (Inputs.mat x3)

/-- THE CONCATENATION at graph γ and column k: a pooled column below 256, a fingerprint column from there on. -/
theorem concat_apply (γ : Fin 256) (k : Fin 5256) :
    val_main_v77 (F := Ideal) x0 ei x2 x3 x4 x5 x6 x7 (ix2 γ k) = zcat x0 ei x2 x3 x4 x5 x6 x7 γ k := by
  unfold val_main_v77
  show _ = Spec.hcat (Spec.refPool (g := 256) (Inputs.bt x2) (h2 x0 ei x4 x5 x6 x7)) (Inputs.mat x3) γ k
  unfold Spec.hcat
  by_cases hk : k.val < 256
  · rw [dif_pos hk]
    refine (concatenate_pair_apply_left _ _ _ concatenates_S256x256_S256x5000_S256x5256_d1 (ix2 γ k) rfl
      (ix2 γ (⟨k.val, hk⟩ : Fin 256)) (fun b => match b with | ⟨0, _⟩ => rfl | ⟨1, _⟩ => rfl)).trans ?_
    exact pool_apply x0 ei x2 x4 x5 x6 x7 γ ⟨k.val, hk⟩
  · rw [dif_neg hk]
    refine (concatenate_pair_apply_right _ _ _ concatenates_S256x256_S256x5000_S256x5256_d1 (ix2 γ k) rfl rfl
      (ix2 γ (⟨k.val - 256, by have := k.isLt; omega⟩ : Fin 5000))
      (fun b hb => match b, hb with | ⟨0, _⟩, _ => rfl | ⟨1, _⟩, hb => (hb (Fin.ext rfl)).elim) ?_).trans ?_
    · show (k.val - 256) + 256 = k.val
      omega
    · rfl

/-- The first dense layer before its bias. -/
theorem v78_apply (γ : Fin 256) (c : Fin 256) :
    val_main_v78 (F := Ideal) x0 ei x2 x3 x4 x5 x6 x7 x8 (ix2 γ c)
      = Spec.mm (zcat x0 ei x2 x3 x4 x5 x6 x7) (Inputs.mat x8) γ c := by
  rw [val_main_v78_apply]
  show _ = ∑ k : Fin 5256, zcat x0 ei x2 x3 x4 x5 x6 x7 γ k * x8 (ix2 k c)
  refine Finset.sum_congr rfl fun k _ => ?_
  have el : lidx_main_v78 (ix2 γ c) k = ix2 γ k :=
    funext fun a => Fin.ext (by match a with | ⟨0, _⟩ => rfl | ⟨1, _⟩ => rfl)
  have er : ridx_main_v78 (ix2 γ c) k = ix2 k c :=
    funext fun a => Fin.ext (by match a with | ⟨0, _⟩ => rfl | ⟨1, _⟩ => rfl)
  rw [el, er, concat_apply]

/-- The first dense layer. -/
theorem v82_apply (γ : Fin 256) (c : Fin 256) :
    val_main_v82 (F := Ideal) x0 ei x2 x3 x4 x5 x6 x7 x8 x9 (ix2 γ c)
      = Spec.biasRelu (Spec.mm (zcat x0 ei x2 x3 x4 x5 x6 x7) (Inputs.mat x8)) (Inputs.vec x9) γ c := by
  have e : idx_main_v79 (idx_main_v80 (ix2 γ c)) = ix1 c := funext fun a => match a with | ⟨0, _⟩ => rfl
  rw [val_main_v82_apply, val_main_v81_apply, val_main_v80_apply, val_main_v79_apply, val_main_call2_v0_apply,
    val_main_call2_cst_apply, v78_apply, e]
  simp only [Ideal.maximumf_def, Ideal.addf_def, Ideal.ofBits_def, Ideal.ofBits_zero_f32]
  rfl

/-- THE HEAD at graph γ and output ω. -/
theorem head_apply (γ : Fin 256) (ω : Fin 138) :
    val_main_v86 (F := Ideal) x0 ei x2 x3 x4 x5 x6 x7 x8 x9 x10 x11 (ix2 γ ω)
      = Spec.head (zcat x0 ei x2 x3 x4 x5 x6 x7) (Inputs.mat x8) (Inputs.vec x9) (Inputs.mat x10) (Inputs.vec x11) γ ω := by
  have e : idx_main_v84 (idx_main_v85 (ix2 γ ω)) = ix1 ω := funext fun a => match a with | ⟨0, _⟩ => rfl
  rw [val_main_v86_apply, val_main_v85_apply, val_main_v84_apply, e, val_main_v83_apply]
  simp only [Ideal.addf_def]
  unfold Spec.head
  refine congrArg (fun s : EReal => s + x11 (ix1 ω)) ?_
  show _ = ∑ k : Fin 256, Spec.biasRelu (Spec.mm (zcat x0 ei x2 x3 x4 x5 x6 x7) (Inputs.mat x8)) (Inputs.vec x9) γ k
      * x10 (ix2 k ω)
  refine Finset.sum_congr rfl fun k _ => ?_
  have el : lidx_main_v83 (ix2 γ ω) k = ix2 γ k :=
    funext fun a => Fin.ext (by match a with | ⟨0, _⟩ => rfl | ⟨1, _⟩ => rfl)
  have er : ridx_main_v83 (ix2 γ ω) k = ix2 k ω :=
    funext fun a => Fin.ext (by match a with | ⟨0, _⟩ => rfl | ⟨1, _⟩ => rfl)
  rw [el, er, v82_apply]

/-- The reference's last stage is Spec.refOut of the inputs. -/
theorem out_apply (γ : Fin 256) (ω : Fin 138) :
    val_main_v86 (F := Ideal) x0 ei x2 x3 x4 x5 x6 x7 x8 x9 x10 x11 (ix2 γ ω)
      = Spec.refOut (Inputs.sel ei) (Inputs.dstZ ei) (Inputs.nrm ei) (Inputs.bt x2) (Inputs.mat x0) (Inputs.mat x3)
          (Inputs.mat x4) (Inputs.vec x5) (Inputs.mat x6) (Inputs.vec x7) (Inputs.mat x8) (Inputs.vec x9)
          (Inputs.mat x10) (Inputs.vec x11) γ ω :=
  (head_apply x0 ei x2 x3 x4 x5 x6 x7 x8 x9 x10 x11 γ ω).trans rfl

end Head

/-! ## The result -/

/-- THE REFERENCE's result is Spec.refOut of the inputs. -/
theorem ref_value (m : (ℓ : Loc nD τ sig) → Buf (Elt Ideal) ℓ) (c : Dev nD) (γ : Fin 256) (ω : Fin 138) :
    (Cert.ReferenceIdeal.Value.res_out0 (F := Ideal) m c : S256x138.Idx → EReal) (ix2 γ ω)
      = Spec.refOut
          (Inputs.sel (m ((c.tc : Thread nD τ).loc main_arg1) : (⟨S2x320000, .i32⟩ : BufTy).Contents (Elt Ideal)))
          (Inputs.dstZ (m ((c.tc : Thread nD τ).loc main_arg1) : (⟨S2x320000, .i32⟩ : BufTy).Contents (Elt Ideal)))
          (Inputs.nrm (m ((c.tc : Thread nD τ).loc main_arg1) : (⟨S2x320000, .i32⟩ : BufTy).Contents (Elt Ideal)))
          (Inputs.bt (m ((c.tc : Thread nD τ).loc main_arg2) : (⟨S10000, .i32⟩ : BufTy).Contents (Elt Ideal)))
          (Inputs.mat (m ((c.tc : Thread nD τ).loc main_arg0) : (⟨S10000x128, .f32⟩ : BufTy).Contents (Elt Ideal)))
          (Inputs.mat (m ((c.tc : Thread nD τ).loc main_arg3) : (⟨S256x5000, .f32⟩ : BufTy).Contents (Elt Ideal)))
          (Inputs.mat (m ((c.tc : Thread nD τ).loc main_arg4) : (⟨S128x256, .f32⟩ : BufTy).Contents (Elt Ideal)))
          (Inputs.vec (m ((c.tc : Thread nD τ).loc main_arg5) : (⟨S256, .f32⟩ : BufTy).Contents (Elt Ideal)))
          (Inputs.mat (m ((c.tc : Thread nD τ).loc main_arg6) : (⟨S256x256, .f32⟩ : BufTy).Contents (Elt Ideal)))
          (Inputs.vec (m ((c.tc : Thread nD τ).loc main_arg7) : (⟨S256, .f32⟩ : BufTy).Contents (Elt Ideal)))
          (Inputs.mat (m ((c.tc : Thread nD τ).loc main_arg8) : (⟨S5256x256, .f32⟩ : BufTy).Contents (Elt Ideal)))
          (Inputs.vec (m ((c.tc : Thread nD τ).loc main_arg9) : (⟨S256, .f32⟩ : BufTy).Contents (Elt Ideal)))
          (Inputs.mat (m ((c.tc : Thread nD τ).loc main_arg10) : (⟨S256x138, .f32⟩ : BufTy).Contents (Elt Ideal)))
          (Inputs.vec (m ((c.tc : Thread nD τ).loc main_arg11) : (⟨S138, .f32⟩ : BufTy).Contents (Elt Ideal)))
          γ ω :=
  (congrFun (val_main_v86_eq (F := Ideal) m c) (ix2 γ ω)).trans (out_apply _ _ _ _ _ _ _ _ _ _ _ _ γ ω)

end Cert.ReferenceIdeal.RefValue

end
-- ==== Proof.LibScatter2.lean ====
/-
  Entries added into a matrix at a matrix of index pairs, read at one index.

  One host operation over an operand of shape [a, b], an array of integer words of shape [e, 2] and a vector of
  updates of shape [e]: the scatter with no update window axis, both operand axes inserted,
  scatter-dims-to-operand-dims [0, 1] and index vector axis 1, whose body adds — what x.at[dst, src].add(u)
  lowers to for two index vectors dst, src and a vector u. Update p lands on the operand's element (r, s)
  exactly when the two words idx[p, 0] and idx[p, 1], read signed and NOT clamped, are r and s
  (scatter2_resultIdx); so over the extended reals the result's element (r, s) is the operand's plus the sum,
  over all p, of upd[p] where idx[p, 0] = r and idx[p, 1] = s and of 0 elsewhere (scatter2Add_apply). A pair
  with a coordinate outside the operand names no element: its update is dropped.

  Everything is symbolic in the extents a, b, e and the word width w; no index set is enumerated.
-/
import Idealize.ShloMosaic.PureOps.Ideal
import Idealize.ShloMosaic.Lib.ValueIdx

noncomputable section

open scoped BigOperators

namespace Cert.LibScatter2

open Idealize.ShloMosaic Idealize.ShloMosaic.ValueIdx

/-- An axis is kept by a list of axes exactly when it is not in the list. -/
theorem mem_kept {s : Shape} (axes : List (Fin s.rank)) (x : Fin s.rank) : x ∈ s.kept axes ↔ x ∉ axes := by
  simp [Shape.kept, List.mem_filter, List.mem_finRange]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The dimension numbers of "entries of [e] updates added into an [a, b] operand at an [e, 2] array of index
    pairs": the updates have no window axis, both operand axes are inserted, component 0 of a pair names the
    operand's axis 0 and component 1 its axis 1. Their conditions wf are a parameter, decided on a program's
    literal shapes. -/
abbrev scatter2Dims (a b e : Nat)
    (wf : ScatterDims.WF ⟨2, ![a, b]⟩ ⟨2, ![e, 2]⟩ ⟨1, ![e]⟩ [] [0, 1] [0, 1] 1) :
    ScatterDims ⟨2, ![a, b]⟩ ⟨2, ![e, 2]⟩ ⟨1, ![e]⟩ where
  updateWindowDims := []
  insertedWindowDims := [0, 1]
  scatterDimsToOperandDims := [0, 1]
  indexVectorDim := 1
  wf := wf

variable {a b e w : Nat} (wf : ScatterDims.WF ⟨2, ![a, b]⟩ ⟨2, ![e, 2]⟩ ⟨1, ![e]⟩ [] [0, 1] [0, 1] 1)

/-- On the row axis the window of update p starts at the word idx[p, 0], read signed … -/
theorem scatter2_start_row (idx : IVec ⟨2, ![e, 2]⟩ w) (p : Fin e) :
    (scatter2Dims a b e wf).start (ix1 p) idx 0 = (idx (ix2 p (0 : Fin 2))).toInt := by
  unfold ScatterDims.start
  rw [dif_pos (show (0 : Fin 2) ∈ ([0, 1] : List (Fin 2)) by decide)]
  have hsi : (scatter2Dims a b e wf).siIdx (ix1 p) ⟨List.idxOf (0 : Fin 2) (scatter2Dims a b e wf).scatterDimsToOperandDims,
      List.idxOf_lt_length_iff.2 (show (0 : Fin 2) ∈ ([0, 1] : List (Fin 2)) by decide)⟩ = ix2 p (0 : Fin 2) := by
    funext k; refine Fin.ext ?_
    match k with
    | ⟨0, _⟩ => rfl
    | ⟨1, _⟩ => rfl
  rw [hsi]

/-- … and on the column axis at the word idx[p, 1], read signed. -/
theorem scatter2_start_col (idx : IVec ⟨2, ![e, 2]⟩ w) (p : Fin e) :
    (scatter2Dims a b e wf).start (ix1 p) idx 1 = (idx (ix2 p (1 : Fin 2))).toInt := by
  unfold ScatterDims.start
  rw [dif_pos (show (1 : Fin 2) ∈ ([0, 1] : List (Fin 2)) by decide)]
  have hsi : (scatter2Dims a b e wf).siIdx (ix1 p) ⟨List.idxOf (1 : Fin 2) (scatter2Dims a b e wf).scatterDimsToOperandDims,
      List.idxOf_lt_length_iff.2 (show (1 : Fin 2) ∈ ([0, 1] : List (Fin 2)) by decide)⟩ = ix2 p (1 : Fin 2) := by
    funext k; refine Fin.ext ?_
    match k with
    | ⟨0, _⟩ => rfl
    | ⟨1, _⟩ => rfl
  rw [hsi]

/-- Both operand axes are inserted: no window coordinate on either. -/
theorem scatter2_window (p : Fin e) (x : Fin 2) : (scatter2Dims a b e wf).window (ix1 p) x = 0 := by
  unfold ScatterDims.window
  rw [dif_neg (fun h => (mem_kept (s := ⟨2, ![a, b]⟩) [0, 1] x).mp h
    ((show ∀ y : Fin 2, y ∈ ([0, 1] : List (Fin 2)) by decide) x))]

/-- WHERE UPDATE p LANDS: on the operand's element (r, s) exactly when the words idx[p, 0] and idx[p, 1], read
    signed, are r and s. (A pair with a coordinate below 0 or from the extent on lands nowhere.) -/
theorem scatter2_resultIdx (idx : IVec ⟨2, ![e, 2]⟩ w) (p : Fin e) (r : Fin a) (s : Fin b) :
    (scatter2Dims a b e wf).resultIdx? (ix1 p) idx = some (ix2 r s)
      ↔ ((idx (ix2 p (0 : Fin 2))).toInt = (r.val : Int) ∧ (idx (ix2 p (1 : Fin 2))).toInt = (s.val : Int)) := by
  have h0 := scatter2_start_row wf idx p
  have h1 := scatter2_start_col wf idx p
  have w0 := scatter2_window wf p 0
  have w1 := scatter2_window wf p 1
  unfold ScatterDims.resultIdx?
  constructor
  · intro h
    split at h
    · rename_i hb
      have hf := Option.some.inj h
      have e0 := congrArg (fun f => (f 0).val) hf
      have e1 := congrArg (fun f => (f 1).val) hf
      have b0 := (hb 0).1
      have b1 := (hb 1).1
      simp only [h0, w0, h1, w1] at e0 e1 b0 b1
      change ((idx (ix2 p (0 : Fin 2))).toInt + ((0 : Nat) : Int)).toNat = r.val at e0
      change ((idx (ix2 p (1 : Fin 2))).toInt + ((0 : Nat) : Int)).toNat = s.val at e1
      refine ⟨by omega, by omega⟩
    · exact absurd h (by simp)
  · rintro ⟨hr, hs⟩
    have hb : ∀ x, 0 ≤ (scatter2Dims a b e wf).start (ix1 p) idx x + ((scatter2Dims a b e wf).window (ix1 p) x : Int)
        ∧ (scatter2Dims a b e wf).start (ix1 p) idx x + ((scatter2Dims a b e wf).window (ix1 p) x : Int)
          < ((⟨2, ![a, b]⟩ : Shape).size x : Int) := by
      intro x
      match x with
      | ⟨0, _⟩ =>
        show 0 ≤ (scatter2Dims a b e wf).start (ix1 p) idx 0 + ((scatter2Dims a b e wf).window (ix1 p) 0 : Int)
          ∧ (scatter2Dims a b e wf).start (ix1 p) idx 0 + ((scatter2Dims a b e wf).window (ix1 p) 0 : Int) < (a : Int)
        rw [h0, w0, hr]
        have := r.isLt
        omega
      | ⟨1, _⟩ =>
        show 0 ≤ (scatter2Dims a b e wf).start (ix1 p) idx 1 + ((scatter2Dims a b e wf).window (ix1 p) 1 : Int)
          ∧ (scatter2Dims a b e wf).start (ix1 p) idx 1 + ((scatter2Dims a b e wf).window (ix1 p) 1 : Int) < (b : Int)
        rw [h1, w1, hs]
        have := s.isLt
        omega
    rw [dif_pos hb]
    congr 1
    funext x
    refine Fin.ext ?_
    match x with
    | ⟨0, _⟩ =>
      show ((scatter2Dims a b e wf).start (ix1 p) idx 0 + ((scatter2Dims a b e wf).window (ix1 p) 0 : Int)).toNat = r.val
      rw [h0, w0, hr]; omega
    | ⟨1, _⟩ =>
      show ((scatter2Dims a b e wf).start (ix1 p) idx 1 + ((scatter2Dims a b e wf).window (ix1 p) 1 : Int)).toNat = s.val
      rw [h1, w1, hs]; omega

/-- THE PAIR SCATTER-ADD READ AT (r, s), over the extended reals: the operand's element plus the sum over all
    updates p of upd[p] where idx[p, 0] = r and idx[p, 1] = s (both read signed), of 0 elsewhere. -/
theorem scatter2Add_apply (x : (⟨2, ![a, b]⟩ : Shape).Idx → EReal) (idx : IVec ⟨2, ![e, 2]⟩ w)
    (upd : (⟨1, ![e]⟩ : Shape).Idx → EReal) (r : Fin a) (s : Fin b) :
    Host.scatterAdd (F := Ideal) (φ := .f32) (scatter2Dims a b e wf) x idx upd (ix2 r s)
      = x (ix2 r s) + ∑ p : Fin e,
          if (idx (ix2 p (0 : Fin 2))).toInt = (r.val : Int) ∧ (idx (ix2 p (1 : Fin 2))).toInt = (s.val : Int)
          then upd (ix1 p) else 0 := by
  show x (ix2 r s) + ∑ j ∈ Finset.univ.filter (fun j => (scatter2Dims a b e wf).resultIdx? j idx = some (ix2 r s)), upd j = _
  congr 1
  rw [Finset.sum_filter, sum_idx1]
  refine Finset.sum_congr rfl fun p _ => ?_
  simp only [scatter2_resultIdx]

end Cert.LibScatter2

end
-- ==== Proof.KerAdj.lean ====
/-
  The kernel's dense adjacency matrix, read at one index.

  The host operations that form it: a [10240, 10240] array of zeros; the destination and the source words of
  the 330000 edges, each wrapped by the padded extent 10240 (a word that is negative as a signed word has 10240
  added: a signed compare with 0, an add, a select); the two wrapped vectors broadcast to [330000, 1] columns
  and joined along axis 1 into the [330000, 2] array of index pairs (destination first); the scatter-add of the
  edge weights at these pairs; the narrowing of the result to the 16-bit format, which over the extended reals
  is the identity.

  Read at (d, s) the result is 0 plus the sum over the edges p of the weight of p where the wrapped destination
  word of p, read signed, is d and the wrapped source word is s, and of 0 elsewhere (kv44_apply): with the
  program's edge list and weights, Spec.adj at the padded extent (kv44_adj). An edge with a wrapped end point
  outside [0, 10240) adds nothing.
-/
import proofs.«410187_j66958540144771_3_alg».proof.KernelIdeal
import proofs.«410187_j66958540144771_3_alg».proof.Proof.Inputs
import proofs.«410187_j66958540144771_3_alg».proof.Proof.Spec
import proofs.«410187_j66958540144771_3_alg».proof.Proof.LibScatter2
import Idealize.ShloMosaic.Lib.Pipeline.Value
import Idealize.ShloMosaic.Lib.ValueIdx
import Idealize.ShloMosaic.PureOps.Ideal.Laws

noncomputable section

open scoped BigOperators

namespace Cert.KernelIdeal.KerValue

open Cert.KernelIdeal Idealize.ShloMosaic Idealize.ShloMosaic.ValueIdx

variable [Facts₀]
open Facts₀

/-! ## The operations, composed -/

/-- The wrap of a vector of index words by the padded extent: the signed compare with the zero word, the add of
    the word 10240, the select between the two (the destination words' and the source words' wraps are this one
    term). -/
def kvWrap (x : IVec S330000 32) : IVec S330000 32 :=
  select (cmpi .slt x (broadcastInDim S330000 ![] bcast_S_S330000 (constantI S_ 32 0#32)))
    (addi x (broadcastInDim S330000 ![] bcast_S_S330000 (constantI S_ 32 10240#32))) x

/-- The [330000, 2] array of index pairs: the wrapped destination words in column 0, the wrapped source words in
    column 1. -/
def kv42 (dw sw : IVec S330000 32) : IVec S330000x2 32 :=
  concatenate S330000x2 1
    [⟨S330000x1, broadcastInDim S330000x1 ![0] bcast_S330000_S330000x1_0 (kvWrap dw)⟩,
     ⟨S330000x1, broadcastInDim S330000x1 ![0] bcast_S330000_S330000x1_0 (kvWrap sw)⟩]
    concatenates_S330000x1_S330000x1_S330000x2_d1

/-- The scatter-add of the weights into the zeros at the index pairs. -/
def kv43 (dw sw : IVec S330000 32) (w : FVec Ideal S330000 .f32) : FVec Ideal S10240x10240 .f32 :=
  Host.scatterAdd scatter_S10240x10240_S330000x2_S330000_n_01_01_1
    (broadcastInDim S10240x10240 ![] bcast_S_S10240x10240 (constant S_ .f32 0x00000000#32)) (kv42 dw sw) w

/-- The adjacency matrix as the kernels read it: the scatter-add's result narrowed to the 16-bit format. -/
def kv44 (dw sw : IVec S330000 32) (w : FVec Ideal S330000 .f32) : FVec Ideal S10240x10240 .bf16 :=
  truncf .bf16 (kv43 dw sw w) bitsLt_bf16_f32

/-! ## Read at an index -/

/-- One word wrapped: the select on the signed compare with zero is the wrap of Inputs. -/
theorem wrap_word (x : BitVec 32) :
    Scalar.select (IntOp.cmpi .slt x 0#32) (IntOp.addi x 10240#32) x = Inputs.wrapW 10240#32 x := by
  unfold Scalar.select IntOp.cmpi IntOp.addi Inputs.wrapW
  by_cases h : x.toInt < 0
  · have hs : x.slt 0#32 = true := by rw [BitVec.slt_iff_toInt_lt]; simpa using h
    rw [if_pos h, hs]; rfl
  · have hs : x.slt 0#32 = false := by
      rw [Bool.eq_false_iff, Ne, BitVec.slt_iff_toInt_lt]; simpa using h
    rw [if_neg h, hs]; rfl

/-- The wrapped vector at p. -/
theorem kvWrap_apply (x : IVec S330000 32) (i : S330000.Idx) : kvWrap x i = Inputs.wrapW 10240#32 (x i) :=
  wrap_word (x i)

/-- Column 0 of the index pairs is the wrapped destination word … -/
theorem kv42_apply_zero (dw sw : IVec S330000 32) (p : Fin 330000) :
    kv42 dw sw (ix2 p (0 : Fin 2)) = Inputs.wrapW 10240#32 (dw (ix1 p)) := by
  unfold kv42
  rw [concatenate_pair_apply_left (t := S330000x2) (s₁ := S330000x1) (s₂ := S330000x1) (1 : Fin 2) _ _
    concatenates_S330000x1_S330000x1_S330000x2_d1 (ix2 p (0 : Fin 2)) (rfl : S330000x1.rank = S330000x2.rank)
    (ix2 p (0 : Fin 1)) (fun b => match b with
      | ⟨0, _⟩ => rfl
      | ⟨1, _⟩ => rfl)]
  rw [broadcastInDim_apply _ bcast_S330000_S330000x1_0 (kvWrap dw) (ix2 p (0 : Fin 1)) (ix1 p) (fun a => match a with
    | ⟨0, _⟩ => by show p.val = if (330000 : Nat) = 1 then 0 else p.val; rw [if_neg (by decide)])]
  exact kvWrap_apply dw (ix1 p)

/-- … and column 1 the wrapped source word. -/
theorem kv42_apply_one (dw sw : IVec S330000 32) (p : Fin 330000) :
    kv42 dw sw (ix2 p (1 : Fin 2)) = Inputs.wrapW 10240#32 (sw (ix1 p)) := by
  unfold kv42
  rw [concatenate_pair_apply_right (t := S330000x2) (s₁ := S330000x1) (s₂ := S330000x1) (1 : Fin 2) _ _
    concatenates_S330000x1_S330000x1_S330000x2_d1 (ix2 p (1 : Fin 2)) (rfl : S330000x1.rank = S330000x2.rank)
    (rfl : S330000x1.rank = S330000x2.rank)
    (ix2 p (0 : Fin 1)) (fun b hb => match b, hb with
      | ⟨0, _⟩, _ => rfl
      | ⟨1, _⟩, hb => absurd rfl hb) rfl]
  rw [broadcastInDim_apply _ bcast_S330000_S330000x1_0 (kvWrap sw) (ix2 p (0 : Fin 1)) (ix1 p) (fun a => match a with
    | ⟨0, _⟩ => by show p.val = if (330000 : Nat) = 1 then 0 else p.val; rw [if_neg (by decide)])]
  exact kvWrap_apply sw (ix1 p)

/-- The program's scatter dimension numbers are the pair scatter's at the literal extents. -/
theorem scatter_eq : scatter_S10240x10240_S330000x2_S330000_n_01_01_1
    = Cert.LibScatter2.scatter2Dims 10240 10240 330000 scatter_S10240x10240_S330000x2_S330000_n_01_01_1_wf := rfl

/-- THE ADJACENCY READ AT (d, s): 0 plus the sum over the edges p of the weight where the wrapped destination
    word, read signed, is d and the wrapped source word is s, of 0 elsewhere. -/
theorem kv44_apply (dw sw : IVec S330000 32) (w : FVec Ideal S330000 .f32) (d s : Fin 10240) :
    kv44 dw sw w (ix2 d s) = 0 + ∑ p : Fin 330000,
      if (Inputs.wrapW 10240#32 (dw (ix1 p))).toInt = (d.val : Int) ∧ (Inputs.wrapW 10240#32 (sw (ix1 p))).toInt = (s.val : Int)
      then (w (ix1 p) : EReal) else 0 := by
  unfold kv44
  rw [truncf_apply]
  unfold kv43
  rw [scatter_eq]
  rw [Cert.LibScatter2.scatter2Add_apply scatter_S10240x10240_S330000x2_S330000_n_01_01_1_wf]
  refine congrArg₂ (fun (u v : EReal) => u + v) ?_ (Finset.sum_congr rfl fun p _ => ?_)
  · show Ideal.ofBits .f32 0x00000000#32 = 0
    exact Ideal.ofBits_zero_f32
  · rw [kv42_apply_zero, kv42_apply_one]

/-- With the program's edge list and weights the adjacency is Spec.adj at the padded extent. -/
theorem kv44_adj (ei : (⟨2, ![2, 320000]⟩ : Shape).Idx → BitVec 32) (dw sw : IVec S330000 32) (w : FVec Ideal S330000 .f32)
    (hd : ∀ p : Fin 330000, dw (ix1 p) = Inputs.dstW ei p) (hs : ∀ p : Fin 330000, sw (ix1 p) = Inputs.srcW ei p)
    (hw : ∀ p : Fin 330000, w (ix1 p) = Inputs.nrm ei p) (d s : Fin 10240) :
    kv44 dw sw w (ix2 d s) = Spec.adj 10240 (Inputs.kd ei) (Inputs.ks ei) (Inputs.nrm ei) d s := by
  rw [kv44_apply]
  unfold Spec.adj Inputs.kd Inputs.ks
  refine congrArg₂ (fun (u v : EReal) => u + v) rfl (Finset.sum_congr rfl fun p _ => ?_)
  rw [hd p, hs p, hw p]

end Cert.KernelIdeal.KerValue

end
-- ==== Proof.KerGlue.lean ====
/-
  The small host operations around the five kernel launches, at the ideal values, read index by index: rows or
  columns of the padding value appended (the padding value is the integer zero converted, the float zero), the
  narrowing of a float format (the identity at the ideal values), a vector reshaped to a one-row matrix, and two
  matrices set side by side.
-/
import proofs.«410187_j66958540144771_3_alg».proof.KernelIdeal
import proofs.«410187_j66958540144771_3_alg».proof.Proof.Inputs
import proofs.«410187_j66958540144771_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Predicate

noncomputable section

namespace Cert.KernelIdeal.KerValue

open Idealize.ShloMosaic Idealize.ShloMosaic.ValueIdx
open Cert.KernelIdeal Cert.KernelIdeal.Facts₀

variable [Facts₀]

/-! ## The padding value -/

/-- The integer zero converted to a float is the float zero, at the one index of the rank-zero array. -/
theorem padValue_apply (i : S_.Idx) :
    (sitofp (F := Ideal) .f32 (constantI S_ 32 0#32) : FVec Ideal S_ .f32) i = 0 := by
  show ((((0#32 : BitVec 32).toInt : ℤ) : ℝ) : EReal) = 0
  simp

/-! ## Rows of zeros below the node features -/

/-- The node features with 240 rows of the padding value below. -/
def kv45 (x : FVec Ideal S10000x128 .f32) : FVec Ideal S10240x128 .f32 :=
  pad S10240x128 ![0, 0] ![240, 0] ![0, 0] x (sitofp (F := Ideal) .f32 (constantI S_ 32 0#32))
    pads_S10000x128_S10240x128_02400_000 h_S_

theorem kv45_apply (x : FVec Ideal S10000x128 .f32) (r : Fin 10240) (k : Fin 128) :
    kv45 x (ix2 r k) = Spec.padRows 10240 (Inputs.mat x) 0 r k := by
  unfold kv45 Spec.padRows
  by_cases h : r.val < 10000
  · rw [dif_pos h]
    exact pad_apply_of_inside _ _ _ x _ _ _ (ix2 r k) (ix2 ⟨r.val, h⟩ k) fun a =>
      match a with
      | ⟨0, _⟩ => by show r.val = 0 + r.val * (0 + 1); omega
      | ⟨1, _⟩ => by show k.val = 0 + k.val * (0 + 1); omega
  · rw [dif_neg h]
    refine (pad_apply_of_not_inside _ _ _ x _ _ _ (ix2 r k) (0 : Fin 2) ?_).trans (padValue_apply _)
    show ¬(0 ≤ r.val ∧ (r.val - 0) % 1 = 0 ∧ (r.val - 0) / 1 < 10000)
    omega

/-! ## The narrowing of the float format -/

/-- A matrix narrowed to the shorter float format. -/
def kvTrunc {s : Shape} (w : FVec Ideal s .f32) : FVec Ideal s .bf16 := truncf .bf16 w bitsLt_bf16_f32

/-- At the ideal values the narrowing changes nothing. -/
theorem kvTrunc_apply {s : Shape} (w : FVec Ideal s .f32) (i : s.Idx) : kvTrunc w i = w i := rfl

/-- The dense adjacency narrowed. -/
abbrev kv44t (w : FVec Ideal S10240x10240 .f32) : FVec Ideal S10240x10240 .bf16 := kvTrunc w
/-- The first layer's weights narrowed. -/
abbrev kv46 (w : FVec Ideal S128x256 .f32) : FVec Ideal S128x256 .bf16 := kvTrunc w
/-- The second layer's weights narrowed. -/
abbrev kv47 (w : FVec Ideal S256x256 .f32) : FVec Ideal S256x256 .bf16 := kvTrunc w

theorem kv44t_apply (w : FVec Ideal S10240x10240 .f32) (d s : Fin 10240) : kv44t w (ix2 d s) = w (ix2 d s) := rfl
theorem kv46_apply (w : FVec Ideal S128x256 .f32) (k : Fin 128) (q : Fin 256) : kv46 w (ix2 k q) = w (ix2 k q) := rfl
theorem kv47_apply (w : FVec Ideal S256x256 .f32) (k : Fin 256) (q : Fin 256) : kv47 w (ix2 k q) = w (ix2 k q) := rfl

/-! ## A vector as a one-row matrix -/

/-- A vector of 256 entries as a matrix of one row. -/
def kv49 (b : FVec Ideal S256 .f32) : FVec Ideal S1x256 .f32 := shapeCast S1x256 b shapeCasts_S256_S1x256

theorem kv49_apply (b : FVec Ideal S256 .f32) (q : Fin 256) : kv49 b (ix2 (0 : Fin 1) q) = b (ix1 q) :=
  shapeCast_a_1a_apply b shapeCasts_S256_S1x256 0 q

/-- A vector of 138 entries as a matrix of one row. -/
def kv72 (b : FVec Ideal S138 .f32) : FVec Ideal S1x138 .f32 := shapeCast S1x138 b shapeCasts_S138_S1x138

theorem kv72_apply (b : FVec Ideal S138 .f32) (q : Fin 138) : kv72 b (ix2 (0 : Fin 1) q) = b (ix1 q) :=
  shapeCast_a_1a_apply b shapeCasts_S138_S1x138 0 q

/-! ## The pooled features beside the fingerprints, and columns of zeros to the right -/

/-- The pooled features and the fingerprint columns side by side. -/
def kv68 (p : FVec Ideal S256x256 .f32) (fp : FVec Ideal S256x5000 .f32) : FVec Ideal S256x5256 .f32 :=
  concatenate S256x5256 1 [⟨S256x256, p⟩, ⟨S256x5000, fp⟩] concatenates_S256x256_S256x5000_S256x5256_d1

theorem kv68_apply (p : FVec Ideal S256x256 .f32) (fp : FVec Ideal S256x5000 .f32) (γ : Fin 256) (k : Fin 5256) :
    kv68 p fp (ix2 γ k) = Spec.hcat (Inputs.mat p) (Inputs.mat fp) γ k := by
  unfold kv68 Spec.hcat
  by_cases h : k.val < 256
  · rw [dif_pos h]
    exact concatenate_pair_apply_left (1 : Fin 2) p fp _ (ix2 γ k) rfl (ix2 γ ⟨k.val, h⟩) fun b =>
      match b with
      | ⟨0, _⟩ => rfl
      | ⟨1, _⟩ => rfl
  · rw [dif_neg h]
    have hk := k.isLt
    exact concatenate_pair_apply_right (1 : Fin 2) p fp _ (ix2 γ k) rfl rfl
      (ix2 γ ⟨k.val - 256, by omega⟩)
      (fun b => match b with
        | ⟨0, _⟩ => fun _ => rfl
        | ⟨1, _⟩ => fun hne => absurd rfl hne)
      (by show (k.val - 256) + 256 = k.val; omega)

/-- The same with 120 columns of the padding value to the right. -/
def kv69 (p : FVec Ideal S256x256 .f32) (fp : FVec Ideal S256x5000 .f32) : FVec Ideal S256x5376 .f32 :=
  pad S256x5376 ![0, 0] ![0, 120] ![0, 0] (kv68 p fp) (sitofp (F := Ideal) .f32 (constantI S_ 32 0#32))
    pads_S256x5256_S256x5376_000_01200 h_S_

theorem kv69_apply (p : FVec Ideal S256x256 .f32) (fp : FVec Ideal S256x5000 .f32) (γ : Fin 256) (k : Fin 5376) :
    kv69 p fp (ix2 γ k) = Spec.padCols 5376 (Spec.hcat (Inputs.mat p) (Inputs.mat fp)) γ k := by
  unfold kv69 Spec.padCols
  by_cases h : k.val < 256 + 5000
  · rw [dif_pos h]
    refine (pad_apply_of_inside _ _ _ (kv68 p fp) _ _ _ (ix2 γ k) (ix2 γ ⟨k.val, h⟩) fun a =>
      match a with
      | ⟨0, _⟩ => by show γ.val = 0 + γ.val * (0 + 1); omega
      | ⟨1, _⟩ => by show k.val = 0 + k.val * (0 + 1); omega).trans ?_
    exact kv68_apply p fp γ ⟨k.val, h⟩
  · rw [dif_neg h]
    refine (pad_apply_of_not_inside _ _ _ (kv68 p fp) _ _ _ (ix2 γ k) (1 : Fin 2) ?_).trans (padValue_apply _)
    show ¬(0 ≤ k.val ∧ (k.val - 0) % 1 = 0 ∧ (k.val - 0) / 1 < 5256)
    omega

/-! ## Rows of zeros below the head's first weight matrix -/

/-- The head's first weight matrix with 120 rows of the padding value below. -/
def kv70 (w : FVec Ideal S5256x256 .f32) : FVec Ideal S5376x256 .f32 :=
  pad S5376x256 ![0, 0] ![120, 0] ![0, 0] w (sitofp (F := Ideal) .f32 (constantI S_ 32 0#32))
    pads_S5256x256_S5376x256_01200_000 h_S_

theorem kv70_apply (w : FVec Ideal S5256x256 .f32) (k : Fin 5376) (q : Fin 256) :
    kv70 w (ix2 k q) = Spec.padRows 5376 (Inputs.mat w) 0 k q := by
  unfold kv70 Spec.padRows
  by_cases h : k.val < 5256
  · rw [dif_pos h]
    exact pad_apply_of_inside _ _ _ w _ _ _ (ix2 k q) (ix2 ⟨k.val, h⟩ q) fun a =>
      match a with
      | ⟨0, _⟩ => by show k.val = 0 + k.val * (0 + 1); omega
      | ⟨1, _⟩ => by show q.val = 0 + q.val * (0 + 1); omega
  · rw [dif_neg h]
    refine (pad_apply_of_not_inside _ _ _ w _ _ _ (ix2 k q) (0 : Fin 2) ?_).trans (padValue_apply _)
    show ¬(0 ≤ k.val ∧ (k.val - 0) % 1 = 0 ∧ (k.val - 0) / 1 < 5256)
    omega

end Cert.KernelIdeal.KerValue

end
-- ==== Proof.KerPool.lean ====
/-
  The host operations that form the pooling matrix, read index by index at the ideal instance.

  The graph numbers of the 10000 nodes are padded to 10240 words with the word -1; the words are compared with the
  graph numbers 0 … 255 (an iota); the comparison, converted, is the indicator matrix (1 where node j belongs to graph
  γ, 0 elsewhere: the padded nodes' signed value -1 is no graph number); its row sums taken as at least 1 divide it.
-/
import proofs.«410187_j66958540144771_3_alg».proof.KernelIdeal
import proofs.«410187_j66958540144771_3_alg».proof.Proof.Inputs
import proofs.«410187_j66958540144771_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.KernelIdeal.KerValue

open Idealize.ShloMosaic Idealize.ShloMosaic.ValueIdx Cert.KernelIdeal

variable [Facts₀]
open Facts₀

/-! ## The terms, as the program spells them -/

/-- %53: the graph numbers padded with the word -1 to 10240 words. -/
def kv53 (bi : IVec S10000 32) : IVec S10240 32 :=
  pad S10240 ![0] ![240] ![0] bi (constantI S_ 32 4294967295#32) pads_S10000_S10240_02400 h_S_
/-- %54: the graph numbers 0 … 255. -/
def kv54 : IVec S256 32 := iotaInDim S256 32 0
def kv55 (bi : IVec S10000 32) : IVec S1x10240 32 := broadcastInDim S1x10240 ![1] bcast_S10240_S1x10240_1 (kv53 bi)
def kv56 : IVec S256x1 32 := broadcastInDim S256x1 ![0] bcast_S256_S256x1_0 kv54
def kv57 (bi : IVec S10000 32) : IVec S256x10240 32 :=
  broadcastInDim S256x10240 ![0, 1] bcast_S1x10240_S256x10240_0_1 (kv55 bi)
def kv58 : IVec S256x10240 32 := broadcastInDim S256x10240 ![0, 1] bcast_S256x1_S256x10240_0_1 kv56
/-- %59: node j's word equals graph γ's number. -/
def kv59 (bi : IVec S10000 32) : IVec S256x10240 1 := cmpi .eq (kv57 bi) kv58
/-- %60: the indicator matrix. -/
def kv60 (bi : IVec S10000 32) : FVec Ideal S256x10240 .f32 := uitofp (F := Ideal) .f32 (kv59 bi)
/-- %61: its row sums. -/
def kv61 (bi : IVec S10000 32) : FVec Ideal S256 .f32 :=
  Host.reduceAdd (kv60 bi) (constant (F := Ideal) S_ .f32 0x00000000#32) reducesTo_S256x10240_S256_d1 h_S_
def kv62 (bi : IVec S10000 32) : FVec Ideal S256x1 .f32 := broadcastInDim S256x1 ![0] bcast_S256_S256x1_0 (kv61 bi)
def kv63 : FVec Ideal S256x1 .f32 := broadcastInDim S256x1 ![] bcast_S_S256x1 (constant (F := Ideal) S_ .f32 0x3F800000#32)
/-- %64: the row sums taken as at least 1. -/
def kv64 (bi : IVec S10000 32) : FVec Ideal S256x1 .f32 := maximumf (kv62 bi) kv63
def kv65 (bi : IVec S10000 32) : FVec Ideal S256x10240 .f32 :=
  broadcastInDim S256x10240 ![0, 1] bcast_S256x1_S256x10240_0_1 (kv64 bi)
/-- %66: the pooling matrix. -/
def kv66 (bi : IVec S10000 32) : FVec Ideal S256x10240 .f32 := Host.divf (kv60 bi) (kv65 bi)

/-! ## Index by index -/

/-- The two spellings of a rank-1 index, of a rank-2 index, and of an index into a column. -/
theorem ofFin_eq_ix1 {n : Nat} (p : Fin n) : Shape.Idx.ofFin p = ix1 p := by
  funext a
  match a with
  | ⟨0, _⟩ => exact Fin.ext rfl
theorem ij_eq_ix2 {n m : Nat} (p : Fin n) (q : Fin m) : StableHlo.Predicate.ij p q = ix2 p q := by
  funext a
  match a with
  | ⟨0, _⟩ => rfl
  | ⟨1, _⟩ => rfl
theorem ixP_eq_ix2 {n : Nat} (p : Fin n) : StableHlo.Predicate.ixP p = ix2 p (0 : Fin 1) := by
  funext a
  match a with
  | ⟨0, _⟩ => rfl
  | ⟨1, _⟩ => rfl

theorem kv53_apply (bi : IVec S10000 32) (j : Fin 10240) :
    kv53 bi (ix1 j) = if h : j.val < 10000 then bi (ix1 ⟨j.val, h⟩) else 4294967295#32 := by
  unfold kv53 pad
  by_cases h : j.val < 10000
  · rw [dif_pos h, dif_pos]
    · congr 1
      funext a
      match a with
      | ⟨0, _⟩ =>
        apply Fin.ext
        show (j.val - 0) / (0 + 1) = j.val
        rw [Nat.sub_zero, Nat.zero_add, Nat.div_one]
    · intro a
      match a with
      | ⟨0, _⟩ =>
        show 0 ≤ j.val ∧ (j.val - 0) % (0 + 1) = 0 ∧ (j.val - 0) / (0 + 1) < 10000
        rw [Nat.sub_zero, Nat.zero_add, Nat.div_one, Nat.mod_one]
        exact ⟨Nat.zero_le _, rfl, h⟩
  · rw [dif_neg h, dif_neg]
    · rfl
    · intro hin
      have h2 : (j.val - 0) / (0 + 1) < 10000 := (hin 0).2.2
      rw [Nat.sub_zero, Nat.zero_add, Nat.div_one] at h2
      exact h h2

theorem kv59_apply (bi : IVec S10000 32) (γ : Fin 256) (j : Fin 10240) :
    kv59 bi (ix2 γ j) = IntOp.cmpi .eq (kv53 bi (ix1 j)) (BitVec.ofNat 32 γ.val) := by
  unfold kv59 kv58 kv57 kv56 kv55 kv54
  show IntOp.cmpi .eq _ _ = _
  rw [← ij_eq_ix2, StableHlo.Predicate.bcast_cols, StableHlo.Predicate.bcast_rows, StableHlo.Predicate.iota_apply,
    ofFin_eq_ix1]

/-- The converted comparison of a word with a graph number γ < 256: 1 where the word's signed value is γ, else 0. -/
theorem uitofp_cmpi_eq (w : BitVec 32) (γ : Fin 256) :
    FloatOps.uitofp (F := Ideal) .f32 (IntOp.cmpi .eq w (BitVec.ofNat 32 γ.val)) = if w.toInt = (γ.val : Int) then 1 else 0 := by
  show (((IntOp.cmpi .eq w (BitVec.ofNat 32 γ.val)).toNat : ℝ) : EReal) = _
  have hγ : (BitVec.ofNat 32 γ.val).toInt = (γ.val : Int) :=
    StableHlo.Predicate.toInt_ofNat_small γ.val (by have := γ.isLt; omega)
  by_cases h : w = BitVec.ofNat 32 γ.val
  · rw [StableHlo.Predicate.cmpi_eq_iff.mpr h, if_pos (by rw [h, hγ])]
    simp
  · have h0 : IntOp.cmpi .eq w (BitVec.ofNat 32 γ.val) = 0#1 :=
      eq_zero_of_ne_one (fun h1 => h (StableHlo.Predicate.cmpi_eq_iff.mp h1))
    rw [h0, if_neg]
    · simp
    · intro hh
      apply h
      apply BitVec.eq_of_toInt_eq
      rw [hh, hγ]

theorem kv60_apply (bi : IVec S10000 32) (γ : Fin 256) (j : Fin 10240) :
    kv60 bi (ix2 γ j) = Spec.onehot 10240 256 (Inputs.bt bi) γ j := by
  unfold kv60
  show FloatOps.uitofp (F := Ideal) .f32 (kv59 bi (ix2 γ j)) = _
  rw [kv59_apply, kv53_apply, uitofp_cmpi_eq]
  unfold Spec.onehot Inputs.bt
  by_cases h : j.val < 10000
  · simp only [dif_pos h]
  · simp only [dif_neg h]
    have e : (4294967295#32 : BitVec 32).toInt = -1 := by decide
    rw [e]

theorem kv61_apply (bi : IVec S10000 32) (γ : Fin 256) :
    kv61 bi (ix1 γ) = 0 + ∑ j : Fin 10240, Spec.onehot 10240 256 (Inputs.bt bi) γ j := by
  have hR : S256x10240.Reduces [1] S256 := by decide
  have key : ∀ k : Fin 10240, kv60 bi (hR.lift (ix1 γ) k) = Spec.onehot 10240 256 (Inputs.bt bi) γ k := by
    intro k
    rw [← kv60_apply]
    refine congrArg (kv60 bi) ?_
    funext a
    match a with
    | ⟨0, _⟩ => exact Fin.ext rfl
    | ⟨1, _⟩ => exact Fin.ext rfl
  unfold kv61 Host.reduceAdd
  rw [Ideal.hostReduceAdd_def, Ideal.hostReduceAdd_single reducesTo_S256x10240_S256_d1 hR, constant_apply,
    Ideal.ofBits_zero_f32]
  exact congrArg (fun t => (0 : EReal) + t) (Finset.sum_congr rfl (fun k _ => key k))

/-- The word 0x3F800000 reads 1. -/
theorem ofBits_one_word : Ideal.ofBits .f32 0x3F800000#32 = 1 := by
  simp [Ideal.ofBits, Ideal.ieee, -EReal.coe_mul]
  norm_num

theorem kv64_apply (bi : IVec S10000 32) (γ : Fin 256) (z : Fin 1) :
    kv64 bi (ix2 γ z) = max (0 + ∑ j : Fin 10240, Spec.onehot 10240 256 (Inputs.bt bi) γ j) 1 := by
  obtain rfl : z = 0 := Subsingleton.elim _ _
  unfold kv64 kv63 kv62
  rw [maximumf_apply, ← ixP_eq_ix2, StableHlo.Predicate.bcast_col1, ofFin_eq_ix1, kv61_apply,
    StableHlo.Predicate.bcast_scalar _ h_S_, constant_apply, ofBits_one_word]

theorem kv66_apply (bi : IVec S10000 32) (γ : Fin 256) (j : Fin 10240) :
    kv66 bi (ix2 γ j) = Spec.poolMat 10240 256 (Inputs.bt bi) γ j := by
  unfold kv66 kv65 Host.divf
  show Ideal.div _ _ = _
  rw [kv60_apply, ← ij_eq_ix2, StableHlo.Predicate.bcast_of_col, ixP_eq_ix2, kv64_apply]
  rfl

end Cert.KernelIdeal.KerValue

end
-- ==== Proof.KV.Final0.lean ====
/-
  The first call's output array, index by index, at the exact values.

  At grid point t the body reads rows 1024·t … 1024·t+1023 of the padded input and the whole weight matrix and
  leaves their matrix product in rows 1024·t … 1024·t+1023 of the output: at the exact values the two format changes
  are identities and the product accumulated into the zero splat is the plain sum over the 128 contracted
  coordinates. The ten row blocks tile the 10240 rows, so the output array ends as the product of the two arrays.
-/
import proofs.«410187_j66958540144771_3_alg».proof.Proof.KI.R0
import Idealize.ShloMosaic.Lib.Pipeline.Value
import Idealize.ShloMosaic.Lib.ValueIdx
import Idealize.ShloMosaic.PureOps.Ideal.Laws
import proofs.«410187_j66958540144771_3_alg».proof.Proof.Spec
import proofs.«410187_j66958540144771_3_alg».proof.Proof.Inputs

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

/-! ## The body's product at an index -/

theorem lhs_prod0_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_prod0_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_prod0_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_prod0_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- The body's payload at row p, column q: the sum over the contracted coordinate of the products. -/
theorem prod0_apply (x0 : Vec Ideal S1024x128 .f32) (x1 : Vec Ideal S128x256 .bf16) (p : Fin 1024) (q : Fin 256) :
    k0_pay1 (F := Ideal) x0 x1 (ix2 p q) = ∑ k : Fin 128, x0 (ix2 p k) * x1 (ix2 k q) := by
  unfold k0_pay1
  simp only [shapeCast_self, matmul]
  rw [truncf_apply, Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 p q) ((ValueIdx.contrEquiv1 dot_S1024x128_S128x256_S1024x256_1_0_0_1_n_n 128 rfl rfl).symm k) = ix2 p k := funext fun a => Fin.ext (by
    match a with
    | ⟨0, _⟩ => exact lhs_prod0_0 _ _
    | ⟨1, _⟩ => exact (lhs_prod0_1 _ _).trans hk)
  have er : dot_S1024x128_S128x256_S1024x256_1_0_0_1_n_n.rhsIdx (ix2 p q) ((ValueIdx.contrEquiv1 dot_S1024x128_S128x256_S1024x256_1_0_0_1_n_n 128 rfl rfl).symm k) = ix2 k q := funext fun a => Fin.ext (by
    match a with
    | ⟨0, _⟩ => exact (rhs_prod0_0 _ _).trans hk
    | ⟨1, _⟩ => exact rhs_prod0_1 _ _)
  rw [el, er]
  rfl

/-! ## From the row blocks to the array -/

theorem zeros0 : (![0, 0] : Fin 2 → Nat) = fun _ => 0 := funext fun a => by fin_cases a <;> rfl

section
variable (V : (c : Dev nD) → (b : Ref sig .tc) → Buf (Elt Ideal) ((c : Thread nD τ).loc b))

/-- The product of two arrays, index by index. -/
def prodArr0 (a : S10240x128.Idx → EReal) (w : S128x256.Idx → EReal) : S10240x256.Idx → EReal :=
  fun i => ∑ k : Fin 128, a (ix2 (i 0) k) * w (ix2 k (i 1))

theorem prodArr0_apply (a : S10240x128.Idx → EReal) (w : S128x256.Idx → EReal) (r : Fin 10240) (q : Fin 256) :
    prodArr0 a w (ix2 r q) = ∑ k : Fin 128, a (ix2 r k) * w (ix2 k q) := rfl

/-- The printed index maps over the grid: the first input's row block and the output's row block are the point's
    number, every other block coordinate is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the first input's block at point t is row 1024·t + p of its array. -/
theorem iblk0_0_apply (c : Dev nD) (t : Fin cfg0.N) (p : Fin 1024) (k : Fin 128) (r : Fin 10240) (hr : r.val = 1024 * t.val + p.val) :
    (iblk0 V c 0 t : S1024x128.Idx → EReal) (ix2 p k) = (V c main_v45 : S10240x128.Idx → EReal) (ix2 r k) := by
  obtain ⟨e0, e1, -, -, -, -⟩ := idx_facts0 t
  unfold iblk0
  rw [View.read_apply]
  show (V c main_v45 : S10240x128.Idx → EReal) _ = (V c main_v45 : S10240x128.Idx → EReal) _
  congr 1
  funext a
  apply Fin.ext
  match a with
  | ⟨0, _⟩ => show win0_0.index t (0 : Fin 2) * 1024 + 1 * p.val = r.val; omega
  | ⟨1, _⟩ => show win0_0.index t (1 : Fin 2) * 128 + 1 * k.val = k.val; omega

/-- The second input's block at every point is its whole array. -/
theorem iblk0_1_apply (c : Dev nD) (t : Fin cfg0.N) (k : Fin 128) (q : Fin 256) :
    (iblk0 V c 1 t : S128x256.Idx → EReal) (ix2 k q) = (V c main_v46 : S128x256.Idx → EReal) (ix2 k q) := by
  obtain ⟨-, -, e2, e3, -, -⟩ := idx_facts0 t
  unfold iblk0
  rw [View.read_apply]
  show (V c main_v46 : S128x256.Idx → EReal) _ = (V c main_v46 : S128x256.Idx → EReal) _
  congr 1
  funext a
  apply Fin.ext
  match a with
  | ⟨0, _⟩ => show win0_1.index t (0 : Fin 2) * 128 + 1 * k.val = k.val; omega
  | ⟨1, _⟩ => show win0_1.index t (1 : Fin 2) * 256 + 1 * q.val = q.val; omega

/-- The body's product of the two blocks at point t, at row p and column q, is the arrays' product at row 1024·t + p. -/
theorem blockProd0 (c : Dev nD) (t : Fin cfg0.N) (p : Fin 1024) (q : Fin 256) (r : Fin 10240) (hr : r.val = 1024 * t.val + p.val) :
    k0_pay1 (F := Ideal) (iblk0 V c 0 t) (iblk0 V c 1 t) (ix2 p q) = prodArr0 (V c main_v45) (V c main_v46) (ix2 r q) := by
  refine (prod0_apply (iblk0 V c 0 t) (iblk0 V c 1 t) p q).trans ?_
  rw [prodArr0_apply]
  refine Finset.sum_congr rfl fun k _ => ?_
  exact congrArg₂ (· * ·) (iblk0_0_apply V c t p k r hr) (iblk0_1_apply V c t k q)

/-- The printed grid has ten points. -/
theorem N0_eq : cfg0.N = 10 := by decide +kernel

/-- What point t writes back is row block t of the product of the two arrays as the call finds them. -/
theorem flushed0_eq (c : Dev nD) (t : Fin cfg0.N) :
    (dat0 V c).flushed 2 t = ((cfg0.win 2).blk t).view.read (Elt Ideal) (prodArr0 (V c main_v45) (V c main_v46)) := by
  show (cfg0.win 2).cut (grid0.coords t) ((dat0 V c).after 2 t) = _
  rw [after0_2]
  unfold out0_2
  rw [View.canon_unit_zero zeros0]
  simp only [View.ld_unit_zero (S := S1024x128) zeros0, View.ld_unit_zero (S := S128x256) zeros0]
  obtain ⟨-, -, -, -, e4, e5⟩ := idx_facts0 t
  funext j
  show k0_pay1 (F := Ideal) (iblk0 V c 0 t) (iblk0 V c 1 t) j = prodArr0 (V c main_v45) (V c main_v46) (((cfg0.win 2).blk t).view.emb j)
  have hj0 : (j 0).val < 1024 := (j 0).isLt
  have hj1 : (j 1).val < 256 := (j 1).isLt
  have hrow : win0_2.index t (0 : Fin 2) * 1024 + 1 * (j 0).val < 10240 := by have := t.isLt; have := N0_eq; omega
  refine (congrArg (k0_pay1 (F := Ideal) (iblk0 V c 0 t) (iblk0 V c 1 t)) (eq_ix2 (n0 := 1024) (n1 := 256) j)).trans ?_
  refine (blockProd0 V c t ⟨(j 0).val, hj0⟩ ⟨(j 1).val, hj1⟩ ⟨win0_2.index t (0 : Fin 2) * 1024 + 1 * (j 0).val, hrow⟩ (by show win0_2.index t (0 : Fin 2) * 1024 + 1 * (j 0).val = 1024 * t.val + (j 0).val; omega)).trans ?_
  congr 1
  funext a
  apply Fin.ext
  match a with
  | ⟨0, _⟩ => rfl
  | ⟨1, _⟩ => show (j 1).val = win0_2.index t (1 : Fin 2) * 256 + 1 * (j 1).val; omega

/-- An index of the output array is in point t's block iff each coordinate is in the block's range on its axis. -/
theorem mem_blk0 (t : Fin cfg0.N) (i : S10240x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v48).slice (win0_2.rect t)).set ↔ _
  rw [View.set_slice_whole, Rect.mem_set_unit]
  exact Iff.rfl

/-- Every index of the output array is in the block of the point its row's block number names. -/
theorem cover0 (i : S10240x256.Idx) : ∃ t : Fin cfg0.N, (cfg0.win 2).flush t = true ∧ i ∈ ((cfg0.win 2).blk t).view.set := by
  have hi0 : (i 0).val < 10240 := (i 0).isLt
  have hi1 : (i 1).val < 256 := (i 1).isLt
  let t : Fin cfg0.N := ⟨(i 0).val / 1024, by rw [N0_eq]; omega⟩
  obtain ⟨-, -, -, -, e4, e5⟩ := idx_facts0 t
  have ht : t.val = (i 0).val / 1024 := rfl
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- THE OUTPUT ARRAY after the call: the product of the padded input and the weight matrix. -/
theorem final0_arr (c : Dev nD) : (dat0 V c).arrAt 2 cfg0.N = prodArr0 (V c main_v45) (V c main_v46) :=
  (dat0 V c).arrAt_eq_of_cover 2 (prodArr0 (V c main_v45) (V c main_v46)) (fun t _ => flushed0_eq V c t) cover0

/-- The same at row r, column q. -/
theorem final0 (c : Dev nD) (r : Fin 10240) (q : Fin 256) :
    ((dat0 V c).arrAt 2 cfg0.N : S10240x256.Idx → EReal) (ix2 r q)
      = ∑ k : Fin 128, Inputs.mat (α := EReal) (V c main_v45) r k * Inputs.mat (α := EReal) (V c main_v46) k q := by
  rw [final0_arr]; rfl

/-- The same as a matrix product. -/
theorem final0_mm (c : Dev nD) (r : Fin 10240) (q : Fin 256) :
    ((dat0 V c).arrAt 2 cfg0.N : S10240x256.Idx → EReal) (ix2 r q)
      = Spec.mm (Inputs.mat (α := EReal) (V c main_v45)) (Inputs.mat (α := EReal) (V c main_v46)) r q :=
  final0 V c r q

end

end Cert.KernelIdeal.KerValue

end
-- ==== Proof.KV.Pay1.lean ====
/-
  The second call's three block functions, index by index, at the exact values.

  Grid point (i, k) adds to a [1024,256] accumulator the product of block (i, k) of the adjacency (rows 1024·i …,
  columns 2048·k …) with rows 2048·k … 2048·k+2047 of the feature matrix; the accumulator starts from zeros at k = 0,
  and at k = 4 the body adds the bias row, clips at zero, zeroes the rows from 10000 on and multiplies by the second
  weight matrix. At the exact values the format changes are identities and a product accumulated into the zero splat
  is the plain sum over the contracted coordinate.
-/
import proofs.«410187_j66958540144771_3_alg».proof.Proof.KI.R1a
import Idealize.ShloMosaic.Lib.Pipeline.Value
import Idealize.ShloMosaic.Lib.ValueIdx
import Idealize.ShloMosaic.Lib.StableHlo.Predicate
import Idealize.ShloMosaic.PureOps.Ideal.Laws
import proofs.«410187_j66958540144771_3_alg».proof.Proof.Spec
import proofs.«410187_j66958540144771_3_alg».proof.Proof.Inputs

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

/-! ## The two products' operand indices -/

theorem lhs_acc1_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_acc1_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_acc1_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_acc1_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

theorem lhs_out1_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_out1_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_out1_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_out1_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-! ## The three block functions at an index -/

theorem zeros1 : (![0, 0] : Fin 2 → Nat) = fun _ => 0 := funext fun a => by fin_cases a <;> rfl

/-- The column block's first row, and the second offset, in closed form. -/
theorem off1_0 (i : grid1.Coords) : k1_off1 i 0 = 2048 * (i 1).val := congrFun (k1_off1_eq i) 0
theorem off1_1 (i : grid1.Coords) : k1_off1 i 1 = 0 := congrFun (k1_off1_eq i) 1

/-- Row 2048·k + j of the feature matrix, k the point's second coordinate. -/
abbrev hrow (i : grid1.Coords) (j : Fin 2048) : Fin 10240 :=
  ⟨2048 * (i 1).val + j.val, by have h : (i 1).val < 5 := (i 1).isLt; have := j.isLt; omega⟩

/-- The rows of the feature matrix the point reads, at an index: row 2048·k + j. -/
theorem ld_h_apply (i : grid1.Coords) (x1 : Vec Ideal S10240x256 .bf16) (j : Fin 2048) (q : Fin 256) :
    (View.ld x1 (r1_h i) : S2048x256.Idx → EReal) (ix2 j q) = x1 (ix2 (hrow i j) q) := by
  show x1 ((r1_h i).idx (ix2 j q)) = x1 (ix2 (hrow i j) q)
  refine congrArg x1 (funext fun a => Fin.ext ?_)
  match a with
  | ⟨0, _⟩ => show k1_off1 i 0 + 1 * j.val = 2048 * (i 1).val + j.val; rw [off1_0]; omega
  | ⟨1, _⟩ => show k1_off1 i 1 + 1 * q.val = q.val; rw [off1_1]; omega

/-- The accumulator after the reset is zero everywhere. -/
theorem zero1_apply (p : Fin 1024) (q : Fin 256) : (zero1 (F := Ideal) : S1024x256.Idx → EReal) (ix2 p q) = 0 := by
  unfold zero1
  rw [View.canon_unit_zero zeros1]
  unfold k1_pay1
  simp only [shapeCast_self]
  exact Ideal.ofBits_zero_f32

/-- One accumulation step at row p, column q: the contents plus the sum over the 2048 columns of the adjacency block
    times the matching rows of the feature matrix. -/
theorem acc1_apply (i : grid1.Coords) (x0 : Vec Ideal S1024x2048 .bf16) (x1 : Vec Ideal S10240x256 .bf16)
    (xs : Vec Ideal S1024x256 .f32) (p : Fin 1024) (q : Fin 256) :
    (acc1 i x0 x1 xs : S1024x256.Idx → EReal) (ix2 p q)
      = xs (ix2 p q) + ∑ j : Fin 2048, x0 (ix2 p j) * x1 (ix2 (hrow i j) q) := by
  unfold acc1
  rw [View.canon_unit_zero zeros1]
  unfold k1_pay2
  simp only [shapeCast_self, View.ld_unit_zero (S := S1024x256) zeros1, View.ld_unit_zero (S := S1024x2048) zeros1]
  simp only [matmul]
  rw [addf_apply, Ideal.matmul_constant_zero_apply, ← Equiv.sum_comp (ValueIdx.contrEquiv1 dot_S1024x2048_S2048x256_S1024x256_1_0_0_1_n_n 2048 rfl rfl).symm]
  refine congrArg (xs (ix2 p q) + ·) (Finset.sum_congr rfl fun k _ => ?_)
  have hk := ValueIdx.contrEquiv1_symm_val dot_S1024x2048_S2048x256_S1024x256_1_0_0_1_n_n 2048 rfl rfl k
  have el : dot_S1024x2048_S2048x256_S1024x256_1_0_0_1_n_n.lhsIdx (ix2 p q) ((ValueIdx.contrEquiv1 dot_S1024x2048_S2048x256_S1024x256_1_0_0_1_n_n 2048 rfl rfl).symm k) = ix2 p k := funext fun a => Fin.ext (by
    match a with
    | ⟨0, _⟩ => exact lhs_acc1_0 _ _
    | ⟨1, _⟩ => exact (lhs_acc1_1 _ _).trans hk)
  have er : dot_S1024x2048_S2048x256_S1024x256_1_0_0_1_n_n.rhsIdx (ix2 p q) ((ValueIdx.contrEquiv1 dot_S1024x2048_S2048x256_S1024x256_1_0_0_1_n_n 2048 rfl rfl).symm k) = ix2 k q := funext fun a => Fin.ext (by
    match a with
    | ⟨0, _⟩ => exact (rhs_acc1_0 _ _).trans hk
    | ⟨1, _⟩ => exact rhs_acc1_1 _ _)
  rw [el, er]
  exact congrArg (x0 (ix2 p k) * ·) (ld_h_apply i x1 k q)

/-- The row mask: row 1024·a + p is below 10000, as the body's signed comparison of 32-bit words decides it. -/
theorem rowmask (a p : Nat) (ha : a < 10) (hp : p < 1024) :
    IntOp.cmpi .slt (IntOp.addi (Scalar.muli (BitVec.ofNat 32 a) 1024#32) (BitVec.ofNat 32 p)) 10000#32
      = if 1024 * a + p < 10000 then 1#1 else 0#1 := by
  have hw : IntOp.addi (Scalar.muli (BitVec.ofNat 32 a) 1024#32) (BitVec.ofNat 32 p) = BitVec.ofNat 32 (1024 * a + p) := by
    apply BitVec.eq_of_toNat_eq
    simp only [IntOp.addi, Scalar.muli, IntOp.muli, BitVec.toNat_add, BitVec.toNat_mul, BitVec.toNat_ofNat]
    omega
  rw [hw]
  have h1 : (BitVec.ofNat 32 (1024 * a + p)).toNat = 1024 * a + p := by
    rw [BitVec.toNat_ofNat]; omega
  have h2 : (10000#32 : BitVec 32).toNat = 10000 := by decide
  by_cases h : 1024 * a + p < 10000
  · rw [if_pos h]
    exact (StableHlo.Predicate.slt_iff_toNat (by rw [h1]; omega) (by rw [h2]; omega)).mpr (by rw [h1, h2]; exact h)
  · rw [if_neg h]
    refine eq_zero_of_ne_one fun hc => h ?_
    have := (StableHlo.Predicate.slt_iff_toNat (by rw [h1]; omega) (by rw [h2]; omega)).mp hc
    rwa [h1, h2] at this

/-- The epilogue at row p, column q: the finished accumulator plus the bias, clipped at zero, zeroed from row 10000 on,
    times the weight matrix. -/
theorem out1_apply (i : grid1.Coords) (xs : Vec Ideal S1024x256 .f32) (x2 : Vec Ideal S1x256 .f32)
    (x3 : Vec Ideal S256x256 .bf16) (p : Fin 1024) (q : Fin 256) :
    (out1 i xs x2 x3 : S1024x256.Idx → EReal) (ix2 p q)
      = ∑ j : Fin 256, (if 1024 * (i 0).val + p.val < 10000 then max (xs (ix2 p j) + x2 (ix2 0 j)) 0 else 0)
          * x3 (ix2 j q) := by
  unfold out1
  rw [View.canon_unit_zero zeros1]
  unfold k1_pay3
  simp only [shapeCast_self, View.ld_unit_zero (S := S1024x256) zeros1, View.ld_unit_zero (S := S1x256) zeros1,
    View.ld_unit_zero (S := S256x256) zeros1]
  simp only [matmul]
  rw [truncf_apply, Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k := funext fun a => Fin.ext (by
    match a with
    | ⟨0, _⟩ => exact lhs_out1_0 _ _
    | ⟨1, _⟩ => exact (lhs_out1_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q := funext fun a => Fin.ext (by
    match a with
    | ⟨0, _⟩ => exact (rhs_out1_0 _ _).trans hk
    | ⟨1, _⟩ => exact rhs_out1_1 _ _)
  rw [el, er]
  refine congrArg (· * x3 (ix2 k q)) ?_
  show Scalar.select (IntOp.cmpi .slt (IntOp.addi (Scalar.muli (BitVec.ofNat 32 (i 0).val) 1024#32)
        (iota .tc S1024x256 32 [0] iota_S1024x256_d0_w32 (ix2 p k))) 10000#32)
      (max (xs (ix2 p k) + broadcastTo S1024x256 x2 broadcasts_S1x256_S1024x256 (ix2 p k)) (Ideal.ofBits .f32 0x00000000#32))
      (Ideal.ofBits .f32 0x00000000#32) = _
  have hb : broadcastTo S1024x256 x2 broadcasts_S1x256_S1024x256 (ix2 p k) = x2 (ix2 0 k) :=
    broadcastTo_apply x2 broadcasts_S1x256_S1024x256 (ix2 p k) (ix2 0 k) (fun a => match a with
      | ⟨0, _⟩ => by show (0 : Nat) = if (1 : Nat) = 1 then 0 else _; rw [if_pos rfl]
      | ⟨1, _⟩ => by show k.val = if (256 : Nat) = 1 then 0 else k.val; rw [if_neg (by decide)])
  have hi : iota .tc S1024x256 32 [0] iota_S1024x256_d0_w32 (ix2 p k) = BitVec.ofNat 32 p.val :=
    iota_single_apply .tc S1024x256 32 0 iota_S1024x256_d0_w32 (ix2 p k)
  have h10 : (i 0).val < 10 := (i 0).isLt
  rw [hb, hi, Ideal.ofBits_zero_f32, rowmask (i 0).val p.val h10 p.isLt]
  by_cases h : 1024 * (i 0).val + p.val < 10000
  · rw [if_pos h, if_pos h]; exact select_one _ _
  · rw [if_neg h, if_neg h]; exact select_zero _ _

end Cert.KernelIdeal.KerValue

end
-- ==== Proof.KV.Final1.lean ====
/-
  The second call's output array, index by index, at the exact values.

  Row block i of the output is written back once, at the last of the five grid points (i, 0) … (i, 4). By then the
  accumulator holds, at row p and column q, the five column blocks of row 1024·i + p of the adjacency against the
  matching row blocks of the feature matrix, added in order from zero; the epilogue adds the bias, clips at zero,
  zeroes the rows from 10000 on and multiplies by the weight matrix. The ten row blocks tile the 10240 rows.
-/
import proofs.«410187_j66958540144771_3_alg».proof.Proof.KI.R1
import proofs.«410187_j66958540144771_3_alg».proof.Proof.KV.Pay1
import Idealize.ShloMosaic.Lib.Pipeline.Value
import Idealize.ShloMosaic.Lib.ValueIdx
import Idealize.ShloMosaic.PureOps.Ideal.Laws
import proofs.«410187_j66958540144771_3_alg».proof.Proof.Spec
import proofs.«410187_j66958540144771_3_alg».proof.Proof.Inputs

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

/-! ## The accumulation in order, by the number of blocks added -/

/-- Column block k of a row against the matching row block, for any number k (nothing from 5 on). -/
def blkN {c : Nat} (A : Fin 10240 → Fin 10240 → EReal) (H : Fin 10240 → Fin c → EReal) (k : ℕ) (d : Fin 10240) (q : Fin c) : EReal :=
  if h : k < 5 then Spec.blk A H ⟨k, h⟩ d q else 0

/-- The blocks 0 … k added in order from zero. -/
def psum {c : Nat} (A : Fin 10240 → Fin 10240 → EReal) (H : Fin 10240 → Fin c → EReal) (d : Fin 10240) (q : Fin c) : ℕ → EReal
  | 0 => 0 + blkN A H 0 d q
  | k + 1 => psum A H d q k + blkN A H (k + 1) d q

theorem psum_four {c : Nat} (A : Fin 10240 → Fin 10240 → EReal) (H : Fin 10240 → Fin c → EReal) (d : Fin 10240) (q : Fin c) :
    psum A H d q 4 = Spec.blockSum A H d q := by
  rfl

section
variable (V : (c : Dev nD) → (b : Ref sig .tc) → Buf (Elt Ideal) ((c : Thread nD τ).loc b))

/-! ## The blocks the body reads, at an index -/

/-- The printed index maps and the grid coordinates over the grid: point t is (t / 5, t % 5); the adjacency's block is
    (t / 5, t % 5), the output's row block t / 5, every other block coordinate zero. -/
theorem idx_facts1 : ∀ t : Fin cfg1.N, win1_0.index t (0 : Fin 2) = t.val / 5 ∧ win1_0.index t (1 : Fin 2) = t.val % 5
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 5 ∧ win1_4.index t (1 : Fin 2) = 0
    ∧ (grid1.coords t (0 : Fin 2)).val = t.val / 5 ∧ (grid1.coords t (1 : Fin 2)).val = t.val % 5 :=
  (by decide +kernel : ∀ t : Fin grid1.N, _)

/-- Row p, column j of the adjacency's block at point t is row 1024·(t/5) + p, column 2048·(t%5) + j of its array. -/
theorem iblk1_0_apply (c : Dev nD) (t : Fin cfg1.N) (p : Fin 1024) (j : Fin 2048) (r s : Fin 10240)
    (hr : r.val = 1024 * (t.val / 5) + p.val) (hs : s.val = 2048 * (t.val % 5) + j.val) :
    (iblk1 V c 0 t : S1024x2048.Idx → EReal) (ix2 p j) = (V c main_v44 : S10240x10240.Idx → EReal) (ix2 r s) := by
  obtain ⟨e0, e1, -⟩ := idx_facts1 t
  unfold iblk1
  rw [View.read_apply]
  show (V c main_v44 : S10240x10240.Idx → EReal) _ = (V c main_v44 : S10240x10240.Idx → EReal) _
  congr 1
  funext a
  apply Fin.ext
  match a with
  | ⟨0, _⟩ => show win1_0.index t (0 : Fin 2) * 1024 + 1 * p.val = r.val; omega
  | ⟨1, _⟩ => show win1_0.index t (1 : Fin 2) * 2048 + 1 * j.val = s.val; omega

/-- The feature matrix's block at every point is its whole array; likewise the bias row and the weight matrix. -/
theorem iblk1_1_apply (c : Dev nD) (t : Fin cfg1.N) (r : Fin 10240) (q : Fin 256) :
    (iblk1 V c 1 t : S10240x256.Idx → EReal) (ix2 r q) = (V c main_v48 : S10240x256.Idx → EReal) (ix2 r q) := by
  obtain ⟨-, -, e2, e3, -⟩ := idx_facts1 t
  unfold iblk1
  rw [View.read_apply]
  show (V c main_v48 : S10240x256.Idx → EReal) _ = (V c main_v48 : S10240x256.Idx → EReal) _
  congr 1
  funext a
  apply Fin.ext
  match a with
  | ⟨0, _⟩ => show win1_1.index t (0 : Fin 2) * 10240 + 1 * r.val = r.val; omega
  | ⟨1, _⟩ => show win1_1.index t (1 : Fin 2) * 256 + 1 * q.val = q.val; omega
theorem iblk1_2_apply (c : Dev nD) (t : Fin cfg1.N) (q : Fin 256) :
    (iblk1 V c 2 t : S1x256.Idx → EReal) (ix2 0 q) = (V c main_v49 : S1x256.Idx → EReal) (ix2 0 q) := by
  obtain ⟨-, -, -, -, e4, e5, -⟩ := idx_facts1 t
  unfold iblk1
  rw [View.read_apply]
  show (V c main_v49 : S1x256.Idx → EReal) _ = (V c main_v49 : S1x256.Idx → EReal) _
  congr 1
  funext a
  apply Fin.ext
  match a with
  | ⟨0, _⟩ => show win1_2.index t (0 : Fin 2) * 1 + 1 * 0 = 0; omega
  | ⟨1, _⟩ => show win1_2.index t (1 : Fin 2) * 256 + 1 * q.val = q.val; omega
theorem iblk1_3_apply (c : Dev nD) (t : Fin cfg1.N) (r : Fin 256) (q : Fin 256) :
    (iblk1 V c 3 t : S256x256.Idx → EReal) (ix2 r q) = (V c main_v47 : S256x256.Idx → EReal) (ix2 r q) := by
  obtain ⟨-, -, -, -, -, -, e6, e7, -⟩ := idx_facts1 t
  unfold iblk1
  rw [View.read_apply]
  show (V c main_v47 : S256x256.Idx → EReal) _ = (V c main_v47 : S256x256.Idx → EReal) _
  congr 1
  funext a
  apply Fin.ext
  match a with
  | ⟨0, _⟩ => show win1_3.index t (0 : Fin 2) * 256 + 1 * r.val = r.val; omega
  | ⟨1, _⟩ => show win1_3.index t (1 : Fin 2) * 256 + 1 * q.val = q.val; omega

/-! ## The accumulator after each point -/

/-- The adjacency's and the feature matrix's blocks at point t, as functions into the extended reals. -/
abbrev ablk1 (c : Dev nD) (t : Fin cfg1.N) : S1024x2048.Idx → EReal := iblk1 V c 0 t
abbrev hblk1 (c : Dev nD) (t : Fin cfg1.N) : S10240x256.Idx → EReal := iblk1 V c 1 t

/-- The product the body adds at point t, at row p and column q: column block t % 5 of row 1024·(t/5) + p. -/
theorem step_sum (c : Dev nD) (t : Fin cfg1.N) (p : Fin 1024) (q : Fin 256) (d : Fin 10240) (hd : d.val = 1024 * (t.val / 5) + p.val) :
    (∑ j : Fin 2048, ablk1 V c t (ix2 p j) * hblk1 V c t (ix2 (hrow (grid1.coords t) j) q))
      = blkN (Inputs.mat (α := EReal) (V c main_v44)) (Inputs.mat (α := EReal) (V c main_v48)) (t.val % 5) d q := by
  have hk : t.val % 5 < 5 := Nat.mod_lt _ (by norm_num)
  obtain ⟨-, -, -, -, -, -, -, -, -, -, -, e1⟩ := idx_facts1 t
  unfold blkN; rw [dif_pos hk]; unfold Spec.blk
  refine Finset.sum_congr rfl fun j _ => ?_
  have hs : 2048 * (t.val % 5) + j.val < 10240 := by have := j.isLt; omega
  have h1 := iblk1_0_apply V c t p j d ⟨2048 * (t.val % 5) + j.val, hs⟩ hd rfl
  have h2 : hblk1 V c t (ix2 (hrow (grid1.coords t) j) q)
      = (V c main_v48 : S10240x256.Idx → EReal) (ix2 (⟨2048 * (t.val % 5) + j.val, hs⟩ : Fin 10240) q) := by
    refine (iblk1_1_apply V c t (hrow (grid1.coords t) j) q).trans ?_
    have e : hrow (grid1.coords t) j = (⟨2048 * (t.val % 5) + j.val, hs⟩ : Fin 10240) :=
      Fin.ext (by show 2048 * (grid1.coords t (1 : Fin 2)).val + j.val = 2048 * (t.val % 5) + j.val; rw [e1])
    rw [e]
  exact congrArg₂ (· * ·) h1 h2

/-- THE ACCUMULATOR after point t, at row p and column q: the blocks 0 … t % 5 of row 1024·(t/5) + p added in order
    from zero. -/
theorem accAt1_apply (c : Dev nD) : ∀ (n : ℕ) (t : Fin cfg1.N), t.val = n → ∀ (p : Fin 1024) (q : Fin 256) (d : Fin 10240),
    d.val = 1024 * (t.val / 5) + p.val →
    (accAt1 V c t.val t.isLt : S1024x256.Idx → EReal) (ix2 p q) = psum (Inputs.mat (α := EReal) (V c main_v44)) (Inputs.mat (α := EReal) (V c main_v48)) d q (t.val % 5) := by
  intro n
  induction n using Nat.strong_induction_on with
  | _ n ih =>
    intro t htn p q d hd
    have hN : t.val < 50 := lt_of_lt_of_eq t.isLt (show cfg1.N = 50 from N_1)
    have hstep := step_sum V c t p q d hd
    by_cases h0 : t.val % 5 = 0
    · rw [accAt1_A V c t h0]
      refine ((acc1_apply (grid1.coords t) (iblk1 V c 0 t) (iblk1 V c 1 t) zero1 p q).trans
        (congrArg₂ (· + ·) (zero1_apply p q) hstep)).trans ?_
      rw [h0]; rfl
    · rw [accAt1_BC V c t h0]
      have ht' : t.val - 1 < cfg1.N := Nat.lt_of_le_of_lt (Nat.sub_le _ _) t.isLt
      have ih' : (accAt1 V c (t.val - 1) ht' : S1024x256.Idx → EReal) (ix2 p q)
          = psum (Inputs.mat (α := EReal) (V c main_v44)) (Inputs.mat (α := EReal) (V c main_v48)) d q ((t.val - 1) % 5) :=
        ih (t.val - 1) (by omega) ⟨t.val - 1, ht'⟩ rfl p q d (by show d.val = 1024 * ((t.val - 1) / 5) + p.val; omega)
      refine ((acc1_apply (grid1.coords t) (iblk1 V c 0 t) (iblk1 V c 1 t) (accAt1 V c (t.val - 1) ht') p q).trans
        (congrArg₂ (· + ·) ih' hstep)).trans ?_
      obtain ⟨m, hm⟩ : ∃ m, t.val % 5 = m + 1 := ⟨t.val % 5 - 1, by omega⟩
      have hm' : (t.val - 1) % 5 = m := by omega
      rw [hm, hm']; rfl

/-! ## From the row blocks to the array -/

/-- The array the call leaves: the clipped, masked aggregation times the weight matrix. -/
def target1 (c : Dev nD) : S10240x256.Idx → EReal :=
  fun i => Spec.mm (Spec.kerAgg 10000 (Inputs.mat (α := EReal) (V c main_v44)) (Inputs.mat (α := EReal) (V c main_v48)) (fun j => Inputs.mat (α := EReal) (V c main_v49) 0 j)) (Inputs.mat (α := EReal) (V c main_v47)) (i 0) (i 1)

/-- The epilogue's block at a point with t % 5 = 4, at row p and column q, is the target at row 1024·(t/5) + p. -/
theorem blockOut1 (c : Dev nD) (t : Fin cfg1.N) (h4 : t.val % 5 = 4) (p : Fin 1024) (q : Fin 256) (r : Fin 10240)
    (hr : r.val = 1024 * (t.val / 5) + p.val) :
    (out1 (F := Ideal) (grid1.coords t) (accAt1 V c t.val t.isLt) (iblk1 V c 2 t) (iblk1 V c 3 t) : S1024x256.Idx → EReal) (ix2 p q)
      = target1 V c (ix2 r q) := by
  obtain ⟨-, -, -, -, -, -, -, -, -, -, e0, -⟩ := idx_facts1 t
  refine (out1_apply (grid1.coords t) (accAt1 V c t.val t.isLt) (iblk1 V c 2 t) (iblk1 V c 3 t) p q).trans ?_
  show (∑ j : Fin 256, (if 1024 * (grid1.coords t (0 : Fin 2)).val + p.val < 10000
        then max ((accAt1 V c t.val t.isLt : S1024x256.Idx → EReal) (ix2 p j) + (iblk1 V c 2 t : S1x256.Idx → EReal) (ix2 0 j)) 0 else 0)
          * (iblk1 V c 3 t : S256x256.Idx → EReal) (ix2 j q))
      = ∑ j : Fin 256, (if r.val < 10000 then max (Spec.blockSum (Inputs.mat (α := EReal) (V c main_v44)) (Inputs.mat (α := EReal) (V c main_v48)) r j + (V c main_v49 : S1x256.Idx → EReal) (ix2 0 j)) 0 else 0)
          * (V c main_v47 : S256x256.Idx → EReal) (ix2 j q)
  refine Finset.sum_congr rfl fun j _ => ?_
  have hc : 1024 * (grid1.coords t (0 : Fin 2)).val + p.val = r.val := by rw [e0, hr]
  have hacc : (accAt1 V c t.val t.isLt : S1024x256.Idx → EReal) (ix2 p j) = Spec.blockSum (Inputs.mat (α := EReal) (V c main_v44)) (Inputs.mat (α := EReal) (V c main_v48)) r j :=
    (accAt1_apply V c t.val t rfl p j r hr).trans (by rw [h4]; exact psum_four _ _ _ _)
  rw [hc, hacc, iblk1_2_apply V c t j, iblk1_3_apply V c t j q]

/-- What a point with t % 5 = 4 writes back is row block t / 5 of the target. -/
theorem flushed1_eq (c : Dev nD) (t : Fin cfg1.N) (hf : (cfg1.win 4).flush t = true) :
    (dat1 V c).flushed 4 t = ((cfg1.win 4).blk t).view.read (Elt Ideal) (target1 V c) := by
  have h4 : t.val % 5 = 4 := (flush1_4 t).mp hf
  have hN : t.val < 50 := lt_of_lt_of_eq t.isLt (show cfg1.N = 50 from N_1)
  show (cfg1.win 4).cut (grid1.coords t) ((dat1 V c).after 4 t) = _
  rw [after1_4]
  obtain ⟨-, -, -, -, -, -, -, -, e8, e9, -⟩ := idx_facts1 t
  funext j
  show (out1 (F := Ideal) (grid1.coords t) (accAt1 V c t.val t.isLt) (iblk1 V c 2 t) (iblk1 V c 3 t) : S1024x256.Idx → EReal) j
    = target1 V c (((cfg1.win 4).blk t).view.emb j)
  have hj0 : (j 0).val < 1024 := (j 0).isLt
  have hj1 : (j 1).val < 256 := (j 1).isLt
  have hrow : win1_4.index t (0 : Fin 2) * 1024 + 1 * (j 0).val < 10240 := by omega
  refine (congrArg (out1 (F := Ideal) (grid1.coords t) (accAt1 V c t.val t.isLt) (iblk1 V c 2 t) (iblk1 V c 3 t)) (eq_ix2 (n0 := 1024) (n1 := 256) j)).trans ?_
  refine (blockOut1 V c t h4 ⟨(j 0).val, hj0⟩ ⟨(j 1).val, hj1⟩ ⟨win1_4.index t (0 : Fin 2) * 1024 + 1 * (j 0).val, hrow⟩ (by show win1_4.index t (0 : Fin 2) * 1024 + 1 * (j 0).val = 1024 * (t.val / 5) + (j 0).val; omega)).trans ?_
  congr 1
  funext a
  apply Fin.ext
  match a with
  | ⟨0, _⟩ => rfl
  | ⟨1, _⟩ => show (j 1).val = win1_4.index t (1 : Fin 2) * 256 + 1 * (j 1).val; omega

/-- An index of the output array is in point t's block iff each coordinate is in the block's range on its axis. -/
theorem mem_blk1 (t : Fin cfg1.N) (i : S10240x256.Idx) :
    i ∈ ((cfg1.win 4).blk t).view.set ↔ ∀ a : Fin 2, win1_4.index t a * S1024x256.size a ≤ (i a).val ∧ (i a).val < win1_4.index t a * S1024x256.size a + S1024x256.size a := by
  show i ∈ ((View.whole main_v50).slice (win1_4.rect t)).set ↔ _
  rw [View.set_slice_whole, Rect.mem_set_unit]
  exact Iff.rfl

/-- Every index of the output array is in the block of the last point of its row block. -/
theorem cover1 (i : S10240x256.Idx) : ∃ t : Fin cfg1.N, (cfg1.win 4).flush t = true ∧ i ∈ ((cfg1.win 4).blk t).view.set := by
  have hi0 : (i 0).val < 10240 := (i 0).isLt
  have hi1 : (i 1).val < 256 := (i 1).isLt
  have hN : cfg1.N = 50 := N_1
  let t : Fin cfg1.N := ⟨5 * ((i 0).val / 1024) + 4, by rw [hN]; omega⟩
  obtain ⟨-, -, -, -, -, -, -, -, e8, e9, -⟩ := idx_facts1 t
  have ht : t.val = 5 * ((i 0).val / 1024) + 4 := rfl
  refine ⟨t, (flush1_4 t).mpr (by rw [ht]; omega), ?_⟩
  rw [mem_blk1]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 256 ≤ (i 1).val ∧ (i 1).val < win1_4.index t (1 : Fin 2) * 256 + 256; omega

/-- THE OUTPUT ARRAY after the call. -/
theorem final1_arr (c : Dev nD) : (dat1 V c).arrAt 4 cfg1.N = target1 V c :=
  (dat1 V c).arrAt_eq_of_cover 4 (target1 V c) (fun t hf => flushed1_eq V c t hf) cover1

/-- The same at row d, column q: the kernel's aggregation of the adjacency and the feature matrix with the bias row,
    times the weight matrix. -/
theorem final1 (c : Dev nD) (d : Fin 10240) (q : Fin 256) :
    ((dat1 V c).arrAt 4 cfg1.N : S10240x256.Idx → EReal) (ix2 d q)
      = Spec.mm (Spec.kerAgg 10000 (Inputs.mat (α := EReal) (V c main_v44)) (Inputs.mat (α := EReal) (V c main_v48)) (fun j => Inputs.mat (α := EReal) (V c main_v49) 0 j)) (Inputs.mat (α := EReal) (V c main_v47)) d q := by
  rw [final1_arr]; rfl

end

end Cert.KernelIdeal.KerValue

end
-- ==== Proof.KV.Final3.lean ====
/-
  What the fourth pallas_call leaves in its output array, over the extended reals.

  The body's stored value at row p and column q of its [128,256] block is ∑ j, P p j · H j q over the 10240 columns of the
  loaded block P of the pooling matrix and rows of the loaded feature matrix H: the shape casts to the same shape are
  identities and a matmul into the zero splat is the plain sum over the contracted axis. At grid point t the pooling
  matrix's block is its rows 128·t … 128·t+127 (block index (t, 0)), the feature matrix's block is the whole matrix
  (block index (0, 0)) and the output's block is rows 128·t … 128·t+127 (block index (t, 0)); both points write back and
  row γ lies in block γ / 128, so the two blocks tile the output: it ends as the product of the two arrays as the region
  finds them.
-/
import proofs.«410187_j66958540144771_3_alg».proof.Proof.KI.R3
import proofs.«410187_j66958540144771_3_alg».proof.Proof.Spec
import proofs.«410187_j66958540144771_3_alg».proof.Proof.Inputs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)

/-- The dimension numbers dot_S128x10240_S10240x256_S128x256_1_0_0_1_n_n contract the second axis of the left operand with the first of the right:
    the operand indices at an output index and a contraction index, axis by axis. -/
theorem lhs_p_0 (i : S128x256.Idx) (q : dot_S128x10240_S10240x256_S128x256_1_0_0_1_n_n.contr.Idx) :
    (dot_S128x10240_S10240x256_S128x256_1_0_0_1_n_n.lhsIdx i q 0).val = (i 0).val := by
  unfold DotDims.lhsIdx
  rw [dif_neg (show ¬(0 : Fin S128x10240.rank) ∈ dot_S128x10240_S10240x256_S128x256_1_0_0_1_n_n.lhsBatch by decide), dif_pos (show (0 : Fin S128x10240.rank) ∈ dot_S128x10240_S10240x256_S128x256_1_0_0_1_n_n.lhsNonContracting by decide)]
  rfl
theorem lhs_p_1 (i : S128x256.Idx) (q : dot_S128x10240_S10240x256_S128x256_1_0_0_1_n_n.contr.Idx) :
    (dot_S128x10240_S10240x256_S128x256_1_0_0_1_n_n.lhsIdx i q 1).val = (q ⟨0, by decide⟩).val :=
  dot_S128x10240_S10240x256_S128x256_1_0_0_1_n_n.lhsIdx_val_of_single rfl i q
theorem rhs_p_0 (i : S128x256.Idx) (q : dot_S128x10240_S10240x256_S128x256_1_0_0_1_n_n.contr.Idx) :
    (dot_S128x10240_S10240x256_S128x256_1_0_0_1_n_n.rhsIdx i q 0).val = (q ⟨0, by decide⟩).val :=
  dot_S128x10240_S10240x256_S128x256_1_0_0_1_n_n.rhsIdx_val_of_single rfl i q
theorem rhs_p_1 (i : S128x256.Idx) (q : dot_S128x10240_S10240x256_S128x256_1_0_0_1_n_n.contr.Idx) :
    (dot_S128x10240_S10240x256_S128x256_1_0_0_1_n_n.rhsIdx i q 1).val = (i 1).val := by
  unfold DotDims.rhsIdx
  rw [dif_neg (show ¬(1 : Fin S10240x256.rank) ∈ dot_S128x10240_S10240x256_S128x256_1_0_0_1_n_n.rhsBatch by decide), dif_pos (show (1 : Fin S10240x256.rank) ∈ dot_S128x10240_S10240x256_S128x256_1_0_0_1_n_n.rhsNonContracting by decide)]
  rfl

/-- A [128,10240] by [10240,256] matmul into the zero splat, read at row p and column q: the sum over the 10240 contracted
    positions of the products. -/
theorem matmul_p_apply (x : FVec Ideal S128x10240 .f32) (y : FVec Ideal S10240x256 .f32) (p : Fin 128) (q : Fin 256) :
    matmul dot_S128x10240_S10240x256_S128x256_1_0_0_1_n_n none x y (constant (F := Ideal) S128x256 .f32 0x00000000#32) (ix2 p q)
      = ∑ k : Fin 10240, x (ix2 p k) * y (ix2 k q) := by
  simp only [matmul]
  rw [Ideal.matmul_constant_zero_apply, ← Equiv.sum_comp (ValueIdx.contrEquiv1 dot_S128x10240_S10240x256_S128x256_1_0_0_1_n_n 10240 rfl rfl).symm]
  refine Finset.sum_congr rfl fun k _ => ?_
  have hk := ValueIdx.contrEquiv1_symm_val dot_S128x10240_S10240x256_S128x256_1_0_0_1_n_n 10240 rfl rfl k
  have el : dot_S128x10240_S10240x256_S128x256_1_0_0_1_n_n.lhsIdx (ix2 p q) ((ValueIdx.contrEquiv1 dot_S128x10240_S10240x256_S128x256_1_0_0_1_n_n 10240 rfl rfl).symm k) = ix2 p k := funext fun a => Fin.ext (by
    match a with
    | ⟨0, _⟩ => exact lhs_p_0 _ _
    | ⟨1, _⟩ => exact (lhs_p_1 _ _).trans hk)
  have er : dot_S128x10240_S10240x256_S128x256_1_0_0_1_n_n.rhsIdx (ix2 p q) ((ValueIdx.contrEquiv1 dot_S128x10240_S10240x256_S128x256_1_0_0_1_n_n 10240 rfl rfl).symm k) = ix2 k q := funext fun a => Fin.ext (by
    match a with
    | ⟨0, _⟩ => exact (rhs_p_0 _ _).trans hk
    | ⟨1, _⟩ => exact rhs_p_1 _ _)
  rw [el, er]

/-- The stored value as the one operation that is not an identity. -/
theorem k3_pay1_eq (v0 : Vec Ideal S128x10240 .f32) (v2 : Vec Ideal S10240x256 .f32) :
    k3_pay1 (F := Ideal) v0 v2
      = matmul (φ₁ := .f32) (φ₂ := .f32) dot_S128x10240_S10240x256_S128x256_1_0_0_1_n_n none (v0 : FVec Ideal S128x10240 .f32) (v2 : FVec Ideal S10240x256 .f32)
          (constant (F := Ideal) S128x256 .f32 0x00000000#32) := by
  unfold k3_pay1
  simp only [shapeCast_self]

/-- THE STORED VALUE at row p and column q of the block: the product of the two loaded blocks there. -/
theorem k3_pay1_apply (v0 : Vec Ideal S128x10240 .f32) (v2 : Vec Ideal S10240x256 .f32) (p : Fin 128) (q : Fin 256) :
    (k3_pay1 (F := Ideal) v0 v2 : S128x256.Idx → EReal) (ix2 p q) = ∑ j : Fin 10240, v0 (ix2 p j) * v2 (ix2 j q) := by
  rw [k3_pay1_eq, matmul_p_apply]

section Region3
variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the pooling matrix's and the output's blocks are row block t, the
    feature matrix's block is the whole matrix. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of row block t. -/
def row3 (t : Fin cfg3.N) (p : Fin 128) : Fin 256 :=
  ⟨128 * t.val + p.val, by have ht : t.val < 2 := lt_of_lt_of_eq t.isLt N_3; have hp := p.isLt; omega⟩

theorem row3_val (t : Fin cfg3.N) (p : Fin 128) : (row3 t p).val = 128 * t.val + p.val := rfl

/-- Row block t of the pooling matrix: its rows 128·t … 128·t+127. -/
abbrev blkP (c : Dev nD) (t : Fin cfg3.N) : S128x10240.Idx → EReal := fun y =>
  (V c main_v66 : S256x10240.Idx → EReal) (ix2 (row3 t (⟨(y 0).val, (y 0).isLt⟩ : Fin 128)) (⟨(y 1).val, (y 1).isLt⟩ : Fin 10240))

/-- Window 0's block at point t is that row block. -/
theorem iblk3_0_eq (c : Dev nD) (t : Fin cfg3.N) : (iblk3 V c 0 t : S128x10240.Idx → EReal) = blkP V c t := by
  obtain ⟨e00, e01, e10, e11, e20, e21⟩ := idx_facts3 t
  funext y
  show (V c main_v66 : S256x10240.Idx → EReal) (((cfg3.win 0).blk t).view.emb y)
    = (V c main_v66 : S256x10240.Idx → EReal) (ix2 (row3 t (⟨(y 0).val, (y 0).isLt⟩ : Fin 128)) (⟨(y 1).val, (y 1).isLt⟩ : Fin 10240))
  refine congrArg _ (funext fun a => Fin.ext ?_)
  match a with
  | ⟨0, _⟩ => show win3_0.index t (0 : Fin 2) * 128 + 1 * (y 0).val = 128 * t.val + (y 0).val; rw [e00]; omega
  | ⟨1, _⟩ => show win3_0.index t (1 : Fin 2) * 10240 + 1 * (y 1).val = (y 1).val; rw [e01]; omega

/-- Window 1's block at either point is the whole feature matrix. -/
theorem iblk3_1_eq (c : Dev nD) (t : Fin cfg3.N) :
    (iblk3 V c 1 t : S10240x256.Idx → EReal) = (V c main_v52 : S10240x256.Idx → EReal) := by
  obtain ⟨e00, e01, e10, e11, e20, e21⟩ := idx_facts3 t
  funext y
  show (V c main_v52 : S10240x256.Idx → EReal) (((cfg3.win 1).blk t).view.emb y) = (V c main_v52 : S10240x256.Idx → EReal) y
  refine congrArg _ (funext fun a => Fin.ext ?_)
  match a with
  | ⟨0, _⟩ => show win3_1.index t (0 : Fin 2) * 10240 + 1 * (y 0).val = (y 0).val; rw [e10]; omega
  | ⟨1, _⟩ => show win3_1.index t (1 : Fin 2) * 256 + 1 * (y 1).val = (y 1).val; rw [e11]; omega

/-- What the output array ends holding: the product of the pooling matrix and the feature matrix as the region finds them. -/
abbrev G3 (c : Dev nD) : S256x256.Idx → EReal := fun i =>
  Spec.mm (Inputs.mat (V c main_v66 : S256x10240.Idx → EReal)) (Inputs.mat (V c main_v52 : S10240x256.Idx → EReal))
    (⟨(i 0).val, (i 0).isLt⟩ : Fin 256) (⟨(i 1).val, (i 1).isLt⟩ : Fin 256)

/-- WHAT POINT t WRITES BACK is the block of G3 it covers. -/
theorem flushed3_eq (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz3]
  simp only [View.ld_unit_zero (S := S128x10240) hz3, View.ld_unit_zero (S := S10240x256) hz3]
  rw [iblk3_0_eq, iblk3_1_eq]
  obtain ⟨e00, e01, e10, e11, e20, e21⟩ := idx_facts3 t
  funext j
  have hj0 : (j 0).val < 128 := (j 0).isLt
  have hj1 : (j 1).val < 256 := (j 1).isLt
  have hL : ((cfg3.win 2).xinj (grid3.coords t) j : S128x256.Idx) = ix2 (⟨(j 0).val, hj0⟩ : Fin 128) (⟨(j 1).val, hj1⟩ : Fin 256) :=
    funext fun a => Fin.ext (by
      match a with
      | ⟨0, _⟩ => rfl
      | ⟨1, _⟩ => rfl)
  have hR : (((cfg3.win 2).blk t).view.emb j : S256x256.Idx) = ix2 (row3 t (⟨(j 0).val, hj0⟩ : Fin 128)) (⟨(j 1).val, hj1⟩ : Fin 256) :=
    funext fun a => Fin.ext (by
      match a with
      | ⟨0, _⟩ => show win3_2.index t (0 : Fin 2) * 128 + 1 * (j 0).val = 128 * t.val + (j 0).val; rw [e20]; omega
      | ⟨1, _⟩ => show win3_2.index t (1 : Fin 2) * 256 + 1 * (j 1).val = (j 1).val; rw [e21]; omega)
  show (k3_pay1 (F := Ideal) (blkP V c t) (V c main_v52 : S10240x256.Idx → EReal) : S128x256.Idx → EReal) ((cfg3.win 2).xinj (grid3.coords t) j)
    = G3 V c (((cfg3.win 2).blk t).view.emb j)
  rw [hL, hR, k3_pay1_apply]
  rfl

/-- An index of the array is in point t's block iff each coordinate is in the block's range on its axis. -/
theorem mem_blk3 (t : Fin cfg3.N) (i : S256x256.Idx) :
    i ∈ ((cfg3.win 2).blk t).view.set ↔ ∀ a : Fin 2, win3_2.index t a * S128x256.size a ≤ (i a).val ∧ (i a).val < win3_2.index t a * S128x256.size a + S128x256.size a := by
  show i ∈ ((View.whole main_v67).slice (win3_2.rect t)).set ↔ _
  rw [View.set_slice_whole, Rect.mem_set_unit]
  exact Iff.rfl

/-- Row γ of the array lies in the block of point γ / 128, and every point writes back: the blocks cover the array. -/
theorem cover3 (i : S256x256.Idx) : ∃ t : Fin cfg3.N, (cfg3.win 2).flush t = true ∧ i ∈ ((cfg3.win 2).blk t).view.set := by
  have hi0 : (i 0).val < 256 := (i 0).isLt
  have hi1 : (i 1).val < 256 := (i 1).isLt
  have h : (i 0).val / 128 < cfg3.N := by
    show (i 0).val / 128 < grid3.N
    rw [N_3]; omega
  obtain ⟨t, ht⟩ : ∃ t : Fin cfg3.N, t.val = (i 0).val / 128 := ⟨⟨(i 0).val / 128, h⟩, rfl⟩
  refine ⟨t, flush3_2 t, ?_⟩
  obtain ⟨e00, e01, e10, e11, e20, e21⟩ := idx_facts3 t
  rw [mem_blk3]
  intro a
  match a with
  | ⟨0, _⟩ => show win3_2.index t (0 : Fin 2) * 128 ≤ (i 0).val ∧ (i 0).val < win3_2.index t (0 : Fin 2) * 128 + 128; rw [e20, ht]; omega
  | ⟨1, _⟩ => show win3_2.index t (1 : Fin 2) * 256 ≤ (i 1).val ∧ (i 1).val < win3_2.index t (1 : Fin 2) * 256 + 256; rw [e21]; omega

/-- THE OUTPUT ARRAY after the region, whole. -/
theorem final3_eq (c : Dev nD) : (dat3 V c).arrAt 2 cfg3.N = G3 V c :=
  (dat3 V c).arrAt_eq_of_cover 2 (G3 V c) (fun t _ => flushed3_eq V c t) cover3

/-- THE OUTPUT ARRAY after the region at row γ and column q: the product of the pooling matrix and the feature matrix there. -/
theorem final3 (c : Dev nD) (γ : Fin 256) (q : Fin 256) :
    ((dat3 V c).arrAt 2 cfg3.N : S256x256.Idx → EReal) (ix2 γ q)
      = Spec.mm (Inputs.mat (V c main_v66 : S256x10240.Idx → EReal)) (Inputs.mat (V c main_v52 : S10240x256.Idx → EReal)) γ q :=
  congrFun (final3_eq V c) (ix2 γ q)

/-- The same with the sum written out, over the two arrays named at their literal types. -/
abbrev arrP (c : Dev nD) : S256x10240.Idx → EReal := V c main_v66
abbrev arrH (c : Dev nD) : S10240x256.Idx → EReal := V c main_v52
theorem final3_sum (c : Dev nD) (γ : Fin 256) (q : Fin 256) :
    ((dat3 V c).arrAt 2 cfg3.N : S256x256.Idx → EReal) (ix2 γ q) = ∑ j : Fin 10240, arrP V c (ix2 γ j) * arrH V c (ix2 j q) :=
  final3 V c γ q

end Region3

end Cert.KernelIdeal.KerValue

end
-- ==== Proof.KV.Final4.lean ====
/-
  What the fifth pallas_call leaves in its output array, over the extended reals.

  The body's stored value at row γ and column ω is
      (∑ j, max ((∑ k, x γ k · W1 k j) + b1 j) 0 · W2 j ω) + b2 ω
  of the five loaded blocks: the shape casts to the same shape are identities, a matmul into the zero splat is the plain
  sum over the contracted axis, a [1,n] row broadcast over the rows reads the row, the zero word is 0. The grid has
  one point, and at it every window's block is its whole array (all block indices are 0), so the stored block is the
  array: the output array ends as the two dense layers of the five arrays as the region finds them.
-/
import proofs.«410187_j66958540144771_3_alg».proof.Proof.KI.R4
import proofs.«410187_j66958540144771_3_alg».proof.Proof.Spec
import proofs.«410187_j66958540144771_3_alg».proof.Proof.Inputs
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)

/-- The dimension numbers dot_S256x5376_S5376x256_S256x256_1_0_0_1_n_n contract the second axis of the left operand with the first of the right:
    the operand indices at an output index and a contraction index, axis by axis. -/
theorem lhs_h1_0 (i : S256x256.Idx) (q : dot_S256x5376_S5376x256_S256x256_1_0_0_1_n_n.contr.Idx) :
    (dot_S256x5376_S5376x256_S256x256_1_0_0_1_n_n.lhsIdx i q 0).val = (i 0).val := by
  unfold DotDims.lhsIdx
  rw [dif_neg (show ¬(0 : Fin S256x5376.rank) ∈ dot_S256x5376_S5376x256_S256x256_1_0_0_1_n_n.lhsBatch by decide), dif_pos (show (0 : Fin S256x5376.rank) ∈ dot_S256x5376_S5376x256_S256x256_1_0_0_1_n_n.lhsNonContracting by decide)]
  rfl
theorem lhs_h1_1 (i : S256x256.Idx) (q : dot_S256x5376_S5376x256_S256x256_1_0_0_1_n_n.contr.Idx) :
    (dot_S256x5376_S5376x256_S256x256_1_0_0_1_n_n.lhsIdx i q 1).val = (q ⟨0, by decide⟩).val :=
  dot_S256x5376_S5376x256_S256x256_1_0_0_1_n_n.lhsIdx_val_of_single rfl i q
theorem rhs_h1_0 (i : S256x256.Idx) (q : dot_S256x5376_S5376x256_S256x256_1_0_0_1_n_n.contr.Idx) :
    (dot_S256x5376_S5376x256_S256x256_1_0_0_1_n_n.rhsIdx i q 0).val = (q ⟨0, by decide⟩).val :=
  dot_S256x5376_S5376x256_S256x256_1_0_0_1_n_n.rhsIdx_val_of_single rfl i q
theorem rhs_h1_1 (i : S256x256.Idx) (q : dot_S256x5376_S5376x256_S256x256_1_0_0_1_n_n.contr.Idx) :
    (dot_S256x5376_S5376x256_S256x256_1_0_0_1_n_n.rhsIdx i q 1).val = (i 1).val := by
  unfold DotDims.rhsIdx
  rw [dif_neg (show ¬(1 : Fin S5376x256.rank) ∈ dot_S256x5376_S5376x256_S256x256_1_0_0_1_n_n.rhsBatch by decide), dif_pos (show (1 : Fin S5376x256.rank) ∈ dot_S256x5376_S5376x256_S256x256_1_0_0_1_n_n.rhsNonContracting by decide)]
  rfl

/-- A [256,5376] by [5376,256] matmul into the zero splat, read at row p and column q: the sum over the 5376 contracted
    positions of the products. -/
theorem matmul_h1_apply (x : FVec Ideal S256x5376 .f32) (y : FVec Ideal S5376x256 .f32) (p : Fin 256) (q : Fin 256) :
    matmul dot_S256x5376_S5376x256_S256x256_1_0_0_1_n_n none x y (constant (F := Ideal) S256x256 .f32 0x00000000#32) (ix2 p q)
      = ∑ k : Fin 5376, x (ix2 p k) * y (ix2 k q) := by
  simp only [matmul]
  rw [Ideal.matmul_constant_zero_apply, ← Equiv.sum_comp (ValueIdx.contrEquiv1 dot_S256x5376_S5376x256_S256x256_1_0_0_1_n_n 5376 rfl rfl).symm]
  refine Finset.sum_congr rfl fun k _ => ?_
  have hk := ValueIdx.contrEquiv1_symm_val dot_S256x5376_S5376x256_S256x256_1_0_0_1_n_n 5376 rfl rfl k
  have el : dot_S256x5376_S5376x256_S256x256_1_0_0_1_n_n.lhsIdx (ix2 p q) ((ValueIdx.contrEquiv1 dot_S256x5376_S5376x256_S256x256_1_0_0_1_n_n 5376 rfl rfl).symm k) = ix2 p k := funext fun a => Fin.ext (by
    match a with
    | ⟨0, _⟩ => exact lhs_h1_0 _ _
    | ⟨1, _⟩ => exact (lhs_h1_1 _ _).trans hk)
  have er : dot_S256x5376_S5376x256_S256x256_1_0_0_1_n_n.rhsIdx (ix2 p q) ((ValueIdx.contrEquiv1 dot_S256x5376_S5376x256_S256x256_1_0_0_1_n_n 5376 rfl rfl).symm k) = ix2 k q := funext fun a => Fin.ext (by
    match a with
    | ⟨0, _⟩ => exact (rhs_h1_0 _ _).trans hk
    | ⟨1, _⟩ => exact rhs_h1_1 _ _)
  rw [el, er]

/-- The dimension numbers dot_S256x256_S256x138_S256x138_1_0_0_1_n_n contract the second axis of the left operand with the first of the right:
    the operand indices at an output index and a contraction index, axis by axis. -/
theorem lhs_h2_0 (i : S256x138.Idx) (q : dot_S256x256_S256x138_S256x138_1_0_0_1_n_n.contr.Idx) :
    (dot_S256x256_S256x138_S256x138_1_0_0_1_n_n.lhsIdx i q 0).val = (i 0).val := by
  unfold DotDims.lhsIdx
  rw [dif_neg (show ¬(0 : Fin S256x256.rank) ∈ dot_S256x256_S256x138_S256x138_1_0_0_1_n_n.lhsBatch by decide), dif_pos (show (0 : Fin S256x256.rank) ∈ dot_S256x256_S256x138_S256x138_1_0_0_1_n_n.lhsNonContracting by decide)]
  rfl
theorem lhs_h2_1 (i : S256x138.Idx) (q : dot_S256x256_S256x138_S256x138_1_0_0_1_n_n.contr.Idx) :
    (dot_S256x256_S256x138_S256x138_1_0_0_1_n_n.lhsIdx i q 1).val = (q ⟨0, by decide⟩).val :=
  dot_S256x256_S256x138_S256x138_1_0_0_1_n_n.lhsIdx_val_of_single rfl i q
theorem rhs_h2_0 (i : S256x138.Idx) (q : dot_S256x256_S256x138_S256x138_1_0_0_1_n_n.contr.Idx) :
    (dot_S256x256_S256x138_S256x138_1_0_0_1_n_n.rhsIdx i q 0).val = (q ⟨0, by decide⟩).val :=
  dot_S256x256_S256x138_S256x138_1_0_0_1_n_n.rhsIdx_val_of_single rfl i q
theorem rhs_h2_1 (i : S256x138.Idx) (q : dot_S256x256_S256x138_S256x138_1_0_0_1_n_n.contr.Idx) :
    (dot_S256x256_S256x138_S256x138_1_0_0_1_n_n.rhsIdx i q 1).val = (i 1).val := by
  unfold DotDims.rhsIdx
  rw [dif_neg (show ¬(1 : Fin S256x138.rank) ∈ dot_S256x256_S256x138_S256x138_1_0_0_1_n_n.rhsBatch by decide), dif_pos (show (1 : Fin S256x138.rank) ∈ dot_S256x256_S256x138_S256x138_1_0_0_1_n_n.rhsNonContracting by decide)]
  rfl

/-- A [256,256] by [256,138] matmul into the zero splat, read at row p and column q: the sum over the 256 contracted
    positions of the products. -/
theorem matmul_h2_apply (x : FVec Ideal S256x256 .f32) (y : FVec Ideal S256x138 .f32) (p : Fin 256) (q : Fin 138) :
    matmul dot_S256x256_S256x138_S256x138_1_0_0_1_n_n none x y (constant (F := Ideal) S256x138 .f32 0x00000000#32) (ix2 p q)
      = ∑ k : Fin 256, x (ix2 p k) * y (ix2 k q) := by
  simp only [matmul]
  rw [Ideal.matmul_constant_zero_apply, ← Equiv.sum_comp (ValueIdx.contrEquiv1 dot_S256x256_S256x138_S256x138_1_0_0_1_n_n 256 rfl rfl).symm]
  refine Finset.sum_congr rfl fun k _ => ?_
  have hk := ValueIdx.contrEquiv1_symm_val dot_S256x256_S256x138_S256x138_1_0_0_1_n_n 256 rfl rfl k
  have el : dot_S256x256_S256x138_S256x138_1_0_0_1_n_n.lhsIdx (ix2 p q) ((ValueIdx.contrEquiv1 dot_S256x256_S256x138_S256x138_1_0_0_1_n_n 256 rfl rfl).symm k) = ix2 p k := funext fun a => Fin.ext (by
    match a with
    | ⟨0, _⟩ => exact lhs_h2_0 _ _
    | ⟨1, _⟩ => exact (lhs_h2_1 _ _).trans hk)
  have er : dot_S256x256_S256x138_S256x138_1_0_0_1_n_n.rhsIdx (ix2 p q) ((ValueIdx.contrEquiv1 dot_S256x256_S256x138_S256x138_1_0_0_1_n_n 256 rfl rfl).symm k) = ix2 k q := funext fun a => Fin.ext (by
    match a with
    | ⟨0, _⟩ => exact (rhs_h2_0 _ _).trans hk
    | ⟨1, _⟩ => exact rhs_h2_1 _ _)
  rw [el, er]

/-- A [1,256] row broadcast over 256 rows reads the row. -/
theorem bcast_h1_apply (v : FVec Ideal S1x256 .f32) (p q : Fin 256) :
    broadcastTo S256x256 v broadcasts_S1x256_S256x256 (ix2 p q) = v (ix2 0 q) :=
  broadcastTo_apply v broadcasts_S1x256_S256x256 (ix2 p q) (ix2 0 q) fun a => by
    match a with
    | ⟨0, _⟩ => rfl
    | ⟨1, _⟩ => rfl
/-- A [1,138] row broadcast over 256 rows reads the row. -/
theorem bcast_h2_apply (v : FVec Ideal S1x138 .f32) (p : Fin 256) (q : Fin 138) :
    broadcastTo S256x138 v broadcasts_S1x138_S256x138 (ix2 p q) = v (ix2 0 q) :=
  broadcastTo_apply v broadcasts_S1x138_S256x138 (ix2 p q) (ix2 0 q) fun a => by
    match a with
    | ⟨0, _⟩ => rfl
    | ⟨1, _⟩ => rfl

/-- The stored value as the operations that are not identities. -/
theorem k4_pay1_eq (v0 : Vec Ideal S256x5376 .f32) (v2 : Vec Ideal S5376x256 .f32) (v5 : Vec Ideal S1x256 .f32)
    (v11 : Vec Ideal S256x138 .f32) (v13 : Vec Ideal S1x138 .f32) :
    k4_pay1 (F := Ideal) v0 v2 v5 v11 v13
      = addf (matmul (φ₁ := .f32) (φ₂ := .f32) dot_S256x256_S256x138_S256x138_1_0_0_1_n_n none
            (maximumf (addf (matmul (φ₁ := .f32) (φ₂ := .f32) dot_S256x5376_S5376x256_S256x256_1_0_0_1_n_n none (v0 : FVec Ideal S256x5376 .f32) (v2 : FVec Ideal S5376x256 .f32) (constant (F := Ideal) S256x256 .f32 0x00000000#32))
                (broadcastTo S256x256 (v5 : FVec Ideal S1x256 .f32) broadcasts_S1x256_S256x256))
              (broadcast S256x256 (Scalar.ofBits (F := Ideal) .f32 0x00000000#32)))
            (v11 : FVec Ideal S256x138 .f32) (constant (F := Ideal) S256x138 .f32 0x00000000#32))
          (broadcastTo S256x138 (v13 : FVec Ideal S1x138 .f32) broadcasts_S1x138_S256x138) := by
  unfold k4_pay1
  simp only [shapeCast_self]

/-- THE STORED VALUE at row γ and column ω: the two dense layers of the five loaded blocks. -/
theorem k4_pay1_apply (v0 : Vec Ideal S256x5376 .f32) (v2 : Vec Ideal S5376x256 .f32) (v5 : Vec Ideal S1x256 .f32)
    (v11 : Vec Ideal S256x138 .f32) (v13 : Vec Ideal S1x138 .f32) (γ : Fin 256) (ω : Fin 138) :
    (k4_pay1 (F := Ideal) v0 v2 v5 v11 v13 : S256x138.Idx → EReal) (ix2 γ ω)
      = Spec.head (Inputs.mat v0) (Inputs.mat v2) (fun j => v5 (ix2 0 j)) (Inputs.mat v11) (fun j => v13 (ix2 0 j)) γ ω := by
  rw [k4_pay1_eq, addf_apply, matmul_h2_apply, bcast_h2_apply]
  unfold Spec.head Spec.mm Spec.biasRelu
  refine congrArg (· + v13 (ix2 0 ω)) (Finset.sum_congr rfl fun j _ => ?_)
  rw [maximumf_apply, addf_apply, matmul_h1_apply, bcast_h1_apply, broadcast_apply]
  rw [show Scalar.ofBits (F := Ideal) .f32 0x00000000#32 = (0 : EReal) from Ideal.ofBits_zero_f32]

section Region4
variable (V : (c : Dev nD) → (b : Ref sig .tc) → Buf (Elt Ideal) ((c : Thread nD τ).loc b))

theorem hz4 : (![0, 0] : Fin 2 → Nat) = fun _ => 0 := funext fun a => by fin_cases a <;> rfl

/-- The printed index maps, decided over the grid: every window's block index is 0 on both axes. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Window 0's block at the one point is its whole array. -/
theorem iblk4_0_eq (c : Dev nD) (t : Fin cfg4.N) :
    (iblk4 V c 0 t : S256x5376.Idx → EReal) = (V c main_v69 : S256x5376.Idx → EReal) := by
  obtain ⟨e00, e01, e10, e11, e20, e21, e30, e31, e40, e41, e50, e51⟩ := idx_facts4 t
  funext y
  show (V c main_v69 : S256x5376.Idx → EReal) (((cfg4.win 0).blk t).view.emb y) = (V c main_v69 : S256x5376.Idx → EReal) y
  refine congrArg _ (funext fun a => Fin.ext ?_)
  match a with
  | ⟨0, _⟩ => show win4_0.index t (0 : Fin 2) * 256 + 1 * (y 0).val = (y 0).val; rw [e00]; omega
  | ⟨1, _⟩ => show win4_0.index t (1 : Fin 2) * 5376 + 1 * (y 1).val = (y 1).val; rw [e01]; omega
/-- Window 1's block at the one point is its whole array. -/
theorem iblk4_1_eq (c : Dev nD) (t : Fin cfg4.N) :
    (iblk4 V c 1 t : S5376x256.Idx → EReal) = (V c main_v70 : S5376x256.Idx → EReal) := by
  obtain ⟨e00, e01, e10, e11, e20, e21, e30, e31, e40, e41, e50, e51⟩ := idx_facts4 t
  funext y
  show (V c main_v70 : S5376x256.Idx → EReal) (((cfg4.win 1).blk t).view.emb y) = (V c main_v70 : S5376x256.Idx → EReal) y
  refine congrArg _ (funext fun a => Fin.ext ?_)
  match a with
  | ⟨0, _⟩ => show win4_1.index t (0 : Fin 2) * 5376 + 1 * (y 0).val = (y 0).val; rw [e10]; omega
  | ⟨1, _⟩ => show win4_1.index t (1 : Fin 2) * 256 + 1 * (y 1).val = (y 1).val; rw [e11]; omega
/-- Window 2's block at the one point is its whole array. -/
theorem iblk4_2_eq (c : Dev nD) (t : Fin cfg4.N) :
    (iblk4 V c 2 t : S1x256.Idx → EReal) = (V c main_v71 : S1x256.Idx → EReal) := by
  obtain ⟨e00, e01, e10, e11, e20, e21, e30, e31, e40, e41, e50, e51⟩ := idx_facts4 t
  funext y
  show (V c main_v71 : S1x256.Idx → EReal) (((cfg4.win 2).blk t).view.emb y) = (V c main_v71 : S1x256.Idx → EReal) y
  refine congrArg _ (funext fun a => Fin.ext ?_)
  match a with
  | ⟨0, _⟩ => show win4_2.index t (0 : Fin 2) * 1 + 1 * (y 0).val = (y 0).val; rw [e20]; omega
  | ⟨1, _⟩ => show win4_2.index t (1 : Fin 2) * 256 + 1 * (y 1).val = (y 1).val; rw [e21]; omega
/-- Window 3's block at the one point is its whole array. -/
theorem iblk4_3_eq (c : Dev nD) (t : Fin cfg4.N) :
    (iblk4 V c 3 t : S256x138.Idx → EReal) = (V c main_arg10 : S256x138.Idx → EReal) := by
  obtain ⟨e00, e01, e10, e11, e20, e21, e30, e31, e40, e41, e50, e51⟩ := idx_facts4 t
  funext y
  show (V c main_arg10 : S256x138.Idx → EReal) (((cfg4.win 3).blk t).view.emb y) = (V c main_arg10 : S256x138.Idx → EReal) y
  refine congrArg _ (funext fun a => Fin.ext ?_)
  match a with
  | ⟨0, _⟩ => show win4_3.index t (0 : Fin 2) * 256 + 1 * (y 0).val = (y 0).val; rw [e30]; omega
  | ⟨1, _⟩ => show win4_3.index t (1 : Fin 2) * 138 + 1 * (y 1).val = (y 1).val; rw [e31]; omega
/-- Window 4's block at the one point is its whole array. -/
theorem iblk4_4_eq (c : Dev nD) (t : Fin cfg4.N) :
    (iblk4 V c 4 t : S1x138.Idx → EReal) = (V c main_v72 : S1x138.Idx → EReal) := by
  obtain ⟨e00, e01, e10, e11, e20, e21, e30, e31, e40, e41, e50, e51⟩ := idx_facts4 t
  funext y
  show (V c main_v72 : S1x138.Idx → EReal) (((cfg4.win 4).blk t).view.emb y) = (V c main_v72 : S1x138.Idx → EReal) y
  refine congrArg _ (funext fun a => Fin.ext ?_)
  match a with
  | ⟨0, _⟩ => show win4_4.index t (0 : Fin 2) * 1 + 1 * (y 0).val = (y 0).val; rw [e40]; omega
  | ⟨1, _⟩ => show win4_4.index t (1 : Fin 2) * 138 + 1 * (y 1).val = (y 1).val; rw [e41]; omega

/-- What the output array ends holding: the two dense layers of the five arrays as the region finds them. -/
abbrev G4 (c : Dev nD) : S256x138.Idx → EReal := fun i =>
  Spec.head (Inputs.mat (V c main_v69 : S256x5376.Idx → EReal)) (Inputs.mat (V c main_v70 : S5376x256.Idx → EReal))
    (fun j => (V c main_v71 : S1x256.Idx → EReal) (ix2 0 j)) (Inputs.mat (V c main_arg10 : S256x138.Idx → EReal))
    (fun j => (V c main_v72 : S1x138.Idx → EReal) (ix2 0 j)) (i 0) (i 1)

/-- WHAT THE POINT WRITES BACK is the block of G4 it covers. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S256x5376) hz4, View.ld_unit_zero (S := S5376x256) hz4, View.ld_unit_zero (S := S1x256) hz4,
    View.ld_unit_zero (S := S256x138) hz4, View.ld_unit_zero (S := S1x138) hz4]
  rw [iblk4_0_eq, iblk4_1_eq, iblk4_2_eq, iblk4_3_eq, iblk4_4_eq]
  obtain ⟨e00, e01, e10, e11, e20, e21, e30, e31, e40, e41, e50, e51⟩ := idx_facts4 t
  funext j
  have hj0 : (j 0).val < 256 := (j 0).isLt
  have hj1 : (j 1).val < 138 := (j 1).isLt
  have hL : ((cfg4.win 5).xinj (grid4.coords t) j : S256x138.Idx) = ix2 (⟨(j 0).val, hj0⟩ : Fin 256) (⟨(j 1).val, hj1⟩ : Fin 138) :=
    funext fun a => Fin.ext (by
      match a with
      | ⟨0, _⟩ => rfl
      | ⟨1, _⟩ => rfl)
  have hR : (((cfg4.win 5).blk t).view.emb j : S256x138.Idx) = ix2 (⟨(j 0).val, hj0⟩ : Fin 256) (⟨(j 1).val, hj1⟩ : Fin 138) :=
    funext fun a => Fin.ext (by
      match a with
      | ⟨0, _⟩ => show win4_5.index t (0 : Fin 2) * 256 + 1 * (j 0).val = (j 0).val; rw [e50]; omega
      | ⟨1, _⟩ => show win4_5.index t (1 : Fin 2) * 138 + 1 * (j 1).val = (j 1).val; rw [e51]; omega)
  show (k4_pay1 (F := Ideal) (V c main_v69 : S256x5376.Idx → EReal) (V c main_v70 : S5376x256.Idx → EReal) (V c main_v71 : S1x256.Idx → EReal)
      (V c main_arg10 : S256x138.Idx → EReal) (V c main_v72 : S1x138.Idx → EReal) : S256x138.Idx → EReal) ((cfg4.win 5).xinj (grid4.coords t) j)
    = G4 V c (((cfg4.win 5).blk t).view.emb j)
  rw [hL, hR, k4_pay1_apply]

/-- An index of the array is in the point's block iff each coordinate is in the block's range on its axis. -/
theorem mem_blk4 (t : Fin cfg4.N) (i : S256x138.Idx) :
    i ∈ ((cfg4.win 5).blk t).view.set ↔ ∀ a : Fin 2, win4_5.index t a * S256x138.size a ≤ (i a).val ∧ (i a).val < win4_5.index t a * S256x138.size a + S256x138.size a := by
  show i ∈ ((View.whole main_v73).slice (win4_5.rect t)).set ↔ _
  rw [View.set_slice_whole, Rect.mem_set_unit]
  exact Iff.rfl

/-- The one point's block covers the array. -/
theorem cover4 (i : S256x138.Idx) : ∃ t : Fin cfg4.N, (cfg4.win 5).flush t = true ∧ i ∈ ((cfg4.win 5).blk t).view.set := by
  refine ⟨t4_0, flush4_5 t4_0, ?_⟩
  obtain ⟨e00, e01, e10, e11, e20, e21, e30, e31, e40, e41, e50, e51⟩ := idx_facts4 t4_0
  have hi0 : (i 0).val < 256 := (i 0).isLt
  have hi1 : (i 1).val < 138 := (i 1).isLt
  rw [mem_blk4]
  intro a
  match a with
  | ⟨0, _⟩ => show win4_5.index t4_0 (0 : Fin 2) * 256 ≤ (i 0).val ∧ (i 0).val < win4_5.index t4_0 (0 : Fin 2) * 256 + 256; rw [e50]; omega
  | ⟨1, _⟩ => show win4_5.index t4_0 (1 : Fin 2) * 138 ≤ (i 1).val ∧ (i 1).val < win4_5.index t4_0 (1 : Fin 2) * 138 + 138; rw [e51]; omega

/-- THE OUTPUT ARRAY after the region, whole. -/
theorem final4_eq (c : Dev nD) : (dat4 V c).arrAt 5 cfg4.N = G4 V c :=
  (dat4 V c).arrAt_eq_of_cover 5 (G4 V c) (fun t _ => flushed4_eq V c t) cover4

/-- THE OUTPUT ARRAY after the region at row γ and column ω: the two dense layers of the five arrays the region finds. -/
theorem final4 (c : Dev nD) (γ : Fin 256) (ω : Fin 138) :
    ((dat4 V c).arrAt 5 cfg4.N : S256x138.Idx → EReal) (ix2 γ ω)
      = Spec.head (Inputs.mat (V c main_v69 : S256x5376.Idx → EReal)) (Inputs.mat (V c main_v70 : S5376x256.Idx → EReal))
          (fun j => (V c main_v71 : S1x256.Idx → EReal) (ix2 0 j)) (Inputs.mat (V c main_arg10 : S256x138.Idx → EReal))
          (fun j => (V c main_v72 : S1x138.Idx → EReal) (ix2 0 j)) γ ω := by
  rw [final4_eq]

end Region4

end Cert.KernelIdeal.KerValue

end
-- ==== Proof.KerEdges.lean ====
/-
  The kernel program's first host operations, composed and read at an index.

  From the [2, 320000] array of given end points: the source words and the destination words of the 330000 edges
  (a row of the array followed by the node numbers 0 … 9999, the self-loops); the degree of a node (ones added
  into zeros at the column of destination words, read signed: a word outside [0, 10000) adds nothing); its maximum
  with one and the inverse square root of that; each end point's word wrapped by 10000 where negative and kept as a
  column; the inverse square roots taken at the two columns (the word read signed and clamped into [0, 9999]); the
  edge weight, their product.

  Read at an index these are the quantities of Inputs: srcW, dstW, deg, dinv, dinv at sel / selD, nrm.
-/
import proofs.«410187_j66958540144771_3_alg».proof.KernelIdeal
import proofs.«410187_j66958540144771_3_alg».proof.Proof.Inputs
import proofs.«410187_j66958540144771_3_alg».proof.Proof.LibRows
import proofs.«410187_j66958540144771_3_alg».proof.Proof.LibEdges
import Idealize.ShloMosaic.Lib.Pipeline.Value
import Idealize.ShloMosaic.Lib.ValueIdx
import Idealize.ShloMosaic.PureOps.Ideal.Laws

noncomputable section

open scoped BigOperators

namespace Cert.KernelIdeal.KerValue

open Cert.KernelIdeal Idealize.ShloMosaic Idealize.ShloMosaic.ValueIdx

variable [Facts₀]
open Facts₀

/-! ## The operations, composed -/

/-- The node numbers 0 … 9999 as words. -/
def kv0 : IVec S10000 32 := iotaInDim S10000 32 0

/-- Row 0 of the given end points as a vector: the slice, reshaped. -/
def kv2 (ei : IVec S2x320000 32) : IVec S320000 32 :=
  shapeCast S320000 (extractStridedSlice S1x320000 ![0, 0] ei slices_S2x320000_S1x320000_0_0) shapeCasts_S1x320000_S320000

/-- The source words of the 330000 edges. -/
def kv3 (ei : IVec S2x320000 32) : IVec S330000 32 :=
  concatenate S330000 0 [⟨S320000, kv2 ei⟩, ⟨S10000, kv0⟩] concatenates_S320000_S10000_S330000_d0

/-- Row 1 of the given end points as a vector. -/
def kv5 (ei : IVec S2x320000 32) : IVec S320000 32 :=
  shapeCast S320000 (extractStridedSlice S1x320000 ![1, 0] ei slices_S2x320000_S1x320000_1_0) shapeCasts_S1x320000_S320000

/-- The destination words of the 330000 edges. -/
def kv6 (ei : IVec S2x320000 32) : IVec S330000 32 :=
  concatenate S330000 0 [⟨S320000, kv5 ei⟩, ⟨S10000, kv0⟩] concatenates_S320000_S10000_S330000_d0

/-- One per edge. -/
def kv7 : FVec Ideal S330000 .f32 := broadcastInDim S330000 ![] bcast_S_S330000 (constant (F := Ideal) S_ .f32 0x3F800000#32)
/-- Zero per node. -/
def kv8 : FVec Ideal S10000 .f32 := broadcastInDim S10000 ![] bcast_S_S10000 (constant (F := Ideal) S_ .f32 0x00000000#32)
/-- The destination words as a column. -/
def kv9 (ei : IVec S2x320000 32) : IVec S330000x1 32 := broadcastInDim S330000x1 ![0] bcast_S330000_S330000x1_0 (kv6 ei)

/-- The degree: the ones added into the zeros at the destination column. -/
def kv10 (ei : IVec S2x320000 32) : FVec Ideal S10000 .f32 :=
  Host.scatterAdd scatter_S10000_S330000x1_S330000_n_0_0_1 kv8 (kv9 ei) kv7

/-- One per node. -/
def kv11 : FVec Ideal S10000 .f32 := broadcastInDim S10000 ![] bcast_S_S10000 (constant (F := Ideal) S_ .f32 0x3F800000#32)
/-- The degree taken as at least one. -/
def kv12 (ei : IVec S2x320000 32) : FVec Ideal S10000 .f32 := maximumf (kv10 ei) kv11
/-- Its inverse square root. -/
def kv13 (ei : IVec S2x320000 32) : FVec Ideal S10000 .f32 := Host.rsqrt (kv12 ei)

/-- The wrap of a vector of index words by the extent 10000: the signed compare with the zero word, the add of
    the word 10000, the select between the two. -/
def kvWrapN (x : IVec S330000 32) : IVec S330000 32 :=
  select (cmpi .slt x (broadcastInDim S330000 ![] bcast_S_S330000 (constantI S_ 32 0#32)))
    (addi x (broadcastInDim S330000 ![] bcast_S_S330000 (constantI S_ 32 10000#32))) x

/-- The wrapped source words, and as a column. -/
def kv18 (ei : IVec S2x320000 32) : IVec S330000 32 := kvWrapN (kv3 ei)
def kv19 (ei : IVec S2x320000 32) : IVec S330000x1 32 := broadcastInDim S330000x1 ![0] bcast_S330000_S330000x1_0 (kv18 ei)
/-- The inverse square roots taken at the source column. -/
def kv20 (ei : IVec S2x320000 32) : FVec Ideal S330000 .f32 :=
  Host.gather gather_S10000_S330000x1_S330000_n_0_n_n_0_1_1 (kv13 ei) (kv19 ei)

/-- The wrapped destination words, and as a column. -/
def kv25 (ei : IVec S2x320000 32) : IVec S330000 32 := kvWrapN (kv6 ei)
def kv26 (ei : IVec S2x320000 32) : IVec S330000x1 32 := broadcastInDim S330000x1 ![0] bcast_S330000_S330000x1_0 (kv25 ei)
/-- The inverse square roots taken at the destination column. -/
def kv27 (ei : IVec S2x320000 32) : FVec Ideal S330000 .f32 :=
  Host.gather gather_S10000_S330000x1_S330000_n_0_n_n_0_1_1 (kv13 ei) (kv26 ei)

/-- The edge weights. -/
def kv28 (ei : IVec S2x320000 32) : FVec Ideal S330000 .f32 := mulf (kv20 ei) (kv27 ei)

/-! ## Read at an index -/

theorem kv2_apply (ei : IVec S2x320000 32) (k : Fin 320000) : kv2 ei (ix1 k) = ei (ix2 (0 : Fin 2) k) :=
  Cert.LibEdges.sliceRow_apply 0 (by decide) slices_S2x320000_S1x320000_0_0 shapeCasts_S1x320000_S320000 ei k

theorem kv5_apply (ei : IVec S2x320000 32) (k : Fin 320000) : kv5 ei (ix1 k) = ei (ix2 (1 : Fin 2) k) :=
  Cert.LibEdges.sliceRow_apply 1 (by decide) slices_S2x320000_S1x320000_1_0 shapeCasts_S1x320000_S320000 ei k

/-- The source word of edge p. -/
theorem kv3_apply (ei : IVec S2x320000 32) (p : Fin 330000) : kv3 ei (ix1 p) = Inputs.srcW ei p := by
  refine (Cert.LibEdges.concatIota_apply concatenates_S320000_S10000_S330000_d0 (kv2 ei) p).trans ?_
  show _ = Inputs.endpoint ei 0 p
  unfold Inputs.endpoint
  by_cases h : p.val < 320000
  · rw [dif_pos h, dif_pos h, kv2_apply]
  · rw [dif_neg h, dif_neg h]

/-- The destination word of edge p. -/
theorem kv6_apply (ei : IVec S2x320000 32) (p : Fin 330000) : kv6 ei (ix1 p) = Inputs.dstW ei p := by
  refine (Cert.LibEdges.concatIota_apply concatenates_S320000_S10000_S330000_d0 (kv5 ei) p).trans ?_
  show _ = Inputs.endpoint ei 1 p
  unfold Inputs.endpoint
  by_cases h : p.val < 320000
  · rw [dif_pos h, dif_pos h, kv5_apply]
  · rw [dif_neg h, dif_neg h]

/-- The program's scatter dimension numbers are the vector scatter's at the literal extents. -/
theorem scatter1_eq : scatter_S10000_S330000x1_S330000_n_0_0_1
    = Cert.LibRows.rowScatterDims1 10000 330000 scatter_S10000_S330000x1_S330000_n_0_0_1_wf := rfl

/-- The degree of node r. -/
theorem kv10_apply (ei : IVec S2x320000 32) (r : Fin 10000) : kv10 ei (ix1 r) = Inputs.deg ei r := by
  unfold kv10 kv8 kv9 kv7
  rw [scatter1_eq]
  refine (Cert.LibEdges.degree_apply scatter_S10000_S330000x1_S330000_n_0_0_1_wf bcast_S_S330000 bcast_S_S10000
    bcast_S330000_S330000x1_0 (kv6 ei) r).trans ?_
  unfold Inputs.deg Inputs.dstZ
  refine congrArg₂ (fun (u v : EReal) => u + v) rfl (Finset.sum_congr rfl fun p _ => ?_)
  rw [kv6_apply]

/-- The inverse square root of the degree (taken as at least one) of node r. -/
theorem kv13_apply (ei : IVec S2x320000 32) (r : Fin 10000) : kv13 ei (ix1 r) = Inputs.dinv ei r := by
  have e1 : kv13 ei (ix1 r) = FloatOps.hostUnary .rsqrt (kv12 ei (ix1 r)) := rfl
  have e2 : kv12 ei (ix1 r) = FloatOps.maximumf (kv10 ei (ix1 r)) (kv11 (ix1 r)) := rfl
  have h1 : kv11 (ix1 r) = 1 := by
    unfold kv11
    rw [Cert.LibEdges.bcastScalar_apply bcast_S_S10000]
    exact Cert.LibEdges.ofBits_one_f32
  rw [e1, e2, Ideal.hostUnary_rsqrt_def, Ideal.maximumf_def, kv10_apply, h1]
  unfold Inputs.dinv
  rfl

/-- The wrapped vector at p. -/
theorem kvWrapN_apply (x : IVec S330000 32) (i : S330000.Idx) : kvWrapN x i = Inputs.wrapW 10000#32 (x i) :=
  Cert.LibEdges.wrapVec_apply bcast_S_S330000 10000#32 x i

/-- An entry of the inverse square roots taken at a column of wrapped words: the entry at the row Inputs.gatherRow
    names for the word. -/
theorem take13_apply (ei : IVec S2x320000 32) (x : IVec S330000 32) (p : Fin 330000) :
    Host.gather gather_S10000_S330000x1_S330000_n_0_n_n_0_1_1 (kv13 ei)
        (broadcastInDim S330000x1 ![0] bcast_S330000_S330000x1_0 (kvWrapN x)) (ix1 p)
      = Inputs.dinv ei (Inputs.gatherRow (x (ix1 p))) := by
  have hN : 0 < 10000 := by decide
  have hc : gather_S10000_S330000x1_S330000_n_0_n_n_0_1_1.collapsedSliceDims = [0] := rfl
  have hob : gather_S10000_S330000x1_S330000_n_0_n_n_0_1_1.operandBatchingDims = [] := rfl
  have hsim : gather_S10000_S330000x1_S330000_n_0_n_n_0_1_1.startIndexMap = [0] := rfl
  have hivd : gather_S10000_S330000x1_S330000_n_0_n_n_0_1_1.indexVectorDim = 1 := rfl
  have key := Cert.LibEdges.take_apply hN gather_S10000_S330000x1_S330000_n_0_n_n_0_1_1 hc hob hsim hivd
    (kv13 ei) (broadcastInDim S330000x1 ![0] bcast_S330000_S330000x1_0 (kvWrapN x)) p
  refine key.trans ?_
  rw [← kv13_apply]
  refine congrArg (kv13 ei) ?_
  funext a
  match a with
  | ⟨0, _⟩ =>
    refine Fin.ext ?_
    show min ((broadcastInDim S330000x1 ![0] bcast_S330000_S330000x1_0 (kvWrapN x)) (ix2 p (0 : Fin 1))).toInt.toNat (10000 - 1)
      = min (Inputs.wrapW 10000#32 (x (ix1 p))).toInt.toNat 9999
    rw [Cert.LibEdges.bcastCol_apply (by decide) bcast_S330000_S330000x1_0, kvWrapN_apply]

/-- The inverse square root at the source row of edge p. -/
theorem kv20_apply (ei : IVec S2x320000 32) (p : Fin 330000) : kv20 ei (ix1 p) = Inputs.dinv ei (Inputs.sel ei p) := by
  unfold kv20 kv19 kv18
  refine (take13_apply ei (kv3 ei) p).trans ?_
  rw [kv3_apply]
  unfold Inputs.sel
  rfl

/-- The inverse square root at the destination row of edge p. -/
theorem kv27_apply (ei : IVec S2x320000 32) (p : Fin 330000) : kv27 ei (ix1 p) = Inputs.dinv ei (Inputs.selD ei p) := by
  unfold kv27 kv26 kv25
  refine (take13_apply ei (kv6 ei) p).trans ?_
  rw [kv6_apply]
  unfold Inputs.selD
  rfl

/-- The weight of edge p. -/
theorem kv28_apply (ei : IVec S2x320000 32) (p : Fin 330000) : kv28 ei (ix1 p) = Inputs.nrm ei p := by
  have e : kv28 ei (ix1 p) = kv20 ei (ix1 p) * kv27 ei (ix1 p) := rfl
  rw [e, kv20_apply, kv27_apply]
  unfold Inputs.nrm
  rfl

end Cert.KernelIdeal.KerValue

end
-- ==== Proof.KV.Pay2.lean ====
/-
  The third call's three block functions, index by index, at the exact values.

  Grid point (i, k) adds to a [1024,256] accumulator the product of block (i, k) of the adjacency (rows 1024·i …,
  columns 2048·k …) with rows 2048·k … 2048·k+2047 of the feature matrix; the accumulator starts from zeros at k = 0,
  and at k = 4 the body adds the bias row, clips at zero and zeroes the rows from 10000 on. At the exact values a
  product accumulated into the zero splat is the plain sum over the contracted coordinate.
-/
import proofs.«410187_j66958540144771_3_alg».proof.Proof.KI.R2a
import Idealize.ShloMosaic.Lib.Pipeline.Value
import Idealize.ShloMosaic.Lib.ValueIdx
import Idealize.ShloMosaic.Lib.StableHlo.Predicate
import Idealize.ShloMosaic.PureOps.Ideal.Laws
import proofs.«410187_j66958540144771_3_alg».proof.Proof.Spec
import proofs.«410187_j66958540144771_3_alg».proof.Proof.Inputs

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

/-! ## The product's operand indices -/

theorem lhs_acc2_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_acc2_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_acc2_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_acc2_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-! ## The three block functions at an index -/

theorem zeros2 : (![0, 0] : Fin 2 → Nat) = fun _ => 0 := funext fun a => by fin_cases a <;> rfl

/-- The column block's first row, and the second offset, in closed form. -/
theorem off2_0 (i : grid2.Coords) : k2_off1 i 0 = 2048 * (i 1).val := congrFun (k2_off1_eq i) 0
theorem off2_1 (i : grid2.Coords) : k2_off1 i 1 = 0 := congrFun (k2_off1_eq i) 1

/-- Row 2048·k + j of the feature matrix, k the point's second coordinate. -/
abbrev hrow2 (i : grid2.Coords) (j : Fin 2048) : Fin 10240 :=
  ⟨2048 * (i 1).val + j.val, by have h : (i 1).val < 5 := (i 1).isLt; have := j.isLt; omega⟩

/-- The rows of the feature matrix the point reads, at an index: row 2048·k + j. -/
theorem ld_h2_apply (i : grid2.Coords) (x1 : Vec Ideal S10240x256 .bf16) (j : Fin 2048) (q : Fin 256) :
    (View.ld x1 (r2_w i) : S2048x256.Idx → EReal) (ix2 j q) = x1 (ix2 (hrow2 i j) q) := by
  show x1 ((r2_w i).idx (ix2 j q)) = x1 (ix2 (hrow2 i j) q)
  refine congrArg x1 (funext fun a => Fin.ext ?_)
  match a with
  | ⟨0, _⟩ => show k2_off1 i 0 + 1 * j.val = 2048 * (i 1).val + j.val; rw [off2_0]; omega
  | ⟨1, _⟩ => show k2_off1 i 1 + 1 * q.val = q.val; rw [off2_1]; omega

/-- The accumulator after the reset is zero everywhere. -/
theorem zero2_apply (p : Fin 1024) (q : Fin 256) : (zero2 (F := Ideal) : S1024x256.Idx → EReal) (ix2 p q) = 0 := by
  unfold zero2
  rw [View.canon_unit_zero zeros2]
  unfold k2_pay1
  simp only [shapeCast_self]
  exact Ideal.ofBits_zero_f32

/-- One accumulation step at row p, column q: the contents plus the sum over the 2048 columns of the adjacency block
    times the matching rows of the feature matrix. -/
theorem acc2_apply (i : grid2.Coords) (x0 : Vec Ideal S1024x2048 .bf16) (x1 : Vec Ideal S10240x256 .bf16)
    (xs : Vec Ideal S1024x256 .f32) (p : Fin 1024) (q : Fin 256) :
    (acc2 i x0 x1 xs : S1024x256.Idx → EReal) (ix2 p q)
      = xs (ix2 p q) + ∑ j : Fin 2048, x0 (ix2 p j) * x1 (ix2 (hrow2 i j) q) := by
  unfold acc2
  rw [View.canon_unit_zero zeros2]
  unfold k2_pay2
  simp only [shapeCast_self, matmul, View.ld_unit_zero (S := S1024x256) zeros2, View.ld_unit_zero (S := S1024x2048) zeros2]
  rw [addf_apply, Ideal.matmul_constant_zero_apply, ← Equiv.sum_comp (ValueIdx.contrEquiv1 dot_S1024x2048_S2048x256_S1024x256_1_0_0_1_n_n 2048 rfl rfl).symm]
  refine congrArg (xs (ix2 p q) + ·) (Finset.sum_congr rfl fun k _ => ?_)
  have hk := ValueIdx.contrEquiv1_symm_val dot_S1024x2048_S2048x256_S1024x256_1_0_0_1_n_n 2048 rfl rfl k
  have el : dot_S1024x2048_S2048x256_S1024x256_1_0_0_1_n_n.lhsIdx (ix2 p q) ((ValueIdx.contrEquiv1 dot_S1024x2048_S2048x256_S1024x256_1_0_0_1_n_n 2048 rfl rfl).symm k) = ix2 p k := funext fun a => Fin.ext (by
    match a with
    | ⟨0, _⟩ => exact lhs_acc2_0 _ _
    | ⟨1, _⟩ => exact (lhs_acc2_1 _ _).trans hk)
  have er : dot_S1024x2048_S2048x256_S1024x256_1_0_0_1_n_n.rhsIdx (ix2 p q) ((ValueIdx.contrEquiv1 dot_S1024x2048_S2048x256_S1024x256_1_0_0_1_n_n 2048 rfl rfl).symm k) = ix2 k q := funext fun a => Fin.ext (by
    match a with
    | ⟨0, _⟩ => exact (rhs_acc2_0 _ _).trans hk
    | ⟨1, _⟩ => exact rhs_acc2_1 _ _)
  rw [el, er]
  exact congrArg (x0 (ix2 p k) * ·) (ld_h2_apply i x1 k q)

/-- The row mask: row 1024·a + p is below 10000, as the body's signed comparison of 32-bit words decides it. -/
theorem rowmask2 (a p : Nat) (ha : a < 10) (hp : p < 1024) :
    IntOp.cmpi .slt (IntOp.addi (Scalar.muli (BitVec.ofNat 32 a) 1024#32) (BitVec.ofNat 32 p)) 10000#32
      = if 1024 * a + p < 10000 then 1#1 else 0#1 := by
  have hw : IntOp.addi (Scalar.muli (BitVec.ofNat 32 a) 1024#32) (BitVec.ofNat 32 p) = BitVec.ofNat 32 (1024 * a + p) := by
    apply BitVec.eq_of_toNat_eq
    simp only [IntOp.addi, Scalar.muli, IntOp.muli, BitVec.toNat_add, BitVec.toNat_mul, BitVec.toNat_ofNat]
    omega
  rw [hw]
  have h1 : (BitVec.ofNat 32 (1024 * a + p)).toNat = 1024 * a + p := by
    rw [BitVec.toNat_ofNat]; omega
  have h2 : (10000#32 : BitVec 32).toNat = 10000 := by decide
  by_cases h : 1024 * a + p < 10000
  · rw [if_pos h]
    exact (StableHlo.Predicate.slt_iff_toNat (by rw [h1]; omega) (by rw [h2]; omega)).mpr (by rw [h1, h2]; exact h)
  · rw [if_neg h]
    refine eq_zero_of_ne_one fun hc => h ?_
    have := (StableHlo.Predicate.slt_iff_toNat (by rw [h1]; omega) (by rw [h2]; omega)).mp hc
    rwa [h1, h2] at this

/-- The epilogue at row p, column q: the finished accumulator plus the bias, clipped at zero, zeroed from row 10000
    on. -/
theorem out2_apply (i : grid2.Coords) (xs : Vec Ideal S1024x256 .f32) (x2 : Vec Ideal S1x256 .f32)
    (p : Fin 1024) (q : Fin 256) :
    (out2 i xs x2 : S1024x256.Idx → EReal) (ix2 p q)
      = if 1024 * (i 0).val + p.val < 10000 then max (xs (ix2 p q) + x2 (ix2 0 q)) 0 else 0 := by
  unfold out2
  rw [View.canon_unit_zero zeros2]
  unfold k2_pay3
  simp only [shapeCast_self, View.ld_unit_zero (S := S1024x256) zeros2, View.ld_unit_zero (S := S1x256) zeros2]
  show Scalar.select (IntOp.cmpi .slt (IntOp.addi (Scalar.muli (BitVec.ofNat 32 (i 0).val) 1024#32)
        (iota .tc S1024x256 32 [0] iota_S1024x256_d0_w32 (ix2 p q))) 10000#32)
      (max (xs (ix2 p q) + broadcastTo S1024x256 x2 broadcasts_S1x256_S1024x256 (ix2 p q)) (Ideal.ofBits .f32 0x00000000#32))
      (Ideal.ofBits .f32 0x00000000#32) = _
  have hb : broadcastTo S1024x256 x2 broadcasts_S1x256_S1024x256 (ix2 p q) = x2 (ix2 0 q) :=
    broadcastTo_apply x2 broadcasts_S1x256_S1024x256 (ix2 p q) (ix2 0 q) (fun a => match a with
      | ⟨0, _⟩ => by show (0 : Nat) = if (1 : Nat) = 1 then 0 else _; rw [if_pos rfl]
      | ⟨1, _⟩ => by show q.val = if (256 : Nat) = 1 then 0 else q.val; rw [if_neg (by decide)])
  have hi : iota .tc S1024x256 32 [0] iota_S1024x256_d0_w32 (ix2 p q) = BitVec.ofNat 32 p.val :=
    iota_single_apply .tc S1024x256 32 0 iota_S1024x256_d0_w32 (ix2 p q)
  have h10 : (i 0).val < 10 := (i 0).isLt
  rw [hb, hi, Ideal.ofBits_zero_f32, rowmask2 (i 0).val p.val h10 p.isLt]
  by_cases h : 1024 * (i 0).val + p.val < 10000
  · rw [if_pos h, if_pos h]; exact select_one _ _
  · rw [if_neg h, if_neg h]; exact select_zero _ _

end Cert.KernelIdeal.KerValue

end
-- ==== Proof.KV.Final2.lean ====
/-
  The third call's output array, index by index, at the exact values.

  The call runs on the grid (10, 5): point t = 5·i + k multiplies block (i, k) of the adjacency matrix (rows
  1024·i …, columns 2048·k …) with rows 2048·k … 2048·k+2047 of the feature matrix and adds the product to an
  accumulator that starts from zeros at k = 0. So after point 5·i + k the accumulator's element (p, q) is the
  nest ((0 + block 0) + block 1) + … + block k of row 1024·i + p: the five blocks accumulated in order. At k = 4
  the body adds the bias row, clips at zero, zeroes the rows from 10000 on and stores row block i of the output,
  which is written back at these points only. The ten row blocks tile the 10240 rows, so the output array ends as
  the aggregation Spec.kerAgg of the adjacency, the feature matrix and the bias as the call finds them.
-/
import proofs.«410187_j66958540144771_3_alg».proof.Proof.KI.R2
import proofs.«410187_j66958540144771_3_alg».proof.Proof.KV.Pay2
import Idealize.ShloMosaic.Lib.Pipeline.Value
import Idealize.ShloMosaic.Lib.ValueIdx
import Idealize.ShloMosaic.PureOps.Ideal.Laws
import proofs.«410187_j66958540144771_3_alg».proof.Proof.Spec
import proofs.«410187_j66958540144771_3_alg».proof.Proof.Inputs

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

/-! ## The five blocks of a row, accumulated in order -/

/-- Block k of row d against column q, and zero from the sixth block on. -/
def blkN2 (A : Fin 10240 → Fin 10240 → EReal) (H : Fin 10240 → Fin 256 → EReal) (k : ℕ) (d : Fin 10240) (q : Fin 256) : EReal :=
  if h : k < 5 then Spec.blk A H ⟨k, h⟩ d q else 0

/-- The blocks 0 … k accumulated in order from zero. -/
def part2 (A : Fin 10240 → Fin 10240 → EReal) (H : Fin 10240 → Fin 256 → EReal) (d : Fin 10240) (q : Fin 256) : ℕ → EReal
  | 0 => 0 + blkN2 A H 0 d q
  | k + 1 => part2 A H d q k + blkN2 A H (k + 1) d q

/-- All five blocks accumulated: the aggregation's block sum. -/
theorem part2_four (A : Fin 10240 → Fin 10240 → EReal) (H : Fin 10240 → Fin 256 → EReal) (d : Fin 10240) (q : Fin 256) :
    part2 A H d q 4 = Spec.blockSum A H d q := rfl

section
variable (V : (c : Dev nD) → (b : Ref sig .tc) → Buf (Elt Ideal) ((c : Thread nD τ).loc b))

/-- The adjacency, the feature matrix and the bias row as the call finds them. -/
abbrev adjM2 (c : Dev nD) : Fin 10240 → Fin 10240 → EReal := Inputs.mat (α := EReal) (V c main_v44)
abbrev featM2 (c : Dev nD) : Fin 10240 → Fin 256 → EReal := Inputs.mat (α := EReal) (V c main_v50)
abbrev biasV2 (c : Dev nD) : Fin 256 → EReal := fun j => Inputs.mat (α := EReal) (V c main_v51) 0 j

/-! ## The blocks at an index -/

/-- The printed grid has fifty points. -/
theorem N2_eq : cfg2.N = 50 := N_2

/-- The printed index maps over the grid: point t = 5·i + k reads block (i, k) of the adjacency, the whole feature
    matrix and bias row, and owns row block i of the output; its two coordinates are i and k. -/
theorem idx_facts2 : ∀ t : Fin cfg2.N,
    win2_0.index t (0 : Fin 2) = t.val / 5 ∧ win2_0.index t (1 : Fin 2) = t.val % 5
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val / 5 ∧ win2_3.index t (1 : Fin 2) = 0
    ∧ (grid2.coords t 0).val = t.val / 5 ∧ (grid2.coords t 1).val = t.val % 5 :=
  (by decide +kernel : ∀ t : Fin grid2.N, _)

/-- Element (p, j) of the adjacency block at point t is element (1024·i + p, 2048·k + j) of the adjacency. -/
theorem iblk2_0_apply (c : Dev nD) (t : Fin cfg2.N) (p : Fin 1024) (j : Fin 2048) (r s : Fin 10240)
    (hr : r.val = 1024 * (t.val / 5) + p.val) (hs : s.val = 2048 * (t.val % 5) + j.val) :
    (iblk2 V c 0 t : S1024x2048.Idx → EReal) (ix2 p j) = (V c main_v44 : S10240x10240.Idx → EReal) (ix2 r s) := by
  obtain ⟨e0, e1, -, -, -, -, -, -, -, -⟩ := idx_facts2 t
  unfold iblk2
  rw [View.read_apply]
  show (V c main_v44 : S10240x10240.Idx → EReal) _ = (V c main_v44 : S10240x10240.Idx → EReal) _
  refine congrArg (V c main_v44 : S10240x10240.Idx → EReal) (funext fun a => Fin.ext ?_)
  match a with
  | ⟨0, _⟩ => show win2_0.index t (0 : Fin 2) * 1024 + 1 * p.val = r.val; omega
  | ⟨1, _⟩ => show win2_0.index t (1 : Fin 2) * 2048 + 1 * j.val = s.val; omega

/-- The feature matrix's block at every point is the whole matrix. -/
theorem iblk2_1_apply (c : Dev nD) (t : Fin cfg2.N) (r r' : Fin 10240) (q : Fin 256) (hr : r'.val = r.val) :
    (iblk2 V c 1 t : S10240x256.Idx → EReal) (ix2 r q) = (V c main_v50 : S10240x256.Idx → EReal) (ix2 r' q) := by
  obtain ⟨-, -, e2, e3, -, -, -, -, -, -⟩ := idx_facts2 t
  unfold iblk2
  rw [View.read_apply]
  show (V c main_v50 : S10240x256.Idx → EReal) _ = (V c main_v50 : S10240x256.Idx → EReal) _
  refine congrArg (V c main_v50 : S10240x256.Idx → EReal) (funext fun a => Fin.ext ?_)
  match a with
  | ⟨0, _⟩ => show win2_1.index t (0 : Fin 2) * 10240 + 1 * r.val = r'.val; omega
  | ⟨1, _⟩ => show win2_1.index t (1 : Fin 2) * 256 + 1 * q.val = q.val; omega

/-- The bias row's block at every point is the whole row. -/
theorem iblk2_2_apply (c : Dev nD) (t : Fin cfg2.N) (q : Fin 256) :
    (iblk2 V c 2 t : S1x256.Idx → EReal) (ix2 (0 : Fin 1) q) = (V c main_v51 : S1x256.Idx → EReal) (ix2 (0 : Fin 1) q) := by
  obtain ⟨-, -, -, -, e4, e5, -, -, -, -⟩ := idx_facts2 t
  unfold iblk2
  rw [View.read_apply]
  show (V c main_v51 : S1x256.Idx → EReal) _ = (V c main_v51 : S1x256.Idx → EReal) _
  refine congrArg (V c main_v51 : S1x256.Idx → EReal) (funext fun a => Fin.ext ?_)
  match a with
  | ⟨0, _⟩ => show win2_2.index t (0 : Fin 2) * 1 + 1 * 0 = 0; omega
  | ⟨1, _⟩ => show win2_2.index t (1 : Fin 2) * 256 + 1 * q.val = q.val; omega

/-! ## The accumulator after each point -/

/-- One accumulation step at point t = 5·i + k, at row p and column q: the contents plus block k of row 1024·i + p. -/
theorem step2_apply (c : Dev nD) (t : Fin cfg2.N) (xs : Vec Ideal S1024x256 .f32) (p : Fin 1024) (q : Fin 256)
    (d : Fin 10240) (hd : d.val = 1024 * (t.val / 5) + p.val) :
    (step2 V c t xs : S1024x256.Idx → EReal) (ix2 p q)
      = xs (ix2 p q) + blkN2 (adjM2 V c) (featM2 V c) (t.val % 5) d q := by
  have hk : t.val % 5 < 5 := Nat.mod_lt _ (by decide)
  obtain ⟨-, -, -, -, -, -, -, -, g0, g1⟩ := idx_facts2 t
  refine (acc2_apply (grid2.coords t) (iblk2 V c 0 t) (iblk2 V c 1 t) xs p q).trans ?_
  unfold blkN2
  rw [dif_pos hk]
  unfold Spec.blk
  refine congrArg (xs (ix2 p q) + ·) (Finset.sum_congr rfl fun j _ => ?_)
  refine congrArg₂ (· * ·) ?_ ?_
  · exact iblk2_0_apply V c t p j d ⟨2048 * (t.val % 5) + j.val, by have := j.isLt; omega⟩ hd rfl
  · exact iblk2_1_apply V c t (hrow2 (grid2.coords t) j) ⟨2048 * (t.val % 5) + j.val, by have := j.isLt; omega⟩ q
      (by show 2048 * (t.val % 5) + j.val = 2048 * (grid2.coords t 1).val + j.val; rw [g1])

/-- THE ACCUMULATOR after point n = 5·i + k, at row p and column q: the blocks 0 … k of row 1024·i + p accumulated
    in order from zero. -/
theorem accAt2_apply (c : Dev nD) : ∀ (n : ℕ) (hn : n < cfg2.N) (p : Fin 1024) (q : Fin 256) (d : Fin 10240),
    d.val = 1024 * (n / 5) + p.val →
    (accAt2 V c n hn : S1024x256.Idx → EReal) (ix2 p q) = part2 (adjM2 V c) (featM2 V c) d q (n % 5) := by
  intro n
  induction n with
  | zero =>
    intro hn p q d hd
    refine (congrFun (accAt2_A V c ⟨0, hn⟩ rfl) (ix2 p q)).trans ((step2_apply V c ⟨0, hn⟩ zero2 p q d hd).trans ?_)
    rw [zero2_apply]
    rfl
  | succ n ih =>
    intro hn p q d hd
    by_cases h0 : (n + 1) % 5 = 0
    · refine (congrFun (accAt2_A V c ⟨n + 1, hn⟩ h0) (ix2 p q)).trans ((step2_apply V c ⟨n + 1, hn⟩ zero2 p q d hd).trans ?_)
      show (zero2 (F := Ideal) : S1024x256.Idx → EReal) (ix2 p q) + blkN2 (adjM2 V c) (featM2 V c) ((n + 1) % 5) d q
        = part2 (adjM2 V c) (featM2 V c) d q ((n + 1) % 5)
      rw [h0, zero2_apply]
      rfl
    · have hd' : d.val = 1024 * (n / 5) + p.val := by omega
      have hk : (n + 1) % 5 = n % 5 + 1 := by omega
      have ih' := ih (Nat.lt_of_succ_lt hn) p q d hd'
      refine (congrFun (accAt2_BC V c ⟨n + 1, hn⟩ h0) (ix2 p q)).trans
        ((step2_apply V c ⟨n + 1, hn⟩ _ p q d hd).trans ?_)
      show (accAt2 V c n (Nat.lt_of_succ_lt hn) : S1024x256.Idx → EReal) (ix2 p q)
          + blkN2 (adjM2 V c) (featM2 V c) ((n + 1) % 5) d q
        = part2 (adjM2 V c) (featM2 V c) d q ((n + 1) % 5)
      rw [ih', hk]
      rfl

/-! ## From the row blocks to the array -/

/-- The aggregation of the three arrays, index by index. -/
def aggArr2 (c : Dev nD) : S10240x256.Idx → EReal :=
  fun i => Spec.kerAgg 10000 (adjM2 V c) (featM2 V c) (biasV2 V c) (i 0) (i 1)

/-- What a point with k = 4 writes back is row block i of the aggregation of the arrays as the call finds them. -/
theorem flushed2_eq (c : Dev nD) (t : Fin cfg2.N) (hf : t.val % 5 = 4) :
    (dat2 V c).flushed 3 t = ((cfg2.win 3).blk t).view.read (Elt Ideal) (aggArr2 V c) := by
  show (cfg2.win 3).cut (grid2.coords t) ((dat2 V c).after 3 t) = _
  rw [after2_3]
  obtain ⟨-, -, -, -, -, -, e6, e7, g0, g1⟩ := idx_facts2 t
  funext j
  show (out2 (grid2.coords t) (accAt2 V c t.val t.isLt) (iblk2 V c 2 t) : S1024x256.Idx → EReal) j
    = aggArr2 V c (((cfg2.win 3).blk t).view.emb j)
  have hj0 : (j 0).val < 1024 := (j 0).isLt
  have hj1 : (j 1).val < 256 := (j 1).isLt
  have hN : t.val < 50 := lt_of_lt_of_eq t.isLt N2_eq
  have hemb : ((cfg2.win 3).blk t).view.emb j
      = ix2 (⟨1024 * (t.val / 5) + (j 0).val, by omega⟩ : Fin 10240) (⟨(j 1).val, hj1⟩ : Fin 256) :=
    funext fun a => Fin.ext (by
      match a with
      | ⟨0, _⟩ => show win2_3.index t (0 : Fin 2) * 1024 + 1 * (j 0).val = 1024 * (t.val / 5) + (j 0).val; omega
      | ⟨1, _⟩ => show win2_3.index t (1 : Fin 2) * 256 + 1 * (j 1).val = (j 1).val; omega)
  rw [hemb]
  refine (congrArg (out2 (grid2.coords t) (accAt2 V c t.val t.isLt) (iblk2 V c 2 t) : S1024x256.Idx → EReal)
    (eq_ix2 (n0 := 1024) (n1 := 256) j)).trans ?_
  refine (out2_apply (grid2.coords t) (accAt2 V c t.val t.isLt) (iblk2 V c 2 t) ⟨(j 0).val, hj0⟩ ⟨(j 1).val, hj1⟩).trans ?_
  rw [accAt2_apply V c t.val t.isLt ⟨(j 0).val, hj0⟩ ⟨(j 1).val, hj1⟩ ⟨1024 * (t.val / 5) + (j 0).val, by omega⟩ rfl,
    hf, part2_four, iblk2_2_apply V c t ⟨(j 1).val, hj1⟩, g0]
  rfl

/-- An index of the output array is in point t's block iff each coordinate is in the block's range on its axis. -/
theorem mem_blk2 (t : Fin cfg2.N) (i : S10240x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v52).slice (win2_3.rect t)).set ↔ _
  rw [View.set_slice_whole, Rect.mem_set_unit]
  exact Iff.rfl

/-- Every index of the output array is in the block of the last point of its row block, which is written back. -/
theorem cover2 (i : S10240x256.Idx) : ∃ t : Fin cfg2.N, (cfg2.win 3).flush t = true ∧ i ∈ ((cfg2.win 3).blk t).view.set := by
  have hi0 : (i 0).val < 10240 := (i 0).isLt
  have hi1 : (i 1).val < 256 := (i 1).isLt
  let t : Fin cfg2.N := ⟨5 * ((i 0).val / 1024) + 4, by rw [N2_eq]; omega⟩
  obtain ⟨-, -, -, -, -, -, e6, e7, -, -⟩ := idx_facts2 t
  have ht : t.val = 5 * ((i 0).val / 1024) + 4 := rfl
  refine ⟨t, (flush2_3 t).mpr (by omega), ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 256 ≤ (i 1).val ∧ (i 1).val < win2_3.index t (1 : Fin 2) * 256 + 256; omega

/-- THE OUTPUT ARRAY after the call: the aggregation of the adjacency, the feature matrix and the bias row. -/
theorem final2_arr (c : Dev nD) : (dat2 V c).arrAt 3 cfg2.N = aggArr2 V c :=
  (dat2 V c).arrAt_eq_of_cover 3 (aggArr2 V c) (fun t hf => flushed2_eq V c t ((flush2_3 t).mp hf)) cover2

/-- The same at row d, column q. -/
theorem final2 (c : Dev nD) (d : Fin 10240) (q : Fin 256) :
    ((dat2 V c).arrAt 3 cfg2.N : S10240x256.Idx → EReal) (ix2 d q)
      = Spec.kerAgg 10000 (Inputs.mat (α := EReal) (V c main_v44)) (Inputs.mat (α := EReal) (V c main_v50))
          (fun j => Inputs.mat (α := EReal) (V c main_v51) 0 j) d q := by
  rw [final2_arr]; rfl

end

end Cert.KernelIdeal.KerValue

end
-- ==== Proof.KV.ChainReads.lean ====
/-
  What each reference the five calls and the host operations after them read holds between two items of the program,
  as a term of the launch memory: the chain of valuations read back one item at a time. A stretch of host operations
  is read at the reference it writes (the operation's function applied to what its operands held before the stretch);
  a reference a stretch does not write, and a reference that is no array of a call, holds what it held before.
-/
import proofs.«410187_j66958540144771_3_alg».proof.Proof.KI.RunA
import proofs.«410187_j66958540144771_3_alg».proof.Proof.KerGlue
import proofs.«410187_j66958540144771_3_alg».proof.Proof.KerPool
import Idealize.ShloMosaic.Lib.Pipeline.Value
import Idealize.ShloMosaic.Lib.ValueIdx
import Idealize.ShloMosaic.Lib.StableHlo.Run
import Idealize.ShloMosaic.PureOps.Ideal.Laws
import proofs.«410187_j66958540144771_3_alg».proof.Proof.Spec
import proofs.«410187_j66958540144771_3_alg».proof.Proof.Inputs

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx
open Idealize.ShloMosaic.StableHlo

/-! ## Each stretch of host operations, read at a reference it writes, over any contents before it -/
section Stretches
variable (X : Valuation τ sig (Elt Ideal))

theorem s0_c10 : (StableHlo.after (hostOps0 (F := Ideal)) X (Proc.devRef .tc main_c_10) : S_.Idx → BitVec 32) = constantI S_ 32 0#32 := by
  after_results; all_goals rfl
theorem s0_1_45 : (StableHlo.after (hostOps0_1 (F := Ideal)) X (Proc.devRef .tc main_v45) : S10240x128.Idx → EReal)
    = pad S10240x128 ![0, 0] ![240, 0] ![0, 0] (X (Proc.devRef .tc main_arg0) : S10000x128.Idx → EReal) (sitofp (F := Ideal) .f32 (X (Proc.devRef .tc main_c_10) : S_.Idx → BitVec 32)) pads_S10000x128_S10240x128_02400_000 h_S_ := by
  after_results; all_goals rfl
theorem s0_2_46 : (StableHlo.after (hostOps0_2 (F := Ideal)) X (Proc.devRef .tc main_v46) : S128x256.Idx → EReal)
    = kvTrunc (X (Proc.devRef .tc main_arg4) : S128x256.Idx → EReal) := by
  after_results; all_goals rfl
theorem s0_2_47 : (StableHlo.after (hostOps0_2 (F := Ideal)) X (Proc.devRef .tc main_v47) : S256x256.Idx → EReal)
    = kvTrunc (X (Proc.devRef .tc main_arg6) : S256x256.Idx → EReal) := by
  after_results; all_goals rfl
theorem s1_49 : (StableHlo.after (hostOps1 (F := Ideal)) X (Proc.devRef .tc main_v49) : S1x256.Idx → EReal)
    = kv49 (X (Proc.devRef .tc main_arg5) : S256.Idx → EReal) := by
  after_results; all_goals rfl
theorem s2_51 : (StableHlo.after (hostOps2 (F := Ideal)) X (Proc.devRef .tc main_v51) : S1x256.Idx → EReal)
    = kv49 (X (Proc.devRef .tc main_arg7) : S256.Idx → EReal) := by
  after_results; all_goals rfl
theorem s3_c11 : (StableHlo.after (hostOps3 (F := Ideal)) X (Proc.devRef .tc main_c_11) : S_.Idx → BitVec 32) = constantI S_ 32 4294967295#32 := by
  after_results; all_goals rfl
theorem s3_1_53 : (StableHlo.after (hostOps3_1 (F := Ideal)) X (Proc.devRef .tc main_v53) : S10240.Idx → BitVec 32)
    = pad S10240 ![0] ![240] ![0] (X (Proc.devRef .tc main_arg2) : S10000.Idx → BitVec 32) (X (Proc.devRef .tc main_c_11) : S_.Idx → BitVec 32) pads_S10000_S10240_02400 h_S_ := by
  after_results; all_goals rfl
theorem s3_2_66 (bi : IVec S10000 32) (hX : (X (Proc.devRef .tc main_v53) : S10240.Idx → BitVec 32) = kv53 bi) :
    (StableHlo.after (hostOps3_2 (F := Ideal)) X (Proc.devRef .tc main_v66) : S256x10240.Idx → EReal) = kv66 bi := by
  after_results
  rw [hX]
  rfl
theorem s4_68 : (StableHlo.after (hostOps4 (F := Ideal)) X (Proc.devRef .tc main_v68) : S256x5256.Idx → EReal)
    = kv68 (X (Proc.devRef .tc main_v67) : S256x256.Idx → EReal) (X (Proc.devRef .tc main_arg3) : S256x5000.Idx → EReal) := by
  after_results; all_goals rfl
theorem s4_c14 : (StableHlo.after (hostOps4 (F := Ideal)) X (Proc.devRef .tc main_c_14) : S_.Idx → BitVec 32) = constantI S_ 32 0#32 := by
  after_results; all_goals rfl
theorem s4_1_69 : (StableHlo.after (hostOps4_1 (F := Ideal)) X (Proc.devRef .tc main_v69) : S256x5376.Idx → EReal)
    = pad S256x5376 ![0, 0] ![0, 120] ![0, 0] (X (Proc.devRef .tc main_v68) : S256x5256.Idx → EReal) (sitofp (F := Ideal) .f32 (X (Proc.devRef .tc main_c_14) : S_.Idx → BitVec 32)) pads_S256x5256_S256x5376_000_01200 h_S_ := by
  after_results; all_goals rfl
theorem s4_2_c15 : (StableHlo.after (hostOps4_2 (F := Ideal)) X (Proc.devRef .tc main_c_15) : S_.Idx → BitVec 32) = constantI S_ 32 0#32 := by
  after_results; all_goals rfl
theorem s4_3_70 : (StableHlo.after (hostOps4_3 (F := Ideal)) X (Proc.devRef .tc main_v70) : S5376x256.Idx → EReal)
    = pad S5376x256 ![0, 0] ![120, 0] ![0, 0] (X (Proc.devRef .tc main_arg8) : S5256x256.Idx → EReal) (sitofp (F := Ideal) .f32 (X (Proc.devRef .tc main_c_15) : S_.Idx → BitVec 32)) pads_S5256x256_S5376x256_01200_000 h_S_ := by
  after_results; all_goals rfl
theorem s4_4_71 : (StableHlo.after (hostOps4_4 (F := Ideal)) X (Proc.devRef .tc main_v71) : S1x256.Idx → EReal)
    = kv49 (X (Proc.devRef .tc main_arg9) : S256.Idx → EReal) := by
  after_results; all_goals rfl
theorem s4_4_72 : (StableHlo.after (hostOps4_4 (F := Ideal)) X (Proc.devRef .tc main_v72) : S1x138.Idx → EReal)
    = kv72 (X (Proc.devRef .tc main_arg11) : S138.Idx → EReal) := by
  after_results; all_goals rfl

end Stretches

section
variable (m : (ℓ : Loc nD τ sig) → Buf (Elt Ideal) ℓ) (ρ : Dev nD → PrngReg)

/-! ## A reference nothing writes, read back to the launch memory from any point of the chain -/

theorem U1 (c : Dev nD) (r : Ref sig .tc) (h : Untouched17 r) : W1 m ρ c (Proc.devRef .tc r) = m ((c : Thread nD τ).loc r) := by
  have h' := h
  obtain ⟨h0, h1, h2, h3, h4, h5, h6, h7, h8, h9, h10, h11, h12, h13, h14, h15, h16⟩ := h'
  exact (hostOps0_keep _ r h0).trans (rfl)
theorem U2 (c : Dev nD) (r : Ref sig .tc) (h : Untouched17 r) : W2 m ρ c (Proc.devRef .tc r) = m ((c : Thread nD τ).loc r) := by
  have h' := h
  obtain ⟨h0, h1, h2, h3, h4, h5, h6, h7, h8, h9, h10, h11, h12, h13, h14, h15, h16⟩ := h'
  exact (hostOps0_1_keep _ r h1).trans (U1 m ρ c r h)
theorem U3 (c : Dev nD) (r : Ref sig .tc) (h : Untouched17 r) : W3 m ρ c (Proc.devRef .tc r) = m ((c : Thread nD τ).loc r) := by
  have h' := h
  obtain ⟨h0, h1, h2, h3, h4, h5, h6, h7, h8, h9, h10, h11, h12, h13, h14, h15, h16⟩ := h'
  exact (hostOps0_2_keep _ r h2).trans (U2 m ρ c r h)
theorem U4 (c : Dev nD) (r : Ref sig .tc) (h : Untouched17 r) : W4 m ρ c (Proc.devRef .tc r) = m ((c : Thread nD τ).loc r) := by
  have h' := h
  obtain ⟨h0, h1, h2, h3, h4, h5, h6, h7, h8, h9, h10, h11, h12, h13, h14, h15, h16⟩ := h'
  exact (W4_of_ne m ρ c r h3).trans (U3 m ρ c r h)
theorem U5 (c : Dev nD) (r : Ref sig .tc) (h : Untouched17 r) : W5 m ρ c (Proc.devRef .tc r) = m ((c : Thread nD τ).loc r) := by
  have h' := h
  obtain ⟨h0, h1, h2, h3, h4, h5, h6, h7, h8, h9, h10, h11, h12, h13, h14, h15, h16⟩ := h'
  exact (hostOps1_keep _ r h4).trans (U4 m ρ c r h)
theorem U6 (c : Dev nD) (r : Ref sig .tc) (h : Untouched17 r) : W6 m ρ c (Proc.devRef .tc r) = m ((c : Thread nD τ).loc r) := by
  have h' := h
  obtain ⟨h0, h1, h2, h3, h4, h5, h6, h7, h8, h9, h10, h11, h12, h13, h14, h15, h16⟩ := h'
  exact (W6_of_ne m ρ c r h5).trans (U5 m ρ c r h)
theorem U7 (c : Dev nD) (r : Ref sig .tc) (h : Untouched17 r) : W7 m ρ c (Proc.devRef .tc r) = m ((c : Thread nD τ).loc r) := by
  have h' := h
  obtain ⟨h0, h1, h2, h3, h4, h5, h6, h7, h8, h9, h10, h11, h12, h13, h14, h15, h16⟩ := h'
  exact (hostOps2_keep _ r h6).trans (U6 m ρ c r h)
theorem U8 (c : Dev nD) (r : Ref sig .tc) (h : Untouched17 r) : W8 m ρ c (Proc.devRef .tc r) = m ((c : Thread nD τ).loc r) := by
  have h' := h
  obtain ⟨h0, h1, h2, h3, h4, h5, h6, h7, h8, h9, h10, h11, h12, h13, h14, h15, h16⟩ := h'
  exact (W8_of_ne m ρ c r h7).trans (U7 m ρ c r h)
theorem U9 (c : Dev nD) (r : Ref sig .tc) (h : Untouched17 r) : W9 m ρ c (Proc.devRef .tc r) = m ((c : Thread nD τ).loc r) := by
  have h' := h
  obtain ⟨h0, h1, h2, h3, h4, h5, h6, h7, h8, h9, h10, h11, h12, h13, h14, h15, h16⟩ := h'
  exact (hostOps3_keep _ r h8).trans (U8 m ρ c r h)
theorem U10 (c : Dev nD) (r : Ref sig .tc) (h : Untouched17 r) : W10 m ρ c (Proc.devRef .tc r) = m ((c : Thread nD τ).loc r) := by
  have h' := h
  obtain ⟨h0, h1, h2, h3, h4, h5, h6, h7, h8, h9, h10, h11, h12, h13, h14, h15, h16⟩ := h'
  exact (hostOps3_1_keep _ r h9).trans (U9 m ρ c r h)
theorem U11 (c : Dev nD) (r : Ref sig .tc) (h : Untouched17 r) : W11 m ρ c (Proc.devRef .tc r) = m ((c : Thread nD τ).loc r) := by
  have h' := h
  obtain ⟨h0, h1, h2, h3, h4, h5, h6, h7, h8, h9, h10, h11, h12, h13, h14, h15, h16⟩ := h'
  exact (hostOps3_2_keep _ r h10).trans (U10 m ρ c r h)
theorem U12 (c : Dev nD) (r : Ref sig .tc) (h : Untouched17 r) : W12 m ρ c (Proc.devRef .tc r) = m ((c : Thread nD τ).loc r) := by
  have h' := h
  obtain ⟨h0, h1, h2, h3, h4, h5, h6, h7, h8, h9, h10, h11, h12, h13, h14, h15, h16⟩ := h'
  exact (W12_of_ne m ρ c r h11).trans (U11 m ρ c r h)
theorem U13 (c : Dev nD) (r : Ref sig .tc) (h : Untouched17 r) : W13 m ρ c (Proc.devRef .tc r) = m ((c : Thread nD τ).loc r) := by
  have h' := h
  obtain ⟨h0, h1, h2, h3, h4, h5, h6, h7, h8, h9, h10, h11, h12, h13, h14, h15, h16⟩ := h'
  exact (hostOps4_keep _ r h12).trans (U12 m ρ c r h)
theorem U14 (c : Dev nD) (r : Ref sig .tc) (h : Untouched17 r) : W14 m ρ c (Proc.devRef .tc r) = m ((c : Thread nD τ).loc r) := by
  have h' := h
  obtain ⟨h0, h1, h2, h3, h4, h5, h6, h7, h8, h9, h10, h11, h12, h13, h14, h15, h16⟩ := h'
  exact (hostOps4_1_keep _ r h13).trans (U13 m ρ c r h)
theorem U15 (c : Dev nD) (r : Ref sig .tc) (h : Untouched17 r) : W15 m ρ c (Proc.devRef .tc r) = m ((c : Thread nD τ).loc r) := by
  have h' := h
  obtain ⟨h0, h1, h2, h3, h4, h5, h6, h7, h8, h9, h10, h11, h12, h13, h14, h15, h16⟩ := h'
  exact (hostOps4_2_keep _ r h14).trans (U14 m ρ c r h)
theorem U16 (c : Dev nD) (r : Ref sig .tc) (h : Untouched17 r) : W16 m ρ c (Proc.devRef .tc r) = m ((c : Thread nD τ).loc r) := by
  have h' := h
  obtain ⟨h0, h1, h2, h3, h4, h5, h6, h7, h8, h9, h10, h11, h12, h13, h14, h15, h16⟩ := h'
  exact (hostOps4_3_keep _ r h15).trans (U15 m ρ c r h)

variable (c : Dev nD)

/-! ## The chain read at the references the calls and the later host operations use -/

theorem R3_45 : (V3 m ρ c main_v45 : S10240x128.Idx → EReal) = kv45 (m ((c : Thread nD τ).loc main_arg0)) := by
  refine (hostOps0_2_keep (W2 m ρ c) main_v45 (by decide)).trans ?_
  refine (s0_1_45 (W1 m ρ c)).trans ?_
  exact congrArg₂ (fun x v => pad S10240x128 ![0, 0] ![240, 0] ![0, 0] x v pads_S10000x128_S10240x128_02400_000 h_S_)
    (U1 m ρ c main_arg0 (by decide)) (congrArg (sitofp (F := Ideal) .f32) (s0_c10 (W0 m ρ c)))
theorem R3_46 : (V3 m ρ c main_v46 : S128x256.Idx → EReal) = kv46 (m ((c : Thread nD τ).loc main_arg4)) :=
  (s0_2_46 (W2 m ρ c)).trans (congrArg kvTrunc (U2 m ρ c main_arg4 (by decide)))
theorem R5_48 : (V5 m ρ c main_v48 : S10240x256.Idx → EReal) = (dat0 (V3 m ρ) c).arrAt 2 cfg0.N :=
  (hostOps1_keep (W4 m ρ c) main_v48 (by decide)).trans (W4_arr m ρ c 2)
theorem R5_49 : (V5 m ρ c main_v49 : S1x256.Idx → EReal) = kv49 (m ((c : Thread nD τ).loc main_arg5)) :=
  (s1_49 (W4 m ρ c)).trans (congrArg kv49 (U4 m ρ c main_arg5 (by decide)))
theorem R5_47 : (V5 m ρ c main_v47 : S256x256.Idx → EReal) = kv47 (m ((c : Thread nD τ).loc main_arg6)) := by
  refine (hostOps1_keep (W4 m ρ c) main_v47 (by decide)).trans ?_
  refine (W4_of_ne m ρ c main_v47 (by decide)).trans ?_
  exact (s0_2_47 (W2 m ρ c)).trans (congrArg kvTrunc (U2 m ρ c main_arg6 (by decide)))
theorem R7_50 : (V7 m ρ c main_v50 : S10240x256.Idx → EReal) = (dat1 (V5 m ρ) c).arrAt 4 cfg1.N :=
  (hostOps2_keep (W6 m ρ c) main_v50 (by decide)).trans (W6_arr m ρ c 4)
theorem R7_51 : (V7 m ρ c main_v51 : S1x256.Idx → EReal) = kv49 (m ((c : Thread nD τ).loc main_arg7)) :=
  (s2_51 (W6 m ρ c)).trans (congrArg kv49 (U6 m ρ c main_arg7 (by decide)))
theorem R11_66 : (V11 m ρ c main_v66 : S256x10240.Idx → EReal) = kv66 (m ((c : Thread nD τ).loc main_arg2)) := by
  refine s3_2_66 (W10 m ρ c) (m ((c : Thread nD τ).loc main_arg2)) ?_
  refine (s3_1_53 (W9 m ρ c)).trans ?_
  exact congrArg₂ (fun x v => pad S10240 ![0] ![240] ![0] x v pads_S10000_S10240_02400 h_S_)
    (U9 m ρ c main_arg2 (by decide)) (s3_c11 (W8 m ρ c))
theorem R11_52 : (V11 m ρ c main_v52 : S10240x256.Idx → EReal) = (dat2 (V7 m ρ) c).arrAt 3 cfg2.N := by
  refine (hostOps3_2_keep (W10 m ρ c) main_v52 (by decide)).trans ?_
  refine (hostOps3_1_keep (W9 m ρ c) main_v52 (by decide)).trans ?_
  exact (hostOps3_keep (W8 m ρ c) main_v52 (by decide)).trans (W8_arr m ρ c 3)
theorem R17_69 : (V17 m ρ c main_v69 : S256x5376.Idx → EReal) = kv69 ((dat3 (V11 m ρ) c).arrAt 2 cfg3.N) (m ((c : Thread nD τ).loc main_arg3)) := by
  refine (hostOps4_4_keep (W16 m ρ c) main_v69 (by decide)).trans ?_
  refine (hostOps4_3_keep (W15 m ρ c) main_v69 (by decide)).trans ?_
  refine (hostOps4_2_keep (W14 m ρ c) main_v69 (by decide)).trans ?_
  refine (s4_1_69 (W13 m ρ c)).trans ?_
  refine congrArg₂ (fun (x : S256x5256.Idx → EReal) (v : S_.Idx → EReal) => pad S256x5376 ![0, 0] ![0, 120] ![0, 0] x v pads_S256x5256_S256x5376_000_01200 h_S_) ?_
    (congrArg (sitofp (F := Ideal) .f32) (s4_c14 (W12 m ρ c)))
  exact (s4_68 (W12 m ρ c)).trans (congrArg₂ kv68 (W12_arr m ρ c 2) (U12 m ρ c main_arg3 (by decide)))
theorem R17_70 : (V17 m ρ c main_v70 : S5376x256.Idx → EReal) = kv70 (m ((c : Thread nD τ).loc main_arg8)) := by
  refine (hostOps4_4_keep (W16 m ρ c) main_v70 (by decide)).trans ?_
  refine (s4_3_70 (W15 m ρ c)).trans ?_
  exact congrArg₂ (fun x v => pad S5376x256 ![0, 0] ![120, 0] ![0, 0] x v pads_S5256x256_S5376x256_01200_000 h_S_)
    (U15 m ρ c main_arg8 (by decide)) (congrArg (sitofp (F := Ideal) .f32) (s4_2_c15 (W14 m ρ c)))
theorem R17_71 : (V17 m ρ c main_v71 : S1x256.Idx → EReal) = kv49 (m ((c : Thread nD τ).loc main_arg9)) :=
  (s4_4_71 (W16 m ρ c)).trans (congrArg kv49 (U16 m ρ c main_arg9 (by decide)))
theorem R17_72 : (V17 m ρ c main_v72 : S1x138.Idx → EReal) = kv72 (m ((c : Thread nD τ).loc main_arg11)) :=
  (s4_4_72 (W16 m ρ c)).trans (congrArg kv72 (U16 m ρ c main_arg11 (by decide)))
theorem R17_a10 : (V17 m ρ c main_arg10 : S256x138.Idx → EReal) = m ((c : Thread nD τ).loc main_arg10) :=
  W17_of_untouched m ρ c main_arg10 (by decide)
theorem R18_73 : (W18 (F := Ideal) m ρ c (Proc.devRef .tc main_v73) : S256x138.Idx → EReal) = (dat4 (V17 m ρ) c).arrAt 5 cfg4.N :=
  W18_arr m ρ c 5

end

end Cert.KernelIdeal.KerValue

end
-- ==== Proof.KV.ChainAdj.lean ====
/-
  The dense adjacency matrix as the second and the third call find it.

  The first stretch of host operations builds it from the edge list alone: the source and the destination words of
  the 330000 edges, the edge weights (the product of the inverse square roots of the two end points' degrees), and
  the scatter-add of the weights, at the pairs of end-point words wrapped by the padded extent, into a [10240, 10240]
  array of zeros, narrowed to the 16-bit format. Composed in the operations' order, what that stretch leaves in the
  array is the term kv44 (kv6 ei) (kv3 ei) (kv28 ei) of the edge list ei. Nothing afterwards writes the array: the
  later stretches of host operations write other arrays, the first call has it among neither its inputs nor its
  outputs, and the second call reads it as an input, which a call hands back as it found it. So the second and the
  third call both find that term of the edge list the program was launched with.
-/
import proofs.«410187_j66958540144771_3_alg».proof.Proof.KI.RunA
import proofs.«410187_j66958540144771_3_alg».proof.Proof.KerAdj
import proofs.«410187_j66958540144771_3_alg».proof.Proof.KerEdges
import Idealize.ShloMosaic.Lib.StableHlo.Run
import Idealize.ShloMosaic.Lib.Pipeline.Value
import Idealize.ShloMosaic.Lib.ValueIdx

set_option maxRecDepth 16384

noncomputable section

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)

set_option maxHeartbeats 2000000 in
/-- The first stretch of host operations, from any contents X: the adjacency array it leaves is the scatter-add
    of the edge weights at the wrapped end-point pairs, each a term of the edge list X holds. -/
theorem after0_44 (X : Valuation τ sig (Elt Ideal)) :
    (StableHlo.after (hostOps0 (F := Ideal)) X (Proc.devRef .tc main_v44) : S10240x10240.Idx → EReal)
      = kv44 (kv6 (X (Proc.devRef .tc main_arg1))) (kv3 (X (Proc.devRef .tc main_arg1))) (kv28 (X (Proc.devRef .tc main_arg1))) := by
  after_results_simp
  rfl

section
variable (m : (ℓ : Loc nD τ sig) → Buf (Elt Ideal) ℓ) (ρ : Dev nD → PrngReg) (c : Dev nD)

/-- The adjacency array as the second call finds it: no later host operation and not the first call writes it. -/
theorem R5_44 : (V5 m ρ c main_v44 : S10240x10240.Idx → EReal) = kv44 (kv6 (m ((c : Thread nD τ).loc main_arg1))) (kv3 (m ((c : Thread nD τ).loc main_arg1))) (kv28 (m ((c : Thread nD τ).loc main_arg1))) :=
  (hostOps1_keep (W4 m ρ c) main_v44 (by decide)).trans
    ((W4_of_ne m ρ c main_v44 (by decide)).trans
      ((hostOps0_2_keep (W2 m ρ c) main_v44 (by decide)).trans
        ((hostOps0_1_keep (W1 m ρ c) main_v44 (by decide)).trans (after0_44 (W0 m ρ c)))))

/-- The adjacency array as the third call finds it: it is an input of the second call, which hands its inputs back as
    it found them, and the host operations between the two calls do not write it. -/
theorem R7_44 : (V7 m ρ c main_v44 : S10240x10240.Idx → EReal) = kv44 (kv6 (m ((c : Thread nD τ).loc main_arg1))) (kv3 (m ((c : Thread nD τ).loc main_arg1))) (kv28 (m ((c : Thread nD τ).loc main_arg1))) :=
  (hostOps2_keep (W6 m ρ c) main_v44 (by decide)).trans
    ((W6_arr m ρ c 0).trans
      (((dat1 (V5 m ρ) c).arrAt_in 0 rfl _).trans ((A_eq1 (V5 m ρ) c 0).trans (R5_44 m ρ c))))

end

end Cert.KernelIdeal.KerValue

end
-- ==== Proof.KV.Assemble.lean ====
/-
  The kernel program's result, index by index, is the specification's function kerOut of the inputs.

  Read from the end: the fifth call's output array is the two dense layers (Spec.head) of its five operand arrays; of
  those the first is the fourth call's output beside the fingerprint columns, padded with zero columns, the second
  the head's first weight matrix padded with zero rows. The fourth call's output is the pooling matrix times the third
  call's output; the third call's output is the aggregation (Spec.kerAgg) of the dense adjacency and the second call's
  output with the second bias; the second call's output is the aggregation of the dense adjacency and the first
  call's output with the first bias, times the second weight matrix; the first call's output is the zero-padded node
  features times the first weight matrix. The host operations between the calls, read at an index, are the
  specification's padRows, padCols, hcat, poolMat and adj of the inputs; a narrowing of the float format and a
  reshape of a vector to a one-row matrix change no entry.
-/
import proofs.«410187_j66958540144771_3_alg».proof.Proof.KI.Chain
import Idealize.ShloMosaic.Lib.Pipeline.Value
import Idealize.ShloMosaic.Lib.ValueIdx
import Idealize.ShloMosaic.PureOps.Ideal.Laws
import proofs.«410187_j66958540144771_3_alg».proof.Proof.Spec
import proofs.«410187_j66958540144771_3_alg».proof.Proof.Inputs
import proofs.«410187_j66958540144771_3_alg».proof.Proof.KerAdj
import proofs.«410187_j66958540144771_3_alg».proof.Proof.KerGlue
import proofs.«410187_j66958540144771_3_alg».proof.Proof.KerPool
import proofs.«410187_j66958540144771_3_alg».proof.Proof.KV.Final0
import proofs.«410187_j66958540144771_3_alg».proof.Proof.KV.Final1
import proofs.«410187_j66958540144771_3_alg».proof.Proof.KV.Final3
import proofs.«410187_j66958540144771_3_alg».proof.Proof.KV.Final4
import proofs.«410187_j66958540144771_3_alg».proof.Proof.KerEdges
import proofs.«410187_j66958540144771_3_alg».proof.Proof.KV.Final2
import proofs.«410187_j66958540144771_3_alg».proof.Proof.KV.ChainReads
import proofs.«410187_j66958540144771_3_alg».proof.Proof.KV.ChainAdj

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx

/-! ## The arrays as the specification's matrices -/
section Compose
variable (m : (ℓ : Loc nD τ sig) → Buf (Elt Ideal) ℓ) (ρ : Dev nD → PrngReg) (c : Dev nD)

set_option quotPrecheck false in
local notation "aX" => (m ((c : Thread nD τ).loc main_arg0) : S10000x128.Idx → EReal)
set_option quotPrecheck false in
local notation "aEi" => (m ((c : Thread nD τ).loc main_arg1) : S2x320000.Idx → BitVec 32)
set_option quotPrecheck false in
local notation "aBi" => (m ((c : Thread nD τ).loc main_arg2) : S10000.Idx → BitVec 32)
set_option quotPrecheck false in
local notation "aFp" => (m ((c : Thread nD τ).loc main_arg3) : S256x5000.Idx → EReal)
set_option quotPrecheck false in
local notation "aW1" => (m ((c : Thread nD τ).loc main_arg4) : S128x256.Idx → EReal)
set_option quotPrecheck false in
local notation "aB1" => (m ((c : Thread nD τ).loc main_arg5) : S256.Idx → EReal)
set_option quotPrecheck false in
local notation "aW2" => (m ((c : Thread nD τ).loc main_arg6) : S256x256.Idx → EReal)
set_option quotPrecheck false in
local notation "aB2" => (m ((c : Thread nD τ).loc main_arg7) : S256.Idx → EReal)
set_option quotPrecheck false in
local notation "aWm1" => (m ((c : Thread nD τ).loc main_arg8) : S5256x256.Idx → EReal)
set_option quotPrecheck false in
local notation "aBm1" => (m ((c : Thread nD τ).loc main_arg9) : S256.Idx → EReal)
set_option quotPrecheck false in
local notation "aWm2" => (m ((c : Thread nD τ).loc main_arg10) : S256x138.Idx → EReal)
set_option quotPrecheck false in
local notation "aBm2" => (m ((c : Thread nD τ).loc main_arg11) : S138.Idx → EReal)

/-- The scattered edge weights are the dense adjacency. -/
theorem mat_kv44 (ei : IVec S2x320000 32) :
    Inputs.mat (α := EReal) (kv44 (kv6 ei) (kv3 ei) (kv28 ei)) = Spec.adj 10240 (Inputs.kd ei) (Inputs.ks ei) (Inputs.nrm ei) :=
  funext fun d => funext fun s => kv44_adj ei _ _ _ (kv6_apply ei) (kv3_apply ei) (kv28_apply ei) d s

theorem row_kv49 (b : FVec Ideal S256 .f32) : (fun j : Fin 256 => Inputs.mat (α := EReal) (kv49 b) 0 j) = Inputs.vec (α := EReal) b :=
  funext fun j => kv49_apply b j
theorem row_kv72 (b : FVec Ideal S138 .f32) : (fun j : Fin 138 => Inputs.mat (α := EReal) (kv72 b) 0 j) = Inputs.vec (α := EReal) b :=
  funext fun j => kv72_apply b j
theorem mat_kv45 (x : FVec Ideal S10000x128 .f32) : Inputs.mat (α := EReal) (kv45 x) = Spec.padRows 10240 (Inputs.mat (α := EReal) x) 0 :=
  funext fun r => funext fun k => kv45_apply x r k
theorem mat_kv46 (w : FVec Ideal S128x256 .f32) : Inputs.mat (α := EReal) (kv46 w) = Inputs.mat (α := EReal) w :=
  funext fun r => funext fun k => kv46_apply w r k
theorem mat_kv47 (w : FVec Ideal S256x256 .f32) : Inputs.mat (α := EReal) (kv47 w) = Inputs.mat (α := EReal) w :=
  funext fun r => funext fun k => kv47_apply w r k
theorem mat_kv66 (bi : IVec S10000 32) : Inputs.mat (α := EReal) (kv66 bi) = Spec.poolMat 10240 256 (Inputs.bt bi) :=
  funext fun r => funext fun k => kv66_apply bi r k
theorem mat_kv69 (p : FVec Ideal S256x256 .f32) (fp : FVec Ideal S256x5000 .f32) :
    Inputs.mat (α := EReal) (kv69 p fp) = Spec.padCols 5376 (Spec.hcat (Inputs.mat (α := EReal) p) (Inputs.mat (α := EReal) fp)) :=
  funext fun r => funext fun k => kv69_apply p fp r k
theorem mat_kv70 (w : FVec Ideal S5256x256 .f32) : Inputs.mat (α := EReal) (kv70 w) = Spec.padRows 5376 (Inputs.mat (α := EReal) w) 0 :=
  funext fun r => funext fun k => kv70_apply w r k

/-- The first call leaves the projected padded features. -/
theorem M48 : Inputs.mat (α := EReal) ((dat0 (V3 m ρ) c).arrAt 2 cfg0.N : S10240x256.Idx → EReal)
    = Spec.mm (Spec.padRows 10240 (Inputs.mat (α := EReal) aX) 0) (Inputs.mat (α := EReal) aW1) := by
  funext r q
  show ((dat0 (V3 m ρ) c).arrAt 2 cfg0.N : S10240x256.Idx → EReal) (ix2 r q) = _
  rw [final0, R3_45, R3_46, mat_kv45, mat_kv46]
  rfl

/-- The second call leaves the first layer's output projected by the second weight matrix. -/
theorem M50 : Inputs.mat (α := EReal) ((dat1 (V5 m ρ) c).arrAt 4 cfg1.N : S10240x256.Idx → EReal)
    = Spec.mm (Spec.kerAgg 10000 (Spec.adj 10240 (Inputs.kd aEi) (Inputs.ks aEi) (Inputs.nrm aEi))
        (Spec.mm (Spec.padRows 10240 (Inputs.mat (α := EReal) aX) 0) (Inputs.mat (α := EReal) aW1)) (Inputs.vec (α := EReal) aB1))
        (Inputs.mat (α := EReal) aW2) := by
  funext r q
  show ((dat1 (V5 m ρ) c).arrAt 4 cfg1.N : S10240x256.Idx → EReal) (ix2 r q) = _
  rw [final1, R5_44, R5_48, R5_49, R5_47, mat_kv44, M48, row_kv49, mat_kv47]

/-- The third call leaves the second layer's output. -/
theorem M52 : Inputs.mat (α := EReal) ((dat2 (V7 m ρ) c).arrAt 3 cfg2.N : S10240x256.Idx → EReal)
    = Spec.kerAgg 10000 (Spec.adj 10240 (Inputs.kd aEi) (Inputs.ks aEi) (Inputs.nrm aEi))
        (Spec.mm (Spec.kerAgg 10000 (Spec.adj 10240 (Inputs.kd aEi) (Inputs.ks aEi) (Inputs.nrm aEi))
          (Spec.mm (Spec.padRows 10240 (Inputs.mat (α := EReal) aX) 0) (Inputs.mat (α := EReal) aW1)) (Inputs.vec (α := EReal) aB1))
          (Inputs.mat (α := EReal) aW2)) (Inputs.vec (α := EReal) aB2) := by
  funext r q
  show ((dat2 (V7 m ρ) c).arrAt 3 cfg2.N : S10240x256.Idx → EReal) (ix2 r q) = _
  rw [final2, R7_44, R7_50, R7_51, mat_kv44, M50, row_kv49]

/-- The fourth call leaves the pooled rows. -/
theorem M67 : Inputs.mat (α := EReal) ((dat3 (V11 m ρ) c).arrAt 2 cfg3.N : S256x256.Idx → EReal)
    = Spec.mm (Spec.poolMat 10240 256 (Inputs.bt aBi)) (Spec.kerAgg 10000 (Spec.adj 10240 (Inputs.kd aEi) (Inputs.ks aEi) (Inputs.nrm aEi))
        (Spec.mm (Spec.kerAgg 10000 (Spec.adj 10240 (Inputs.kd aEi) (Inputs.ks aEi) (Inputs.nrm aEi))
          (Spec.mm (Spec.padRows 10240 (Inputs.mat (α := EReal) aX) 0) (Inputs.mat (α := EReal) aW1)) (Inputs.vec (α := EReal) aB1))
          (Inputs.mat (α := EReal) aW2)) (Inputs.vec (α := EReal) aB2)) := by
  funext r q
  show ((dat3 (V11 m ρ) c).arrAt 2 cfg3.N : S256x256.Idx → EReal) (ix2 r q) = _
  rw [final3, R11_66, R11_52]
  show Spec.mm (Inputs.mat (α := EReal) (kv66 _)) (Inputs.mat (α := EReal) ((dat2 (V7 m ρ) c).arrAt 3 cfg2.N : S10240x256.Idx → EReal)) r q = _
  rw [mat_kv66, M52]

/-- THE KERNEL PROGRAM's result is the specification's function of the inputs. -/
theorem ker_value (γ : Fin 256) (ω : Fin 138) :
    (W18 (F := Ideal) m ρ c (Proc.devRef .tc main_v73) : S256x138.Idx → EReal) (ix2 γ ω)
      = Spec.kerOut (Inputs.kd aEi) (Inputs.ks aEi) (Inputs.nrm aEi) (Inputs.bt aBi) (Inputs.mat (α := EReal) aX) (Inputs.mat (α := EReal) aFp)
          (Inputs.mat (α := EReal) aW1) (Inputs.vec (α := EReal) aB1) (Inputs.mat (α := EReal) aW2) (Inputs.vec (α := EReal) aB2)
          (Inputs.mat (α := EReal) aWm1) (Inputs.vec (α := EReal) aBm1) (Inputs.mat (α := EReal) aWm2) (Inputs.vec (α := EReal) aBm2) γ ω := by
  rw [R18_73, final4, R17_69, R17_70, R17_71, R17_72, R17_a10]
  show Spec.head (Inputs.mat (α := EReal) (kv69 _ _)) (Inputs.mat (α := EReal) (kv70 _)) (fun j => Inputs.mat (α := EReal) (kv49 _) 0 j)
      (Inputs.mat (α := EReal) _) (fun j => Inputs.mat (α := EReal) (kv72 _) 0 j) γ ω = _
  rw [mat_kv69, mat_kv70, row_kv49, row_kv72, M67]
  rfl

end Compose

end Cert.KernelIdeal.KerValue

end
-- ==== Proof.MathHead.lean ====
/-
  The last stage: padding the concatenated features with zero columns and the first dense layer's weights with
  as many zero rows does not change the product, hence not the two dense layers' result.
-/
import proofs.«410187_j66958540144771_3_alg».proof.Proof.Spec
import Mathlib.Data.EReal.Basic
import Mathlib.Algebra.BigOperators.Fin

noncomputable section

open scoped BigOperators

namespace Cert.Spec

/-- d zero columns against d zero rows add d zeros to each entry of the product. -/
theorem mm_pad {g k d c : Nat} (z : Fin g → Fin k → EReal) (W : Fin k → Fin c → EReal) :
    mm (padCols (k + d) z) (padRows (k + d) W 0) = mm z W := by
  funext γ j
  simp only [mm, padCols, padRows]
  rw [Fin.sum_univ_add]
  have h2 : (∑ i : Fin d,
      (if h : (Fin.natAdd k i : Fin (k + d)).val < k then z γ ⟨(Fin.natAdd k i : Fin (k + d)).val, h⟩ else 0) *
      (if h : (Fin.natAdd k i : Fin (k + d)).val < k then W ⟨(Fin.natAdd k i : Fin (k + d)).val, h⟩ j else 0)) = 0 := by
    apply Finset.sum_eq_zero
    intro i _
    have hn : ¬ (Fin.natAdd k i : Fin (k + d)).val < k := by simp [Fin.coe_natAdd]
    rw [dif_neg hn, dif_neg hn, zero_mul]
  rw [h2, add_zero]
  apply Finset.sum_congr rfl
  intro i _
  have hp : (Fin.castAdd d i : Fin (k + d)).val < k := by simp [Fin.coe_castAdd]
  rw [dif_pos hp, dif_pos hp]
  rfl

/-- The two dense layers see the same first product with and without the 120 zero columns / rows. -/
theorem head_pad {g c o : Nat} (z : Fin g → Fin 5256 → EReal) (Wm1 : Fin 5256 → Fin c → EReal) (bm1 : Fin c → EReal)
    (Wm2 : Fin c → Fin o → EReal) (bm2 : Fin o → EReal) :
    head (padCols 5376 z) (padRows 5376 Wm1 0) bm1 Wm2 bm2 = head z Wm1 bm1 Wm2 bm2 := by
  have h : mm (padCols 5376 z) (padRows 5376 Wm1 0) = mm z Wm1 := mm_pad (d := 120) z Wm1
  funext γ ω
  simp only [head, h]

/-- A block of a side-by-side matrix may be replaced by an equal one. -/
theorem hcat_congr {g a b : Nat} {x x' : Fin g → Fin a → EReal} (y : Fin g → Fin b → EReal) (h : x = x') :
    hcat x y = hcat x' y := by
  rw [h]

end Cert.Spec

end
-- ==== Proof.MathAgg.lean ====
/-
  One graph layer: the kernel's dense adjacency times the padded projected features, accumulated in five column
  blocks, is the reference's gather, product and row scatter-add — where the edge weights, the features and the
  layer's weights are real numbers and every edge's source names a row below n.

  Over the extended reals the product distributes over a sum only where the terms are real; so the sums are carried
  to the real numbers, exchanged there (the sum over the sources picks the edge's own source), and carried back.
  The adjacency's columns from n on are zero, because no edge has its source there, and zero times anything is
  zero: the rows of the padded features from n on are not constrained.
-/
import proofs.«410187_j66958540144771_3_alg».proof.Proof.Spec
import Mathlib.Data.EReal.Basic
import Mathlib.Data.EReal.Operations
import Mathlib.Algebra.BigOperators.Fin
import Mathlib.Algebra.BigOperators.Ring.Finset
import Mathlib.Algebra.BigOperators.Group.Finset.Piecewise
import Mathlib.Logic.Equiv.Fin.Basic

noncomputable section

open scoped BigOperators

namespace Cert.Spec

/-! ## Real numbers inside the extended reals -/

/-- The coercion of a finite sum of real numbers is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max_zero {x : EReal} (hx : IsReal x) : IsReal (max x 0) := by
  obtain ⟨a, rfl⟩ := hx
  exact ⟨max a 0, (EReal.coe_strictMono.monotone.map_max (a := a) (b := 0)).symm⟩

theorem isReal_ite {p : Prop} [Decidable p] {x y : EReal} (hx : IsReal x) (hy : IsReal y) :
    IsReal (if p then x else y) := by
  split_ifs
  · exact hx
  · exact hy

theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a t ha ih h
    rw [Finset.sum_insert ha]
    exact isReal_add (h a (Finset.mem_insert_self a t))
      (ih fun i hi => h i (Finset.mem_insert_of_mem hi))

theorem isReal_mm {a k b : Nat} (x : Fin a → Fin k → EReal) (y : Fin k → Fin b → EReal)
    (hx : ∀ r j, IsReal (x r j)) (hy : ∀ j c, IsReal (y j c)) (r : Fin a) (c : Fin b) :
    IsReal (mm x y r c) :=
  isReal_sum _ _ fun j _ => isReal_mul (hx r j) (hy j c)

/-! ## The five blocks are the whole row -/

/-- A sum over 10240 indices, in five blocks of 2048. -/
theorem sum_blocks (F : Fin 10240 → EReal) :
    ∑ s : Fin 10240, F s
      = ∑ k : Fin 5, ∑ j : Fin 2048,
          F ⟨2048 * k.val + j.val, by have := k.isLt; have := j.isLt; omega⟩ := by
  rw [← Fintype.sum_prod_type']
  symm
  refine Fintype.sum_equiv (finProdFinEquiv : Fin 5 × Fin 2048 ≃ Fin (5 * 2048)) _ _ ?_
  rintro ⟨k, j⟩
  congr 1
  ext
  simp only [finProdFinEquiv_apply_val]
  omega

theorem blockSum_eq {c : Nat} (A : Fin 10240 → Fin 10240 → EReal) (H : Fin 10240 → Fin c → EReal)
    (d : Fin 10240) (q : Fin c) :
    blockSum A H d q = ∑ s : Fin 10240, A d s * H s q := by
  rw [sum_blocks (fun s => A d s * H s q), Fin.sum_univ_five]
  unfold blockSum blk
  rw [zero_add]

/-! ## The exchange of the two sums, in the real numbers -/

/-- The sum over the sources of (the sum of the weights of the edges from s to d) times the row s is the sum over
    the edges to d of the edge's source row times the weight. -/
theorem real_exchange {e n np : Nat} (hnp : n ≤ np) (sel : Fin e → Fin n) (kd ks : Fin e → Int)
    (ν : Fin e → ℝ) (hks : ∀ p, ks p = ((sel p).val : Int)) (Hr : Fin np → ℝ) (d : Int) :
    ∑ s : Fin np, (∑ p : Fin e, if kd p = d ∧ ks p = (s.val : Int) then ν p else 0) * Hr s
      = ∑ p : Fin e, if kd p = d then Hr ⟨(sel p).val, lt_of_lt_of_le (sel p).isLt hnp⟩ * ν p else 0 := by
  simp_rw [Finset.sum_mul]
  rw [Finset.sum_comm]
  refine Finset.sum_congr rfl fun p _ => ?_
  have key : ∀ s : Fin np,
      (if kd p = d ∧ ks p = (s.val : Int) then ν p else 0) * Hr s
        = if s = ⟨(sel p).val, lt_of_lt_of_le (sel p).isLt hnp⟩ then
            (if kd p = d then Hr s * ν p else 0) else 0 := by
    intro s
    have hiff : ks p = (s.val : Int) ↔ s = ⟨(sel p).val, lt_of_lt_of_le (sel p).isLt hnp⟩ := by
      rw [hks p]
      constructor
      · intro h
        ext
        simp only
        omega
      · intro h
        rw [h]
    by_cases h1 : kd p = d
    · by_cases h2 : s = ⟨(sel p).val, lt_of_lt_of_le (sel p).isLt hnp⟩
      · rw [if_pos ⟨h1, hiff.mpr h2⟩, if_pos h2, if_pos h1, mul_comm]
      · rw [if_neg (fun h => h2 (hiff.mp h.2)), if_neg h2, zero_mul]
    · rw [if_neg (fun h => h1 h.1), zero_mul]
      split_ifs <;> rfl
  simp_rw [key]
  rw [Finset.sum_ite_eq']
  simp only [Finset.mem_univ, if_true]

/-! ## One aggregation -/

/-- The dense adjacency against the padded rows is the reference's scatter-add of the gathered rows. -/
theorem agg_exchange {e n np c : Nat} (hnp : n ≤ np) (sel : Fin e → Fin n) (dstZ kd ks : Fin e → Int)
    (nrm : Fin e → EReal) (hks : ∀ p, ks p = ((sel p).val : Int)) (hkd : ∀ p, kd p = dstZ p)
    (hn : ∀ p, IsReal (nrm p))
    (H : Fin np → Fin c → EReal) (H' : Fin n → Fin c → EReal)
    (hH : ∀ (r : Fin n) q, H ⟨r.val, lt_of_lt_of_le r.isLt hnp⟩ q = H' r q)
    (hH' : ∀ r q, IsReal (H' r q)) (d : Fin np) (q : Fin c) :
    ∑ s : Fin np, adj np kd ks nrm d s * H s q
      = 0 + ∑ p : Fin e, if dstZ p = (d.val : Int) then H' (sel p) q * nrm p else 0 := by
  choose ν hν using hn
  choose η hη using hH'
  let Hr : Fin np → ℝ := fun s => if h : s.val < n then η ⟨s.val, h⟩ q else 0
  have hterm : ∀ s : Fin np, adj np kd ks nrm d s * H s q
      = (((∑ p : Fin e, if kd p = (d.val : Int) ∧ ks p = (s.val : Int) then ν p else 0) * Hr s : ℝ) : EReal) := by
    intro s
    have hA : adj np kd ks nrm d s
        = ((∑ p : Fin e, if kd p = (d.val : Int) ∧ ks p = (s.val : Int) then ν p else 0 : ℝ) : EReal) := by
      unfold adj
      rw [zero_add, coe_sum]
      refine Finset.sum_congr rfl fun p _ => ?_
      split_ifs
      · exact hν p
      · rfl
    by_cases hs : s.val < n
    · have hHs : H s q = ((Hr s : ℝ) : EReal) := by
        have h1 := hH ⟨s.val, hs⟩ q
        have h2 : Hr s = η ⟨s.val, hs⟩ q := dif_pos hs
        rw [h2, ← hη]
        exact h1
      rw [hA, hHs, EReal.coe_mul]
    · have hz : (∑ p : Fin e, if kd p = (d.val : Int) ∧ ks p = (s.val : Int) then ν p else 0 : ℝ) = 0 := by
        refine Finset.sum_eq_zero fun p _ => ?_
        rw [if_neg]
        rintro ⟨_, h2⟩
        rw [hks p] at h2
        have := (sel p).isLt
        omega
      rw [hA, hz, zero_mul, EReal.coe_zero, zero_mul]
  rw [Finset.sum_congr rfl fun s _ => hterm s, ← coe_sum,
    real_exchange hnp sel kd ks ν hks Hr (d.val : Int), zero_add, coe_sum]
  refine Finset.sum_congr rfl fun p _ => ?_
  rw [hkd p]
  split_ifs with h
  · have h2 : Hr ⟨(sel p).val, lt_of_lt_of_le (sel p).isLt hnp⟩ = η (sel p) q := dif_pos (sel p).isLt
    rw [h2, EReal.coe_mul, ← hη, ← hν]
  · rfl

/-! ## One layer -/

theorem layer_bridge {k c : Nat} (sel : Fin 330000 → Fin 10000) (dstZ kd ks : Fin 330000 → Int)
    (nrm : Fin 330000 → EReal)
    (hks : ∀ p, ks p = ((sel p).val : Int)) (hkd : ∀ p, kd p = dstZ p)
    (hd : ∀ p, 0 ≤ dstZ p ∧ dstZ p < 10000) (hn : ∀ p, IsReal (nrm p))
    (hK : Fin 10240 → Fin k → EReal) (hR : Fin 10000 → Fin k → EReal)
    (hagree : ∀ (r : Fin 10000) j, hK ⟨r.val, by omega⟩ j = hR r j)
    (hRreal : ∀ r j, IsReal (hR r j)) (W : Fin k → Fin c → EReal) (hW : ∀ j q, IsReal (W j q))
    (b : Fin c → EReal) (hb : ∀ q, IsReal (b q)) :
    (∀ (r : Fin 10000) q, kerAgg 10000 (adj 10240 kd ks nrm) (mm hK W) b ⟨r.val, by omega⟩ q
        = refLayer sel dstZ nrm hR W b r q)
    ∧ (∀ (r : Fin 10240) q, 10000 ≤ r.val → kerAgg 10000 (adj 10240 kd ks nrm) (mm hK W) b r q = 0)
    ∧ (∀ r q, IsReal (refLayer sel dstZ nrm hR W b r q)) := by
  have _ := hd
  have hH' : ∀ r q, IsReal (mm hR W r q) := isReal_mm hR W hRreal hW
  refine ⟨?_, ?_, ?_⟩
  · intro r q
    have hH : ∀ (r : Fin 10000) q,
        mm hK W ⟨r.val, lt_of_lt_of_le r.isLt (by omega : 10000 ≤ 10240)⟩ q = mm hR W r q := by
      intro r q
      unfold mm
      exact Finset.sum_congr rfl fun j _ => by rw [hagree r j]
    have hlt : (⟨r.val, by omega⟩ : Fin 10240).val < 10000 := r.isLt
    unfold kerAgg refLayer biasRelu refAgg
    rw [if_pos hlt, blockSum_eq,
      agg_exchange (by omega : 10000 ≤ 10240) sel dstZ kd ks nrm hks hkd hn (mm hK W) (mm hR W) hH hH']
  · intro r q hr
    unfold kerAgg
    rw [if_neg (by omega)]
  · intro r q
    unfold refLayer biasRelu refAgg
    exact isReal_max_zero (isReal_add (isReal_add isReal_zero
      (isReal_sum _ _ fun p _ => isReal_ite (isReal_mul (hH' (sel p) q) (hn p)) isReal_zero)) (hb q))

end Cert.Spec

end
-- ==== Proof.MathPool.lean ====
/-
  The mean pool.

  The kernel multiplies the pooling matrix (indicator of "node j belongs to graph γ" divided by the indicator's row
  sum taken as at least 1) with the padded features; the reference sums the rows of each graph and divides by the
  graph's size taken as at least 1. The padded nodes belong to no graph, so both row sums are the same count, a real
  number ≥ 0; the divisor is a real ≥ 1, the quotient is the product with its real inverse, and with real features
  both sides are the same computation in the reals: ∑ j (o j / D) * h j = (∑ j o j * h j) / D.
-/
import proofs.«410187_j66958540144771_3_alg».proof.Proof.Spec
import Mathlib.Data.EReal.Basic
import Mathlib.Data.EReal.Operations
import Mathlib.Data.EReal.Inv
import Mathlib.Algebra.BigOperators.Fin
import Mathlib.Algebra.BigOperators.Ring.Finset
import Mathlib.Algebra.Order.BigOperators.Group.Finset
import Mathlib.Tactic.Ring

noncomputable section

open scoped BigOperators

namespace Cert.Spec

open Idealize.ShloMosaic

/-- The coercion of the reals into the extended reals commutes with finite sums. -/
theorem pool_coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `Fin np` whose terms vanish from `n` on is the sum over the first `n` indices. -/
theorem pool_sum_pad {n np : Nat} (h : n ≤ np) (f : Fin np → EReal) (hz : ∀ j : Fin np, n ≤ j.val → f j = 0) :
    ∑ j : Fin np, f j = ∑ j : Fin n, f (Fin.castLE h j) := by
  have hmap : ∑ j : Fin n, f (Fin.castLE h j) = ∑ j ∈ Finset.univ.map (Fin.castLEEmb h), f j := by
    rw [Finset.sum_map]; rfl
  rw [hmap]
  symm
  apply Finset.sum_subset (Finset.subset_univ _)
  intro j _ hj
  apply hz
  by_contra hlt
  have hlt := not_le.mp hlt
  exact hj (Finset.mem_map.mpr ⟨⟨j.val, hlt⟩, Finset.mem_univ _, Fin.ext rfl⟩)

/-- The indicator at a node's row. -/
theorem pool_onehot_lt {n np g : Nat} (bt : Fin n → Int) (γ : Fin g) (j : Fin np) (h : j.val < n) :
    onehot np g bt γ j = if bt ⟨j.val, h⟩ = (γ.val : Int) then 1 else 0 := by
  unfold onehot
  rw [dif_pos h]

/-- The indicator at a padded row: the padded node's graph number is -1, never a graph. -/
theorem pool_onehot_ge {n np g : Nat} (bt : Fin n → Int) (γ : Fin g) (j : Fin np) (h : n ≤ j.val) :
    onehot np g bt γ j = 0 := by
  unfold onehot
  rw [dif_neg (by omega), if_neg]
  omega

/-- The number of nodes of graph γ, as a real number. -/
def poolCount {n g : Nat} (bt : Fin n → Int) (γ : Fin g) : ℝ :=
  ∑ j : Fin n, if bt j = (γ.val : Int) then (1 : ℝ) else 0

theorem poolCount_nonneg {n g : Nat} (bt : Fin n → Int) (γ : Fin g) : 0 ≤ poolCount bt γ := by
  unfold poolCount
  apply Finset.sum_nonneg
  intro j _
  split_ifs <;> norm_num

/-- The divisor, the count taken as at least 1, is a real number ≥ 1, so nonzero. -/
theorem poolDivisor_pos {n g : Nat} (bt : Fin n → Int) (γ : Fin g) : 0 < max (poolCount bt γ) 1 :=
  lt_of_lt_of_le one_pos (le_max_right _ _)

theorem poolDivisor_ne_zero {n g : Nat} (bt : Fin n → Int) (γ : Fin g) : max (poolCount bt γ) 1 ≠ 0 :=
  ne_of_gt (poolDivisor_pos bt γ)

/-- The reference's count is that real number. -/
theorem pool_refCnt_eq_coe {n g : Nat} (bt : Fin n → Int) (γ : Fin g) :
    refCnt (g := g) bt γ = ((poolCount bt γ : ℝ) : EReal) := by
  unfold refCnt poolCount
  rw [zero_add, pool_coe_sum]
  apply Finset.sum_congr rfl
  intro j _
  split_ifs <;> simp

/-- The row sum of the kernel's indicator matrix is the same real number. -/
theorem pool_onehot_rowsum_eq_coe {n np g : Nat} (h : n ≤ np) (bt : Fin n → Int) (γ : Fin g) :
    0 + ∑ i : Fin np, onehot np g bt γ i = ((poolCount bt γ : ℝ) : EReal) := by
  rw [pool_sum_pad h _ (fun j hj => pool_onehot_ge bt γ j hj), ← pool_refCnt_eq_coe]
  unfold refCnt
  congr 1
  apply Finset.sum_congr rfl
  intro j _
  rw [pool_onehot_lt bt γ (Fin.castLE h j) j.isLt]
  rfl

/-- The coercion commutes with the maximum with 1. -/
theorem pool_coe_max_one (x : ℝ) : max (x : EReal) 1 = ((max x 1 : ℝ) : EReal) := by
  rw [← EReal.coe_one]
  exact (EReal.coe_strictMono.monotone.map_max).symm

/-- The indicator at a node's row, as the coercion of a real. -/
theorem pool_onehot_castLE {n np g : Nat} (h : n ≤ np) (bt : Fin n → Int) (γ : Fin g) (j : Fin n) :
    onehot np g bt γ (Fin.castLE h j) = (((if bt j = (γ.val : Int) then (1 : ℝ) else 0) : ℝ) : EReal) := by
  rw [pool_onehot_lt bt γ (Fin.castLE h j) j.isLt]
  show (if bt j = (γ.val : Int) then (1 : EReal) else 0) = _
  split_ifs <;> simp

/-- The two divisors, as the coercion of a nonzero real. -/
theorem pool_refDivisor_eq_coe {n g : Nat} (bt : Fin n → Int) (γ : Fin g) :
    max (refCnt (g := g) bt γ) 1 = ((max (poolCount bt γ) 1 : ℝ) : EReal) := by
  rw [pool_refCnt_eq_coe, pool_coe_max_one]

theorem pool_kerDivisor_eq_coe {n np g : Nat} (h : n ≤ np) (bt : Fin n → Int) (γ : Fin g) :
    max (0 + ∑ i : Fin np, onehot np g bt γ i) 1 = ((max (poolCount bt γ) 1 : ℝ) : EReal) := by
  rw [pool_onehot_rowsum_eq_coe h, pool_coe_max_one]

/-- The quotient by a nonzero real is the product with the real inverse. -/
theorem pool_div_coe (x : EReal) {y : ℝ} (hy : y ≠ 0) : Ideal.div x (y : EReal) = x * ((y⁻¹ : ℝ) : EReal) := by
  unfold Ideal.div
  rw [if_neg (EReal.coe_ne_zero.mpr hy), EReal.coe_inv]

/-- The mean pool, in general dimensions. -/
theorem pool_bridge_gen {n np g c : Nat} (hle : n ≤ np) (bt : Fin n → Int) (hK : Fin np → Fin c → EReal)
    (hR : Fin n → Fin c → EReal) (hagree : ∀ (r : Fin n) q, hK (Fin.castLE hle r) q = hR r q)
    (hreal : ∀ r q, IsReal (hR r q)) (γ : Fin g) (q : Fin c) :
    mm (poolMat np g bt) hK γ q = refPool (g := g) bt hR γ q := by
  choose ρ hρ using hreal
  have hD := poolDivisor_ne_zero bt γ
  unfold mm refPool poolMat refSums
  rw [pool_refDivisor_eq_coe, pool_kerDivisor_eq_coe hle, pool_div_coe _ hD, zero_add]
  rw [pool_sum_pad hle _ (fun j hj => by
    rw [pool_onehot_ge bt γ j hj, pool_div_coe _ hD, zero_mul, zero_mul])]
  have hL : ∀ j : Fin n,
      Ideal.div (onehot np g bt γ (Fin.castLE hle j)) ((max (poolCount bt γ) 1 : ℝ) : EReal) * hK (Fin.castLE hle j) q
        = (((if bt j = (γ.val : Int) then (1 : ℝ) else 0) * (max (poolCount bt γ) 1)⁻¹ * ρ j q : ℝ) : EReal) := by
    intro j
    rw [pool_div_coe _ hD, pool_onehot_castLE hle bt γ j, hagree, hρ, EReal.coe_mul, EReal.coe_mul]
  have hS : ∀ j : Fin n,
      (if bt j = (γ.val : Int) then hR j q else 0) = (((if bt j = (γ.val : Int) then ρ j q else 0) : ℝ) : EReal) := by
    intro j
    rw [hρ]
    split_ifs <;> simp
  rw [Finset.sum_congr rfl (fun j _ => hL j), Finset.sum_congr rfl (fun j _ => hS j), ← pool_coe_sum, ← pool_coe_sum,
    ← EReal.coe_mul]
  congr 1
  rw [Finset.sum_mul]
  apply Finset.sum_congr rfl
  intro j _
  split_ifs <;> ring

/-- The mean pool of the kernel (the pooling matrix times the padded features) is the reference's. -/
theorem pool_bridge {c : Nat} (bt : Fin 10000 → Int) (hK : Fin 10240 → Fin c → EReal) (hR : Fin 10000 → Fin c → EReal)
    (hagree : ∀ (r : Fin 10000) q, hK ⟨r.val, by omega⟩ q = hR r q)
    (hzero : ∀ (r : Fin 10240) q, 10000 ≤ r.val → hK r q = 0)
    (hreal : ∀ r q, IsReal (hR r q)) (γ : Fin 256) (q : Fin c) :
    mm (poolMat 10240 256 bt) hK γ q = refPool (g := 256) bt hR γ q :=
  pool_bridge_gen (by norm_num) bt hK hR hagree hreal γ q

end Cert.Spec

end
-- ==== Proof.MathBridge.lean ====
/-
  The two results agree: the first layer (the zero-padded features against the features), the second layer (the
  first layer's two results against each other), the pooled block, and the zero padding of the last stage.
-/
import proofs.«410187_j66958540144771_3_alg».proof.Proof.Spec
import proofs.«410187_j66958540144771_3_alg».proof.Proof.MathHead
import proofs.«410187_j66958540144771_3_alg».proof.Proof.MathAgg
import proofs.«410187_j66958540144771_3_alg».proof.Proof.MathPool

noncomputable section

open scoped BigOperators

namespace Cert.Spec

/-- The assembly, from one layer's agreement and the pooling's agreement. -/
theorem bridge_of
    (hL : ∀ (k c : Nat) (sel : Fin 330000 → Fin 10000) (dstZ kd ks : Fin 330000 → Int) (nrm : Fin 330000 → EReal)
      (_ : ∀ p, ks p = ((sel p).val : Int)) (_ : ∀ p, kd p = dstZ p) (_ : ∀ p, 0 ≤ dstZ p ∧ dstZ p < 10000)
      (_ : ∀ p, IsReal (nrm p))
      (hK : Fin 10240 → Fin k → EReal) (hR : Fin 10000 → Fin k → EReal)
      (_ : ∀ (r : Fin 10000) j, hK ⟨r.val, by omega⟩ j = hR r j)
      (_ : ∀ r j, IsReal (hR r j)) (W : Fin k → Fin c → EReal) (_ : ∀ j q, IsReal (W j q)) (b : Fin c → EReal)
      (_ : ∀ q, IsReal (b q)),
      (∀ (r : Fin 10000) q,
          kerAgg 10000 (adj 10240 kd ks nrm) (mm hK W) b ⟨r.val, by omega⟩ q = refLayer sel dstZ nrm hR W b r q)
      ∧ (∀ (r : Fin 10240) q, 10000 ≤ r.val → kerAgg 10000 (adj 10240 kd ks nrm) (mm hK W) b r q = 0)
      ∧ (∀ r q, IsReal (refLayer sel dstZ nrm hR W b r q)))
    (hP : ∀ (c : Nat) (bt : Fin 10000 → Int) (hK : Fin 10240 → Fin c → EReal) (hR : Fin 10000 → Fin c → EReal)
      (_ : ∀ (r : Fin 10000) q, hK ⟨r.val, by omega⟩ q = hR r q)
      (_ : ∀ (r : Fin 10240) q, 10000 ≤ r.val → hK r q = 0)
      (_ : ∀ r q, IsReal (hR r q)) (γ : Fin 256) (q : Fin c),
      mm (poolMat 10240 256 bt) hK γ q = refPool (g := 256) bt hR γ q) :
    BridgeStatement := by
  intro sel dstZ kd ks nrm bt x fp W1 b1 W2 b2 Wm1 bm1 Wm2 bm2 hks hkd hd hn hx hW1 hb1 hW2 hb2
  -- the first layer: the padded features against the features
  have hag1 : ∀ (r : Fin 10000) (j : Fin 128), padRows 10240 x 0 ⟨r.val, by omega⟩ j = x r j := by
    intro r j
    simp only [padRows]
    rw [dif_pos r.isLt]
  obtain ⟨L1a, _, L1r⟩ :=
    hL 128 256 sel dstZ kd ks nrm hks hkd hd hn (padRows 10240 x 0) x hag1 hx W1 hW1 b1 hb1
  -- the second layer: the first layer's two results against each other
  obtain ⟨L2a, L2z, L2r⟩ :=
    hL 256 256 sel dstZ kd ks nrm hks hkd hd hn
      (kerAgg 10000 (adj 10240 kd ks nrm) (mm (padRows 10240 x 0) W1) b1)
      (refLayer sel dstZ nrm x W1 b1) L1a L1r W2 hW2 b2 hb2
  -- the pooled block
  have hPool :
      mm (poolMat 10240 256 bt)
          (kerAgg 10000 (adj 10240 kd ks nrm)
            (mm (kerAgg 10000 (adj 10240 kd ks nrm) (mm (padRows 10240 x 0) W1) b1) W2) b2)
        = refPool (g := 256) bt (refLayer sel dstZ nrm (refLayer sel dstZ nrm x W1 b1) W2 b2) := by
    funext γ q
    exact hP 256 bt _ _ L2a L2z L2r γ q
  -- the last stage
  show head (padCols 5376 (hcat (mm (poolMat 10240 256 bt)
          (kerAgg 10000 (adj 10240 kd ks nrm)
            (mm (kerAgg 10000 (adj 10240 kd ks nrm) (mm (padRows 10240 x 0) W1) b1) W2) b2)) fp))
        (padRows 5376 Wm1 0) bm1 Wm2 bm2
      = head (hcat (refPool (g := 256) bt (refLayer sel dstZ nrm (refLayer sel dstZ nrm x W1 b1) W2 b2)) fp)
          Wm1 bm1 Wm2 bm2
  rw [head_pad, hcat_congr fp hPool]

/-- THE BRIDGE. -/
theorem bridge : BridgeStatement :=
  bridge_of
    (fun _ _ sel dstZ kd ks nrm hks hkd hd hn hK hR hagree hRreal W hW b hb =>
      layer_bridge sel dstZ kd ks nrm hks hkd hd hn hK hR hagree hRreal W hW b hb)
    (fun _ bt hK hR hagree hzero hreal γ q => pool_bridge bt hK hR hagree hzero hreal γ q)

end Cert.Spec

end
-- ==== Proof.PreFacts.lean ====
/-
  What the precondition gives: every entry of the ten float inputs is a real number, and every word of the edge list is a
  node number, 0 ≤ w < 10000 as a signed word.

  The precondition is a conjunction of eleven "all entries satisfy p": ten of the form |x| < +∞ (an extended real whose
  absolute value, max x (−x), lies below +∞ is neither of the two infinities, so it is a real), and one of the form
  0 ≤ w ∧ w < 10000 on signed words.
-/
import proofs.«410187_j66958540144771_3_alg».proof.Pre_finite_inputs
import proofs.«410187_j66958540144771_3_alg».proof.Proof.Spec
import Idealize.ShloMosaic.Lib.ReduceAll
import Idealize.ShloMosaic.Lib.IdealHost
import Idealize.ShloMosaic.Lib.ValueIdx
import Idealize.ShloMosaic.PureOps.Ideal

noncomputable section

namespace Cert.PreFacts

open Idealize.ShloMosaic Idealize.ShloMosaic.ValueIdx
open Cert.Pre_finite_inputs

/-- The rank-0 shape has one index. -/
instance subsingleton_S_ : Subsingleton S_.Idx := ⟨fun a b => funext fun d => d.elim0⟩

/-- The pattern 0x7F800000 reads +∞. -/
theorem ofBits_inf : Ideal.ofBits .f32 0x7F800000#32 = (⊤ : EReal) := by
  simp [Ideal.ofBits, Ideal.ieee]

/-- An extended real whose absolute value lies below +∞ is a real number. -/
theorem isReal_of_abs_lt_top (x : EReal) (h : max x (-x) < (⊤ : EReal)) : Spec.IsReal x := by
  induction x using EReal.rec with
  | bot => simp at h
  | coe r => exact ⟨r, rfl⟩
  | top => simp at h

theorem ofBool_eq_one (b : Bool) : BitVec.ofBool b = 1#1 ↔ b = true := by cases b <;> decide

/-- One entry: the comparison |x| < +∞ answering 1 makes x a real number. -/
theorem isReal_of_cmp (x : Ideal .f32)
    (h : FloatOps.cmpf (F := Ideal) .olt (FloatOps.hostAbsf x) (FloatOps.ofBits .f32 0x7F800000#32) = 1#1) : Spec.IsReal x := by
  have h' : BitVec.ofBool (decide ((max x (-x) : EReal) < Ideal.ofBits .f32 0x7F800000#32)) = 1#1 := h
  rw [ofBits_inf, ofBool_eq_one, decide_eq_true_eq] at h'
  exact isReal_of_abs_lt_top x h'

/-- One array: "all entries have |x| < +∞" answering 1 makes every entry a real number. -/
theorem isReal_of_all {s : Shape} {axes : List (Fin s.rank)} (hb : S_.BroadcastsInDim s (![] : Fin 0 → Fin s.rank))
    (hr : s.ReducesTo axes S_) (hu : 0 < S_.numel) (x : FVec Ideal s .f32) (init : IVec S_ 1) (j : S_.Idx)
    (h : Host.reduce IntOp.andi
          (cmpf .olt (Host.absf x) (broadcastInDim s ![] hb (constant (F := Ideal) S_ .f32 0x7F800000#32))) init hr hu j = 1#1)
    (i : s.Idx) : Spec.IsReal (x i) := by
  have e := Host.reduce_andi_all _ init hr hu j h i
  exact isReal_of_cmp (x i) e

/-- One word: the two signed comparisons 0 ≤ w and w < 10000 answering 1. -/
theorem range_of_cmp (w : BitVec 32) (h : IntOp.andi (IntOp.cmpi .sge w 0#32) (IntOp.cmpi .slt w 10000#32) = 1#1) :
    0 ≤ w.toInt ∧ w.toInt < 10000 := by
  obtain ⟨h0, h1⟩ := IntOp.andi_eq_one.1 h
  rw [IntOp.cmpi_sge] at h0
  rw [IntOp.cmpi_slt] at h1
  exact ⟨h0, h1⟩

variable [Facts]
open Facts

/-- THE PRECONDITION READ BACK: every float input is real at every index, every edge word lies in [0, 10000). -/
theorem pre_facts (a0 : FVec Ideal S10000x128 .f32) (a1 : IVec S2x320000 32) (a2 : IVec S10000 32)
    (a3 : FVec Ideal S256x5000 .f32) (a4 : FVec Ideal S128x256 .f32) (a5 : FVec Ideal S256 .f32)
    (a6 : FVec Ideal S256x256 .f32) (a7 : FVec Ideal S256 .f32) (a8 : FVec Ideal S5256x256 .f32)
    (a9 : FVec Ideal S256 .f32) (a10 : FVec Ideal S256x138 .f32) (a11 : FVec Ideal S138 .f32)
    (h : fn (F := Ideal) a0 a1 a2 a3 a4 a5 a6 a7 a8 a9 a10 a11 = fun _ => 1#1) :
    (∀ i, Spec.IsReal (a0 i)) ∧ (∀ i, Spec.IsReal (a3 i)) ∧ (∀ i, Spec.IsReal (a4 i)) ∧ (∀ i, Spec.IsReal (a5 i)) ∧
    (∀ i, Spec.IsReal (a6 i)) ∧ (∀ i, Spec.IsReal (a7 i)) ∧ (∀ i, Spec.IsReal (a8 i)) ∧ (∀ i, Spec.IsReal (a9 i)) ∧
    (∀ i, Spec.IsReal (a10 i)) ∧ (∀ i, Spec.IsReal (a11 i)) ∧
    (∀ (r : Fin 2) (p : Fin 320000), 0 ≤ (a1 (ix2 r p)).toInt ∧ (a1 (ix2 r p)).toInt < 10000) := by
  have e := congrFun h ix0
  dsimp only [fn, fn_part1, fn_part2, fn_part3] at e
  obtain ⟨e, h54⟩ := IntOp.andi_eq_one.1 e
  obtain ⟨e, h47⟩ := IntOp.andi_eq_one.1 e
  obtain ⟨e, h42⟩ := IntOp.andi_eq_one.1 e
  obtain ⟨e, h37⟩ := IntOp.andi_eq_one.1 e
  obtain ⟨e, h32⟩ := IntOp.andi_eq_one.1 e
  obtain ⟨e, h27⟩ := IntOp.andi_eq_one.1 e
  obtain ⟨e, h22⟩ := IntOp.andi_eq_one.1 e
  obtain ⟨e, h17⟩ := IntOp.andi_eq_one.1 e
  obtain ⟨e, h12⟩ := IntOp.andi_eq_one.1 e
  obtain ⟨h3, h7⟩ := IntOp.andi_eq_one.1 e
  refine ⟨isReal_of_all _ _ _ a0 _ _ h3, isReal_of_all _ _ _ a3 _ _ h7, isReal_of_all _ _ _ a4 _ _ h12,
    isReal_of_all _ _ _ a5 _ _ h17, isReal_of_all _ _ _ a6 _ _ h22, isReal_of_all _ _ _ a7 _ _ h27,
    isReal_of_all _ _ _ a8 _ _ h32, isReal_of_all _ _ _ a9 _ _ h37, isReal_of_all _ _ _ a10 _ _ h42,
    isReal_of_all _ _ _ a11 _ _ h47, fun r p => ?_⟩
  have e1 := Host.reduce_andi_all _ _ _ _ _ h54 (ix2 r p)
  exact range_of_cmp _ e1

end Cert.PreFacts

end
-- ==== Proof.EdgeFacts.lean ====
/-
  What "every word of the edge list is a node number" gives for the quantities read off the edge list.

  Every end point of every one of the 330000 edges is a word w with 0 ≤ w < 10000 as a signed number: a given word by
  hypothesis, a self-loop's word because it is the node number p − 320000 < 10000 written as a word. Such a word is not
  negative, so wrapping by any extent leaves it; it is at most 9999, so the clamp leaves it. Hence the row a gather
  reads, the signed destination and the two coordinates of the dense scatter all name the word's own number.

  The edge weights are real numbers whatever the edge list holds: a degree is 0 plus a finite sum of zeros and ones, a
  real ≥ 0; its maximum with 1 is a real ≥ 1; the inverse square root of a positive real is a real; a product of two
  reals is a real.
-/
import proofs.«410187_j66958540144771_3_alg».proof.Proof.Spec
import proofs.«410187_j66958540144771_3_alg».proof.Proof.Inputs
import Idealize.ShloMosaic.Lib.StableHlo.Predicate
import Idealize.ShloMosaic.PureOps.Ideal

noncomputable section

open scoped BigOperators

namespace Cert.EdgeFacts

open Idealize.ShloMosaic Idealize.ShloMosaic.ValueIdx
open Cert.Inputs

variable (ei : (⟨2, ![2, 320000]⟩ : Shape).Idx → BitVec 32)

/-- The hypothesis on the edge list: every given word is a node number. -/
def InRange : Prop := ∀ (r : Fin 2) (p : Fin 320000), 0 ≤ (ei (ix2 r p)).toInt ∧ (ei (ix2 r p)).toInt < 10000

/-- Every end point of every edge, the self-loops included, is a node number. -/
theorem endpoint_range (H : InRange ei) (r : Fin 2) (p : Fin 330000) :
    0 ≤ (endpoint ei r p).toInt ∧ (endpoint ei r p).toInt < 10000 := by
  unfold endpoint
  split
  · exact H r _
  · rename_i hp
    have hlt := p.isLt
    rw [StableHlo.Predicate.toInt_ofNat_small _ (by omega)]
    omega

/-- A word that is not negative is left by the wrap. -/
theorem wrapW_of_nonneg (n w : BitVec 32) (h : 0 ≤ w.toInt) : wrapW n w = w := by
  unfold wrapW
  rw [if_neg (by omega)]

/-- The row a gather reads for a node number is that number. -/
theorem gatherRow_val (w : BitVec 32) (h0 : 0 ≤ w.toInt) (h1 : w.toInt < 10000) : ((gatherRow w).val : Int) = w.toInt := by
  show ((min (wrapW 10000#32 w).toInt.toNat 9999 : Nat) : Int) = w.toInt
  rw [wrapW_of_nonneg _ _ h0]
  omega

theorem ks_eq_sel (H : InRange ei) (p : Fin 330000) : ks ei p = ((sel ei p).val : Int) := by
  obtain ⟨h0, h1⟩ := endpoint_range ei H 0 p
  unfold ks sel
  rw [gatherRow_val _ h0 h1, wrapW_of_nonneg _ _ h0]

theorem kd_eq_dstZ (H : InRange ei) (p : Fin 330000) : kd ei p = dstZ ei p := by
  obtain ⟨h0, h1⟩ := endpoint_range ei H 1 p
  unfold kd dstZ
  rw [wrapW_of_nonneg _ _ h0]

theorem dstZ_range (H : InRange ei) (p : Fin 330000) : 0 ≤ dstZ ei p ∧ dstZ ei p < 10000 :=
  endpoint_range ei H 1 p

/-! ## The edge weights are real numbers -/

/-- A finite sum of zeros and ones is a real number ≥ 0. -/
theorem sum_indicator_real {ι : Type} (s : Finset ι) (c : ι → Prop) [DecidablePred c] :
    ∃ x : ℝ, 0 ≤ x ∧ (∑ p ∈ s, if c p then (1 : EReal) else 0) = (x : EReal) := by
  classical
  refine Finset.induction_on s ⟨0, le_rfl, by simp⟩ ?_
  intro a s ha ih
  obtain ⟨x, hx, e⟩ := ih
  rw [Finset.sum_insert ha, e]
  by_cases hc : c a
  · refine ⟨1 + x, by linarith, ?_⟩
    rw [if_pos hc, EReal.coe_add, EReal.coe_one]
  · exact ⟨x, hx, by rw [if_neg hc, zero_add]⟩

/-- The maximum of a real and 1 is a real ≥ 1. -/
theorem max_one_real (x : ℝ) : ∃ y : ℝ, 1 ≤ y ∧ max (x : EReal) 1 = (y : EReal) := by
  rcases le_total x 1 with h | h
  · exact ⟨1, le_rfl, by rw [max_eq_right (by exact_mod_cast h)]; rfl⟩
  · exact ⟨x, h, max_eq_left (by exact_mod_cast h)⟩

theorem dinv_real (r : Fin 10000) : Spec.IsReal (dinv ei r) := by
  unfold dinv deg
  obtain ⟨x, hx, e⟩ := sum_indicator_real (Finset.univ : Finset (Fin 330000)) (fun p => dstZ ei p = (r.val : Int))
  rw [e, zero_add]
  obtain ⟨y, hy, e'⟩ := max_one_real x
  rw [e', Ideal.rsqrt_coe, if_neg (by linarith), if_neg (by linarith)]
  exact ⟨_, rfl⟩

theorem nrm_real (p : Fin 330000) : Spec.IsReal (nrm ei p) := by
  unfold nrm
  obtain ⟨a, ha⟩ := dinv_real ei (sel ei p)
  obtain ⟨b, hb⟩ := dinv_real ei (selD ei p)
  rw [ha, hb]
  exact ⟨a * b, (EReal.coe_mul a b).symm⟩

end Cert.EdgeFacts

end
-- ==== Proof.Algebraic.lean ====
/-
  The two conjuncts of the claim that need the values: the reference runs and leaves its arguments unchanged, and the
  two programs, run at the extended reals from memories that agree on the arguments, end with equal results.

  The kernel's run ends with every unscoped buffer at the last state of the chain; its result there is Spec.kerOut of
  the arguments read as plain functions. The reference's run ends with its result at Spec.refOut of the same readings.
  The precondition makes every float argument real and every word of the edge list a node number, which is what the
  bridge between the two needs.
-/
import proofs.«410187_j66958540144771_3_alg».proof.Defs
import proofs.«410187_j66958540144771_3_alg».proof.Proof.Gen.KernelIdeal
import proofs.«410187_j66958540144771_3_alg».proof.Proof.Gen.ReferenceIdeal
import proofs.«410187_j66958540144771_3_alg».proof.Proof.Gen.Pre_finite_inputs
import proofs.«410187_j66958540144771_3_alg».proof.Proof.Gen.ReferenceIdeal.Run
import proofs.«410187_j66958540144771_3_alg».proof.Proof.KI.RunA
import proofs.«410187_j66958540144771_3_alg».proof.Proof.KI.Run
import proofs.«410187_j66958540144771_3_alg».proof.Proof.RefValue
import proofs.«410187_j66958540144771_3_alg».proof.Proof.KV.Assemble
import proofs.«410187_j66958540144771_3_alg».proof.Proof.Inputs
import proofs.«410187_j66958540144771_3_alg».proof.Proof.MathBridge
import proofs.«410187_j66958540144771_3_alg».proof.Proof.PreFacts
import proofs.«410187_j66958540144771_3_alg».proof.Proof.EdgeFacts

set_option maxRecDepth 16384

noncomputable section

/-! ## The claims -/

namespace Cert.Proof.Parts

open Idealize.ShloMosaic Idealize.ShloMosaic.TcCoe Idealize.ShloMosaic.ValueIdx Idealize.SL.Sem

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Gen.W18 (F := Ideal) m ρ c (Proc.devRef .tc Cert.KernelIdeal.main_v73), ?_, ?_⟩
  · refine (θ_run Cert.KernelIdeal.defs _ _).mono (fun r h c => ?_) (Cert.KernelIdeal.Gen.run_all (F := Ideal) m ρ)
    exact ⟨h c _ (Cert.KernelIdeal.Gen.mem_uc Cert.KernelIdeal.main_v73 (by decide)),
      (h c _ (Cert.KernelIdeal.Gen.mem_uc Cert.KernelIdeal.main_arg0 (by decide))).trans (Cert.KernelIdeal.Gen.W18_main_arg0 m ρ c),
      (h c _ (Cert.KernelIdeal.Gen.mem_uc Cert.KernelIdeal.main_arg1 (by decide))).trans (Cert.KernelIdeal.Gen.W18_main_arg1 m ρ c),
      (h c _ (Cert.KernelIdeal.Gen.mem_uc Cert.KernelIdeal.main_arg2 (by decide))).trans (Cert.KernelIdeal.Gen.W18_main_arg2 m ρ c),
      (h c _ (Cert.KernelIdeal.Gen.mem_uc Cert.KernelIdeal.main_arg3 (by decide))).trans (Cert.KernelIdeal.Gen.W18_main_arg3 m ρ c),
      (h c _ (Cert.KernelIdeal.Gen.mem_uc Cert.KernelIdeal.main_arg4 (by decide))).trans (Cert.KernelIdeal.Gen.W18_main_arg4 m ρ c),
      (h c _ (Cert.KernelIdeal.Gen.mem_uc Cert.KernelIdeal.main_arg5 (by decide))).trans (Cert.KernelIdeal.Gen.W18_main_arg5 m ρ c),
      (h c _ (Cert.KernelIdeal.Gen.mem_uc Cert.KernelIdeal.main_arg6 (by decide))).trans (Cert.KernelIdeal.Gen.W18_main_arg6 m ρ c),
      (h c _ (Cert.KernelIdeal.Gen.mem_uc Cert.KernelIdeal.main_arg7 (by decide))).trans (Cert.KernelIdeal.Gen.W18_main_arg7 m ρ c),
      (h c _ (Cert.KernelIdeal.Gen.mem_uc Cert.KernelIdeal.main_arg8 (by decide))).trans (Cert.KernelIdeal.Gen.W18_main_arg8 m ρ c),
      (h c _ (Cert.KernelIdeal.Gen.mem_uc Cert.KernelIdeal.main_arg9 (by decide))).trans (Cert.KernelIdeal.Gen.W18_main_arg9 m ρ c),
      (h c _ (Cert.KernelIdeal.Gen.mem_uc Cert.KernelIdeal.main_arg10 (by decide))).trans (Cert.KernelIdeal.Gen.W18_main_arg10 m ρ c),
      (h c _ (Cert.KernelIdeal.Gen.mem_uc Cert.KernelIdeal.main_arg11 (by decide))).trans (Cert.KernelIdeal.Gen.W18_main_arg11 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    obtain ⟨r0, r3, r4, r5, r6, r7, r8, r9, r10, r11, hR⟩ := Cert.PreFacts.pre_facts _ _ _ _ _ _ _ _ _ _ _ _ (hpre c)
    show (Cert.ReferenceIdeal.Value.res_out0 (F := Ideal) m' c : Cert.ReferenceIdeal.S256x138.Idx → EReal) = _
    funext i
    obtain ⟨γ, ω, rfl⟩ : ∃ (γ : Fin 256) (ω : Fin 138), i = ix2 γ ω := ⟨i 0, i 1, eq_ix2 i⟩
    refine (Cert.ReferenceIdeal.RefValue.ref_value m' c γ ω).trans ?_
    refine Eq.trans ?_ (Cert.KernelIdeal.KerValue.ker_value m ρ c γ ω).symm
    rw [e0, e1, e2, e3, e4, e5, e6, e7, e8, e9, e10, e11]
    exact (congrFun (congrFun (Cert.Spec.bridge
      (Inputs.sel (m ((c : Thread Cert.KernelIdeal.nD Cert.KernelIdeal.τ).loc Cert.KernelIdeal.main_arg1))) (Inputs.dstZ (m ((c : Thread Cert.KernelIdeal.nD Cert.KernelIdeal.τ).loc Cert.KernelIdeal.main_arg1))) (Inputs.kd (m ((c : Thread Cert.KernelIdeal.nD Cert.KernelIdeal.τ).loc Cert.KernelIdeal.main_arg1))) (Inputs.ks (m ((c : Thread Cert.KernelIdeal.nD Cert.KernelIdeal.τ).loc Cert.KernelIdeal.main_arg1)))
      (Inputs.nrm (m ((c : Thread Cert.KernelIdeal.nD Cert.KernelIdeal.τ).loc Cert.KernelIdeal.main_arg1))) (Inputs.bt (m ((c : Thread Cert.KernelIdeal.nD Cert.KernelIdeal.τ).loc Cert.KernelIdeal.main_arg2))) (Inputs.mat (m ((c : Thread Cert.KernelIdeal.nD Cert.KernelIdeal.τ).loc Cert.KernelIdeal.main_arg0))) (Inputs.mat (m ((c : Thread Cert.KernelIdeal.nD Cert.KernelIdeal.τ).loc Cert.KernelIdeal.main_arg3)))
      (Inputs.mat (m ((c : Thread Cert.KernelIdeal.nD Cert.KernelIdeal.τ).loc Cert.KernelIdeal.main_arg4))) (Inputs.vec (m ((c : Thread Cert.KernelIdeal.nD Cert.KernelIdeal.τ).loc Cert.KernelIdeal.main_arg5))) (Inputs.mat (m ((c : Thread Cert.KernelIdeal.nD Cert.KernelIdeal.τ).loc Cert.KernelIdeal.main_arg6))) (Inputs.vec (m ((c : Thread Cert.KernelIdeal.nD Cert.KernelIdeal.τ).loc Cert.KernelIdeal.main_arg7)))
      (Inputs.mat (m ((c : Thread Cert.KernelIdeal.nD Cert.KernelIdeal.τ).loc Cert.KernelIdeal.main_arg8))) (Inputs.vec (m ((c : Thread Cert.KernelIdeal.nD Cert.KernelIdeal.τ).loc Cert.KernelIdeal.main_arg9))) (Inputs.mat (m ((c : Thread Cert.KernelIdeal.nD Cert.KernelIdeal.τ).loc Cert.KernelIdeal.main_arg10))) (Inputs.vec (m ((c : Thread Cert.KernelIdeal.nD Cert.KernelIdeal.τ).loc Cert.KernelIdeal.main_arg11)))
      (fun p => Cert.EdgeFacts.ks_eq_sel _ hR p) (fun p => Cert.EdgeFacts.kd_eq_dstZ _ hR p)
      (fun p => Cert.EdgeFacts.dstZ_range _ hR p) (fun p => Cert.EdgeFacts.nrm_real _ p)
      (fun r k => r0 (ix2 r k)) (fun k q => r4 (ix2 k q)) (fun q => r5 (ix1 q))
      (fun k q => r6 (ix2 k q)) (fun q => r7 (ix1 q))) γ) ω).symm

end Cert.Proof.Parts

end
-- ==== Proof.lean ====
/-
  A graph network — two graph-convolution layers, a mean pool over graphs, a concatenation with fixed fingerprint
  columns and a two-layer dense head — computed two ways.

  The reference gathers, for every edge, the source node's projected features, scales them by the edge's weight
  (the product of the inverse square roots of the two end points' degrees, self-loops included) and adds them into
  the destination node's row. The kernel program scatters the edge weights into a dense, zero-padded adjacency
  matrix once and multiplies that matrix with the projected features in five column blocks accumulated in order
  (two pallas_calls with an accumulator kept between grid points), pools with a dense indicator matrix divided by
  the graph sizes, and pads the last stage's operands with zero columns and rows.

  Over the extended reals, where every float input is a real number and every edge end point names one of the 10000
  nodes, the two are the same function of the inputs: a row of the dense adjacency times the feature matrix is the sum,
  over the edges into that row, of weight times source row (finite sums of real numbers may be exchanged); the rows
  beyond the 10000 nodes are zero on both sides of every product they enter; dividing each indicator by the graph's
  size before the product is dividing the sum after it; and the appended zero columns meet the appended zero rows.

  The claim's five conjuncts: the word-level program and its idealized reading run to the end, fault nowhere and leave
  their arguments as launched (the run of the five calls and the host operations between them, read at the
  arguments); so does the reference (its run with the result dropped); the idealization changed no operation; and
  the two idealized programs end with equal results (Parts.algebraic).
-/
import proofs.«410187_j66958540144771_3_alg».proof.Defs
import proofs.«410187_j66958540144771_3_alg».proof.Proof.Gen.Kernel
import proofs.«410187_j66958540144771_3_alg».proof.Proof.Gen.KernelIdeal
import proofs.«410187_j66958540144771_3_alg».proof.Proof.Gen.ReferenceIdeal
import proofs.«410187_j66958540144771_3_alg».proof.Proof.Gen.Pre_finite_inputs
import proofs.«410187_j66958540144771_3_alg».proof.Proof.Frames
import proofs.«410187_j66958540144771_3_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, trivial, Parts.algebraic⟩

end Cert.Proof

end
